-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v197)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v197) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S20000x1 : Shape := ⟨2, ![20000, 1]⟩
abbrev S160000x64 : Shape := ⟨2, ![160000, 64]⟩
abbrev S160000 : Shape := ⟨1, ![160000]⟩
abbrev S160000x2 : Shape := ⟨2, ![160000, 2]⟩
abbrev S20000 : Shape := ⟨1, ![20000]⟩
abbrev S64x256 : Shape := ⟨2, ![64, 256]⟩
abbrev S256 : Shape := ⟨1, ![256]⟩
abbrev S3x578x256 : Shape := ⟨3, ![3, 578, 256]⟩
abbrev S3x256 : Shape := ⟨2, ![3, 256]⟩
abbrev S3x256x256 : Shape := ⟨3, ![3, 256, 256]⟩
abbrev S3x512x256 : Shape := ⟨3, ![3, 512, 256]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S20000x1 : S_.BroadcastsInDim S20000x1 (![] : Fin 0 → Fin S20000x1.rank)
  reducesTo_S20000x1_S_d0_1 : S20000x1.ReducesTo [0, 1] S_
  bcast_S_S160000x64 : S_.BroadcastsInDim S160000x64 (![] : Fin 0 → Fin S160000x64.rank)
  reducesTo_S160000x64_S_d0_1 : S160000x64.ReducesTo [0, 1] S_
  bcast_S_S160000 : S_.BroadcastsInDim S160000 (![] : Fin 0 → Fin S160000.rank)
  reducesTo_S160000_S_d0 : S160000.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S3x578x256 : S_.BroadcastsInDim S3x578x256 (![] : Fin 0 → Fin S3x578x256.rank)
  reducesTo_S3x578x256_S_d0_1_2 : S3x578x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x512x256 : S_.BroadcastsInDim S3x512x256 (![] : Fin 0 → Fin S3x512x256.rank)
  reducesTo_S3x512x256_S_d0_1_2 : S3x512x256.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S3x256 .f32) (main_arg14 : FVec F S3x256x256 .f32) (main_arg15 : FVec F S3x256 .f32) (main_v48 : IVec S_ 1) (main_v49 : FVec F S3x512x256 .f32) (main_v50 : FVec F S3x512x256 .f32) : IVec S_ 1 :=
  let main_v51 : IVec S3x512x256 1 := cmpf .olt main_v49 main_v50
  let main_c_19 : IVec S_ 1 := constantI S_ 1 1#1
  let main_v52 : IVec S_ 1 := (fun x v => Host.reduce IntOp.andi x v reducesTo_S3x512x256_S_d0_1_2 h_S_) main_v51 main_c_19
  let main_v53 : IVec S_ 1 := andi main_v48 main_v52
  let main_v54 : FVec F S3x256 .f32 := Host.absf main_arg13
  let main_cst_20 : FVec F S_ .f32 := constant S_ .f32 0x7F800000#32
  let main_v55 : FVec F S3x256 .f32 := broadcastInDim S3x256 ![] bcast_S_S3x256 main_cst_20
  let main_v56 : IVec S3x256 1 := cmpf .olt main_v54 main_v55
  let main_c_21 : IVec S_ 1 := constantI S_ 1 1#1
  let main_v57 : IVec S_ 1 := (fun x v => Host.reduce IntOp.andi x v reducesTo_S3x256_S_d0_1 h_S_) main_v56 main_c_21
  let main_v58 : IVec S_ 1 := andi main_v53 main_v57
  let main_v59 : FVec F S3x256x256 .f32 := Host.absf main_arg14
  let main_cst_22 : FVec F S_ .f32 := constant S_ .f32 0x7F800000#32
  let main_v60 : FVec F S3x256x256 .f32 := broadcastInDim S3x256x256 ![] bcast_S_S3x256x256 main_cst_22
  let main_v61 : IVec S3x256x256 1 := cmpf .olt main_v59 main_v60
  let main_c_23 : IVec S_ 1 := constantI S_ 1 1#1
  let main_v62 : IVec S_ 1 := (fun x v => Host.reduce IntOp.andi x v reducesTo_S3x256x256_S_d0_1_2 h_S_) main_v61 main_c_23
  let main_v63 : IVec S_ 1 := andi main_v58 main_v62
  let main_v64 : FVec F S3x256 .f32 := Host.absf main_arg15
  let main_cst_24 : FVec F S_ .f32 := constant S_ .f32 0x7F800000#32
  let main_v65 : FVec F S3x256 .f32 := broadcastInDim S3x256 ![] bcast_S_S3x256 main_cst_24
  let main_v66 : IVec S3x256 1 := cmpf .olt main_v64 main_v65
  let main_c_25 : IVec S_ 1 := constantI S_ 1 1#1
  let main_v67 : IVec S_ 1 := (fun x v => Host.reduce IntOp.andi x v reducesTo_S3x256_S_d0_1 h_S_) main_v66 main_c_25
  fn_part4 (F := F) main_v63 main_v67

def fn_part2 {F : FTy → Type} [FloatOps F] (main_arg9 : FVec F S3x256 .f32) (main_arg10 : FVec F S3x256x256 .f32) (main_arg11 : FVec F S3x256 .f32) (main_arg12 : FVec F S3x512x256 .f32) (main_arg13 : FVec F S3x256 .f32) (main_arg14 : FVec F S3x256x256 .f32) (main_arg15 : FVec F S3x256 .f32) (main_v33 : IVec S_ 1) : IVec S_ 1 :=
  let main_v34 : FVec F S3x256 .f32 := Host.absf main_arg9
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256x256 .f32 := Host.absf main_arg10
  let main_cst_14 : FVec F S_ .f32 := constant S_ .f32 0x7F800000#32
  let main_v40 : FVec F S3x256x256 .f32 := broadcastInDim S3x256x256 ![] bcast_S_S3x256x256 main_cst_14
  let main_v41 : IVec S3x256x256 1 := cmpf .olt main_v39 main_v40
  let main_c_15 : IVec S_ 1 := constantI S_ 1 1#1
  let main_v42 : IVec S_ 1 := (fun x v => Host.reduce IntOp.andi x v reducesTo_S3x256x256_S_d0_1_2 h_S_) main_v41 main_c_15
  let main_v43 : IVec S_ 1 := andi main_v38 main_v42
  let main_v44 : FVec F S3x256 .f32 := Host.absf main_arg11
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S3x512x256 .f32 := Host.absf main_arg12
  let main_cst_18 : FVec F S_ .f32 := constant S_ .f32 0x7F800000#32
  let main_v50 : FVec F S3x512x256 .f32 := broadcastInDim S3x512x256 ![] bcast_S_S3x512x256 main_cst_18
  fn_part3 (F := F) main_arg13 main_arg14 main_arg15 main_v48 main_v49 main_v50

def fn_part1 {F : FTy → Type} [FloatOps F] (main_arg6 : FVec F S64x256 .f32) (main_arg7 : FVec F S256 .f32) (main_arg8 : FVec F S3x578x256 .f32) (main_arg9 : FVec F S3x256 .f32) (main_arg10 : FVec F S3x256x256 .f32) (main_arg11 : FVec F S3x256 .f32) (main_arg12 : FVec F S3x512x256 .f32) (main_arg13 : FVec F S3x256 .f32) (main_arg14 : FVec F S3x256x256 .f32) (main_arg15 : FVec F S3x256 .f32) (main_v13 : IVec S_ 1) (main_v16 : IVec S160000 1) : IVec S_ 1 :=
  let main_c_5 : IVec S_ 1 := constantI S_ 1 1#1
  let main_v17 : IVec S_ 1 := (fun x v => Host.reduce IntOp.andi x v reducesTo_S160000_S_d0 h_S_) main_v16 main_c_5
  let main_v18 : IVec S_ 1 := andi main_v13 main_v17
  let main_v19 : FVec F S64x256 .f32 := Host.absf main_arg6
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S3x578x256 .f32 := Host.absf main_arg8
  let main_cst_10 : FVec F S_ .f32 := constant S_ .f32 0x7F800000#32
  let main_v30 : FVec F S3x578x256 .f32 := broadcastInDim S3x578x256 ![] bcast_S_S3x578x256 main_cst_10
  let main_v31 : IVec S3x578x256 1 := cmpf .olt main_v29 main_v30
  let main_c_11 : IVec S_ 1 := constantI S_ 1 1#1
  let main_v32 : IVec S_ 1 := (fun x v => Host.reduce IntOp.andi x v reducesTo_S3x578x256_S_d0_1_2 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S20000x64 .f32) (main_arg1 : FVec F S20000x1 .f32) (main_arg2 : FVec F S160000x64 .f32) (main_arg3 : FVec F S160000 .f32) (main_arg4 : IVec S160000x2 32) (main_arg5 : IVec S20000 32) (main_arg6 : FVec F S64x256 .f32) (main_arg7 : FVec F S256 .f32) (main_arg8 : FVec F S3x578x256 .f32) (main_arg9 : FVec F S3x256 .f32) (main_arg10 : FVec F S3x256x256 .f32) (main_arg11 : FVec F S3x256 .f32) (main_arg12 : FVec F S3x512x256 .f32) (main_arg13 : FVec F S3x256 .f32) (main_arg14 : FVec F S3x256x256 .f32) (main_arg15 : FVec F S3x256 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S20000x1 .f32 := Host.absf main_arg1
  let main_cst_0 : FVec F S_ .f32 := constant S_ .f32 0x7F800000#32
  let main_v5 : FVec F S20000x1 .f32 := broadcastInDim S20000x1 ![] bcast_S_S20000x1 main_cst_0
  let main_v6 : IVec S20000x1 1 := cmpf .olt main_v4 main_v5
  let main_c_1 : IVec S_ 1 := constantI S_ 1 1#1
  let main_v7 : IVec S_ 1 := (fun x v => Host.reduce IntOp.andi x v reducesTo_S20000x1_S_d0_1 h_S_) main_v6 main_c_1
  let main_v8 : IVec S_ 1 := andi main_v3 main_v7
  let main_v9 : FVec F S160000x64 .f32 := Host.absf main_arg2
  let main_cst_2 : FVec F S_ .f32 := constant S_ .f32 0x7F800000#32
  let main_v10 : FVec F S160000x64 .f32 := broadcastInDim S160000x64 ![] bcast_S_S160000x64 main_cst_2
  let main_v11 : IVec S160000x64 1 := cmpf .olt main_v9 main_v10
  let main_c_3 : IVec S_ 1 := constantI S_ 1 1#1
  let main_v12 : IVec S_ 1 := (fun x v => Host.reduce IntOp.andi x v reducesTo_S160000x64_S_d0_1 h_S_) main_v11 main_c_3
  let main_v13 : IVec S_ 1 := andi main_v8 main_v12
  let main_v14 : FVec F S160000 .f32 := Host.absf main_arg3
  let main_cst_4 : FVec F S_ .f32 := constant S_ .f32 0x7F800000#32
  let main_v15 : FVec F S160000 .f32 := broadcastInDim S160000 ![] bcast_S_S160000 main_cst_4
  let main_v16 : IVec S160000 1 := cmpf .olt main_v14 main_v15
  fn_part1 (F := F) main_arg6 main_arg7 main_arg8 main_arg9 main_arg10 main_arg11 main_arg12 main_arg13 main_arg14 main_arg15 main_v13 main_v16
-- ==== Kernel.lean ====
abbrev S20000x64 : Shape := ⟨2, ![20000, 64]⟩
abbrev S20000x1 : Shape := ⟨2, ![20000, 1]⟩
abbrev S160000x64 : Shape := ⟨2, ![160000, 64]⟩
abbrev S160000 : Shape := ⟨1, ![160000]⟩
abbrev S160000x2 : Shape := ⟨2, ![160000, 2]⟩
abbrev S20000 : Shape := ⟨1, ![20000]⟩
abbrev S64x256 : Shape := ⟨2, ![64, 256]⟩
abbrev S256 : Shape := ⟨1, ![256]⟩
abbrev S3x578x256 : Shape := ⟨3, ![3, 578, 256]⟩
abbrev S3x256 : Shape := ⟨2, ![3, 256]⟩
abbrev S3x256x256 : Shape := ⟨3, ![3, 256, 256]⟩
abbrev S3x512x256 : Shape := ⟨3, ![3, 512, 256]⟩
abbrev S160000x1 : Shape := ⟨2, ![160000, 1]⟩
abbrev S1x256 : Shape := ⟨2, ![1, 256]⟩
abbrev S20000x256 : Shape := ⟨2, ![20000, 256]⟩
abbrev S2000x64 : Shape := ⟨2, ![2000, 64]⟩
abbrev S2000x256 : Shape := ⟨2, ![2000, 256]⟩
abbrev S_ : Shape := ⟨0, ![]⟩
abbrev S160000x256 : Shape := ⟨2, ![160000, 256]⟩
abbrev S1x256x256 : Shape := ⟨3, ![1, 256, 256]⟩
abbrev S256x256 : Shape := ⟨2, ![256, 256]⟩
abbrev S1x1x256 : Shape := ⟨3, ![1, 1, 256]⟩
abbrev S1x64x256 : Shape := ⟨3, ![1, 64, 256]⟩
abbrev S2000x1 : Shape := ⟨2, ![2000, 1]⟩
abbrev S128x256 : Shape := ⟨2, ![128, 256]⟩
abbrev S2000x128 : Shape := ⟨2, ![2000, 128]⟩

abbrev nBuf : Space → Nat
  | .hbm => 241
  | .vmem => 111
  | .smem => 0
  | _ => 0

abbrev hbmTy0_0 (i : Nat) : BufTy := match i % 128 with
  | 0 => ⟨S20000x64, .f32⟩
  | 1 => ⟨S20000x1, .f32⟩
  | 2 => ⟨S160000x64, .f32⟩
  | 3 => ⟨S160000, .f32⟩
  | 4 => ⟨S160000x2, .i32⟩
  | 5 => ⟨S20000, .i32⟩
  | 6 => ⟨S64x256, .f32⟩
  | 7 => ⟨S256, .f32⟩
  | 8 => ⟨S3x578x256, .f32⟩
  | 9 => ⟨S3x256, .f32⟩
  | 10 => ⟨S3x256x256, .f32⟩
  | 11 => ⟨S3x256, .f32⟩
  | 12 => ⟨S3x512x256, .f32⟩
  | 13 => ⟨S3x256, .f32⟩
  | 14 => ⟨S3x256x256, .f32⟩
  | 15 => ⟨S3x256, .f32⟩
  | 16 => ⟨S160000x1, .i32⟩
  | 17 => ⟨S160000, .i32⟩
  | 18 => ⟨S160000x1, .i32⟩
  | 19 => ⟨S160000, .i32⟩
  | 20 => ⟨S1x256, .f32⟩
  | 21 => ⟨S20000x256, .bf16⟩
  | 22 => ⟨S160000x1, .f32⟩
  | 23 => ⟨S_, .i32⟩
  | 24 => ⟨S160000, .i32⟩
  | 25 => ⟨S160000, .i1⟩
  | 26 => ⟨S_, .i32⟩
  | 27 => ⟨S160000, .i32⟩
  | 28 => ⟨S160000, .i32⟩
  | 29 => ⟨S160000, .i32⟩
  | 30 => ⟨S160000x1, .i32⟩
  | 31 => ⟨S160000x256, .bf16⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000x256, .bf16⟩
  | 41 => ⟨S_, .i32⟩
  | 42 => ⟨S160000, .i32⟩
  | 43 => ⟨S160000, .i1⟩
  | 44 => ⟨S_, .i32⟩
  | 45 => ⟨S160000, .i32⟩
  | 46 => ⟨S160000, .i32⟩
  | 47 => ⟨S160000, .i32⟩
  | 48 => ⟨S160000x1, .i32⟩
  | 49 => ⟨S160000x1, .f32⟩
  | 50 => ⟨S_, .i32⟩
  | 51 => ⟨S160000, .i32⟩
  | 52 => ⟨S160000, .i1⟩
  | 53 => ⟨S_, .i32⟩
  | 54 => ⟨S160000, .i32⟩
  | 55 => ⟨S160000, .i32⟩
  | 56 => ⟨S160000, .i32⟩
  | 57 => ⟨S160000x1, .i32⟩
  | 58 => ⟨S160000x1, .f32⟩
  | 59 => ⟨S1x256x256, .f32⟩
  | 60 => ⟨S256x256, .f32⟩
  | 61 => ⟨S1x256x256, .f32⟩
  | 62 => ⟨S256x256, .f32⟩
  | 63 => ⟨S1x1x256, .f32⟩
  | 64 => ⟨S1x256, .f32⟩
  | 65 => ⟨S1x1x256, .f32⟩
  | 66 => ⟨S1x256, .f32⟩
  | 67 => ⟨S1x64x256, .f32⟩
  | 68 => ⟨S64x256, .f32⟩
  | 69 => ⟨S1x256, .f32⟩
  | 70 => ⟨S256, .f32⟩
  | 71 => ⟨S1x256x256, .f32⟩
  | 72 => ⟨S256x256, .f32⟩
  | 73 => ⟨S1x256, .f32⟩
  | 74 => ⟨S256, .f32⟩
  | 75 => ⟨S1x256, .f32⟩
  | 76 => ⟨S1x256, .f32⟩
  | 77 => ⟨S160000x256, .f32⟩
  | 78 => ⟨S_, .f32⟩
  | 79 => ⟨S20000x256, .f32⟩
  | 80 => ⟨S160000x1, .i32⟩
  | 81 => ⟨S20000x256, .f32⟩
  | 82 => ⟨S1x256x256, .f32⟩
  | 83 => ⟨S256x256, .f32⟩
  | 84 => ⟨S1x256x256, .f32⟩
  | 85 => ⟨S256x256, .f32⟩
  | 86 => ⟨S1x256, .f32⟩
  | 87 => ⟨S256, .f32⟩
  | 88 => ⟨S1x256x256, .f32⟩
  | 89 => ⟨S256x256, .f32⟩
  | 90 => ⟨S1x256, .f32⟩
  | 91 => ⟨S256, .f32⟩
  | 92 => ⟨S1x256, .f32⟩
  | 93 => ⟨S1x256, .f32⟩
  | 94 => ⟨S20000x256, .bf16⟩
  | 95 => ⟨S_, .i32⟩
  | 96 => ⟨S160000, .i32⟩
  | 97 => ⟨S160000, .i1⟩
  | 98 => ⟨S_, .i32⟩
  | 99 => ⟨S160000, .i32⟩
  | 100 => ⟨S160000, .i32⟩
  | 101 => ⟨S160000, .i32⟩
  | 102 => ⟨S160000x1, .i32⟩
  | 103 => ⟨S160000x256, .bf16⟩
  | 104 => ⟨S_, .i32⟩
  | 105 => ⟨S160000, .i32⟩
  | 106 => ⟨S160000, .i1⟩
  | 107 => ⟨S_, .i32⟩
  | 108 => ⟨S160000, .i32⟩
  | 109 => ⟨S160000, .i32⟩
  | 110 => ⟨S160000, .i32⟩
  | 111 => ⟨S160000x1, .i32⟩
  | 112 => ⟨S160000x256, .bf16⟩
  | 113 => ⟨S_, .i32⟩
  | 114 => ⟨S160000, .i32⟩
  | 115 => ⟨S160000, .i1⟩
  | 116 => ⟨S_, .i32⟩
  | 117 => ⟨S160000, .i32⟩
  | 118 => ⟨S160000, .i32⟩
  | 119 => ⟨S160000, .i32⟩
  | 120 => ⟨S160000x1, .i32⟩
  | 121 => ⟨S160000x1, .f32⟩
  | 122 => ⟨S_, .i32⟩
  | 123 => ⟨S160000, .i32⟩
  | 124 => ⟨S160000, .i1⟩
  | 125 => ⟨S_, .i32⟩
  | 126 => ⟨S160000, .i32⟩
  | 127 => ⟨S160000, .i32⟩
  | _ => ⟨S20000x64, .f32⟩

abbrev hbmTy0_1 (i : Nat) : BufTy := match i % 128 with
  | 0 => ⟨S160000, .i32⟩
  | 1 => ⟨S160000x1, .i32⟩
  | 2 => ⟨S160000x1, .f32⟩
  | 3 => ⟨S1x256x256, .f32⟩
  | 4 => ⟨S256x256, .f32⟩
  | 5 => ⟨S1x256x256, .f32⟩
  | 6 => ⟨S256x256, .f32⟩
  | 7 => ⟨S1x1x256, .f32⟩
  | 8 => ⟨S1x256, .f32⟩
  | 9 => ⟨S1x1x256, .f32⟩
  | 10 => ⟨S1x256, .f32⟩
  | 11 => ⟨S1x64x256, .f32⟩
  | 12 => ⟨S64x256, .f32⟩
  | 13 => ⟨S1x256, .f32⟩
  | 14 => ⟨S256, .f32⟩
  | 15 => ⟨S1x256x256, .f32⟩
  | 16 => ⟨S256x256, .f32⟩
  | 17 => ⟨S1x256, .f32⟩
  | 18 => ⟨S256, .f32⟩
  | 19 => ⟨S1x256, .f32⟩
  | 20 => ⟨S1x256, .f32⟩
  | 21 => ⟨S160000x256, .f32⟩
  | 22 => ⟨S_, .f32⟩
  | 23 => ⟨S20000x256, .f32⟩
  | 24 => ⟨S160000x1, .i32⟩
  | 25 => ⟨S20000x256, .f32⟩
  | 26 => ⟨S1x256x256, .f32⟩
  | 27 => ⟨S256x256, .f32⟩
  | 28 => ⟨S1x256x256, .f32⟩
  | 29 => ⟨S256x256, .f32⟩
  | 30 => ⟨S1x256, .f32⟩
  | 31 => ⟨S256, .f32⟩
  | 32 => ⟨S1x256x256, .f32⟩
  | 33 => ⟨S256x256, .f32⟩
  | 34 => ⟨S1x256, .f32⟩
  | 35 => ⟨S256, .f32⟩
  | 36 => ⟨S1x256, .f32⟩
  | 37 => ⟨S1x256, .f32⟩
  | 38 => ⟨S20000x256, .bf16⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x256, .bf16⟩
  | 48 => ⟨S_, .i32⟩
  | 49 => ⟨S160000, .i32⟩
  | 50 => ⟨S160000, .i1⟩
  | 51 => ⟨S_, .i32⟩
  | 52 => ⟨S160000, .i32⟩
  | 53 => ⟨S160000, .i32⟩
  | 54 => ⟨S160000, .i32⟩
  | 55 => ⟨S160000x1, .i32⟩
  | 56 => ⟨S160000x256, .bf16⟩
  | 57 => ⟨S_, .i32⟩
  | 58 => ⟨S160000, .i32⟩
  | 59 => ⟨S160000, .i1⟩
  | 60 => ⟨S_, .i32⟩
  | 61 => ⟨S160000, .i32⟩
  | 62 => ⟨S160000, .i32⟩
  | 63 => ⟨S160000, .i32⟩
  | 64 => ⟨S160000x1, .i32⟩
  | 65 => ⟨S160000x1, .f32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S160000x1, .f32⟩
  | 75 => ⟨S1x256x256, .f32⟩
  | 76 => ⟨S256x256, .f32⟩
  | 77 => ⟨S1x256x256, .f32⟩
  | 78 => ⟨S256x256, .f32⟩
  | 79 => ⟨S1x1x256, .f32⟩
  | 80 => ⟨S1x256, .f32⟩
  | 81 => ⟨S1x1x256, .f32⟩
  | 82 => ⟨S1x256, .f32⟩
  | 83 => ⟨S1x64x256, .f32⟩
  | 84 => ⟨S64x256, .f32⟩
  | 85 => ⟨S1x256, .f32⟩
  | 86 => ⟨S256, .f32⟩
  | 87 => ⟨S1x256x256, .f32⟩
  | 88 => ⟨S256x256, .f32⟩
  | 89 => ⟨S1x256, .f32⟩
  | 90 => ⟨S256, .f32⟩
  | 91 => ⟨S1x256, .f32⟩
  | 92 => ⟨S1x256, .f32⟩
  | 93 => ⟨S160000x256, .f32⟩
  | 94 => ⟨S_, .f32⟩
  | 95 => ⟨S20000x256, .f32⟩
  | 96 => ⟨S160000x1, .i32⟩
  | 97 => ⟨S20000x256, .f32⟩
  | 98 => ⟨S1x256x256, .f32⟩
  | 99 => ⟨S256x256, .f32⟩
  | 100 => ⟨S1x256x256, .f32⟩
  | 101 => ⟨S256x256, .f32⟩
  | 102 => ⟨S1x256, .f32⟩
  | 103 => ⟨S256, .f32⟩
  | 104 => ⟨S1x256x256, .f32⟩
  | 105 => ⟨S256x256, .f32⟩
  | 106 => ⟨S1x256, .f32⟩
  | 107 => ⟨S256, .f32⟩
  | 108 => ⟨S1x256, .f32⟩
  | 109 => ⟨S1x256, .f32⟩
  | 110 => ⟨S20000x256, .bf16⟩
  | 111 => ⟨S20000x1, .i32⟩
  | 112 => ⟨S128x256, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x256, .f32⟩
  | .local _ .vmem, ⟨3, _⟩ => ⟨S1x256, .f32⟩
  | .local _ .vmem, ⟨4, _⟩ => ⟨S2000x256, .bf16⟩
  | .local _ .vmem, ⟨5, _⟩ => ⟨S2000x256, .bf16⟩
  | .local _ .vmem, ⟨6, _⟩ => ⟨S2000x256, .bf16⟩
  | .local _ .vmem, ⟨7, _⟩ => ⟨S2000x256, .bf16⟩
  | .local _ .vmem, ⟨8, _⟩ => ⟨S2000x256, .bf16⟩
  | .local _ .vmem, ⟨9, _⟩ => ⟨S2000x256, .bf16⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S256x256, .f32⟩
  | .local _ .vmem, ⟨19, _⟩ => ⟨S256x256, .f32⟩
  | .local _ .vmem, ⟨20, _⟩ => ⟨S64x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S256x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .bf16⟩
  | .local _ .vmem, ⟨29, _⟩ => ⟨S2000x256, .bf16⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S256x256, .f32⟩
  | .local _ .vmem, ⟨34, _⟩ => ⟨S1x256, .f32⟩
  | .local _ .vmem, ⟨35, _⟩ => ⟨S256x256, .f32⟩
  | .local _ .vmem, ⟨36, _⟩ => ⟨S1x256, .f32⟩
  | .local _ .vmem, ⟨37, _⟩ => ⟨S2000x256, .bf16⟩
  | .local _ .vmem, ⟨38, _⟩ => ⟨S2000x256, .bf16⟩
  | .local _ .vmem, ⟨39, _⟩ => ⟨S2000x256, .bf16⟩
  | .local _ .vmem, ⟨40, _⟩ => ⟨S2000x256, .bf16⟩
  | .local _ .vmem, ⟨41, _⟩ => ⟨S2000x256, .bf16⟩
  | .local _ .vmem, ⟨42, _⟩ => ⟨S2000x256, .bf16⟩
  | .local _ .vmem, ⟨43, _⟩ => ⟨S2000x1, .f32⟩
  | .local _ .vmem, ⟨44, _⟩ => ⟨S2000x1, .f32⟩
  | .local _ .vmem, ⟨45, _⟩ => ⟨S2000x1, .f32⟩
  | .local _ .vmem, ⟨46, _⟩ => ⟨S2000x1, .f32⟩
  | .local _ .vmem, ⟨47, _⟩ => ⟨S2000x64, .f32⟩
  | .local _ .vmem, ⟨48, _⟩ => ⟨S2000x64, .f32⟩
  | .local _ .vmem, ⟨49, _⟩ => ⟨S2000x1, .f32⟩
  | .local _ .vmem, ⟨50, _⟩ => ⟨S2000x1, .f32⟩
  | .local _ .vmem, ⟨51, _⟩ => ⟨S256x256, .f32⟩
  | .local _ .vmem, ⟨52, _⟩ => ⟨S256x256, .f32⟩
  | .local _ .vmem, ⟨53, _⟩ => ⟨S64x256, .f32⟩
  | .local _ .vmem, ⟨54, _⟩ => ⟨S1x256, .f32⟩
  | .local _ .vmem, ⟨55, _⟩ => ⟨S1x256, .f32⟩
  | .local _ .vmem, ⟨56, _⟩ => ⟨S1x256, .f32⟩
  | .local _ .vmem, ⟨57, _⟩ => ⟨S256x256, .f32⟩
  | .local _ .vmem, ⟨58, _⟩ => ⟨S1x256, .f32⟩
  | .local _ .vmem, ⟨59, _⟩ => ⟨S2000x256, .f32⟩
  | .local _ .vmem, ⟨60, _⟩ => ⟨S2000x256, .f32⟩
  | .local _ .vmem, ⟨61, _⟩ => ⟨S2000x256, .bf16⟩
  | .local _ .vmem, ⟨62, _⟩ => ⟨S2000x256, .bf16⟩
  | .local _ .vmem, ⟨63, _⟩ => ⟨S2000x256, .f32⟩
  | .local _ .vmem, ⟨64, _⟩ => ⟨S2000x256, .f32⟩
  | .local _ .vmem, ⟨65, _⟩ => ⟨S256x256, .f32⟩
  | .local _ .vmem, ⟨66, _⟩ => ⟨S256x256, .f32⟩
  | .local _ .vmem, ⟨67, _⟩ => ⟨S1x256, .f32⟩
  | .local _ .vmem, ⟨68, _⟩ => ⟨S256x256, .f32⟩
  | .local _ .vmem, ⟨69, _⟩ => ⟨S1x256, .f32⟩
  | .local _ .vmem, ⟨70, _⟩ => ⟨S2000x256, .bf16⟩
  | .local _ .vmem, ⟨71, _⟩ => ⟨S2000x256, .bf16⟩
  | .local _ .vmem, ⟨72, _⟩ => ⟨S2000x256, .bf16⟩
  | .local _ .vmem, ⟨73, _⟩ => ⟨S2000x256, .bf16⟩
  | .local _ .vmem, ⟨74, _⟩ => ⟨S2000x256, .bf16⟩
  | .local _ .vmem, ⟨75, _⟩ => ⟨S2000x256, .bf16⟩
  | .local _ .vmem, ⟨76, _⟩ => ⟨S2000x1, .f32⟩
  | .local _ .vmem, ⟨77, _⟩ => ⟨S2000x1, .f32⟩
  | .local _ .vmem, ⟨78, _⟩ => ⟨S2000x1, .f32⟩
  | .local _ .vmem, ⟨79, _⟩ => ⟨S2000x1, .f32⟩
  | .local _ .vmem, ⟨80, _⟩ => ⟨S2000x64, .f32⟩
  | .local _ .vmem, ⟨81, _⟩ => ⟨S2000x64, .f32⟩
  | .local _ .vmem, ⟨82, _⟩ => ⟨S2000x1, .f32⟩
  | .local _ .vmem, ⟨83, _⟩ => ⟨S2000x1, .f32⟩
  | .local _ .vmem, ⟨84, _⟩ => ⟨S256x256, .f32⟩
  | .local _ .vmem, ⟨85, _⟩ => ⟨S256x256, .f32⟩
  | .local _ .vmem, ⟨86, _⟩ => ⟨S64x256, .f32⟩
  | .local _ .vmem, ⟨87, _⟩ => ⟨S1x256, .f32⟩
  | .local _ .vmem, ⟨88, _⟩ => ⟨S1x256, .f32⟩
  | .local _ .vmem, ⟨89, _⟩ => ⟨S1x256, .f32⟩
  | .local _ .vmem, ⟨90, _⟩ => ⟨S256x256, .f32⟩
  | .local _ .vmem, ⟨91, _⟩ => ⟨S1x256, .f32⟩
  | .local _ .vmem, ⟨92, _⟩ => ⟨S2000x256, .f32⟩
  | .local _ .vmem, ⟨93, _⟩ => ⟨S2000x256, .f32⟩
  | .local _ .vmem, ⟨94, _⟩ => ⟨S2000x256, .bf16⟩
  | .local _ .vmem, ⟨95, _⟩ => ⟨S2000x256, .bf16⟩
  | .local _ .vmem, ⟨96, _⟩ => ⟨S2000x256, .f32⟩
  | .local _ .vmem, ⟨97, _⟩ => ⟨S2000x256, .f32⟩
  | .local _ .vmem, ⟨98, _⟩ => ⟨S256x256, .f32⟩
  | .local _ .vmem, ⟨99, _⟩ => ⟨S256x256, .f32⟩
  | .local _ .vmem, ⟨100, _⟩ => ⟨S1x256, .f32⟩
  | .local _ .vmem, ⟨101, _⟩ => ⟨S256x256, .f32⟩
  | .local _ .vmem, ⟨102, _⟩ => ⟨S1x256, .f32⟩
  | .local _ .vmem, ⟨103, _⟩ => ⟨S2000x256, .bf16⟩
  | .local _ .vmem, ⟨104, _⟩ => ⟨S2000x256, .bf16⟩
  | .local _ .vmem, ⟨105, _⟩ => ⟨S2000x256, .bf16⟩
  | .local _ .vmem, ⟨106, _⟩ => ⟨S2000x256, .bf16⟩
  | .local _ .vmem, ⟨107, _⟩ => ⟨S2000x1, .i32⟩
  | .local _ .vmem, ⟨108, _⟩ => ⟨S2000x1, .i32⟩
  | .local _ .vmem, ⟨109, _⟩ => ⟨S128x256, .f32⟩
  | .local _ .vmem, ⟨110, _⟩ => ⟨S128x256, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | _, _ => false

abbrev semScoped : Fin 0 → Bool
  | ⟨_, h⟩ => absurd h (Nat.not_lt_zero _)

abbrev dmaSemScoped : Fin 110 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | _ => false

abbrev sig : RefSig :=
  ofTc nBuf bufTy 0 110 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_7 : Ref sig .tc := ⟨.hbm, 95, rfl⟩
abbrev main_v70 : Ref sig .tc := ⟨.hbm, 96, rfl⟩
abbrev main_v71 : Ref sig .tc := ⟨.hbm, 97, rfl⟩
abbrev main_c_8 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_9 : Ref sig .tc := ⟨.hbm, 104, rfl⟩
abbrev main_v77 : Ref sig .tc := ⟨.hbm, 105, rfl⟩
abbrev main_v78 : Ref sig .tc := ⟨.hbm, 106, rfl⟩
abbrev main_c_10 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_11 : Ref sig .tc := ⟨.hbm, 113, rfl⟩
abbrev main_v84 : Ref sig .tc := ⟨.hbm, 114, rfl⟩
abbrev main_v85 : Ref sig .tc := ⟨.hbm, 115, rfl⟩
abbrev main_c_12 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_13 : Ref sig .tc := ⟨.hbm, 122, rfl⟩
abbrev main_v91 : Ref sig .tc := ⟨.hbm, 123, rfl⟩
abbrev main_v92 : Ref sig .tc := ⟨.hbm, 124, rfl⟩
abbrev main_c_14 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_15 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_c_16 : Ref sig .tc := ⟨.hbm, 167, rfl⟩
abbrev main_v133 : Ref sig .tc := ⟨.hbm, 168, rfl⟩
abbrev main_v134 : Ref sig .tc := ⟨.hbm, 169, rfl⟩
abbrev main_c_17 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_c_18 : Ref sig .tc := ⟨.hbm, 176, rfl⟩
abbrev main_v140 : Ref sig .tc := ⟨.hbm, 177, rfl⟩
abbrev main_v141 : Ref sig .tc := ⟨.hbm, 178, rfl⟩
abbrev main_c_19 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_c_20 : Ref sig .tc := ⟨.hbm, 185, rfl⟩
abbrev main_v147 : Ref sig .tc := ⟨.hbm, 186, rfl⟩
abbrev main_v148 : Ref sig .tc := ⟨.hbm, 187, rfl⟩
abbrev main_c_21 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_c_22 : Ref sig .tc := ⟨.hbm, 194, rfl⟩
abbrev main_v154 : Ref sig .tc := ⟨.hbm, 195, rfl⟩
abbrev main_v155 : Ref sig .tc := ⟨.hbm, 196, rfl⟩
abbrev main_c_23 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_cst_24 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg14_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg7_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg4_1 : Ref sig .tc := ⟨.vmem, 48, rfl⟩
abbrev cc3_stg5_0 : Ref sig .tc := ⟨.vmem, 49, rfl⟩
abbrev cc3_stg5_1 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg11_0 : Ref sig .tc := ⟨.vmem, 56, rfl⟩
abbrev cc3_stg12_0 : Ref sig .tc := ⟨.vmem, 57, rfl⟩
abbrev cc3_stg13_0 : Ref sig .tc := ⟨.vmem, 58, rfl⟩
abbrev cc3_stg14_0 : Ref sig .tc := ⟨.vmem, 59, rfl⟩
abbrev cc3_stg14_1 : Ref sig .tc := ⟨.vmem, 60, rfl⟩
abbrev cc4_stg0_0 : Ref sig .tc := ⟨.vmem, 61, rfl⟩
abbrev cc4_stg0_1 : Ref sig .tc := ⟨.vmem, 62, rfl⟩
abbrev cc4_stg1_0 : Ref sig .tc := ⟨.vmem, 63, rfl⟩
abbrev cc4_stg1_1 : Ref sig .tc := ⟨.vmem, 64, rfl⟩
abbrev cc4_stg2_0 : Ref sig .tc := ⟨.vmem, 65, rfl⟩
abbrev cc4_stg3_0 : Ref sig .tc := ⟨.vmem, 66, rfl⟩
abbrev cc4_stg4_0 : Ref sig .tc := ⟨.vmem, 67, rfl⟩
abbrev cc4_stg5_0 : Ref sig .tc := ⟨.vmem, 68, rfl⟩
abbrev cc4_stg6_0 : Ref sig .tc := ⟨.vmem, 69, rfl⟩
abbrev cc4_stg7_0 : Ref sig .tc := ⟨.vmem, 70, rfl⟩
abbrev cc4_stg7_1 : Ref sig .tc := ⟨.vmem, 71, rfl⟩
abbrev cc5_stg0_0 : Ref sig .tc := ⟨.vmem, 72, rfl⟩
abbrev cc5_stg0_1 : Ref sig .tc := ⟨.vmem, 73, rfl⟩
abbrev cc5_stg1_0 : Ref sig .tc := ⟨.vmem, 74, rfl⟩
abbrev cc5_stg1_1 : Ref sig .tc := ⟨.vmem, 75, rfl⟩
abbrev cc5_stg2_0 : Ref sig .tc := ⟨.vmem, 76, rfl⟩
abbrev cc5_stg2_1 : Ref sig .tc := ⟨.vmem, 77, rfl⟩
abbrev cc5_stg3_0 : Ref sig .tc := ⟨.vmem, 78, rfl⟩
abbrev cc5_stg3_1 : Ref sig .tc := ⟨.vmem, 79, rfl⟩
abbrev cc5_stg4_0 : Ref sig .tc := ⟨.vmem, 80, rfl⟩
abbrev cc5_stg4_1 : Ref sig .tc := ⟨.vmem, 81, rfl⟩
abbrev cc5_stg5_0 : Ref sig .tc := ⟨.vmem, 82, rfl⟩
abbrev cc5_stg5_1 : Ref sig .tc := ⟨.vmem, 83, rfl⟩
abbrev cc5_stg6_0 : Ref sig .tc := ⟨.vmem, 84, rfl⟩
abbrev cc5_stg7_0 : Ref sig .tc := ⟨.vmem, 85, rfl⟩
abbrev cc5_stg8_0 : Ref sig .tc := ⟨.vmem, 86, rfl⟩
abbrev cc5_stg9_0 : Ref sig .tc := ⟨.vmem, 87, rfl⟩
abbrev cc5_stg10_0 : Ref sig .tc := ⟨.vmem, 88, rfl⟩
abbrev cc5_stg11_0 : Ref sig .tc := ⟨.vmem, 89, rfl⟩
abbrev cc5_stg12_0 : Ref sig .tc := ⟨.vmem, 90, rfl⟩
abbrev cc5_stg13_0 : Ref sig .tc := ⟨.vmem, 91, rfl⟩
abbrev cc5_stg14_0 : Ref sig .tc := ⟨.vmem, 92, rfl⟩
abbrev cc5_stg14_1 : Ref sig .tc := ⟨.vmem, 93, rfl⟩
abbrev cc6_stg0_0 : Ref sig .tc := ⟨.vmem, 94, rfl⟩
abbrev cc6_stg0_1 : Ref sig .tc := ⟨.vmem, 95, rfl⟩
abbrev cc6_stg1_0 : Ref sig .tc := ⟨.vmem, 96, rfl⟩
abbrev cc6_stg1_1 : Ref sig .tc := ⟨.vmem, 97, rfl⟩
abbrev cc6_stg2_0 : Ref sig .tc := ⟨.vmem, 98, rfl⟩
abbrev cc6_stg3_0 : Ref sig .tc := ⟨.vmem, 99, rfl⟩
abbrev cc6_stg4_0 : Ref sig .tc := ⟨.vmem, 100, rfl⟩
abbrev cc6_stg5_0 : Ref sig .tc := ⟨.vmem, 101, rfl⟩
abbrev cc6_stg6_0 : Ref sig .tc := ⟨.vmem, 102, rfl⟩
abbrev cc6_stg7_0 : Ref sig .tc := ⟨.vmem, 103, rfl⟩
abbrev cc6_stg7_1 : Ref sig .tc := ⟨.vmem, 104, rfl⟩
abbrev cc7_stg0_0 : Ref sig .tc := ⟨.vmem, 105, rfl⟩
abbrev cc7_stg0_1 : Ref sig .tc := ⟨.vmem, 106, rfl⟩
abbrev cc7_stg1_0 : Ref sig .tc := ⟨.vmem, 107, rfl⟩
abbrev cc7_stg1_1 : Ref sig .tc := ⟨.vmem, 108, rfl⟩
abbrev cc7_stg2_0 : Ref sig .tc := ⟨.vmem, 109, rfl⟩
abbrev cc7_scratch0 : Ref sig .tc := ⟨.vmem, 110, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem14_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem4_1 : DmaSem sig := 48
abbrev cc3_sem5_0 : DmaSem sig := 49
abbrev cc3_sem5_1 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem10_0 : DmaSem sig := 55
abbrev cc3_sem11_0 : DmaSem sig := 56
abbrev cc3_sem12_0 : DmaSem sig := 57
abbrev cc3_sem13_0 : DmaSem sig := 58
abbrev cc3_sem14_0 : DmaSem sig := 59
abbrev cc3_sem14_1 : DmaSem sig := 60
abbrev cc4_sem0_0 : DmaSem sig := 61
abbrev cc4_sem0_1 : DmaSem sig := 62
abbrev cc4_sem1_0 : DmaSem sig := 63
abbrev cc4_sem1_1 : DmaSem sig := 64
abbrev cc4_sem2_0 : DmaSem sig := 65
abbrev cc4_sem3_0 : DmaSem sig := 66
abbrev cc4_sem4_0 : DmaSem sig := 67
abbrev cc4_sem5_0 : DmaSem sig := 68
abbrev cc4_sem6_0 : DmaSem sig := 69
abbrev cc4_sem7_0 : DmaSem sig := 70
abbrev cc4_sem7_1 : DmaSem sig := 71
abbrev cc5_sem0_0 : DmaSem sig := 72
abbrev cc5_sem0_1 : DmaSem sig := 73
abbrev cc5_sem1_0 : DmaSem sig := 74
abbrev cc5_sem1_1 : DmaSem sig := 75
abbrev cc5_sem2_0 : DmaSem sig := 76
abbrev cc5_sem2_1 : DmaSem sig := 77
abbrev cc5_sem3_0 : DmaSem sig := 78
abbrev cc5_sem3_1 : DmaSem sig := 79
abbrev cc5_sem4_0 : DmaSem sig := 80
abbrev cc5_sem4_1 : DmaSem sig := 81
abbrev cc5_sem5_0 : DmaSem sig := 82
abbrev cc5_sem5_1 : DmaSem sig := 83
abbrev cc5_sem6_0 : DmaSem sig := 84
abbrev cc5_sem7_0 : DmaSem sig := 85
abbrev cc5_sem8_0 : DmaSem sig := 86
abbrev cc5_sem9_0 : DmaSem sig := 87
abbrev cc5_sem10_0 : DmaSem sig := 88
abbrev cc5_sem11_0 : DmaSem sig := 89
abbrev cc5_sem12_0 : DmaSem sig := 90
abbrev cc5_sem13_0 : DmaSem sig := 91
abbrev cc5_sem14_0 : DmaSem sig := 92
abbrev cc5_sem14_1 : DmaSem sig := 93
abbrev cc6_sem0_0 : DmaSem sig := 94
abbrev cc6_sem0_1 : DmaSem sig := 95
abbrev cc6_sem1_0 : DmaSem sig := 96
abbrev cc6_sem1_1 : DmaSem sig := 97
abbrev cc6_sem2_0 : DmaSem sig := 98
abbrev cc6_sem3_0 : DmaSem sig := 99
abbrev cc6_sem4_0 : DmaSem sig := 100
abbrev cc6_sem5_0 : DmaSem sig := 101
abbrev cc6_sem6_0 : DmaSem sig := 102
abbrev cc6_sem7_0 : DmaSem sig := 103
abbrev cc6_sem7_1 : DmaSem sig := 104
abbrev cc7_sem0_0 : DmaSem sig := 105
abbrev cc7_sem0_1 : DmaSem sig := 106
abbrev cc7_sem1_0 : DmaSem sig := 107
abbrev cc7_sem1_1 : DmaSem sig := 108
abbrev cc7_sem2_0 : DmaSem sig := 109

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S256x256 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x256 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S2000x256 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x256 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S256x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S256x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x256 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x256 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x256 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x256 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S256x256 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x256 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 2 → Memref sig .tc .vmem S2000x256 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x256 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_8 : BitVec 32 := 0#32
  let v21 : BitVec 1 := Scalar.cmpi .ne v20 c0_i32_8
  v21

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

class Facts₀ : Prop where
  slices_S160000x2_S160000x1_0_0 : S160000x2.Slices ![0, 0] S160000x1
  shapeCasts_S160000x1_S160000 : S160000x1.ShapeCasts S160000
  slices_S160000x2_S160000x1_0_1 : S160000x2.Slices ![0, 1] S160000x1
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  shapeCasts_S160000_S160000x1 : S160000.ShapeCasts S160000x1
  bcast_S_S160000 : S_.BroadcastsInDim S160000 (![] : Fin 0 → Fin S160000.rank)
  bcast_S160000_S160000x1_0 : S160000.BroadcastsInDim S160000x1 (![0] : Fin 1 → Fin S160000x1.rank)
  slices_S3x578x256_S1x256x256_0_0_0 : S3x578x256.Slices ![0, 0, 0] S1x256x256
  shapeCasts_S1x256x256_S256x256 : S1x256x256.ShapeCasts S256x256
  slices_S3x578x256_S1x256x256_0_256_0 : S3x578x256.Slices ![0, 256, 0] S1x256x256
  slices_S3x578x256_S1x1x256_0_512_0 : S3x578x256.Slices ![0, 512, 0] S1x1x256
  shapeCasts_S1x1x256_S1x256 : S1x1x256.ShapeCasts S1x256
  slices_S3x578x256_S1x1x256_0_513_0 : S3x578x256.Slices ![0, 513, 0] S1x1x256
  slices_S3x578x256_S1x64x256_0_514_0 : S3x578x256.Slices ![0, 514, 0] S1x64x256
  shapeCasts_S1x64x256_S64x256 : S1x64x256.ShapeCasts S64x256
  slices_S3x256_S1x256_0_0 : S3x256.Slices ![0, 0] S1x256
  shapeCasts_S1x256_S256 : S1x256.ShapeCasts S256
  slices_S3x256x256_S1x256x256_0_0_0 : S3x256x256.Slices ![0, 0, 0] S1x256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S64x256_S64x256 : S64x256.ShapeCasts S64x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S20000x256 : S_.BroadcastsInDim S20000x256 (![] : Fin 0 → Fin S20000x256.rank)
  slices_S3x512x256_S1x256x256_0_0_0 : S3x512x256.Slices ![0, 0, 0] S1x256x256
  slices_S3x512x256_S1x256x256_0_256_0 : S3x512x256.Slices ![0, 256, 0] S1x256x256
  slices_S3x578x256_S1x256x256_1_0_0 : S3x578x256.Slices ![1, 0, 0] S1x256x256
  slices_S3x578x256_S1x256x256_1_256_0 : S3x578x256.Slices ![1, 256, 0] S1x256x256
  slices_S3x578x256_S1x1x256_1_512_0 : S3x578x256.Slices ![1, 512, 0] S1x1x256
  slices_S3x578x256_S1x1x256_1_513_0 : S3x578x256.Slices ![1, 513, 0] S1x1x256
  slices_S3x578x256_S1x64x256_1_514_0 : S3x578x256.Slices ![1, 514, 0] S1x64x256
  slices_S3x256_S1x256_1_0 : S3x256.Slices ![1, 0] S1x256
  slices_S3x256x256_S1x256x256_1_0_0 : S3x256x256.Slices ![1, 0, 0] S1x256x256
  slices_S3x512x256_S1x256x256_1_0_0 : S3x512x256.Slices ![1, 0, 0] S1x256x256
  slices_S3x512x256_S1x256x256_1_256_0 : S3x512x256.Slices ![1, 256, 0] S1x256x256
  slices_S3x578x256_S1x256x256_2_0_0 : S3x578x256.Slices ![2, 0, 0] S1x256x256
  slices_S3x578x256_S1x256x256_2_256_0 : S3x578x256.Slices ![2, 256, 0] S1x256x256
  slices_S3x578x256_S1x1x256_2_512_0 : S3x578x256.Slices ![2, 512, 0] S1x1x256
  slices_S3x578x256_S1x1x256_2_513_0 : S3x578x256.Slices ![2, 513, 0] S1x1x256
  slices_S3x578x256_S1x64x256_2_514_0 : S3x578x256.Slices ![2, 514, 0] S1x64x256
  slices_S3x256_S1x256_2_0 : S3x256.Slices ![2, 0] S1x256
  slices_S3x256x256_S1x256x256_2_0_0 : S3x256x256.Slices ![2, 0, 0] S1x256x256
  slices_S3x512x256_S1x256x256_2_0_0 : S3x512x256.Slices ![2, 0, 0] S1x256x256
  slices_S3x512x256_S1x256x256_2_256_0 : S3x512x256.Slices ![2, 256, 0] S1x256x256
  shapeCasts_S20000_S20000x1 : S20000.ShapeCasts S20000x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  iota_S2000x128_d1_w32 : S2000x128.Iotas .tc 32 [1]
  broadcasts_S2000x1_S2000x128 : S2000x1.Broadcasts S2000x128
  natLt_1_32 : 1 < 32
  dot_S2000x64_S64x256_S2000x256_1_0_0_1_n_n_wf : DotDims.WF S2000x64 S64x256 S2000x256 [1] [0] [0] [1] [] []
  gather_S20000x256_S160000x1_S160000x256_1_0_n_n_0_1_1256_wf : GatherDims.WF S20000x256 S160000x1 S160000x256 [1] [0] [] [0] [] 1 ![1, 256]
  gather_S20000x1_S160000x1_S160000x1_1_0_n_n_0_1_11_wf : GatherDims.WF S20000x1 S160000x1 S160000x1 [1] [0] [] [0] [] 1 ![1, 1]
  dot_S2000x256_S256x256_S2000x256_1_0_0_1_n_n_wf : DotDims.WF S2000x256 S256x256 S2000x256 [1] [0] [0] [1] [] []
  scatter_S20000x256_S160000x1_S160000x256_1_0_0_1_wf : ScatterDims.WF S20000x256 S160000x1 S160000x256 [1] [0] [0] 1
  dot_S2000x128_S2000x256_S128x256_0_0_1_1_n_n_wf : DotDims.WF S2000x128 S2000x256 S128x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S20000x64.size a
  hwx0_0 : ∀ i : grid0.Coords, EltTy.bits .f32 = 32 ∨ (Rect.block (s := S20000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .bf16 = 32 ∨ (Rect.block (s := S20000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S160000x256.size a
  hwx1_0 : ∀ i : grid1.Coords, EltTy.bits .bf16 = 32 ∨ (Rect.block (s := S160000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S160000x256.size a
  hwx1_1 : ∀ i : grid1.Coords, EltTy.bits .bf16 = 32 ∨ (Rect.block (s := S160000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S160000x1.size a
  hwx1_2 : ∀ i : grid1.Coords, EltTy.bits .f32 = 32 ∨ (Rect.block (s := S160000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S160000x1.size a
  hwx1_3 : ∀ i : grid1.Coords, EltTy.bits .f32 = 32 ∨ (Rect.block (s := S160000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S160000x64.size a
  hwx1_4 : ∀ i : grid1.Coords, EltTy.bits .f32 = 32 ∨ (Rect.block (s := S160000x64) S2000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S160000x1.size a
  hwx1_5 : ∀ i : grid1.Coords, EltTy.bits .f32 = 32 ∨ (Rect.block (s := S160000x1) S2000x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x256.size a ≤ S64x256.size a
  hwx1_8 : ∀ i : grid1.Coords, EltTy.bits .f32 = 32 ∨ (Rect.block (s := S64x256) S64x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S256x256.size a ≤ S256x256.size a
  hwx1_12 : ∀ i : grid1.Coords, EltTy.bits .f32 = 32 ∨ (Rect.block (s := S256x256) S256x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x256.size a ≤ S1x256.size a
  hwx1_13 : ∀ i : grid1.Coords, EltTy.bits .f32 = 32 ∨ (Rect.block (s := S1x256) S1x256.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x256.size a ≤ S160000x256.size a
  hwx1_14 : ∀ i : grid1.Coords, EltTy.bits .f32 = 32 ∨ (Rect.block (s := S160000x256) S2000x256.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .bf16 = 32 ∨ (Rect.block (s := S20000x256) S2000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S20000x256.size a
  hwx2_7 : ∀ i : grid2.Coords, EltTy.bits .bf16 = 32 ∨ (Rect.block (s := S20000x256) S2000x256.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S160000x256.size a
  hwx3_0 : ∀ i : grid3.Coords, EltTy.bits .bf16 = 32 ∨ (Rect.block (s := S160000x256) S2000x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S160000x256.size a
  hwx3_1 : ∀ i : grid3.Coords, EltTy.bits .bf16 = 32 ∨ (Rect.block (s := S160000x256) S2000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S160000x1.size a
  hwx3_2 : ∀ i : grid3.Coords, EltTy.bits .f32 = 32 ∨ (Rect.block (s := S160000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S160000x1.size a
  hwx3_3 : ∀ i : grid3.Coords, EltTy.bits .f32 = 32 ∨ (Rect.block (s := S160000x1) S2000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S160000x64.size a
  hwx3_4 : ∀ i : grid3.Coords, EltTy.bits .f32 = 32 ∨ (Rect.block (s := S160000x64) S2000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S160000x1.size a
  hwx3_5 : ∀ i : grid3.Coords, EltTy.bits .f32 = 32 ∨ (Rect.block (s := S160000x1) S2000x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .f32 = 32 ∨ (Rect.block (s := S256x256) S256x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x256.size a ≤ S64x256.size a
  hwx3_8 : ∀ i : grid3.Coords, EltTy.bits .f32 = 32 ∨ (Rect.block (s := S64x256) S64x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x256.size a ≤ S1x256.size a
  hwx3_10 : ∀ i : grid3.Coords, EltTy.bits .f32 = 32 ∨ (Rect.block (s := S1x256) S1x256.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x256.size a ≤ S1x256.size a
  hwx3_11 : ∀ i : grid3.Coords, EltTy.bits .f32 = 32 ∨ (Rect.block (s := S1x256) S1x256.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S256x256.size a ≤ S256x256.size a
  hwx3_12 : ∀ i : grid3.Coords, EltTy.bits .f32 = 32 ∨ (Rect.block (s := S256x256) S256x256.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x256.size a ≤ S1x256.size a
  hwx3_13 : ∀ i : grid3.Coords, EltTy.bits .f32 = 32 ∨ (Rect.block (s := S1x256) S1x256.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S2000x256.size a ≤ S160000x256.size a
  hwx3_14 : ∀ i : grid3.Coords, EltTy.bits .f32 = 32 ∨ (Rect.block (s := S160000x256) S2000x256.size (cc3_transform_14 i) (hinb3_14 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .bf16 = 32 ∨ (Rect.block (s := S20000x256) S2000x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S20000x256.size a
  hwx4_1 : ∀ i : grid4.Coords, EltTy.bits .f32 = 32 ∨ (Rect.block (s := S20000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x256.size a ≤ S20000x256.size a
  hwx4_7 : ∀ i : grid4.Coords, EltTy.bits .bf16 = 32 ∨ (Rect.block (s := S20000x256) S2000x256.size (cc4_transform_7 i) (hinb4_7 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S160000x256.size a
  hwx5_0 : ∀ i : grid5.Coords, EltTy.bits .bf16 = 32 ∨ (Rect.block (s := S160000x256) S2000x256.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S160000x256.size a
  hwx5_1 : ∀ i : grid5.Coords, EltTy.bits .bf16 = 32 ∨ (Rect.block (s := S160000x256) S2000x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S160000x1.size a
  hwx5_2 : ∀ i : grid5.Coords, EltTy.bits .f32 = 32 ∨ (Rect.block (s := S160000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S160000x1.size a
  hwx5_3 : ∀ i : grid5.Coords, EltTy.bits .f32 = 32 ∨ (Rect.block (s := S160000x1) S2000x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S160000x64.size a
  hwx5_4 : ∀ i : grid5.Coords, EltTy.bits .f32 = 32 ∨ (Rect.block (s := S160000x64) S2000x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x1.size a ≤ S160000x1.size a
  hwx5_5 : ∀ i : grid5.Coords, EltTy.bits .f32 = 32 ∨ (Rect.block (s := S160000x1) S2000x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x256.size a ≤ S256x256.size a
  hwx5_6 : ∀ i : grid5.Coords, EltTy.bits .f32 = 32 ∨ (Rect.block (s := S256x256) S256x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S256x256.size a ≤ S256x256.size a
  hwx5_7 : ∀ i : grid5.Coords, EltTy.bits .f32 = 32 ∨ (Rect.block (s := S256x256) S256x256.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64x256.size a ≤ S64x256.size a
  hwx5_8 : ∀ i : grid5.Coords, EltTy.bits .f32 = 32 ∨ (Rect.block (s := S64x256) S64x256.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x256.size a ≤ S1x256.size a
  hwx5_9 : ∀ i : grid5.Coords, EltTy.bits .f32 = 32 ∨ (Rect.block (s := S1x256) S1x256.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x256.size a ≤ S1x256.size a
  hwx5_10 : ∀ i : grid5.Coords, EltTy.bits .f32 = 32 ∨ (Rect.block (s := S1x256) S1x256.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x256.size a ≤ S1x256.size a
  hwx5_11 : ∀ i : grid5.Coords, EltTy.bits .f32 = 32 ∨ (Rect.block (s := S1x256) S1x256.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S256x256.size a ≤ S256x256.size a
  hwx5_12 : ∀ i : grid5.Coords, EltTy.bits .f32 = 32 ∨ (Rect.block (s := S256x256) S256x256.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S1x256.size a ≤ S1x256.size a
  hwx5_13 : ∀ i : grid5.Coords, EltTy.bits .f32 = 32 ∨ (Rect.block (s := S1x256) S1x256.size (cc5_transform_13 i) (hinb5_13 i)).WholeWords (EltTy.packing .f32)
  hstage5_14 : ∀ j, (stage5_14 j).IsWhole
  nbuf5_14 : grid5.bufCount reads5_14 false = 2
  hreads5_14 : ∀ i i' : grid5.Coords, (∀ a, reads5_14 a = true → i a = i' a) → cc5_transform_14 i = cc5_transform_14 i'
  hinb5_14 : ∀ (i : grid5.Coords) a, (cc5_transform_14 i a + 1) * S2000x256.size a ≤ S160000x256.size a
  hwx5_14 : ∀ i : grid5.Coords, EltTy.bits .f32 = 32 ∨ (Rect.block (s := S160000x256) S2000x256.size (cc5_transform_14 i) (hinb5_14 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .bf16 = 32 ∨ (Rect.block (s := S20000x256) S2000x256.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S20000x256.size a
  hwx6_1 : ∀ i : grid6.Coords, EltTy.bits .f32 = 32 ∨ (Rect.block (s := S20000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x256.size a ≤ S256x256.size a
  hwx6_5 : ∀ i : grid6.Coords, EltTy.bits .f32 = 32 ∨ (Rect.block (s := S256x256) S256x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x256.size a ≤ S20000x256.size a
  hwx6_7 : ∀ i : grid6.Coords, EltTy.bits .bf16 = 32 ∨ (Rect.block (s := S20000x256) S2000x256.size (cc6_transform_7 i) (hinb6_7 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S20000x256.size a
  hwx7_0 : ∀ i : grid7.Coords, EltTy.bits .bf16 = 32 ∨ (Rect.block (s := S20000x256) S2000x256.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S20000x1.size a
  hwx7_1 : ∀ i : grid7.Coords, EltTy.bits .i32 = 32 ∨ (Rect.block (s := S20000x1) S2000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x256.size a ≤ S128x256.size a
  hwx7_2 : ∀ i : grid7.Coords, EltTy.bits .f32 = 32 ∨ (Rect.block (s := S128x256) S128x256.size (cc7_transform_2 i) (hinb7_2 i)).WholeWords (EltTy.packing .f32)

variable [Facts₀]

def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S20000x256_S160000x1_S160000x256_1_0_n_n_0_1_1256 : GatherDims S20000x256 S160000x1 S160000x256 where
  offsetDims := [1]
  collapsedSliceDims := [0]
  operandBatchingDims := []
  startIndicesBatchingDims := []
  startIndexMap := [0]
  indexVectorDim := 1
  sliceSizes := ![1, 256]
  wf := gather_S20000x256_S160000x1_S160000x256_1_0_n_n_0_1_1256_wf
def gather_S20000x1_S160000x1_S160000x1_1_0_n_n_0_1_11 : GatherDims S20000x1 S160000x1 S160000x1 where
  offsetDims := [1]
  collapsedSliceDims := [0]
  operandBatchingDims := []
  startIndicesBatchingDims := []
  startIndexMap := [0]
  indexVectorDim := 1
  sliceSizes := ![1, 1]
  wf := gather_S20000x1_S160000x1_S160000x1_1_0_n_n_0_1_11_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S20000x256_S160000x1_S160000x256_1_0_0_1 : ScatterDims S20000x256 S160000x1 S160000x256 where
  updateWindowDims := [1]
  insertedWindowDims := [0]
  scatterDimsToOperandDims := [0]
  indexVectorDim := 1
  wf := scatter_S20000x256_S160000x1_S160000x256_1_0_0_1_wf
def dot_S2000x128_S2000x256_S128x256_0_0_1_1_n_n : DotDims S2000x128 S2000x256 S128x256 where
  lhsContracting := [0]
  rhsContracting := [0]
  lhsNonContracting := [1]
  rhsNonContracting := [1]
  lhsBatch := []
  rhsBatch := []
  wf := dot_S2000x128_S2000x256_S128x256_0_0_1_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S2000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v36) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S64x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v42) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v51) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v48) S256x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v52) S1x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v53) S2000x256.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v5) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v69) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v76) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v90) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v97) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg2) S2000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v6) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v99) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v101) S256x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v107) S64x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v103) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v105) S1x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v114) S1x256.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v111) S256x256.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v115) S1x256.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v116) S2000x256.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

abbrev win4_0 : Pipeline.Window sig grid4 :=
  Pipeline.Window.ofSpec (Memref.whole main_v69) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v119) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v121) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v123) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v130) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v127) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v131) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v132) S2000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v139) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v146) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v153) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v160) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_arg2) S2000x64.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v6) S2000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v162) S256x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v164) S256x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v170) S64x256.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v166) S1x256.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v168) S1x256.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v177) S1x256.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v174) S256x256.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v178) S1x256.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v179) S2000x256.size cc5_transform_14 reads5_14 true false 2 stage5_14 sem5_14
    hrank5 hreads5_14 hinb5_14 nbuf5_14 (Memref.isWhole_whole _) hwx5_14 hstage5_14

abbrev win5 : Fin 15 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | ⟨_ + 15, h⟩ => absurd h (Nat.not_lt.2 (Nat.le_add_left _ _))
abbrev spec5 : Fin 15 → Pipeline.WinSpec sig grid5.rank := fun w => (win5 w).toWinSpec

abbrev win6_0 : Pipeline.Window sig grid6 :=
  Pipeline.Window.ofSpec (Memref.whole main_v132) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v182) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v184) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v186) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v193) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v190) S256x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v194) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v195) S2000x256.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v195) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v196) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v197) S128x256.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

class Facts : Prop extends Facts₀ where

variable [Facts]
-- ==== ReferenceIdeal.lean ====
abbrev S20000x64 : Shape := ⟨2, ![20000, 64]⟩
abbrev S20000x1 : Shape := ⟨2, ![20000, 1]⟩
abbrev S160000x64 : Shape := ⟨2, ![160000, 64]⟩
abbrev S160000 : Shape := ⟨1, ![160000]⟩
abbrev S160000x2 : Shape := ⟨2, ![160000, 2]⟩
abbrev S20000 : Shape := ⟨1, ![20000]⟩
abbrev S64x256 : Shape := ⟨2, ![64, 256]⟩
abbrev S256 : Shape := ⟨1, ![256]⟩
abbrev S3x578x256 : Shape := ⟨3, ![3, 578, 256]⟩
abbrev S3x256 : Shape := ⟨2, ![3, 256]⟩
abbrev S3x256x256 : Shape := ⟨3, ![3, 256, 256]⟩
abbrev S3x512x256 : Shape := ⟨3, ![3, 512, 256]⟩
abbrev S160000x1 : Shape := ⟨2, ![160000, 1]⟩
abbrev S20000x256 : Shape := ⟨2, ![20000, 256]⟩
abbrev S1x256 : Shape := ⟨2, ![1, 256]⟩
abbrev S_ : Shape := ⟨0, ![]⟩
abbrev S160000x256 : Shape := ⟨2, ![160000, 256]⟩
abbrev S160000x578 : Shape := ⟨2, ![160000, 578]⟩
abbrev S1x578x256 : Shape := ⟨3, ![1, 578, 256]⟩
abbrev S578x256 : Shape := ⟨2, ![578, 256]⟩
abbrev S1x256x256 : Shape := ⟨3, ![1, 256, 256]⟩
abbrev S256x256 : Shape := ⟨2, ![256, 256]⟩
abbrev S20000x512 : Shape := ⟨2, ![20000, 512]⟩
abbrev S1x512x256 : Shape := ⟨3, ![1, 512, 256]⟩
abbrev S512x256 : Shape := ⟨2, ![512, 256]⟩
abbrev S128x256 : Shape := ⟨2, ![128, 256]⟩

abbrev nBuf : Space → Nat
  | .hbm => 286
  | .vmem => 0
  | .smem => 0
  | _ => 0

abbrev hbmTy0_0 (i : Nat) : BufTy := match i % 128 with
  | 0 => ⟨S20000x64, .f32⟩
  | 1 => ⟨S20000x1, .f32⟩
  | 2 => ⟨S160000x64, .f32⟩
  | 3 => ⟨S160000, .f32⟩
  | 4 => ⟨S160000x2, .i32⟩
  | 5 => ⟨S20000, .i32⟩
  | 6 => ⟨S64x256, .f32⟩
  | 7 => ⟨S256, .f32⟩
  | 8 => ⟨S3x578x256, .f32⟩
  | 9 => ⟨S3x256, .f32⟩
  | 10 => ⟨S3x256x256, .f32⟩
  | 11 => ⟨S3x256, .f32⟩
  | 12 => ⟨S3x512x256, .f32⟩
  | 13 => ⟨S3x256, .f32⟩
  | 14 => ⟨S3x256x256, .f32⟩
  | 15 => ⟨S3x256, .f32⟩
  | 16 => ⟨S160000x1, .i32⟩
  | 17 => ⟨S160000, .i32⟩
  | 18 => ⟨S160000x1, .i32⟩
  | 19 => ⟨S160000, .i32⟩
  | 20 => ⟨S20000x256, .f32⟩
  | 21 => ⟨S1x256, .f32⟩
  | 22 => ⟨S20000x256, .f32⟩
  | 23 => ⟨S20000x256, .f32⟩
  | 24 => ⟨S_, .i32⟩
  | 25 => ⟨S160000, .i32⟩
  | 26 => ⟨S160000, .i1⟩
  | 27 => ⟨S_, .i32⟩
  | 28 => ⟨S160000, .i32⟩
  | 29 => ⟨S160000, .i32⟩
  | 30 => ⟨S160000, .i32⟩
  | 31 => ⟨S160000x1, .i32⟩
  | 32 => ⟨S160000x256, .f32⟩
  | 33 => ⟨S_, .i32⟩
  | 34 => ⟨S160000, .i32⟩
  | 35 => ⟨S160000, .i1⟩
  | 36 => ⟨S_, .i32⟩
  | 37 => ⟨S160000, .i32⟩
  | 38 => ⟨S160000, .i32⟩
  | 39 => ⟨S160000, .i32⟩
  | 40 => ⟨S160000x1, .i32⟩
  | 41 => ⟨S160000x256, .f32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S160000x1, .f32⟩
  | 51 => ⟨S_, .i32⟩
  | 52 => ⟨S160000, .i32⟩
  | 53 => ⟨S160000, .i1⟩
  | 54 => ⟨S_, .i32⟩
  | 55 => ⟨S160000, .i32⟩
  | 56 => ⟨S160000, .i32⟩
  | 57 => ⟨S160000, .i32⟩
  | 58 => ⟨S160000x1, .i32⟩
  | 59 => ⟨S160000x1, .f32⟩
  | 60 => ⟨S160000x578, .f32⟩
  | 61 => ⟨S1x578x256, .f32⟩
  | 62 => ⟨S578x256, .f32⟩
  | 63 => ⟨S160000x256, .f32⟩
  | 64 => ⟨S1x256, .f32⟩
  | 65 => ⟨S256, .f32⟩
  | 66 => ⟨S1x256, .f32⟩
  | 67 => ⟨S160000x256, .f32⟩
  | 68 => ⟨S160000x256, .f32⟩
  | 69 => ⟨S_, .f32⟩
  | 70 => ⟨S160000x256, .f32⟩
  | 71 => ⟨S160000x256, .f32⟩
  | 72 => ⟨S1x256x256, .f32⟩
  | 73 => ⟨S256x256, .f32⟩
  | 74 => ⟨S160000x256, .f32⟩
  | 75 => ⟨S1x256, .f32⟩
  | 76 => ⟨S256, .f32⟩
  | 77 => ⟨S1x256, .f32⟩
  | 78 => ⟨S160000x256, .f32⟩
  | 79 => ⟨S160000x256, .f32⟩
  | 80 => ⟨S160000x1, .f32⟩
  | 81 => ⟨S160000x256, .f32⟩
  | 82 => ⟨S160000x256, .f32⟩
  | 83 => ⟨S_, .f32⟩
  | 84 => ⟨S20000x256, .f32⟩
  | 85 => ⟨S160000x1, .i32⟩
  | 86 => ⟨S20000x256, .f32⟩
  | 87 => ⟨S20000x512, .f32⟩
  | 88 => ⟨S1x512x256, .f32⟩
  | 89 => ⟨S512x256, .f32⟩
  | 90 => ⟨S20000x256, .f32⟩
  | 91 => ⟨S1x256, .f32⟩
  | 92 => ⟨S256, .f32⟩
  | 93 => ⟨S1x256, .f32⟩
  | 94 => ⟨S20000x256, .f32⟩
  | 95 => ⟨S20000x256, .f32⟩
  | 96 => ⟨S_, .f32⟩
  | 97 => ⟨S20000x256, .f32⟩
  | 98 => ⟨S20000x256, .f32⟩
  | 99 => ⟨S1x256x256, .f32⟩
  | 100 => ⟨S256x256, .f32⟩
  | 101 => ⟨S20000x256, .f32⟩
  | 102 => ⟨S1x256, .f32⟩
  | 103 => ⟨S256, .f32⟩
  | 104 => ⟨S1x256, .f32⟩
  | 105 => ⟨S20000x256, .f32⟩
  | 106 => ⟨S20000x256, .f32⟩
  | 107 => ⟨S_, .f32⟩
  | 108 => ⟨S20000x256, .f32⟩
  | 109 => ⟨S20000x256, .f32⟩
  | 110 => ⟨S_, .i32⟩
  | 111 => ⟨S160000, .i32⟩
  | 112 => ⟨S160000, .i1⟩
  | 113 => ⟨S_, .i32⟩
  | 114 => ⟨S160000, .i32⟩
  | 115 => ⟨S160000, .i32⟩
  | 116 => ⟨S160000, .i32⟩
  | 117 => ⟨S160000x1, .i32⟩
  | 118 => ⟨S160000x256, .f32⟩
  | 119 => ⟨S_, .i32⟩
  | 120 => ⟨S160000, .i32⟩
  | 121 => ⟨S160000, .i1⟩
  | 122 => ⟨S_, .i32⟩
  | 123 => ⟨S160000, .i32⟩
  | 124 => ⟨S160000, .i32⟩
  | 125 => ⟨S160000, .i32⟩
  | 126 => ⟨S160000x1, .i32⟩
  | 127 => ⟨S160000x256, .f32⟩
  | _ => ⟨S20000x64, .f32⟩

abbrev hbmTy0_1 (i : Nat) : BufTy := match i % 128 with
  | 0 => ⟨S_, .i32⟩
  | 1 => ⟨S160000, .i32⟩
  | 2 => ⟨S160000, .i1⟩
  | 3 => ⟨S_, .i32⟩
  | 4 => ⟨S160000, .i32⟩
  | 5 => ⟨S160000, .i32⟩
  | 6 => ⟨S160000, .i32⟩
  | 7 => ⟨S160000x1, .i32⟩
  | 8 => ⟨S160000x1, .f32⟩
  | 9 => ⟨S_, .i32⟩
  | 10 => ⟨S160000, .i32⟩
  | 11 => ⟨S160000, .i1⟩
  | 12 => ⟨S_, .i32⟩
  | 13 => ⟨S160000, .i32⟩
  | 14 => ⟨S160000, .i32⟩
  | 15 => ⟨S160000, .i32⟩
  | 16 => ⟨S160000x1, .i32⟩
  | 17 => ⟨S160000x1, .f32⟩
  | 18 => ⟨S160000x578, .f32⟩
  | 19 => ⟨S1x578x256, .f32⟩
  | 20 => ⟨S578x256, .f32⟩
  | 21 => ⟨S160000x256, .f32⟩
  | 22 => ⟨S1x256, .f32⟩
  | 23 => ⟨S256, .f32⟩
  | 24 => ⟨S1x256, .f32⟩
  | 25 => ⟨S160000x256, .f32⟩
  | 26 => ⟨S160000x256, .f32⟩
  | 27 => ⟨S_, .f32⟩
  | 28 => ⟨S160000x256, .f32⟩
  | 29 => ⟨S160000x256, .f32⟩
  | 30 => ⟨S1x256x256, .f32⟩
  | 31 => ⟨S256x256, .f32⟩
  | 32 => ⟨S160000x256, .f32⟩
  | 33 => ⟨S1x256, .f32⟩
  | 34 => ⟨S256, .f32⟩
  | 35 => ⟨S1x256, .f32⟩
  | 36 => ⟨S160000x256, .f32⟩
  | 37 => ⟨S160000x256, .f32⟩
  | 38 => ⟨S160000x1, .f32⟩
  | 39 => ⟨S160000x256, .f32⟩
  | 40 => ⟨S160000x256, .f32⟩
  | 41 => ⟨S_, .f32⟩
  | 42 => ⟨S20000x256, .f32⟩
  | 43 => ⟨S160000x1, .i32⟩
  | 44 => ⟨S20000x256, .f32⟩
  | 45 => ⟨S20000x512, .f32⟩
  | 46 => ⟨S1x512x256, .f32⟩
  | 47 => ⟨S512x256, .f32⟩
  | 48 => ⟨S20000x256, .f32⟩
  | 49 => ⟨S1x256, .f32⟩
  | 50 => ⟨S256, .f32⟩
  | 51 => ⟨S1x256, .f32⟩
  | 52 => ⟨S20000x256, .f32⟩
  | 53 => ⟨S20000x256, .f32⟩
  | 54 => ⟨S_, .f32⟩
  | 55 => ⟨S20000x256, .f32⟩
  | 56 => ⟨S20000x256, .f32⟩
  | 57 => ⟨S1x256x256, .f32⟩
  | 58 => ⟨S256x256, .f32⟩
  | 59 => ⟨S20000x256, .f32⟩
  | 60 => ⟨S1x256, .f32⟩
  | 61 => ⟨S256, .f32⟩
  | 62 => ⟨S1x256, .f32⟩
  | 63 => ⟨S20000x256, .f32⟩
  | 64 => ⟨S20000x256, .f32⟩
  | 65 => ⟨S_, .f32⟩
  | 66 => ⟨S20000x256, .f32⟩
  | 67 => ⟨S20000x256, .f32⟩
  | 68 => ⟨S_, .i32⟩
  | 69 => ⟨S160000, .i32⟩
  | 70 => ⟨S160000, .i1⟩
  | 71 => ⟨S_, .i32⟩
  | 72 => ⟨S160000, .i32⟩
  | 73 => ⟨S160000, .i32⟩
  | 74 => ⟨S160000, .i32⟩
  | 75 => ⟨S160000x1, .i32⟩
  | 76 => ⟨S160000x256, .f32⟩
  | 77 => ⟨S_, .i32⟩
  | 78 => ⟨S160000, .i32⟩
  | 79 => ⟨S160000, .i1⟩
  | 80 => ⟨S_, .i32⟩
  | 81 => ⟨S160000, .i32⟩
  | 82 => ⟨S160000, .i32⟩
  | 83 => ⟨S160000, .i32⟩
  | 84 => ⟨S160000x1, .i32⟩
  | 85 => ⟨S160000x256, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S160000x1, .f32⟩
  | 95 => ⟨S_, .i32⟩
  | 96 => ⟨S160000, .i32⟩
  | 97 => ⟨S160000, .i1⟩
  | 98 => ⟨S_, .i32⟩
  | 99 => ⟨S160000, .i32⟩
  | 100 => ⟨S160000, .i32⟩
  | 101 => ⟨S160000, .i32⟩
  | 102 => ⟨S160000x1, .i32⟩
  | 103 => ⟨S160000x1, .f32⟩
  | 104 => ⟨S160000x578, .f32⟩
  | 105 => ⟨S1x578x256, .f32⟩
  | 106 => ⟨S578x256, .f32⟩
  | 107 => ⟨S160000x256, .f32⟩
  | 108 => ⟨S1x256, .f32⟩
  | 109 => ⟨S256, .f32⟩
  | 110 => ⟨S1x256, .f32⟩
  | 111 => ⟨S160000x256, .f32⟩
  | 112 => ⟨S160000x256, .f32⟩
  | 113 => ⟨S_, .f32⟩
  | 114 => ⟨S160000x256, .f32⟩
  | 115 => ⟨S160000x256, .f32⟩
  | 116 => ⟨S1x256x256, .f32⟩
  | 117 => ⟨S256x256, .f32⟩
  | 118 => ⟨S160000x256, .f32⟩
  | 119 => ⟨S1x256, .f32⟩
  | 120 => ⟨S256, .f32⟩
  | 121 => ⟨S1x256, .f32⟩
  | 122 => ⟨S160000x256, .f32⟩
  | 123 => ⟨S160000x256, .f32⟩
  | 124 => ⟨S160000x1, .f32⟩
  | 125 => ⟨S160000x256, .f32⟩
  | 126 => ⟨S160000x256, .f32⟩
  | 127 => ⟨S_, .f32⟩
  | _ => ⟨S20000x64, .f32⟩

abbrev hbmTy0_2 (i : Nat) : BufTy := match i % 128 with
  | 0 => ⟨S20000x256, .f32⟩
  | 1 => ⟨S160000x1, .i32⟩
  | 2 => ⟨S20000x256, .f32⟩
  | 3 => ⟨S20000x512, .f32⟩
  | 4 => ⟨S1x512x256, .f32⟩
  | 5 => ⟨S512x256, .f32⟩
  | 6 => ⟨S20000x256, .f32⟩
  | 7 => ⟨S1x256, .f32⟩
  | 8 => ⟨S256, .f32⟩
  | 9 => ⟨S1x256, .f32⟩
  | 10 => ⟨S20000x256, .f32⟩
  | 11 => ⟨S20000x256, .f32⟩
  | 12 => ⟨S_, .f32⟩
  | 13 => ⟨S20000x256, .f32⟩
  | 14 => ⟨S20000x256, .f32⟩
  | 15 => ⟨S1x256x256, .f32⟩
  | 16 => ⟨S256x256, .f32⟩
  | 17 => ⟨S20000x256, .f32⟩
  | 18 => ⟨S1x256, .f32⟩
  | 19 => ⟨S256, .f32⟩
  | 20 => ⟨S1x256, .f32⟩
  | 21 => ⟨S20000x256, .f32⟩
  | 22 => ⟨S20000x256, .f32⟩
  | 23 => ⟨S_, .f32⟩
  | 24 => ⟨S20000x256, .f32⟩
  | 25 => ⟨S20000x256, .f32⟩
  | 26 => ⟨S_, .f32⟩
  | 27 => ⟨S128x256, .f32⟩
  | 28 => ⟨S20000x1, .i32⟩
  | 29 => ⟨S128x256, .f32⟩
  | _ => ⟨S20000x64, .f32⟩

abbrev hbmTy (i : Nat) : BufTy := match i / 128 with
  | 0 => hbmTy0_0 i
  | 1 => hbmTy0_1 i
  | 2 => hbmTy0_2 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call0_cst : Ref sig .tc := ⟨.hbm, 69, rfl⟩
abbrev main_call0_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call1_cst : Ref sig .tc := ⟨.hbm, 96, rfl⟩
abbrev main_call1_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call2_cst : Ref sig .tc := ⟨.hbm, 107, rfl⟩
abbrev main_call2_v0 : Ref sig .tc := ⟨.hbm, 108, rfl⟩
abbrev main_v78 : Ref sig .tc := ⟨.hbm, 109, rfl⟩
abbrev main_c_7 : Ref sig .tc := ⟨.hbm, 110, rfl⟩
abbrev main_v79 : Ref sig .tc := ⟨.hbm, 111, rfl⟩
abbrev main_v80 : Ref sig .tc := ⟨.hbm, 112, rfl⟩
abbrev main_c_8 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_9 : Ref sig .tc := ⟨.hbm, 119, rfl⟩
abbrev main_v86 : Ref sig .tc := ⟨.hbm, 120, rfl⟩
abbrev main_v87 : Ref sig .tc := ⟨.hbm, 121, rfl⟩
abbrev main_c_10 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_11 : Ref sig .tc := ⟨.hbm, 128, rfl⟩
abbrev main_v93 : Ref sig .tc := ⟨.hbm, 129, rfl⟩
abbrev main_v94 : Ref sig .tc := ⟨.hbm, 130, rfl⟩
abbrev main_c_12 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_13 : Ref sig .tc := ⟨.hbm, 137, rfl⟩
abbrev main_v100 : Ref sig .tc := ⟨.hbm, 138, rfl⟩
abbrev main_v101 : Ref sig .tc := ⟨.hbm, 139, rfl⟩
abbrev main_c_14 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_call3_cst : Ref sig .tc := ⟨.hbm, 155, rfl⟩
abbrev main_call3_v0 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_15 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_call4_cst : Ref sig .tc := ⟨.hbm, 182, rfl⟩
abbrev main_call4_v0 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_call5_cst : Ref sig .tc := ⟨.hbm, 193, rfl⟩
abbrev main_call5_v0 : Ref sig .tc := ⟨.hbm, 194, rfl⟩
abbrev main_v149 : Ref sig .tc := ⟨.hbm, 195, rfl⟩
abbrev main_c_16 : Ref sig .tc := ⟨.hbm, 196, rfl⟩
abbrev main_v150 : Ref sig .tc := ⟨.hbm, 197, rfl⟩
abbrev main_v151 : Ref sig .tc := ⟨.hbm, 198, rfl⟩
abbrev main_c_17 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_c_18 : Ref sig .tc := ⟨.hbm, 205, rfl⟩
abbrev main_v157 : Ref sig .tc := ⟨.hbm, 206, rfl⟩
abbrev main_v158 : Ref sig .tc := ⟨.hbm, 207, rfl⟩
abbrev main_c_19 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_c_20 : Ref sig .tc := ⟨.hbm, 214, rfl⟩
abbrev main_v164 : Ref sig .tc := ⟨.hbm, 215, rfl⟩
abbrev main_v165 : Ref sig .tc := ⟨.hbm, 216, rfl⟩
abbrev main_c_21 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_c_22 : Ref sig .tc := ⟨.hbm, 223, rfl⟩
abbrev main_v171 : Ref sig .tc := ⟨.hbm, 224, rfl⟩
abbrev main_v172 : Ref sig .tc := ⟨.hbm, 225, rfl⟩
abbrev main_c_23 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_call6_cst : Ref sig .tc := ⟨.hbm, 241, rfl⟩
abbrev main_call6_v0 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_cst_24 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_call7_cst : Ref sig .tc := ⟨.hbm, 268, rfl⟩
abbrev main_call7_v0 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_call8_cst : Ref sig .tc := ⟨.hbm, 279, rfl⟩
abbrev main_call8_v0 : Ref sig .tc := ⟨.hbm, 280, rfl⟩
abbrev main_v220 : Ref sig .tc := ⟨.hbm, 281, rfl⟩
abbrev main_cst_25 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩

abbrev nD : Nat := 1
abbrev τ : Topo := Topo.v7x

variable {F : FTy → Type} [FloatOps F]

class Facts₀ : Prop where
  slices_S160000x2_S160000x1_0_0 : S160000x2.Slices ![0, 0] S160000x1
  shapeCasts_S160000x1_S160000 : S160000x1.ShapeCasts S160000
  slices_S160000x2_S160000x1_0_1 : S160000x2.Slices ![0, 1] S160000x1
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x256_S160000x256_S160000x1_S160000x1_S160000x64_S160000x578_d1 : Shape.Concatenates [S160000x256, S160000x256, S160000x1, S160000x1, S160000x64] S160000x578 1
  slices_S3x578x256_S1x578x256_0_0_0 : S3x578x256.Slices ![0, 0, 0] S1x578x256
  shapeCasts_S1x578x256_S578x256 : S1x578x256.ShapeCasts S578x256
  slices_S3x256_S1x256_0_0 : S3x256.Slices ![0, 0] S1x256
  shapeCasts_S1x256_S256 : S1x256.ShapeCasts S256
  bcast_S1x256_S160000x256_0_1 : S1x256.BroadcastsInDim S160000x256 (![0, 1] : Fin 2 → Fin S160000x256.rank)
  bcast_S_S160000x256 : S_.BroadcastsInDim S160000x256 (![] : Fin 0 → Fin S160000x256.rank)
  slices_S3x256x256_S1x256x256_0_0_0 : S3x256x256.Slices ![0, 0, 0] S1x256x256
  shapeCasts_S1x256x256_S256x256 : S1x256x256.ShapeCasts S256x256
  bcast_S160000x1_S160000x256_0_1 : S160000x1.BroadcastsInDim S160000x256 (![0, 1] : Fin 2 → Fin S160000x256.rank)
  bcast_S_S20000x256 : S_.BroadcastsInDim S20000x256 (![] : Fin 0 → Fin S20000x256.rank)
  concatenates_S20000x256_S20000x256_S20000x512_d1 : Shape.Concatenates [S20000x256, S20000x256] S20000x512 1
  slices_S3x512x256_S1x512x256_0_0_0 : S3x512x256.Slices ![0, 0, 0] S1x512x256
  shapeCasts_S1x512x256_S512x256 : S1x512x256.ShapeCasts S512x256
  slices_S3x578x256_S1x578x256_1_0_0 : S3x578x256.Slices ![1, 0, 0] S1x578x256
  slices_S3x256_S1x256_1_0 : S3x256.Slices ![1, 0] S1x256
  slices_S3x256x256_S1x256x256_1_0_0 : S3x256x256.Slices ![1, 0, 0] S1x256x256
  slices_S3x512x256_S1x512x256_1_0_0 : S3x512x256.Slices ![1, 0, 0] S1x512x256
  slices_S3x578x256_S1x578x256_2_0_0 : S3x578x256.Slices ![2, 0, 0] S1x578x256
  slices_S3x256_S1x256_2_0 : S3x256.Slices ![2, 0] S1x256
  slices_S3x256x256_S1x256x256_2_0_0 : S3x256x256.Slices ![2, 0, 0] S1x256x256
  slices_S3x512x256_S1x512x256_2_0_0 : S3x512x256.Slices ![2, 0, 0] S1x512x256
  bcast_S_S128x256 : S_.BroadcastsInDim S128x256 (![] : Fin 0 → Fin S128x256.rank)
  bcast_S20000_S20000x1_0 : S20000.BroadcastsInDim S20000x1 (![0] : Fin 1 → Fin S20000x1.rank)
  dot_S20000x64_S64x256_S20000x256_1_0_0_1_n_n_wf : DotDims.WF S20000x64 S64x256 S20000x256 [1] [0] [0] [1] [] []
  gather_S20000x256_S160000x1_S160000x256_1_0_n_n_0_1_1256_wf : GatherDims.WF S20000x256 S160000x1 S160000x256 [1] [0] [] [0] [] 1 ![1, 256]
  gather_S20000x1_S160000x1_S160000x1_1_0_n_n_0_1_11_wf : GatherDims.WF S20000x1 S160000x1 S160000x1 [1] [0] [] [0] [] 1 ![1, 1]
  dot_S160000x578_S578x256_S160000x256_1_0_0_1_n_n_wf : DotDims.WF S160000x578 S578x256 S160000x256 [1] [0] [0] [1] [] []
  dot_S160000x256_S256x256_S160000x256_1_0_0_1_n_n_wf : DotDims.WF S160000x256 S256x256 S160000x256 [1] [0] [0] [1] [] []
  scatter_S20000x256_S160000x1_S160000x256_1_0_0_1_wf : ScatterDims.WF S20000x256 S160000x1 S160000x256 [1] [0] [0] 1
  dot_S20000x512_S512x256_S20000x256_1_0_0_1_n_n_wf : DotDims.WF S20000x512 S512x256 S20000x256 [1] [0] [0] [1] [] []
  dot_S20000x256_S256x256_S20000x256_1_0_0_1_n_n_wf : DotDims.WF S20000x256 S256x256 S20000x256 [1] [0] [0] [1] [] []
  scatter_S128x256_S20000x1_S20000x256_1_0_0_1_wf : ScatterDims.WF S128x256 S20000x1 S20000x256 [1] [0] [0] 1

variable [Facts₀]

def dot_S20000x64_S64x256_S20000x256_1_0_0_1_n_n : DotDims S20000x64 S64x256 S20000x256 where
  lhsContracting := [1]
  rhsContracting := [0]
  lhsNonContracting := [0]
  rhsNonContracting := [1]
  lhsBatch := []
  rhsBatch := []
  wf := dot_S20000x64_S64x256_S20000x256_1_0_0_1_n_n_wf
def gather_S20000x256_S160000x1_S160000x256_1_0_n_n_0_1_1256 : GatherDims S20000x256 S160000x1 S160000x256 where
  offsetDims := [1]
  collapsedSliceDims := [0]
  operandBatchingDims := []
  startIndicesBatchingDims := []
  startIndexMap := [0]
  indexVectorDim := 1
  sliceSizes := ![1, 256]
  wf := gather_S20000x256_S160000x1_S160000x256_1_0_n_n_0_1_1256_wf
def gather_S20000x1_S160000x1_S160000x1_1_0_n_n_0_1_11 : GatherDims S20000x1 S160000x1 S160000x1 where
  offsetDims := [1]
  collapsedSliceDims := [0]
  operandBatchingDims := []
  startIndicesBatchingDims := []
  startIndexMap := [0]
  indexVectorDim := 1
  sliceSizes := ![1, 1]
  wf := gather_S20000x1_S160000x1_S160000x1_1_0_n_n_0_1_11_wf
def dot_S160000x578_S578x256_S160000x256_1_0_0_1_n_n : DotDims S160000x578 S578x256 S160000x256 where
  lhsContracting := [1]
  rhsContracting := [0]
  lhsNonContracting := [0]
  rhsNonContracting := [1]
  lhsBatch := []
  rhsBatch := []
  wf := dot_S160000x578_S578x256_S160000x256_1_0_0_1_n_n_wf
def dot_S160000x256_S256x256_S160000x256_1_0_0_1_n_n : DotDims S160000x256 S256x256 S160000x256 where
  lhsContracting := [1]
  rhsContracting := [0]
  lhsNonContracting := [0]
  rhsNonContracting := [1]
  lhsBatch := []
  rhsBatch := []
  wf := dot_S160000x256_S256x256_S160000x256_1_0_0_1_n_n_wf
def scatter_S20000x256_S160000x1_S160000x256_1_0_0_1 : ScatterDims S20000x256 S160000x1 S160000x256 where
  updateWindowDims := [1]
  insertedWindowDims := [0]
  scatterDimsToOperandDims := [0]
  indexVectorDim := 1
  wf := scatter_S20000x256_S160000x1_S160000x256_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S128x256_S20000x1_S20000x256_1_0_0_1 : ScatterDims S128x256 S20000x1 S20000x256 where
  updateWindowDims := [1]
  insertedWindowDims := [0]
  scatterDimsToOperandDims := [0]
  indexVectorDim := 1
  wf := scatter_S128x256_S20000x1_S20000x256_1_0_0_1_wf

class Facts : Prop extends Facts₀ where

variable [Facts]
-- ==== Proof.K.RunCond.lean ====
/-
  The launch of the whole program from one segment record per pallas_call, with the RESULT read back as well:
  every weakly fair execution of @main terminates, the result buffer ends holding what the last valuation gives it and
  every argument ends as launched. The host stretches, the chaining and the launch's first thread state are the
  generated conditional frame's; here the last thread state is read at one more buffer.
-/
import proofs.«421803_j42709154791890_2_alg».proof.Proof.Gen.Kernel.Regions

set_option maxRecDepth 1920

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in
/-- Given, per pallas_call, a segment record entered from the thread state before it and left at the one after it:
    @main runs to the end, the result buffer holds the last valuation's contents and the arguments are unchanged. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c)) :
    θ_run defs (onTc (τ := τ) (main (F := F))) ⟨m, fun _ => 0, ρ⟩ (fun r => ∀ c : Dev nD,
      r.2.mem ((c.tc : Thread nD τ).loc main_v197) = V16 m outs c main_v197
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, (hpost7 c).trans (sep_mono .rfl (hE8 c))⟩)
    (hinit := ?_) (QY := fun c s => s.mem ((c.tc : Thread nD τ).loc main_v197) = V16 m outs c main_v197 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨h (Proc.devRef .tc main_v197) (Finset.mem_filter.mpr ⟨StableHlo.devRef_mem_tcRefs main_v197, by decide⟩),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c),
        (h (Proc.devRef .tc main_arg7) (Finset.mem_filter.mpr ⟨StableHlo.devRef_mem_tcRefs main_arg7, by decide⟩)).trans (V16_main_arg7 m outs c),
        (h (Proc.devRef .tc main_arg8) (Finset.mem_filter.mpr ⟨StableHlo.devRef_mem_tcRefs main_arg8, by decide⟩)).trans (V16_main_arg8 m outs c),
        (h (Proc.devRef .tc main_arg9) (Finset.mem_filter.mpr ⟨StableHlo.devRef_mem_tcRefs main_arg9, by decide⟩)).trans (V16_main_arg9 m outs c),
        (h (Proc.devRef .tc main_arg10) (Finset.mem_filter.mpr ⟨StableHlo.devRef_mem_tcRefs main_arg10, by decide⟩)).trans (V16_main_arg10 m outs c),
        (h (Proc.devRef .tc main_arg11) (Finset.mem_filter.mpr ⟨StableHlo.devRef_mem_tcRefs main_arg11, by decide⟩)).trans (V16_main_arg11 m outs c),
        (h (Proc.devRef .tc main_arg12) (Finset.mem_filter.mpr ⟨StableHlo.devRef_mem_tcRefs main_arg12, by decide⟩)).trans (V16_main_arg12 m outs c),
        (h (Proc.devRef .tc main_arg13) (Finset.mem_filter.mpr ⟨StableHlo.devRef_mem_tcRefs main_arg13, by decide⟩)).trans (V16_main_arg13 m outs c),
        (h (Proc.devRef .tc main_arg14) (Finset.mem_filter.mpr ⟨StableHlo.devRef_mem_tcRefs main_arg14, by decide⟩)).trans (V16_main_arg14 m outs c),
        (h (Proc.devRef .tc main_arg15) (Finset.mem_filter.mpr ⟨StableHlo.devRef_mem_tcRefs main_arg15, by decide⟩)).trans (V16_main_arg15 m outs c)⟩
    · iexact HSI

end Cert.Proof.K

end
-- ==== Proof.K.R0.lean ====
/-
  The first pallas_call: the input projection, one block of 2000 node rows per grid point.
  For any contents `V` of the TensorCore's buffers at the call's entry: the block each window holds at a point,
  what the body leaves in the output block (the projected rows, a pure function of the three input blocks),
  the body's triple, the pipeline's proof data and its body obligation. Stated for every float instance.
-/
import proofs.«421803_j42709154791890_2_alg».proof.Proof.Gen.Kernel.Launch
import proofs.«421803_j42709154791890_2_alg».proof.Proof.Gen.Kernel.Skeleton
import proofs.«421803_j42709154791890_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`: the rows `2000·t … 2000·t + 1999` of the node features for window 0, the whole
    weight matrix and the whole bias row for windows 1 and 2, read off the arrays as the call finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, whether the pipeline fetched it there or the block index
    stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole-buffer rectangles of the body's three loads and its store. -/
abbrev rx0 : Rect S2000x64 := Rect.unit (s := S2000x64) ![0, 0] S2000x64.size inb_S2000x64_S2000x64_0_0
abbrev rw0 : Rect S64x256 := Rect.unit (s := S64x256) ![0, 0] S64x256.size inb_S64x256_S64x256_0_0
abbrev rb0 : Rect S1x256 := Rect.unit (s := S1x256) ![0, 0] S1x256.size inb_S1x256_S1x256_0_0
abbrev ro0 : Rect S2000x256 := Rect.unit (s := S2000x256) ![0, 0] S2000x256.size inb_S2000x256_S2000x256_0_0

/-- The output block after the body: the one store's payload — the rows times the weights plus the bias row — written
    through the whole-block rectangle. -/
def out0_3 (x0 : Vec F S2000x64 .f32) (x1 : Vec F S64x256 .f32) (x2 : Vec F S1x256 .f32) : Vec F S2000x256 .bf16 :=
  View.canon [⟨ro0, k0_pay1 (View.ld x0 rx0) (View.ld x1 rw0) (View.ld x2 rb0)⟩]

/-- The one store covers the block. -/
theorem cover0_3 (p0 : Vec F S2000x256 .bf16) (y : S2000x256.Idx) :
    ∃ pc ∈ ([⟨ro0, p0⟩] : List (View.Piece (Elt F) S2000x256 .bf16)), y ∈ pc.1.set :=
  View.cover_of_tiled [⟨ro0, p0⟩] S2000x256.size (by rfl) y

/-! ## The body's triple -/

set_option maxHeartbeats 1000000 in
/-- The body on whole staging memrefs, the inputs' at contents `x0 x1 x2` and the output's at anything, ends with the
    inputs' as they were and the output's at `out0_3` of them. -/
theorem sound_kernel0 (c : Dev nD) (E : Set ℕ) (i : grid0.Coords) (arg1 : Memref sig .tc .vmem S2000x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S2000x256 .bf16) (harg4 : arg4.IsWhole)
    (x0 : Vec F S2000x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data and the body obligation -/

/-- The pipeline's proof data on core `c`: the arrays as the call finds them; after the body each input's buffer at its
    block and the output's at `out0_3` of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Proof.K

end
-- ==== Proof.K.R1.lean ====
/-
  The second pallas_call: the per-edge message network, one block of 2000 edge rows per grid point.
  For any contents `V` of the TensorCore's buffers at the call's entry: the block each of the fifteen windows holds at a
  point, what the body leaves in the output block (the message rows, a pure function of the fourteen input blocks),
  the body's triple, the pipeline's proof data and its body obligation. Stated for every float instance.
-/
import proofs.«421803_j42709154791890_2_alg».proof.Proof.Gen.Kernel.Launch
import proofs.«421803_j42709154791890_2_alg».proof.Proof.Gen.Kernel.Skeleton
import proofs.«421803_j42709154791890_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the arrays as the call finds them: for the six per-edge windows
    (the two endpoint state rows, the two endpoint scalar-feature columns, the edge features, the edge-weight column)
    the rows `2000·t … 2000·t + 1999`; for the eight weight and bias windows the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, whether the pipeline fetched it there or the block index
    stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The whole-buffer rectangles of the body's loads and its store, one per block shape. -/
abbrev r1_rows : Rect S2000x256 := Rect.unit (s := S2000x256) ![0, 0] S2000x256.size inb_S2000x256_S2000x256_0_0
abbrev r1_col : Rect S2000x1 := Rect.unit (s := S2000x1) ![0, 0] S2000x1.size inb_S2000x1_S2000x1_0_0
abbrev r1_feat : Rect S2000x64 := Rect.unit (s := S2000x64) ![0, 0] S2000x64.size inb_S2000x64_S2000x64_0_0
abbrev r1_sq : Rect S256x256 := Rect.unit (s := S256x256) ![0, 0] S256x256.size inb_S256x256_S256x256_0_0
abbrev r1_wx : Rect S64x256 := Rect.unit (s := S64x256) ![0, 0] S64x256.size inb_S64x256_S64x256_0_0
abbrev r1_bias : Rect S1x256 := Rect.unit (s := S1x256) ![0, 0] S1x256.size inb_S1x256_S1x256_0_0

/-- The output block after the body: the one store's payload — the first layer's sum of three matrix products and two
    outer products, its bias and rectifier, the second layer's product and bias, each row scaled by its edge weight —
    written through the whole-block rectangle. -/
def out1_14 (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) : Vec F S2000x256 .f32 :=
  View.canon [⟨r1_rows, k1_pay1 (k1_pay2 (View.ld x0 r1_rows) (View.ld x1 r1_rows) (View.ld x4 r1_feat) (View.ld x6 r1_sq) (View.ld x7 r1_sq) (View.ld x8 r1_wx) (View.ld x2 r1_col) (View.ld x3 r1_col) (View.ld x9 r1_bias) (View.ld x10 r1_bias)) (View.ld x11 r1_bias) (View.ld x12 r1_sq) (View.ld x13 r1_bias) (View.ld x5 r1_col)⟩]

/-- The one store covers the block. -/
theorem cover1_14 (p0 : Vec F S2000x256 .f32) (y : S2000x256.Idx) :
    ∃ pc ∈ ([⟨r1_rows, p0⟩] : List (View.Piece (Elt F) S2000x256 .f32)), y ∈ pc.1.set :=
  View.cover_of_tiled [⟨r1_rows, p0⟩] S2000x256.size (by rfl) y

/-! ## The body's triple -/

set_option maxHeartbeats 4000000 in
/-- The body on whole staging memrefs, the inputs' at contents `x0 … x13` and the output's at anything, ends with the
    inputs' as they were and the output's at `out1_14` of them. -/
theorem sound_kernel1 (c : Dev nD) (E : Set ℕ) (i : grid1.Coords) (arg1 : Memref sig .tc .vmem S2000x256 .bf16) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2000x256 .f32) (harg15 : arg15.IsWhole)
    (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out1_14 x0 x1 x2 x3 x4 x5 x6 x7 x8 x9 x10 x11 x12 x13)) -∗ K ⟨⟩))
      ⊢ wp frame (wpE (defs₀ (F := F)) Variants.none c none) E (cc1__msg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__msg_kernel_eq_skeleton]; unfold cc1__msg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover1_14 _)

/-! ## The proof data and the body obligation -/

/-- The pipeline's proof data on core `c`: the arrays as the call finds them; after the body each input's buffer at its
    block and the output's at `out1_14` of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) :
    (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Proof.K

end
-- ==== Proof.K.R2.lean ====
/-
  A per-node combine pallas_call: two dense layers, the first with one weight matrix for the node rows and one for the
  message rows, on a block of 2000 node rows per grid point.
  For any contents `V` of the TensorCore's buffers at the call's entry: the block each window holds at a point,
  what the body leaves in the output block (the combined rows, a pure function of the seven input blocks),
  the body's triple, the pipeline's proof data and its body obligation. Stated for every float instance.
-/
import proofs.«421803_j42709154791890_2_alg».proof.Proof.Gen.Kernel.Launch
import proofs.«421803_j42709154791890_2_alg».proof.Proof.Gen.Kernel.Skeleton
import proofs.«421803_j42709154791890_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`: the rows `2000·t … 2000·t + 1999` of the node states for window 0 and of the
    aggregated messages for window 1, the whole weight matrices and the whole bias rows for windows 2 to 6, read off
    the arrays as the call finds them. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, whether the pipeline fetched it there or the block index
    stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The whole-buffer rectangles of the body's loads and its store, one for each of the three block shapes. -/
abbrev r2_blk : Rect S2000x256 := Rect.unit (s := S2000x256) ![0, 0] S2000x256.size inb_S2000x256_S2000x256_0_0
abbrev r2_mat : Rect S256x256 := Rect.unit (s := S256x256) ![0, 0] S256x256.size inb_S256x256_S256x256_0_0
abbrev r2_row : Rect S1x256 := Rect.unit (s := S1x256) ![0, 0] S1x256.size inb_S1x256_S1x256_0_0

/-- The output block after the body: the one store's payload — two dense layers with a rectifier after each, the first
    on the node rows and the message rows side by side — written through the whole-block rectangle. -/
def out2_7 (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) : Vec F S2000x256 .bf16 :=
  View.canon [⟨r2_blk, k2_pay1 (View.ld x0 r2_blk) (View.ld x1 r2_blk) (View.ld x2 r2_mat) (View.ld x3 r2_mat) (View.ld x4 r2_row) (View.ld x5 r2_mat) (View.ld x6 r2_row)⟩]

/-- The one store covers the block. -/
theorem cover2_7 (p0 : Vec F S2000x256 .bf16) (y : S2000x256.Idx) :
    ∃ pc ∈ ([⟨r2_blk, p0⟩] : List (View.Piece (Elt F) S2000x256 .bf16)), y ∈ pc.1.set :=
  View.cover_of_tiled [⟨r2_blk, p0⟩] S2000x256.size (by rfl) y

/-! ## The body's triple -/

set_option maxHeartbeats 1000000 in
/-- The body on whole staging memrefs, the inputs' at contents `x0 … x6` and the output's at anything, ends with the
    inputs' as they were and the output's at `out2_7` of them. -/
theorem sound_kernel2 (c : Dev nD) (E : Set ℕ) (i : grid2.Coords) (arg1 : Memref sig .tc .vmem S2000x256 .bf16) (harg1 : arg1.IsWhole) (arg2 : Memref sig .tc .vmem S2000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .bf16) (harg8 : arg8.IsWhole)
    (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__upd_kernel i arg1 harg1 arg2 harg2 arg3 harg3 arg4 harg4 arg5 harg5 arg6 harg6 arg7 harg7 arg8 harg8) K := by
  simp only [cc2__upd_kernel_eq_skeleton]; unfold cc2__upd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The proof data and the body obligation -/

/-- The pipeline's proof data on core `c`: the arrays as the call finds them; after the body each input's buffer at its
    block and the output's at `out2_7` of the input blocks; the scoped rest and the generator register untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Proof.K

end
-- ==== Proof.K.R3.lean ====
/-
  The second pallas_call: the per-edge message network, one block of 2000 edge rows per grid point.
  For any contents `V` of the TensorCore's buffers at the call's entry: the block each of the fifteen windows holds at a
  point, what the body leaves in the output block (the message rows, a pure function of the fourteen input blocks),
  the body's triple, the pipeline's proof data and its body obligation. Stated for every float instance.
-/
import proofs.«421803_j42709154791890_2_alg».proof.Proof.Gen.Kernel.Launch
import proofs.«421803_j42709154791890_2_alg».proof.Proof.Gen.Kernel.Skeleton
import proofs.«421803_j42709154791890_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the arrays as the call finds them: for the six per-edge windows
    (the two endpoint state rows, the two endpoint scalar-feature columns, the edge features, the edge-weight column)
    the rows `2000·t … 2000·t + 1999`; for the eight weight and bias windows the whole array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds its block at every point, whether the pipeline fetched it there or the block index
    stood still since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output block -/

/-- The whole-buffer rectangles of the body's loads and its store, one per block shape. -/
abbrev r3_rows : Rect S2000x256 := Rect.unit (s := S2000x256) ![0, 0] S2000x256.size inb_S2000x256_S2000x256_0_0
abbrev r3_col : Rect S2000x1 := Rect.unit (s := S2000x1) ![0, 0] S2000x1.size inb_S2000x1_S2000x1_0_0
abbrev r3_feat : Rect S2000x64 := Rect.unit (s := S2000x64) ![0, 0] S2000x64.size inb_S2000x64_S2000x64_0_0
abbrev r3_sq : Rect S256x256 := Rect.unit (s := S256x256) ![0, 0] S256x256.size inb_S256x256_S256x256_0_0
abbrev r3_wx : Rect S64x256 := Rect.unit (s := S64x256) ![0, 0] S64x256.size inb_S64x256_S64x256_0_0
abbrev r3_bias : Rect S1x256 := Rect.unit (s := S1x256) ![0, 0] S1x256.size inb_S1x256_S1x256_0_0

/-- The output block after the body: the one store's payload — the first layer's sum of three matrix products and two
    outer products, its bias and rectifier, the second layer's product and bias, each row scaled by its edge weight —
    written through the whole-block rectangle. -/
def out3_14 (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) : Vec F S2000x256 .f32 :=
  View.canon [⟨r3_rows, k3_pay1 (k3_pay2 (View.ld x0 r3_rows) (View.ld x1 r3_rows) (View.ld x4 r3_feat) (View.ld x6 r3_sq) (View.ld x7 r3_sq) (View.ld x8 r3_wx) (View.ld x2 r3_col) (View.ld x3 r3_col) (View.ld x9 r3_bias) (View.ld x10 r3_bias)) (View.ld x11 r3_bias) (View.ld x12 r3_sq) (View.ld x13 r3_bias) (View.ld x5 r3_col)⟩]

/-- The one store covers the block. -/
theorem cover3_14 (p0 : Vec F S2000x256 .f32) (y : S2000x256.Idx) :
    ∃ pc ∈ ([⟨r3_rows, p0⟩] : List (View.Piece (Elt F) S2000x256 .f32)), y ∈ pc.1.set :=
  View.cover_of_tiled [⟨r3_rows, p0⟩] S2000x256.size (by rfl) y

/-! ## The body's triple -/

set_option maxHeartbeats 4000000 in
/-- The body on whole staging memrefs, the inputs' at contents `x0 … x13` and the output's at anything, ends with the
    inputs' as they were and the output's at `out3_14` of them. -/
theorem sound_kernel3 (c : Dev nD) (E : Set ℕ) (i : grid3.Coords) (arg1 : Memref sig .tc .vmem S2000x256 .bf16) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2000x256 .f32) (harg15 : arg15.IsWhole)
    (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out3_14 x0 x1 x2 x3 x4 x5 x6 x7 x8 x9 x10 x11 x12 x13)) -∗ K ⟨⟩))
      ⊢ wp frame (wpE (defs₀ (F := F)) Variants.none c none) E (cc3__msg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc3__msg_kernel_eq_skeleton]; unfold cc3__msg_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover3_14 _)

/-! ## The proof data and the body obligation -/

/-- The pipeline's proof data on core `c`: the arrays as the call finds them; after the body each input's buffer at its
    block and the output's at `out3_14` of the input blocks; the scoped rest and the generator register untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) :
    (dat3 V c).after 14 t = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel3 c Set.univ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Proof.K

end
-- ==== Proof.K.R4.lean ====
/-
  A per-node combine pallas_call: two dense layers, the first with one weight matrix for the node rows and one for the
  message rows, on a block of 2000 node rows per grid point.
  For any contents `V` of the TensorCore's buffers at the call's entry: the block each window holds at a point,
  what the body leaves in the output block (the combined rows, a pure function of the seven input blocks),
  the body's triple, the pipeline's proof data and its body obligation. Stated for every float instance.
-/
import proofs.«421803_j42709154791890_2_alg».proof.Proof.Gen.Kernel.Launch
import proofs.«421803_j42709154791890_2_alg».proof.Proof.Gen.Kernel.Skeleton
import proofs.«421803_j42709154791890_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`: the rows `2000·t … 2000·t + 1999` of the node states for window 0 and of the
    aggregated messages for window 1, the whole weight matrices and the whole bias rows for windows 2 to 6, read off
    the arrays as the call finds them. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's staging buffer holds its block at every point, whether the pipeline fetched it there or the block index
    stood still since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in the output block -/

/-- The whole-buffer rectangles of the body's loads and its store, one for each of the three block shapes. -/
abbrev r4_blk : Rect S2000x256 := Rect.unit (s := S2000x256) ![0, 0] S2000x256.size inb_S2000x256_S2000x256_0_0
abbrev r4_mat : Rect S256x256 := Rect.unit (s := S256x256) ![0, 0] S256x256.size inb_S256x256_S256x256_0_0
abbrev r4_row : Rect S1x256 := Rect.unit (s := S1x256) ![0, 0] S1x256.size inb_S1x256_S1x256_0_0

/-- The output block after the body: the one store's payload — two dense layers with a rectifier after each, the first
    on the node rows and the message rows side by side — written through the whole-block rectangle. -/
def out4_7 (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) : Vec F S2000x256 .bf16 :=
  View.canon [⟨r4_blk, k4_pay1 (View.ld x0 r4_blk) (View.ld x1 r4_blk) (View.ld x2 r4_mat) (View.ld x3 r4_mat) (View.ld x4 r4_row) (View.ld x5 r4_mat) (View.ld x6 r4_row)⟩]

/-- The one store covers the block. -/
theorem cover4_7 (p0 : Vec F S2000x256 .bf16) (y : S2000x256.Idx) :
    ∃ pc ∈ ([⟨r4_blk, p0⟩] : List (View.Piece (Elt F) S2000x256 .bf16)), y ∈ pc.1.set :=
  View.cover_of_tiled [⟨r4_blk, p0⟩] S2000x256.size (by rfl) y

/-! ## The body's triple -/

set_option maxHeartbeats 1000000 in
/-- The body on whole staging memrefs, the inputs' at contents `x0 … x6` and the output's at anything, ends with the
    inputs' as they were and the output's at `out4_7` of them. -/
theorem sound_kernel4 (c : Dev nD) (E : Set ℕ) (i : grid4.Coords) (arg1 : Memref sig .tc .vmem S2000x256 .bf16) (harg1 : arg1.IsWhole) (arg2 : Memref sig .tc .vmem S2000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .bf16) (harg8 : arg8.IsWhole)
    (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out4_7 x0 x1 x2 x3 x4 x5 x6)) -∗ K ⟨⟩))
      ⊢ wp frame (wpE (defs₀ (F := F)) Variants.none c none) E (cc4__upd_kernel i arg1 harg1 arg2 harg2 arg3 harg3 arg4 harg4 arg5 harg5 arg6 harg6 arg7 harg7 arg8 harg8) K := by
  simp only [cc4__upd_kernel_eq_skeleton]; unfold cc4__upd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The proof data and the body obligation -/

/-- The pipeline's proof data on core `c`: the arrays as the call finds them; after the body each input's buffer at its
    block and the output's at `out4_7` of the input blocks; the scoped rest and the generator register untouched;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) :
    (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Proof.K

end
-- ==== Proof.K.R5.lean ====
/-
  The second pallas_call: the per-edge message network, one block of 2000 edge rows per grid point.
  For any contents `V` of the TensorCore's buffers at the call's entry: the block each of the fifteen windows holds at a
  point, what the body leaves in the output block (the message rows, a pure function of the fourteen input blocks),
  the body's triple, the pipeline's proof data and its body obligation. Stated for every float instance.
-/
import proofs.«421803_j42709154791890_2_alg».proof.Proof.Gen.Kernel.Launch
import proofs.«421803_j42709154791890_2_alg».proof.Proof.Gen.Kernel.Skeleton
import proofs.«421803_j42709154791890_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the arrays as the call finds them: for the six per-edge windows
    (the two endpoint state rows, the two endpoint scalar-feature columns, the edge features, the edge-weight column)
    the rows `2000·t … 2000·t + 1999`; for the eight weight and bias windows the whole array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input's staging buffer holds its block at every point, whether the pipeline fetched it there or the block index
    stood still since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)
theorem before5_11_of {c : Dev nD} (dat : Dat τ (Elt F) Unit ℕ (UR sig nD τ) ℕ cfg5 c) (hA : dat.A 11 = V c (Pipeline.arrRef spec5 11))
    (hafter : ∀ t, dat.after 11 t = iblk5 V c 11 t) (t : Fin cfg5.N) (d) : dat.before 11 t d = iblk5 V c 11 t :=
  (dat.before_in_eq_fetched 11 rfl (fun _ => rfl) (fun _ _ _ => rfl) (fun t => by rw [hafter]; unfold Dat.blockOf iblk5; rw [hA]; try rfl) t d).trans
    (by unfold Dat.fetched Dat.blockOf iblk5; rw [hA]; try rfl)
theorem before5_12_of {c : Dev nD} (dat : Dat τ (Elt F) Unit ℕ (UR sig nD τ) ℕ cfg5 c) (hA : dat.A 12 = V c (Pipeline.arrRef spec5 12))
    (hafter : ∀ t, dat.after 12 t = iblk5 V c 12 t) (t : Fin cfg5.N) (d) : dat.before 12 t d = iblk5 V c 12 t :=
  (dat.before_in_eq_fetched 12 rfl (fun _ => rfl) (fun _ _ _ => rfl) (fun t => by rw [hafter]; unfold Dat.blockOf iblk5; rw [hA]; try rfl) t d).trans
    (by unfold Dat.fetched Dat.blockOf iblk5; rw [hA]; try rfl)
theorem before5_13_of {c : Dev nD} (dat : Dat τ (Elt F) Unit ℕ (UR sig nD τ) ℕ cfg5 c) (hA : dat.A 13 = V c (Pipeline.arrRef spec5 13))
    (hafter : ∀ t, dat.after 13 t = iblk5 V c 13 t) (t : Fin cfg5.N) (d) : dat.before 13 t d = iblk5 V c 13 t :=
  (dat.before_in_eq_fetched 13 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in the output block -/

/-- The whole-buffer rectangles of the body's loads and its store, one per block shape. -/
abbrev r5_rows : Rect S2000x256 := Rect.unit (s := S2000x256) ![0, 0] S2000x256.size inb_S2000x256_S2000x256_0_0
abbrev r5_col : Rect S2000x1 := Rect.unit (s := S2000x1) ![0, 0] S2000x1.size inb_S2000x1_S2000x1_0_0
abbrev r5_feat : Rect S2000x64 := Rect.unit (s := S2000x64) ![0, 0] S2000x64.size inb_S2000x64_S2000x64_0_0
abbrev r5_sq : Rect S256x256 := Rect.unit (s := S256x256) ![0, 0] S256x256.size inb_S256x256_S256x256_0_0
abbrev r5_wx : Rect S64x256 := Rect.unit (s := S64x256) ![0, 0] S64x256.size inb_S64x256_S64x256_0_0
abbrev r5_bias : Rect S1x256 := Rect.unit (s := S1x256) ![0, 0] S1x256.size inb_S1x256_S1x256_0_0

/-- The output block after the body: the one store's payload — the first layer's sum of three matrix products and two
    outer products, its bias and rectifier, the second layer's product and bias, each row scaled by its edge weight —
    written through the whole-block rectangle. -/
def out5_14 (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) : Vec F S2000x256 .f32 :=
  View.canon [⟨r5_rows, k5_pay1 (k5_pay2 (View.ld x0 r5_rows) (View.ld x1 r5_rows) (View.ld x4 r5_feat) (View.ld x6 r5_sq) (View.ld x7 r5_sq) (View.ld x8 r5_wx) (View.ld x2 r5_col) (View.ld x3 r5_col) (View.ld x9 r5_bias) (View.ld x10 r5_bias)) (View.ld x11 r5_bias) (View.ld x12 r5_sq) (View.ld x13 r5_bias) (View.ld x5 r5_col)⟩]

/-- The one store covers the block. -/
theorem cover5_14 (p0 : Vec F S2000x256 .f32) (y : S2000x256.Idx) :
    ∃ pc ∈ ([⟨r5_rows, p0⟩] : List (View.Piece (Elt F) S2000x256 .f32)), y ∈ pc.1.set :=
  View.cover_of_tiled [⟨r5_rows, p0⟩] S2000x256.size (by rfl) y

/-! ## The body's triple -/

set_option maxHeartbeats 4000000 in
/-- The body on whole staging memrefs, the inputs' at contents `x0 … x13` and the output's at anything, ends with the
    inputs' as they were and the output's at `out5_14` of them. -/
theorem sound_kernel5 (c : Dev nD) (E : Set ℕ) (i : grid5.Coords) (arg1 : Memref sig .tc .vmem S2000x256 .bf16) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2000x256 .f32) (harg15 : arg15.IsWhole)
    (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out5_14 x0 x1 x2 x3 x4 x5 x6 x7 x8 x9 x10 x11 x12 x13)) -∗ K ⟨⟩))
      ⊢ wp frame (wpE (defs₀ (F := F)) Variants.none c none) E (cc5__msg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc5__msg_kernel_eq_skeleton]; unfold cc5__msg_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover5_14 _)

/-! ## The proof data and the body obligation -/

/-- The pipeline's proof data on core `c`: the arrays as the call finds them; after the body each input's buffer at its
    block and the output's at `out5_14` of the input blocks; the scoped rest and the generator register untouched;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => iblk5 V c 13 t
    | ⟨14, _⟩ => out5_14 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = iblk5 V c 11 t := by dsimp only [dat5]
theorem after5_12 (c : Dev nD) (t : Fin cfg5.N) : (dat5 V c).after 12 t = iblk5 V c 12 t := by dsimp only [dat5]
theorem after5_13 (c : Dev nD) (t : Fin cfg5.N) : (dat5 V c).after 13 t = iblk5 V c 13 t := by dsimp only [dat5]
theorem after5_14 (c : Dev nD) (t : Fin cfg5.N) :
    (dat5 V c).after 14 t = out5_14 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d
theorem before5_11 (c : Dev nD) (t : Fin cfg5.N) (d) : (dat5 V c).before 11 t d = iblk5 V c 11 t :=
  before5_11_of V (dat5 V c) (A_eq5 V c 11) (after5_11 V c) t d
theorem before5_12 (c : Dev nD) (t : Fin cfg5.N) (d) : (dat5 V c).before 12 t d = iblk5 V c 12 t :=
  before5_12_of V (dat5 V c) (A_eq5 V c 12) (after5_12 V c) t d
theorem before5_13 (c : Dev nD) (t : Fin cfg5.N) (d) : (dat5 V c).before 13 t d = iblk5 V c 13 t :=
  before5_13_of V (dat5 V c) (A_eq5 V c 13) (after5_13 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d))
    ∗ (∃ d, owns (c : Thread nD τ) (st5_13 t) fullShare ((dat5 V c).before 13 t d))
    ∗ (∃ d, owns (c : Thread nD τ) (st5_14 t) fullShare ((dat5 V c).before 14 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t)
    ∗ owns (c : Thread nD τ) (st5_13 t) fullShare ((dat5 V c).after 13 t)
    ∗ owns (c : Thread nD τ) (st5_14 t) fullShare ((dat5 V c).after 14 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10, before5_11, before5_12, before5_13]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12, after5_13, after5_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel5 c Set.univ _ _ _ _ _ _ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Proof.K

end
-- ==== Proof.K.R6.lean ====
/-
  A per-node combine pallas_call: two dense layers, the first with one weight matrix for the node rows and one for the
  message rows, on a block of 2000 node rows per grid point.
  For any contents `V` of the TensorCore's buffers at the call's entry: the block each window holds at a point,
  what the body leaves in the output block (the combined rows, a pure function of the seven input blocks),
  the body's triple, the pipeline's proof data and its body obligation. Stated for every float instance.
-/
import proofs.«421803_j42709154791890_2_alg».proof.Proof.Gen.Kernel.Launch
import proofs.«421803_j42709154791890_2_alg».proof.Proof.Gen.Kernel.Skeleton
import proofs.«421803_j42709154791890_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`: the rows `2000·t … 2000·t + 1999` of the node states for window 0 and of the
    aggregated messages for window 1, the whole weight matrices and the whole bias rows for windows 2 to 6, read off
    the arrays as the call finds them. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input's staging buffer holds its block at every point, whether the pipeline fetched it there or the block index
    stood still since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## What the body leaves in the output block -/

/-- The whole-buffer rectangles of the body's loads and its store, one for each of the three block shapes. -/
abbrev r6_blk : Rect S2000x256 := Rect.unit (s := S2000x256) ![0, 0] S2000x256.size inb_S2000x256_S2000x256_0_0
abbrev r6_mat : Rect S256x256 := Rect.unit (s := S256x256) ![0, 0] S256x256.size inb_S256x256_S256x256_0_0
abbrev r6_row : Rect S1x256 := Rect.unit (s := S1x256) ![0, 0] S1x256.size inb_S1x256_S1x256_0_0

/-- The output block after the body: the one store's payload — two dense layers with a rectifier after each, the first
    on the node rows and the message rows side by side — written through the whole-block rectangle. -/
def out6_7 (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) : Vec F S2000x256 .bf16 :=
  View.canon [⟨r6_blk, k6_pay1 (View.ld x0 r6_blk) (View.ld x1 r6_blk) (View.ld x2 r6_mat) (View.ld x3 r6_mat) (View.ld x4 r6_row) (View.ld x5 r6_mat) (View.ld x6 r6_row)⟩]

/-- The one store covers the block. -/
theorem cover6_7 (p0 : Vec F S2000x256 .bf16) (y : S2000x256.Idx) :
    ∃ pc ∈ ([⟨r6_blk, p0⟩] : List (View.Piece (Elt F) S2000x256 .bf16)), y ∈ pc.1.set :=
  View.cover_of_tiled [⟨r6_blk, p0⟩] S2000x256.size (by rfl) y

/-! ## The body's triple -/

set_option maxHeartbeats 1000000 in
/-- The body on whole staging memrefs, the inputs' at contents `x0 … x6` and the output's at anything, ends with the
    inputs' as they were and the output's at `out6_7` of them. -/
theorem sound_kernel6 (c : Dev nD) (E : Set ℕ) (i : grid6.Coords) (arg1 : Memref sig .tc .vmem S2000x256 .bf16) (harg1 : arg1.IsWhole) (arg2 : Memref sig .tc .vmem S2000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .bf16) (harg8 : arg8.IsWhole)
    (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out6_7 x0 x1 x2 x3 x4 x5 x6)) -∗ K ⟨⟩))
      ⊢ wp frame (wpE (defs₀ (F := F)) Variants.none c none) E (cc6__upd_kernel i arg1 harg1 arg2 harg2 arg3 harg3 arg4 harg4 arg5 harg5 arg6 harg6 arg7 harg7 arg8 harg8) K := by
  simp only [cc6__upd_kernel_eq_skeleton]; unfold cc6__upd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The proof data and the body obligation -/

/-- The pipeline's proof data on core `c`: the arrays as the call finds them; after the body each input's buffer at its
    block and the output's at `out6_7` of the input blocks; the scoped rest and the generator register untouched;
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) :
    (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Proof.K

end
-- ==== Proof.K.R7.lean ====
/-
  The last pallas_call: the per-graph readout. Ten grid points, one block of 2000 node rows and their 2000 graph
  ids per point; the kernel keeps a 128 × 256 accumulator in a scratch buffer of its own, resets it at the first
  point, adds at every point the one-hot product of the block's graph ids with its rows, and at the last point
  copies the accumulator into the output block, which the pipeline writes back there and nowhere else.
  For any contents `V` of the TensorCore's buffers at the call's entry: the block each input window holds at a
  point, the accumulator's value after each point (by recursion on the point), the body's triple in each of the
  three cases, the pipeline's proof data — whose invariant carries the accumulator's value from point to point —
  and its body obligation. Stated for every float instance.
-/
import proofs.«421803_j42709154791890_2_alg».proof.Proof.Gen.Kernel.Launch
import proofs.«421803_j42709154791890_2_alg».proof.Proof.Gen.Kernel.Skeleton
import proofs.«421803_j42709154791890_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the input windows hold -/

/-- Window `w`'s block at grid point `t`: the rows `2000·t … 2000·t + 1999` of the node features for window 0 and of
    the graph ids for window 1, read off the arrays as the call finds them. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input's staging buffer holds its block at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The two conditions of the body and where they hold -/

/-- The first conditional's condition ("this is the first point"), from the grid coordinate. -/
abbrev cond7_0 (i : grid7.Coords) : Prop := (Scalar.cmpi .ne (Scalar.extui (Scalar.cmpi .eq (BitVec.ofNat 32 (i 0).val) 0#32)) 0#32) = 1#1
/-- The second conditional's condition ("this is the last point"). -/
abbrev cond7_1 (i : grid7.Coords) : Prop := k7_cond2 i = 1#1

/-- The first holds at point 0 only, -/
theorem hcond7_0 : ∀ t : Fin cfg7.N, cond7_0 (grid7.coords t) ↔ t.val = 0 :=
  (by decide +kernel : ∀ t : Fin grid7.N, cond7_0 (grid7.coords t) ↔ t.val = 0)
/-- the second at point 9 only. -/
theorem hcond7_1 : ∀ t : Fin cfg7.N, cond7_1 (grid7.coords t) ↔ t.val = 9 :=
  (by decide +kernel : ∀ t : Fin grid7.N, cond7_1 (grid7.coords t) ↔ t.val = 9)

/-- The inputs are never idle. -/
theorem liveAt7_0 : ∀ t : Fin cfg7.N, cfg7.idle 0 (grid7.coords t) = false := by decide +kernel
theorem liveAt7_1 : ∀ t : Fin cfg7.N, cfg7.idle 1 (grid7.coords t) = false := by decide +kernel
/-- Off the last point the output window is idle and not written back; -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
/-- at the last point it is live. -/
theorem liveAt7_2 : ∀ t : Fin cfg7.N, cond7_1 (grid7.coords t) → cfg7.idle 2 (grid7.coords t) = false := by decide +kernel

/-! ## The body's triple, case by case -/

theorem hz7 : (![0, 0] : Fin 2 → Nat) = fun _ => 0 := funext fun a => by fin_cases a <;> rfl

/-- The whole-buffer rectangle of the accumulator's and the output block's loads and stores. -/
abbrev ra7 : Rect S128x256 := Rect.unit (s := S128x256) ![0, 0] S128x256.size inb_S128x256_S128x256_0_0

/-- A last store through it covers the buffer, whatever was stored before. -/
theorem cover7 (p : Vec F S128x256 .f32) (L : List (View.Piece (Elt F) S128x256 .f32)) (y : S128x256.Idx) :
    ∃ pc ∈ ((⟨ra7, p⟩ : View.Piece (Elt F) S128x256 .f32) :: L), y ∈ pc.1.set :=
  ⟨_, List.mem_cons_self, View.mem_set_unit_zero hz7 inb_S128x256_S128x256_0_0 y⟩

set_option maxHeartbeats 1000000 in
/-- At the first point: whatever the accumulator held, the body resets it to zero and leaves one step over zero; the
    output block is handed back as it was. -/
theorem sound_kernel7_A (c : Dev nD) (E : Set ℕ) (i : grid7.Coords) (arg1 : Memref sig .tc .vmem S2000x256 .bf16) (harg1 : arg1.IsWhole) (arg2 : Memref sig .tc .vmem S2000x1 .i32) (harg2 : arg2.IsWhole)
    (arg3 : Memref sig .tc .vmem S128x256 .f32) (harg3 : arg3.IsWhole) (arg4 : Memref sig .tc .vmem S128x256 .f32) (harg4 : arg4.IsWhole)
    (hc0 : cond7_0 i) (hc1 : ¬cond7_1 i)
    (x0 : Vec F S2000x256 .bf16) (x1 : Vec F S2000x1 .i32) (y : Vec F S128x256 .f32) (K : PUnit → sProp 𝕄) :
    iprop(owns (c : Thread nD τ) arg1 fullShare x0 ∗ owns (c : Thread nD τ) arg2 fullShare x1 ∗ owns (c : Thread nD τ) arg3 fullShare y
        ∗ (∃ d, owns (c : Thread nD τ) arg4 fullShare d)
        ∗ (iprop(owns (c : Thread nD τ) arg1 fullShare x0 ∗ owns (c : Thread nD τ) arg2 fullShare x1 ∗ owns (c : Thread nD τ) arg3 fullShare y
            ∗ owns (c : Thread nD τ) arg4 fullShare (k7_pay2 x0 x1 (k7_pay1 (F := F)))) -∗ K ⟨⟩))
      ⊢ wp frame (wpE (defs₀ (F := F)) Variants.none c none) E (cc7__readout_kernel i arg1 harg1 arg2 harg2 arg3 harg3 arg4 harg4) K := by
  simp only [cc7__readout_kernel_eq_skeleton]; unfold cc7__readout_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (cover7 _ _)]
  rw [View.canon_cons_unit_zero (S := S128x256) hz7, View.readCov_unit_zero (S := S128x256) _ hz7]
  simp only [View.readAt_eq_ld, View.ld_unit_zero (S := S2000x256) hz7, View.ld_unit_zero (S := S2000x1) hz7]

set_option maxHeartbeats 1000000 in
/-- At a point that is neither first nor last: the accumulator at `xs` is left one step further; the output block is
    handed back as it was. -/
theorem sound_kernel7_B (c : Dev nD) (E : Set ℕ) (i : grid7.Coords) (arg1 : Memref sig .tc .vmem S2000x256 .bf16) (harg1 : arg1.IsWhole) (arg2 : Memref sig .tc .vmem S2000x1 .i32) (harg2 : arg2.IsWhole)
    (arg3 : Memref sig .tc .vmem S128x256 .f32) (harg3 : arg3.IsWhole) (arg4 : Memref sig .tc .vmem S128x256 .f32) (harg4 : arg4.IsWhole)
    (hc0 : ¬cond7_0 i) (hc1 : ¬cond7_1 i)
    (x0 : Vec F S2000x256 .bf16) (x1 : Vec F S2000x1 .i32) (y : Vec F S128x256 .f32) (xs : Vec F S128x256 .f32) (K : PUnit → sProp 𝕄) :
    iprop(owns (c : Thread nD τ) arg1 fullShare x0 ∗ owns (c : Thread nD τ) arg2 fullShare x1 ∗ owns (c : Thread nD τ) arg3 fullShare y
        ∗ owns (c : Thread nD τ) arg4 fullShare xs
        ∗ (iprop(owns (c : Thread nD τ) arg1 fullShare x0 ∗ owns (c : Thread nD τ) arg2 fullShare x1 ∗ owns (c : Thread nD τ) arg3 fullShare y
            ∗ owns (c : Thread nD τ) arg4 fullShare (k7_pay2 x0 x1 xs)) -∗ K ⟨⟩))
      ⊢ wp frame (wpE (defs₀ (F := F)) Variants.none c none) E (cc7__readout_kernel i arg1 harg1 arg2 harg2 arg3 harg3 arg4 harg4) K := by
  simp only [cc7__readout_kernel_eq_skeleton]; unfold cc7__readout_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (cover7 _ _)]
  rw [View.canon_cons_unit_zero (S := S128x256) hz7]
  simp only [View.readAt_eq_ld, View.ld_unit_zero (S := S2000x256) hz7, View.ld_unit_zero (S := S2000x1) hz7, View.ld_unit_zero (S := S128x256) hz7]

set_option maxHeartbeats 1000000 in
/-- At the last point: the accumulator at `xs` is left one step further, and the output block, whatever it held, is left
    at the same value. -/
theorem sound_kernel7_C (c : Dev nD) (E : Set ℕ) (i : grid7.Coords) (arg1 : Memref sig .tc .vmem S2000x256 .bf16) (harg1 : arg1.IsWhole) (arg2 : Memref sig .tc .vmem S2000x1 .i32) (harg2 : arg2.IsWhole)
    (arg3 : Memref sig .tc .vmem S128x256 .f32) (harg3 : arg3.IsWhole) (arg4 : Memref sig .tc .vmem S128x256 .f32) (harg4 : arg4.IsWhole)
    (hc0 : ¬cond7_0 i) (hc1 : cond7_1 i)
    (x0 : Vec F S2000x256 .bf16) (x1 : Vec F S2000x1 .i32) (xs : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1 ∗ owns (c : Thread nD τ) arg3 fullShare (k7_pay2 x0 x1 xs)
            ∗ owns (c : Thread nD τ) arg4 fullShare (k7_pay2 x0 x1 xs)) -∗ K ⟨⟩))
      ⊢ wp frame (wpE (defs₀ (F := F)) Variants.none c none) E (cc7__readout_kernel i arg1 harg1 arg2 harg2 arg3 harg3 arg4 harg4) K := by
  simp only [cc7__readout_kernel_eq_skeleton]; unfold cc7__readout_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover7 _ _)]
    rw [View.canon_unit_zero (S := S128x256) hz7, View.readCov_unit_zero (S := S128x256) _ hz7]
    simp only [View.readAt_eq_ld, View.ld_unit_zero (S := S2000x256) hz7, View.ld_unit_zero (S := S2000x1) hz7, View.ld_unit_zero (S := S128x256) hz7]
  iexists _; isplitr
  swap; · iexact H3
  ipureintro
  sl_unfold_run_names
  rw [View.read_writes_eq_canon _ _ _ (cover7 _ _)]
  rw [View.canon_unit_zero (S := S128x256) hz7]
  simp only [View.readAt_eq_ld, View.ld_unit_zero (S := S2000x256) hz7, View.ld_unit_zero (S := S2000x1) hz7, View.ld_unit_zero (S := S128x256) hz7]

/-! ## The accumulator after each point -/

/-- The accumulator after the body at point `n`: one step over zero at the first point, one step over the previous
    point's value afterwards — a step adds to the accumulator the one-hot product of the point's graph ids with its rows. -/
def acc7 (c : Dev nD) : (n : ℕ) → n < cfg7.N → Vec F S128x256 .f32
  | 0, h => k7_pay2 (iblk7 V c 0 ⟨0, h⟩) (iblk7 V c 1 ⟨0, h⟩) (k7_pay1 (F := F))
  | n + 1, h => k7_pay2 (iblk7 V c 0 ⟨n + 1, h⟩) (iblk7 V c 1 ⟨n + 1, h⟩) (acc7 c n (Nat.lt_of_succ_lt h))

theorem acc7_zero (c : Dev nD) (h : 0 < cfg7.N) :
    acc7 V c 0 h = k7_pay2 (iblk7 V c 0 ⟨0, h⟩) (iblk7 V c 1 ⟨0, h⟩) (k7_pay1 (F := F)) := rfl

theorem acc7_succ (c : Dev nD) (n : ℕ) (h : n + 1 < cfg7.N) :
    acc7 V c (n + 1) h = k7_pay2 (iblk7 V c 0 ⟨n + 1, h⟩) (iblk7 V c 1 ⟨n + 1, h⟩) (acc7 V c n (Nat.lt_of_succ_lt h)) := rfl

/-- The same at a point given as such: the first, -/
theorem acc7_first (c : Dev nD) (t : Fin cfg7.N) (h0 : t.val = 0) :
    acc7 V c t.val t.isLt = k7_pay2 (iblk7 V c 0 t) (iblk7 V c 1 t) (k7_pay1 (F := F)) := by
  obtain ⟨n, hn⟩ := t
  cases n with
  | zero => rfl
  | succ n => exact absurd h0 (Nat.succ_ne_zero n)

/-- and a later one. -/
theorem acc7_later (c : Dev nD) (t : Fin cfg7.N) (h0 : t.val ≠ 0) :
    acc7 V c t.val t.isLt = k7_pay2 (iblk7 V c 0 t) (iblk7 V c 1 t)
      (acc7 V c (t.val - 1) (Nat.lt_of_le_of_lt (Nat.sub_le _ _) t.isLt)) := by
  obtain ⟨n, hn⟩ := t
  cases n with
  | zero => exact absurd rfl h0
  | succ n => rfl

/-! ## The invariant: the accumulator carried from point to point -/

/-- The kernel's scratch operand, a whole scoped buffer of its own. -/
abbrev scM7 : Memref sig .tc .vmem S128x256 .f32 := Memref.whole cc7_scratch0

/-- The call's scoped buffers other than its staging buffers and its scratch, at some contents each. -/
abbrev rest7 (c : Dev nD) : sProp 𝕄 :=
  Pipeline.scopedRestBut (Ix := Unit) (Name := ℕ) (U := UR sig nD τ) (Lvl := ℕ) (Val := Elt F) spec7 c [cc7_scratch0]

/-- What the region is entered with, the scratch set apart as a memref owned at some contents. -/
theorem PhiA7_eq (c : Dev nD) :
    (Pipeline.ΦA spec7 c : sProp 𝕄)
      = iprop(iprop(iprop(∃ d, owns (c : Thread nD τ) scM7 fullShare d) ∗ rest7 (F := F) c) ∗ (∃ r, prngReg c r)) := by
  unfold Pipeline.ΦA; rw [scopedRest7_split]; simp only [scM7, owns_whole]; try rfl

/-- The invariant before position `n`: before the first point what the region is entered with; afterwards the scratch
    at the accumulator's value after the point before, the other scoped buffers at some contents, the generator
    register at some state. -/
def Phi7 (c : Dev nD) : (n : ℕ) → n ≤ cfg7.N → sProp 𝕄
  | 0, _ => Pipeline.ΦA spec7 c
  | n + 1, hn => iprop(iprop(owns (c : Thread nD τ) scM7 fullShare (acc7 V c n hn) ∗ rest7 (F := F) c) ∗ (∃ r, prngReg c r))

theorem Phi7_zero (c : Dev nD) (n : ℕ) (h : n ≤ cfg7.N) (hz : n = 0) : Phi7 V c n h = Pipeline.ΦA spec7 c := by
  subst hz; rfl

theorem Phi7_succ (c : Dev nD) (n : ℕ) (hn : n < cfg7.N) :
    Phi7 V c (n + 1) hn = iprop(iprop(owns (c : Thread nD τ) scM7 fullShare (acc7 V c n hn) ∗ rest7 (F := F) c) ∗ (∃ r, prngReg c r)) := rfl

theorem Phi7_pos (c : Dev nD) (n : ℕ) (h : n ≤ cfg7.N) (hz : n ≠ 0) :
    Phi7 V c n h = iprop(iprop(owns (c : Thread nD τ) scM7 fullShare (acc7 V c (n - 1) (by omega)) ∗ rest7 (F := F) c) ∗ (∃ r, prngReg c r)) := by
  cases n with
  | zero => exact absurd rfl hz
  | succ n => rfl

/-! ## The proof data and the body obligation -/

/-- The pipeline's proof data on core `c`: the arrays as the call finds them; after the body each input's buffer at its
    block and the output's at the accumulator's value after the point (what the last point writes back; at the other
    points, where the window is idle, nothing consults it); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val t.isLt
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = acc7 V c t.val t.isLt := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The invariant at a point's start, restated at the point's position. -/
theorem Phi7_castSucc (c : Dev nD) (t : Fin cfg7.N) :
    (dat7 V c).Φ t.castSucc = Phi7 V c t.val (Nat.le_of_lt t.isLt) := by
  dsimp only [dat7]; simp only [Fin.coe_castSucc]

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 2000000 in
/-- The body at any point. The inputs' memrefs hold their blocks; the point's position says which of the three cases it
    is in; the invariant hands the body the scratch — at anything at the first point, at the previous point's
    accumulator afterwards — and takes it back at this point's accumulator; off the last point the output block comes
    back as it was handed over, at the last point it comes back at the accumulator; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = Phi7 V c (t.val + 1) t.isLt from rfl, Phi7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  have hN : t.val < 10 := lt_of_lt_of_eq t.isLt (show cfg7.N = 10 from N_7)
  by_cases h0 : t.val = 0
  · have h9 : ¬t.val = 9 := by omega
    have hc0 : cond7_0 (grid7.coords t) := (hcond7_0 t).mpr h0
    have hc1 : ¬cond7_1 (grid7.coords t) := fun h => h9 ((hcond7_1 t).mp h)
    rw [Dat.leavesExact_idle (dat7 V c) 2 t (idleAt7_2 t hc1) (noFlush7_2 t hc1)]
    rw [acc7_first V c t h0]
    rw [Phi7_castSucc V c t, Phi7_zero V c _ _ h0, PhiA7_eq]
    iintro ⟨⟨⟨HS, HR⟩, Hg⟩, Ho, ⟨%d0, H0⟩, ⟨%d1, H1⟩, ⟨%d2, H2⟩⟩
    iapply (sound_kernel7_A c Set.univ (grid7.coords t) _ _ _ _ _ _ _ _ hc0 hc1 (iblk7 V c 0 t) (iblk7 V c 1 t) ((dat7 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hc0 : ¬cond7_0 (grid7.coords t) := fun h => h0 ((hcond7_0 t).mp h)
    rw [acc7_later V c t h0]
    rw [Phi7_castSucc V c t, Phi7_pos V c _ _ h0]
    by_cases h9 : t.val = 9
    · have hc1 : cond7_1 (grid7.coords t) := (hcond7_1 t).mpr h9
      rw [show (dat7 V c).leavesExact 2 t = owns (c : Thread nD τ) (st7_2 t) fullShare ((dat7 V c).after 2 t) from by
        unfold Dat.leavesExact; rw [liveAt7_2 t hc1], after7_2, acc7_later V c t h0]
      iintro ⟨⟨⟨HS, HR⟩, Hg⟩, Ho, ⟨%d0, H0⟩, ⟨%d1, H1⟩, ⟨%d2, H2⟩⟩
      iapply (sound_kernel7_C c Set.univ (grid7.coords t) _ _ _ _ _ _ _ _ hc0 hc1 (iblk7 V c 0 t) (iblk7 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬cond7_1 (grid7.coords t) := fun h => h9 ((hcond7_1 t).mp h)
      rw [Dat.leavesExact_idle (dat7 V c) 2 t (idleAt7_2 t hc1) (noFlush7_2 t hc1)]
      iintro ⟨⟨⟨HS, HR⟩, Hg⟩, Ho, ⟨%d0, H0⟩, ⟨%d1, H1⟩, ⟨%d2, H2⟩⟩
      iapply (sound_kernel7_B c Set.univ (grid7.coords t) _ _ _ _ _ _ _ _ hc0 hc1 (iblk7 V c 0 t) (iblk7 V c 1 t) ((dat7 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the call is entered with is the invariant before the first point. -/
theorem hin7 (c : Dev nD) : Pipeline.ΦA spec7 c ⊢ (dat7 V c).Φ 0 := by
  rw [show (dat7 V c).Φ 0 = Phi7 V c 0 (Nat.zero_le _) from rfl, Phi7_zero V c 0 _ rfl]
  try exact Idealize.SL.BI.Entails.refl _

/-- After the last point the invariant gives it back: the accumulator's named contents are forgotten. -/
theorem hout7 (c : Dev nD) : (dat7 V c).Φ (Fin.last cfg7.N) ⊢ Pipeline.ΦA spec7 c := by
  have hne : (Fin.last cfg7.N).val ≠ 0 := by rw [Fin.val_last]; have : cfg7.N = 10 := N_7; omega
  rw [show (dat7 V c).Φ (Fin.last cfg7.N) = Phi7 V c (Fin.last cfg7.N).val (Nat.le_of_lt_succ (Fin.last cfg7.N).isLt) from rfl,
    Phi7_pos V c _ _ hne, PhiA7_eq]
  iintro ⟨⟨HS, HR⟩, Hg⟩
  isplitl [HS HR]
  · isplitl [HS]
    · iexists _; iexact HS
    iexact HR
  iexact Hg

end Cert.Proof.K

end
-- ==== Proof.K.Run.lean ====
/-
  The whole program run: the contents of the TensorCore's buffers between the items of @main (a host stretch applies
  its operations; a pallas_call replaces its output array by what its pipeline wrote), every pipeline's proof data
  at its call's entry contents, each pallas_call as a segment between two such states, and the launch.
-/
import proofs.«421803_j42709154791890_2_alg».proof.Proof.K.RunCond
import proofs.«421803_j42709154791890_2_alg».proof.Proof.K.R0
import proofs.«421803_j42709154791890_2_alg».proof.Proof.K.R1
import proofs.«421803_j42709154791890_2_alg».proof.Proof.K.R2
import proofs.«421803_j42709154791890_2_alg».proof.Proof.K.R3
import proofs.«421803_j42709154791890_2_alg».proof.Proof.K.R4
import proofs.«421803_j42709154791890_2_alg».proof.Proof.K.R5
import proofs.«421803_j42709154791890_2_alg».proof.Proof.K.R6
import proofs.«421803_j42709154791890_2_alg».proof.Proof.K.R7

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- The TensorCore's references read off a valuation. -/
abbrev T (W : Dev nD → Valuation τ sig (Elt F)) : (c : Dev nD) → (b : Ref sig .tc) → Buf (Elt F) ((c : Thread nD τ).loc b) := fun c b => W c b

/-- Core `c`'s buffers before the first pallas_call: the launch contents through the first host stretch. -/
def U1 (c : Dev nD) : Valuation τ sig (Elt F) := StableHlo.after hostOps0 (fun b => m (c, b))
/-- What pallas_call 0 leaves in its output array: the pipeline's write-backs folded over the entry contents. -/
def o0 (c : Dev nD) := (dat0 (T (U1 m)) c).arrAt 3 cfg0.N
/-- After pallas_call 0: its output array at what it wrote, every other buffer as before. -/
def U2 (c : Dev nD) : Valuation τ sig (Elt F) := Function.update (U1 m c) main_v5 (o0 m c)
/-- Through the host stretch that follows. -/
def U3 (c : Dev nD) : Valuation τ sig (Elt F) := StableHlo.after hostOps1 (U2 m c)
/-- What pallas_call 1 leaves in its output array: the pipeline's write-backs folded over the entry contents. -/
def o1 (c : Dev nD) := (dat1 (T (U3 m)) c).arrAt 14 cfg1.N
/-- After pallas_call 1: its output array at what it wrote, every other buffer as before. -/
def U4 (c : Dev nD) : Valuation τ sig (Elt F) := Function.update (U3 m c) main_v53 (o1 m c)
/-- Through the host stretch that follows. -/
def U5 (c : Dev nD) : Valuation τ sig (Elt F) := StableHlo.after hostOps2 (U4 m c)
/-- What pallas_call 2 leaves in its output array: the pipeline's write-backs folded over the entry contents. -/
def o2 (c : Dev nD) := (dat2 (T (U5 m)) c).arrAt 7 cfg2.N
/-- After pallas_call 2: its output array at what it wrote, every other buffer as before. -/
def U6 (c : Dev nD) : Valuation τ sig (Elt F) := Function.update (U5 m c) main_v69 (o2 m c)
/-- Through the host stretch that follows. -/
def U7 (c : Dev nD) : Valuation τ sig (Elt F) := StableHlo.after hostOps3 (U6 m c)
/-- What pallas_call 3 leaves in its output array: the pipeline's write-backs folded over the entry contents. -/
def o3 (c : Dev nD) := (dat3 (T (U7 m)) c).arrAt 14 cfg3.N
/-- After pallas_call 3: its output array at what it wrote, every other buffer as before. -/
def U8 (c : Dev nD) : Valuation τ sig (Elt F) := Function.update (U7 m c) main_v116 (o3 m c)
/-- Through the host stretch that follows. -/
def U9 (c : Dev nD) : Valuation τ sig (Elt F) := StableHlo.after hostOps4 (U8 m c)
/-- What pallas_call 4 leaves in its output array: the pipeline's write-backs folded over the entry contents. -/
def o4 (c : Dev nD) := (dat4 (T (U9 m)) c).arrAt 7 cfg4.N
/-- After pallas_call 4: its output array at what it wrote, every other buffer as before. -/
def U10 (c : Dev nD) : Valuation τ sig (Elt F) := Function.update (U9 m c) main_v132 (o4 m c)
/-- Through the host stretch that follows. -/
def U11 (c : Dev nD) : Valuation τ sig (Elt F) := StableHlo.after hostOps5 (U10 m c)
/-- What pallas_call 5 leaves in its output array: the pipeline's write-backs folded over the entry contents. -/
def o5 (c : Dev nD) := (dat5 (T (U11 m)) c).arrAt 14 cfg5.N
/-- After pallas_call 5: its output array at what it wrote, every other buffer as before. -/
def U12 (c : Dev nD) : Valuation τ sig (Elt F) := Function.update (U11 m c) main_v179 (o5 m c)
/-- Through the host stretch that follows. -/
def U13 (c : Dev nD) : Valuation τ sig (Elt F) := StableHlo.after hostOps6 (U12 m c)
/-- What pallas_call 6 leaves in its output array: the pipeline's write-backs folded over the entry contents. -/
def o6 (c : Dev nD) := (dat6 (T (U13 m)) c).arrAt 7 cfg6.N
/-- After pallas_call 6: its output array at what it wrote, every other buffer as before. -/
def U14 (c : Dev nD) : Valuation τ sig (Elt F) := Function.update (U13 m c) main_v195 (o6 m c)
/-- Through the host stretch that follows. -/
def U15 (c : Dev nD) : Valuation τ sig (Elt F) := StableHlo.after hostOps7 (U14 m c)
/-- What pallas_call 7 leaves in its output array: the pipeline's write-backs folded over the entry contents. -/
def o7 (c : Dev nD) := (dat7 (T (U15 m)) c).arrAt 2 cfg7.N
/-- After pallas_call 7: its output array at what it wrote, every other buffer as before. -/
def U16 (c : Dev nD) : Valuation τ sig (Elt F) := Function.update (U15 m c) main_v197 (o7 m c)

/-- What each pallas_call leaves, as the conditional launch asks for it: indexed by the item after which it is read. -/
def outs : Outs (F := F) := fun J r c => match J with
  | 2 => U2 m c r
  | 4 => U4 m c r
  | 6 => U6 m c r
  | 8 => U8 m c r
  | 10 => U10 m c r
  | 12 => U12 m c r
  | 14 => U14 m c r
  | 16 => U16 m c r
  | _ => U1 m c r

/-! The conditional launch's valuations at these `outs` are the chain above. -/
theorem V1_eq (c : Dev nD) : V1 m c = U1 m c := rfl
theorem V2_eq (c : Dev nD) : V2 m (outs m) c = U2 m c := by
  rw [show V2 m (outs m) c = Function.update (V1 m c) main_v5 (U2 m c main_v5) from rfl, V1_eq,
    show U2 m c main_v5 = o0 m c from by
      show Function.update (U1 m c) (Proc.devRef .tc main_v5) (o0 m c) (Proc.devRef .tc main_v5) = _
      rw [Function.update_self]]
  rfl
theorem V3_eq (c : Dev nD) : V3 m (outs m) c = U3 m c := congrArg (StableHlo.after hostOps1) (V2_eq m c)
theorem V4_eq (c : Dev nD) : V4 m (outs m) c = U4 m c := by
  rw [show V4 m (outs m) c = Function.update (V3 m (outs m) c) main_v53 (U4 m c main_v53) from rfl, V3_eq,
    show U4 m c main_v53 = o1 m c from by
      show Function.update (U3 m c) (Proc.devRef .tc main_v53) (o1 m c) (Proc.devRef .tc main_v53) = _
      rw [Function.update_self]]
  rfl
theorem V5_eq (c : Dev nD) : V5 m (outs m) c = U5 m c := congrArg (StableHlo.after hostOps2) (V4_eq m c)
theorem V6_eq (c : Dev nD) : V6 m (outs m) c = U6 m c := by
  rw [show V6 m (outs m) c = Function.update (V5 m (outs m) c) main_v69 (U6 m c main_v69) from rfl, V5_eq,
    show U6 m c main_v69 = o2 m c from by
      show Function.update (U5 m c) (Proc.devRef .tc main_v69) (o2 m c) (Proc.devRef .tc main_v69) = _
      rw [Function.update_self]]
  rfl
theorem V7_eq (c : Dev nD) : V7 m (outs m) c = U7 m c := congrArg (StableHlo.after hostOps3) (V6_eq m c)
theorem V8_eq (c : Dev nD) : V8 m (outs m) c = U8 m c := by
  rw [show V8 m (outs m) c = Function.update (V7 m (outs m) c) main_v116 (U8 m c main_v116) from rfl, V7_eq,
    show U8 m c main_v116 = o3 m c from by
      show Function.update (U7 m c) (Proc.devRef .tc main_v116) (o3 m c) (Proc.devRef .tc main_v116) = _
      rw [Function.update_self]]
  rfl
theorem V9_eq (c : Dev nD) : V9 m (outs m) c = U9 m c := congrArg (StableHlo.after hostOps4) (V8_eq m c)
theorem V10_eq (c : Dev nD) : V10 m (outs m) c = U10 m c := by
  rw [show V10 m (outs m) c = Function.update (V9 m (outs m) c) main_v132 (U10 m c main_v132) from rfl, V9_eq,
    show U10 m c main_v132 = o4 m c from by
      show Function.update (U9 m c) (Proc.devRef .tc main_v132) (o4 m c) (Proc.devRef .tc main_v132) = _
      rw [Function.update_self]]
  rfl
theorem V11_eq (c : Dev nD) : V11 m (outs m) c = U11 m c := congrArg (StableHlo.after hostOps5) (V10_eq m c)
theorem V12_eq (c : Dev nD) : V12 m (outs m) c = U12 m c := by
  rw [show V12 m (outs m) c = Function.update (V11 m (outs m) c) main_v179 (U12 m c main_v179) from rfl, V11_eq,
    show U12 m c main_v179 = o5 m c from by
      show Function.update (U11 m c) (Proc.devRef .tc main_v179) (o5 m c) (Proc.devRef .tc main_v179) = _
      rw [Function.update_self]]
  rfl
theorem V13_eq (c : Dev nD) : V13 m (outs m) c = U13 m c := congrArg (StableHlo.after hostOps6) (V12_eq m c)
theorem V14_eq (c : Dev nD) : V14 m (outs m) c = U14 m c := by
  rw [show V14 m (outs m) c = Function.update (V13 m (outs m) c) main_v195 (U14 m c main_v195) from rfl, V13_eq,
    show U14 m c main_v195 = o6 m c from by
      show Function.update (U13 m c) (Proc.devRef .tc main_v195) (o6 m c) (Proc.devRef .tc main_v195) = _
      rw [Function.update_self]]
  rfl
theorem V15_eq (c : Dev nD) : V15 m (outs m) c = U15 m c := congrArg (StableHlo.after hostOps7) (V14_eq m c)
theorem V16_eq (c : Dev nD) : V16 m (outs m) c = U16 m c := by
  rw [show V16 m (outs m) c = Function.update (V15 m (outs m) c) main_v197 (U16 m c main_v197) from rfl, V15_eq,
    show U16 m c main_v197 = o7 m c from by
      show Function.update (U15 m c) (Proc.devRef .tc main_v197) (o7 m c) (Proc.devRef .tc main_v197) = _
      rw [Function.update_self]]
  rfl

/-! ## The proof data of every pipeline, the thread state between items -/

/-- Every pipeline's proof data, each at its call's entry contents. -/
def pdats : (p : Fin 8) → (c : Dev nD) → Dat τ (Elt F) Unit ℕ (UR sig nD τ) ℕ (cfgs p) c
  | ⟨0, _⟩ => fun c => dat0 (T (U1 m)) c
  | ⟨1, _⟩ => fun c => dat1 (T (U3 m)) c
  | ⟨2, _⟩ => fun c => dat2 (T (U5 m)) c
  | ⟨3, _⟩ => fun c => dat3 (T (U7 m)) c
  | ⟨4, _⟩ => fun c => dat4 (T (U9 m)) c
  | ⟨5, _⟩ => fun c => dat5 (T (U11 m)) c
  | ⟨6, _⟩ => fun c => dat6 (T (U13 m)) c
  | ⟨7, _⟩ => fun c => dat7 (T (U15 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The pallas_calls as segments -/

/-- At the call's exit each of its arrays holds what the pipeline leaves: an input as entered, the output its write-backs folded. -/
theorem hF0 (c : Dev nD) (w : Fin cfg0.W) :
    (dat0 (T (U1 m)) c).arrAt w cfg0.N = T (U2 m) c (Pipeline.arrRef spec0 w) := by
  by_cases hw : w = 3
  · subst hw
    show _ = Function.update (U1 m c) (Proc.devRef .tc main_v5) (o0 m c) (Proc.devRef .tc main_v5)
    rw [Function.update_self]; rfl
  · have hne : (Proc.devRef .tc (Pipeline.arrRef spec0 w) : DevRef τ sig) ≠ Proc.devRef .tc main_v5 := by
      revert w; decide
    have hin : (cfg0.win w).isOut = false := by revert w; decide
    refine ((dat0 (T (U1 m)) c).arrAt_in w hin _).trans ((A_eq0 (T (U1 m)) c w).trans ?_)
    show U1 m c (Proc.devRef .tc (Pipeline.arrRef spec0 w)) = Function.update (U1 m c) (Proc.devRef .tc main_v5) (o0 m c) (Proc.devRef .tc (Pipeline.arrRef spec0 w))
    rw [Function.update_of_ne hne]

/-- Every other buffer is as it was at the call's entry. -/
theorem hrest0 (c : Dev nD) : ∀ b, b ∉ Finset.univ.image (Pipeline.arrRef spec0) → T (U2 m) c b = T (U1 m) c b := by
  intro b hb
  have hne : (Proc.devRef .tc b : DevRef τ sig) ≠ Proc.devRef .tc main_v5 :=
    StableHlo.devRef_ne_of_ne fun e => hb (Finset.mem_image.mpr ⟨3, Finset.mem_univ _, by rw [e]⟩)
  show Function.update (U1 m c) (Proc.devRef .tc main_v5) (o0 m c) (Proc.devRef .tc b) = U1 m c (Proc.devRef .tc b)
  rw [Function.update_of_ne hne]

set_option backward.isDefEq.respectTransparency.types false in
/-- pallas_call 0 as a segment: entered with every unscoped buffer at the contents before it, left with its output
    array at what the pipeline wrote and everything else unchanged; the generator register rides through the
    invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (T (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (T (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T (U1 m) c) (T (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF1 (c : Dev nD) (w : Fin cfg1.W) :
    (dat1 (T (U3 m)) c).arrAt w cfg1.N = T (U4 m) c (Pipeline.arrRef spec1 w) := by
  by_cases hw : w = 14
  · subst hw
    show _ = Function.update (U3 m c) (Proc.devRef .tc main_v53) (o1 m c) (Proc.devRef .tc main_v53)
    rw [Function.update_self]; rfl
  · have hne : (Proc.devRef .tc (Pipeline.arrRef spec1 w) : DevRef τ sig) ≠ Proc.devRef .tc main_v53 := by
      revert w; decide
    have hin : (cfg1.win w).isOut = false := by revert w; decide
    refine ((dat1 (T (U3 m)) c).arrAt_in w hin _).trans ((A_eq1 (T (U3 m)) c w).trans ?_)
    show U3 m c (Proc.devRef .tc (Pipeline.arrRef spec1 w)) = Function.update (U3 m c) (Proc.devRef .tc main_v53) (o1 m c) (Proc.devRef .tc (Pipeline.arrRef spec1 w))
    rw [Function.update_of_ne hne]

/-- Every other buffer is as it was at the call's entry. -/
theorem hrest1 (c : Dev nD) : ∀ b, b ∉ Finset.univ.image (Pipeline.arrRef spec1) → T (U4 m) c b = T (U3 m) c b := by
  intro b hb
  have hne : (Proc.devRef .tc b : DevRef τ sig) ≠ Proc.devRef .tc main_v53 :=
    StableHlo.devRef_ne_of_ne fun e => hb (Finset.mem_image.mpr ⟨14, Finset.mem_univ _, by rw [e]⟩)
  show Function.update (U3 m c) (Proc.devRef .tc main_v53) (o1 m c) (Proc.devRef .tc b) = U3 m c (Proc.devRef .tc b)
  rw [Function.update_of_ne hne]

set_option backward.isDefEq.respectTransparency.types false in
/-- pallas_call 1 as a segment: entered with every unscoped buffer at the contents before it, left with its output
    array at what the pipeline wrote and everything else unchanged; the generator register rides through the
    invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (T (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (T (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T (U3 m) c) (T (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF2 (c : Dev nD) (w : Fin cfg2.W) :
    (dat2 (T (U5 m)) c).arrAt w cfg2.N = T (U6 m) c (Pipeline.arrRef spec2 w) := by
  by_cases hw : w = 7
  · subst hw
    show _ = Function.update (U5 m c) (Proc.devRef .tc main_v69) (o2 m c) (Proc.devRef .tc main_v69)
    rw [Function.update_self]; rfl
  · have hne : (Proc.devRef .tc (Pipeline.arrRef spec2 w) : DevRef τ sig) ≠ Proc.devRef .tc main_v69 := by
      revert w; decide
    have hin : (cfg2.win w).isOut = false := by revert w; decide
    refine ((dat2 (T (U5 m)) c).arrAt_in w hin _).trans ((A_eq2 (T (U5 m)) c w).trans ?_)
    show U5 m c (Proc.devRef .tc (Pipeline.arrRef spec2 w)) = Function.update (U5 m c) (Proc.devRef .tc main_v69) (o2 m c) (Proc.devRef .tc (Pipeline.arrRef spec2 w))
    rw [Function.update_of_ne hne]

/-- Every other buffer is as it was at the call's entry. -/
theorem hrest2 (c : Dev nD) : ∀ b, b ∉ Finset.univ.image (Pipeline.arrRef spec2) → T (U6 m) c b = T (U5 m) c b := by
  intro b hb
  have hne : (Proc.devRef .tc b : DevRef τ sig) ≠ Proc.devRef .tc main_v69 :=
    StableHlo.devRef_ne_of_ne fun e => hb (Finset.mem_image.mpr ⟨7, Finset.mem_univ _, by rw [e]⟩)
  show Function.update (U5 m c) (Proc.devRef .tc main_v69) (o2 m c) (Proc.devRef .tc b) = U5 m c (Proc.devRef .tc b)
  rw [Function.update_of_ne hne]

set_option backward.isDefEq.respectTransparency.types false in
/-- pallas_call 2 as a segment: entered with every unscoped buffer at the contents before it, left with its output
    array at what the pipeline wrote and everything else unchanged; the generator register rides through the
    invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (T (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (T (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T (U5 m) c) (T (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF3 (c : Dev nD) (w : Fin cfg3.W) :
    (dat3 (T (U7 m)) c).arrAt w cfg3.N = T (U8 m) c (Pipeline.arrRef spec3 w) := by
  by_cases hw : w = 14
  · subst hw
    show _ = Function.update (U7 m c) (Proc.devRef .tc main_v116) (o3 m c) (Proc.devRef .tc main_v116)
    rw [Function.update_self]; rfl
  · have hne : (Proc.devRef .tc (Pipeline.arrRef spec3 w) : DevRef τ sig) ≠ Proc.devRef .tc main_v116 := by
      revert w; decide
    have hin : (cfg3.win w).isOut = false := by revert w; decide
    refine ((dat3 (T (U7 m)) c).arrAt_in w hin _).trans ((A_eq3 (T (U7 m)) c w).trans ?_)
    show U7 m c (Proc.devRef .tc (Pipeline.arrRef spec3 w)) = Function.update (U7 m c) (Proc.devRef .tc main_v116) (o3 m c) (Proc.devRef .tc (Pipeline.arrRef spec3 w))
    rw [Function.update_of_ne hne]

/-- Every other buffer is as it was at the call's entry. -/
theorem hrest3 (c : Dev nD) : ∀ b, b ∉ Finset.univ.image (Pipeline.arrRef spec3) → T (U8 m) c b = T (U7 m) c b := by
  intro b hb
  have hne : (Proc.devRef .tc b : DevRef τ sig) ≠ Proc.devRef .tc main_v116 :=
    StableHlo.devRef_ne_of_ne fun e => hb (Finset.mem_image.mpr ⟨14, Finset.mem_univ _, by rw [e]⟩)
  show Function.update (U7 m c) (Proc.devRef .tc main_v116) (o3 m c) (Proc.devRef .tc b) = U7 m c (Proc.devRef .tc b)
  rw [Function.update_of_ne hne]

set_option backward.isDefEq.respectTransparency.types false in
/-- pallas_call 3 as a segment: entered with every unscoped buffer at the contents before it, left with its output
    array at what the pipeline wrote and everything else unchanged; the generator register rides through the
    invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T (U7 m)) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec3 c (T (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (T (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T (U7 m) c) (T (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF4 (c : Dev nD) (w : Fin cfg4.W) :
    (dat4 (T (U9 m)) c).arrAt w cfg4.N = T (U10 m) c (Pipeline.arrRef spec4 w) := by
  by_cases hw : w = 7
  · subst hw
    show _ = Function.update (U9 m c) (Proc.devRef .tc main_v132) (o4 m c) (Proc.devRef .tc main_v132)
    rw [Function.update_self]; rfl
  · have hne : (Proc.devRef .tc (Pipeline.arrRef spec4 w) : DevRef τ sig) ≠ Proc.devRef .tc main_v132 := by
      revert w; decide
    have hin : (cfg4.win w).isOut = false := by revert w; decide
    refine ((dat4 (T (U9 m)) c).arrAt_in w hin _).trans ((A_eq4 (T (U9 m)) c w).trans ?_)
    show U9 m c (Proc.devRef .tc (Pipeline.arrRef spec4 w)) = Function.update (U9 m c) (Proc.devRef .tc main_v132) (o4 m c) (Proc.devRef .tc (Pipeline.arrRef spec4 w))
    rw [Function.update_of_ne hne]

/-- Every other buffer is as it was at the call's entry. -/
theorem hrest4 (c : Dev nD) : ∀ b, b ∉ Finset.univ.image (Pipeline.arrRef spec4) → T (U10 m) c b = T (U9 m) c b := by
  intro b hb
  have hne : (Proc.devRef .tc b : DevRef τ sig) ≠ Proc.devRef .tc main_v132 :=
    StableHlo.devRef_ne_of_ne fun e => hb (Finset.mem_image.mpr ⟨7, Finset.mem_univ _, by rw [e]⟩)
  show Function.update (U9 m c) (Proc.devRef .tc main_v132) (o4 m c) (Proc.devRef .tc b) = U9 m c (Proc.devRef .tc b)
  rw [Function.update_of_ne hne]

set_option backward.isDefEq.respectTransparency.types false in
/-- pallas_call 4 as a segment: entered with every unscoped buffer at the contents before it, left with its output
    array at what the pipeline wrote and everything else unchanged; the generator register rides through the
    invariant; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T (U9 m)) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (T (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (T (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T (U9 m) c) (T (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF5 (c : Dev nD) (w : Fin cfg5.W) :
    (dat5 (T (U11 m)) c).arrAt w cfg5.N = T (U12 m) c (Pipeline.arrRef spec5 w) := by
  by_cases hw : w = 14
  · subst hw
    show _ = Function.update (U11 m c) (Proc.devRef .tc main_v179) (o5 m c) (Proc.devRef .tc main_v179)
    rw [Function.update_self]; rfl
  · have hne : (Proc.devRef .tc (Pipeline.arrRef spec5 w) : DevRef τ sig) ≠ Proc.devRef .tc main_v179 := by
      revert w; decide
    have hin : (cfg5.win w).isOut = false := by revert w; decide
    refine ((dat5 (T (U11 m)) c).arrAt_in w hin _).trans ((A_eq5 (T (U11 m)) c w).trans ?_)
    show U11 m c (Proc.devRef .tc (Pipeline.arrRef spec5 w)) = Function.update (U11 m c) (Proc.devRef .tc main_v179) (o5 m c) (Proc.devRef .tc (Pipeline.arrRef spec5 w))
    rw [Function.update_of_ne hne]

/-- Every other buffer is as it was at the call's entry. -/
theorem hrest5 (c : Dev nD) : ∀ b, b ∉ Finset.univ.image (Pipeline.arrRef spec5) → T (U12 m) c b = T (U11 m) c b := by
  intro b hb
  have hne : (Proc.devRef .tc b : DevRef τ sig) ≠ Proc.devRef .tc main_v179 :=
    StableHlo.devRef_ne_of_ne fun e => hb (Finset.mem_image.mpr ⟨14, Finset.mem_univ _, by rw [e]⟩)
  show Function.update (U11 m c) (Proc.devRef .tc main_v179) (o5 m c) (Proc.devRef .tc b) = U11 m c (Proc.devRef .tc b)
  rw [Function.update_of_ne hne]

set_option backward.isDefEq.respectTransparency.types false in
/-- pallas_call 5 as a segment: entered with every unscoped buffer at the contents before it, left with its output
    array at what the pipeline wrote and everything else unchanged; the generator register rides through the
    invariant; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T (U11 m)) c).loose
  hwaits := Pipeline.hwaits_of_owed_zero _ _ _ _ L lv 5 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec5 c (T (U11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (T (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T (U11 m) c) (T (U12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF6 (c : Dev nD) (w : Fin cfg6.W) :
    (dat6 (T (U13 m)) c).arrAt w cfg6.N = T (U14 m) c (Pipeline.arrRef spec6 w) := by
  by_cases hw : w = 7
  · subst hw
    show _ = Function.update (U13 m c) (Proc.devRef .tc main_v195) (o6 m c) (Proc.devRef .tc main_v195)
    rw [Function.update_self]; rfl
  · have hne : (Proc.devRef .tc (Pipeline.arrRef spec6 w) : DevRef τ sig) ≠ Proc.devRef .tc main_v195 := by
      revert w; decide
    have hin : (cfg6.win w).isOut = false := by revert w; decide
    refine ((dat6 (T (U13 m)) c).arrAt_in w hin _).trans ((A_eq6 (T (U13 m)) c w).trans ?_)
    show U13 m c (Proc.devRef .tc (Pipeline.arrRef spec6 w)) = Function.update (U13 m c) (Proc.devRef .tc main_v195) (o6 m c) (Proc.devRef .tc (Pipeline.arrRef spec6 w))
    rw [Function.update_of_ne hne]

/-- Every other buffer is as it was at the call's entry. -/
theorem hrest6 (c : Dev nD) : ∀ b, b ∉ Finset.univ.image (Pipeline.arrRef spec6) → T (U14 m) c b = T (U13 m) c b := by
  intro b hb
  have hne : (Proc.devRef .tc b : DevRef τ sig) ≠ Proc.devRef .tc main_v195 :=
    StableHlo.devRef_ne_of_ne fun e => hb (Finset.mem_image.mpr ⟨7, Finset.mem_univ _, by rw [e]⟩)
  show Function.update (U13 m c) (Proc.devRef .tc main_v195) (o6 m c) (Proc.devRef .tc b) = U13 m c (Proc.devRef .tc b)
  rw [Function.update_of_ne hne]

set_option backward.isDefEq.respectTransparency.types false in
/-- pallas_call 6 as a segment: entered with every unscoped buffer at the contents before it, left with its output
    array at what the pipeline wrote and everything else unchanged; the generator register rides through the
    invariant; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T (U13 m)) c).loose
  hwaits := Pipeline.hwaits_of_owed_zero _ _ _ _ L lv 6 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec6 c (T (U13 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (T (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T (U13 m) c) (T (U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF7 (c : Dev nD) (w : Fin cfg7.W) :
    (dat7 (T (U15 m)) c).arrAt w cfg7.N = T (U16 m) c (Pipeline.arrRef spec7 w) := by
  by_cases hw : w = 2
  · subst hw
    show _ = Function.update (U15 m c) (Proc.devRef .tc main_v197) (o7 m c) (Proc.devRef .tc main_v197)
    rw [Function.update_self]; rfl
  · have hne : (Proc.devRef .tc (Pipeline.arrRef spec7 w) : DevRef τ sig) ≠ Proc.devRef .tc main_v197 := by
      revert w; decide
    have hin : (cfg7.win w).isOut = false := by revert w; decide
    refine ((dat7 (T (U15 m)) c).arrAt_in w hin _).trans ((A_eq7 (T (U15 m)) c w).trans ?_)
    show U15 m c (Proc.devRef .tc (Pipeline.arrRef spec7 w)) = Function.update (U15 m c) (Proc.devRef .tc main_v197) (o7 m c) (Proc.devRef .tc (Pipeline.arrRef spec7 w))
    rw [Function.update_of_ne hne]

/-- Every other buffer is as it was at the call's entry. -/
theorem hrest7 (c : Dev nD) : ∀ b, b ∉ Finset.univ.image (Pipeline.arrRef spec7) → T (U16 m) c b = T (U15 m) c b := by
  intro b hb
  have hne : (Proc.devRef .tc b : DevRef τ sig) ≠ Proc.devRef .tc main_v197 :=
    StableHlo.devRef_ne_of_ne fun e => hb (Finset.mem_image.mpr ⟨2, Finset.mem_univ _, by rw [e]⟩)
  show Function.update (U15 m c) (Proc.devRef .tc main_v197) (o7 m c) (Proc.devRef .tc b) = U15 m c (Proc.devRef .tc b)
  rw [Function.update_of_ne hne]

set_option backward.isDefEq.respectTransparency.types false in
/-- pallas_call 7 as a segment: entered with every unscoped buffer at the contents before it, left with its output
    array at what the pipeline wrote and everything else unchanged; the generator register rides through the
    invariant; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T (U15 m)) c).loose
  hwaits := Pipeline.hwaits_of_owed_zero _ _ _ _ L lv 7 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec7 c (T (U15 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (T (U15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (T (U15 m)) c).Φ 0 from rfl]
    iintro ⟨Hp, -, Hr⟩
    iapply (hin7 (T (U15 m)) c)
    unfold Pipeline.ΦA
    isplitl [Hr]; · iexact Hr
    iexact Hp
  hout c := by
    rw [Pipeline.ownSems0_none, show (pdats m 7 c).Φ (Fin.last _) = (dat7 (T (U15 m)) c).Φ (Fin.last cfg7.N) from rfl]
    refine (hout7 (T (U15 m)) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T (U15 m) c) (T (U16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main terminates without a fault; the result buffer ends holding what the last
    pallas_call wrote (`o7`) and every argument ends as launched. -/
theorem run_main : θ_run defs (onTc (τ := τ) (main (F := F))) ⟨m, fun _ => 0, ρ⟩ (fun r => ∀ c : Dev nD,
      r.2.mem ((c.tc : Thread nD τ).loc main_v197) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
      ⊢ (bigSep Finset.univ (fun c : Dev nD => R (F := F) c) : sProp 𝕄) :=
    bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ R (F := F) c from by
      iintro ⟨-, HO, -, Hp, -⟩
      isplitl [Hp]; · iexists _; iexact Hp
      iexists ∅; iexact HO)
  have h := run_cond (F := F) m (Ix := Unit) (U := UR sig nD τ) (Lvl := ℕ) (EP := emb₁) (ι := ()) (𝒱₀ := 𝒱₀) (L := L) (lv := lv)
    (hL := fun _ _ => rfl) (ρ := ρ) (outs := outs m) (pdats := pdats m)
    (O₀ := 0) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      iintro ⟨H, -⟩
      imodintro
      iapply hmono
      iexact H)
    (hE8 := fun c => by iintro ⟨-, HO⟩; iexact HO)
    (R0 := reg0 m) (hpre0 := fun c => by rw [V1_eq m c]; exact .rfl) (hpost0 := fun c => by rw [V2_eq m c]; exact .rfl)
    (R1 := reg1 m) (hpre1 := fun c => by rw [V3_eq m c]; exact .rfl) (hpost1 := fun c => by rw [V4_eq m c]; exact .rfl)
    (R2 := reg2 m) (hpre2 := fun c => by rw [V5_eq m c]; exact .rfl) (hpost2 := fun c => by rw [V6_eq m c]; exact .rfl)
    (R3 := reg3 m) (hpre3 := fun c => by rw [V7_eq m c]; exact .rfl) (hpost3 := fun c => by rw [V8_eq m c]; exact .rfl)
    (R4 := reg4 m) (hpre4 := fun c => by rw [V9_eq m c]; exact .rfl) (hpost4 := fun c => by rw [V10_eq m c]; exact .rfl)
    (R5 := reg5 m) (hpre5 := fun c => by rw [V11_eq m c]; exact .rfl) (hpost5 := fun c => by rw [V12_eq m c]; exact .rfl)
    (R6 := reg6 m) (hpre6 := fun c => by rw [V13_eq m c]; exact .rfl) (hpost6 := fun c => by rw [V14_eq m c]; exact .rfl)
    (R7 := reg7 m) (hpre7 := fun c => by rw [V15_eq m c]; exact .rfl) (hpost7 := fun c => by rw [V16_eq m c]; exact .rfl)
  refine (θ_run defs _ _).mono (fun r hr c => ?_) h
  have hc := hr c
  rw [V16_eq m c, show U16 m c main_v197 = o7 m c from by
    show Function.update (U15 m c) (Proc.devRef .tc main_v197) (o7 m c) (Proc.devRef .tc main_v197) = _
    rw [Function.update_self]] at hc
  exact hc

end Cert.Proof.K

end
-- ==== Proof.KI.RunCond.lean ====
/-
  The launch of the whole program from one segment record per pallas_call, with the RESULT read back as well:
  every weakly fair execution of @main terminates, the result buffer ends holding what the last valuation gives it and
  every argument ends as launched. The host stretches, the chaining and the launch's first thread state are the
  generated conditional frame's; here the last thread state is read at one more buffer.
-/
import proofs.«421803_j42709154791890_2_alg».proof.Proof.Gen.KernelIdeal.Regions

set_option maxRecDepth 1920

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in
/-- Given, per pallas_call, a segment record entered from the thread state before it and left at the one after it:
    @main runs to the end, the result buffer holds the last valuation's contents and the arguments are unchanged. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c)) :
    θ_run defs (onTc (τ := τ) (main (F := F))) ⟨m, fun _ => 0, ρ⟩ (fun r => ∀ c : Dev nD,
      r.2.mem ((c.tc : Thread nD τ).loc main_v197) = V16 m outs c main_v197
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, (hpost7 c).trans (sep_mono .rfl (hE8 c))⟩)
    (hinit := ?_) (QY := fun c s => s.mem ((c.tc : Thread nD τ).loc main_v197) = V16 m outs c main_v197 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨h (Proc.devRef .tc main_v197) (Finset.mem_filter.mpr ⟨StableHlo.devRef_mem_tcRefs main_v197, by decide⟩),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c),
        (h (Proc.devRef .tc main_arg7) (Finset.mem_filter.mpr ⟨StableHlo.devRef_mem_tcRefs main_arg7, by decide⟩)).trans (V16_main_arg7 m outs c),
        (h (Proc.devRef .tc main_arg8) (Finset.mem_filter.mpr ⟨StableHlo.devRef_mem_tcRefs main_arg8, by decide⟩)).trans (V16_main_arg8 m outs c),
        (h (Proc.devRef .tc main_arg9) (Finset.mem_filter.mpr ⟨StableHlo.devRef_mem_tcRefs main_arg9, by decide⟩)).trans (V16_main_arg9 m outs c),
        (h (Proc.devRef .tc main_arg10) (Finset.mem_filter.mpr ⟨StableHlo.devRef_mem_tcRefs main_arg10, by decide⟩)).trans (V16_main_arg10 m outs c),
        (h (Proc.devRef .tc main_arg11) (Finset.mem_filter.mpr ⟨StableHlo.devRef_mem_tcRefs main_arg11, by decide⟩)).trans (V16_main_arg11 m outs c),
        (h (Proc.devRef .tc main_arg12) (Finset.mem_filter.mpr ⟨StableHlo.devRef_mem_tcRefs main_arg12, by decide⟩)).trans (V16_main_arg12 m outs c),
        (h (Proc.devRef .tc main_arg13) (Finset.mem_filter.mpr ⟨StableHlo.devRef_mem_tcRefs main_arg13, by decide⟩)).trans (V16_main_arg13 m outs c),
        (h (Proc.devRef .tc main_arg14) (Finset.mem_filter.mpr ⟨StableHlo.devRef_mem_tcRefs main_arg14, by decide⟩)).trans (V16_main_arg14 m outs c),
        (h (Proc.devRef .tc main_arg15) (Finset.mem_filter.mpr ⟨StableHlo.devRef_mem_tcRefs main_arg15, by decide⟩)).trans (V16_main_arg15 m outs c)⟩
    · iexact HSI

end Cert.Proof.KI

end
-- ==== Proof.KI.R0.lean ====
/-
  The first pallas_call: the input projection, one block of 2000 node rows per grid point.
  For any contents `V` of the TensorCore's buffers at the call's entry: the block each window holds at a point,
  what the body leaves in the output block (the projected rows, a pure function of the three input blocks),
  the body's triple, the pipeline's proof data and its body obligation. Stated for every float instance.
-/
import proofs.«421803_j42709154791890_2_alg».proof.Proof.Gen.KernelIdeal.Launch
import proofs.«421803_j42709154791890_2_alg».proof.Proof.Gen.KernelIdeal.Skeleton
import proofs.«421803_j42709154791890_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`: the rows `2000·t … 2000·t + 1999` of the node features for window 0, the whole
    weight matrix and the whole bias row for windows 1 and 2, read off the arrays as the call finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, whether the pipeline fetched it there or the block index
    stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole-buffer rectangles of the body's three loads and its store. -/
abbrev rx0 : Rect S2000x64 := Rect.unit (s := S2000x64) ![0, 0] S2000x64.size inb_S2000x64_S2000x64_0_0
abbrev rw0 : Rect S64x256 := Rect.unit (s := S64x256) ![0, 0] S64x256.size inb_S64x256_S64x256_0_0
abbrev rb0 : Rect S1x256 := Rect.unit (s := S1x256) ![0, 0] S1x256.size inb_S1x256_S1x256_0_0
abbrev ro0 : Rect S2000x256 := Rect.unit (s := S2000x256) ![0, 0] S2000x256.size inb_S2000x256_S2000x256_0_0

/-- The output block after the body: the one store's payload — the rows times the weights plus the bias row — written
    through the whole-block rectangle. -/
def out0_3 (x0 : Vec F S2000x64 .f32) (x1 : Vec F S64x256 .f32) (x2 : Vec F S1x256 .f32) : Vec F S2000x256 .bf16 :=
  View.canon [⟨ro0, k0_pay1 (View.ld x0 rx0) (View.ld x1 rw0) (View.ld x2 rb0)⟩]

/-- The one store covers the block. -/
theorem cover0_3 (p0 : Vec F S2000x256 .bf16) (y : S2000x256.Idx) :
    ∃ pc ∈ ([⟨ro0, p0⟩] : List (View.Piece (Elt F) S2000x256 .bf16)), y ∈ pc.1.set :=
  View.cover_of_tiled [⟨ro0, p0⟩] S2000x256.size (by rfl) y

/-! ## The body's triple -/

set_option maxHeartbeats 1000000 in
/-- The body on whole staging memrefs, the inputs' at contents `x0 x1 x2` and the output's at anything, ends with the
    inputs' as they were and the output's at `out0_3` of them. -/
theorem sound_kernel0 (c : Dev nD) (E : Set ℕ) (i : grid0.Coords) (arg1 : Memref sig .tc .vmem S2000x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S2000x256 .bf16) (harg4 : arg4.IsWhole)
    (x0 : Vec F S2000x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data and the body obligation -/

/-- The pipeline's proof data on core `c`: the arrays as the call finds them; after the body each input's buffer at its
    block and the output's at `out0_3` of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Proof.KI

end
-- ==== Proof.KI.R1.lean ====
/-
  The second pallas_call: the per-edge message network, one block of 2000 edge rows per grid point.
  For any contents `V` of the TensorCore's buffers at the call's entry: the block each of the fifteen windows holds at a
  point, what the body leaves in the output block (the message rows, a pure function of the fourteen input blocks),
  the body's triple, the pipeline's proof data and its body obligation. Stated for every float instance.
-/
import proofs.«421803_j42709154791890_2_alg».proof.Proof.Gen.KernelIdeal.Launch
import proofs.«421803_j42709154791890_2_alg».proof.Proof.Gen.KernelIdeal.Skeleton
import proofs.«421803_j42709154791890_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the arrays as the call finds them: for the six per-edge windows
    (the two endpoint state rows, the two endpoint scalar-feature columns, the edge features, the edge-weight column)
    the rows `2000·t … 2000·t + 1999`; for the eight weight and bias windows the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, whether the pipeline fetched it there or the block index
    stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The whole-buffer rectangles of the body's loads and its store, one per block shape. -/
abbrev r1_rows : Rect S2000x256 := Rect.unit (s := S2000x256) ![0, 0] S2000x256.size inb_S2000x256_S2000x256_0_0
abbrev r1_col : Rect S2000x1 := Rect.unit (s := S2000x1) ![0, 0] S2000x1.size inb_S2000x1_S2000x1_0_0
abbrev r1_feat : Rect S2000x64 := Rect.unit (s := S2000x64) ![0, 0] S2000x64.size inb_S2000x64_S2000x64_0_0
abbrev r1_sq : Rect S256x256 := Rect.unit (s := S256x256) ![0, 0] S256x256.size inb_S256x256_S256x256_0_0
abbrev r1_wx : Rect S64x256 := Rect.unit (s := S64x256) ![0, 0] S64x256.size inb_S64x256_S64x256_0_0
abbrev r1_bias : Rect S1x256 := Rect.unit (s := S1x256) ![0, 0] S1x256.size inb_S1x256_S1x256_0_0

/-- The output block after the body: the one store's payload — the first layer's sum of three matrix products and two
    outer products, its bias and rectifier, the second layer's product and bias, each row scaled by its edge weight —
    written through the whole-block rectangle. -/
def out1_14 (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) : Vec F S2000x256 .f32 :=
  View.canon [⟨r1_rows, k1_pay1 (k1_pay2 (View.ld x0 r1_rows) (View.ld x1 r1_rows) (View.ld x4 r1_feat) (View.ld x6 r1_sq) (View.ld x7 r1_sq) (View.ld x8 r1_wx) (View.ld x2 r1_col) (View.ld x3 r1_col) (View.ld x9 r1_bias) (View.ld x10 r1_bias)) (View.ld x11 r1_bias) (View.ld x12 r1_sq) (View.ld x13 r1_bias) (View.ld x5 r1_col)⟩]

/-- The one store covers the block. -/
theorem cover1_14 (p0 : Vec F S2000x256 .f32) (y : S2000x256.Idx) :
    ∃ pc ∈ ([⟨r1_rows, p0⟩] : List (View.Piece (Elt F) S2000x256 .f32)), y ∈ pc.1.set :=
  View.cover_of_tiled [⟨r1_rows, p0⟩] S2000x256.size (by rfl) y

/-! ## The body's triple -/

set_option maxHeartbeats 4000000 in
/-- The body on whole staging memrefs, the inputs' at contents `x0 … x13` and the output's at anything, ends with the
    inputs' as they were and the output's at `out1_14` of them. -/
theorem sound_kernel1 (c : Dev nD) (E : Set ℕ) (i : grid1.Coords) (arg1 : Memref sig .tc .vmem S2000x256 .bf16) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2000x256 .f32) (harg15 : arg15.IsWhole)
    (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out1_14 x0 x1 x2 x3 x4 x5 x6 x7 x8 x9 x10 x11 x12 x13)) -∗ K ⟨⟩))
      ⊢ wp frame (wpE (defs₀ (F := F)) Variants.none c none) E (cc1__msg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__msg_kernel_eq_skeleton]; unfold cc1__msg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover1_14 _)

/-! ## The proof data and the body obligation -/

/-- The pipeline's proof data on core `c`: the arrays as the call finds them; after the body each input's buffer at its
    block and the output's at `out1_14` of the input blocks; the scoped rest and the generator register untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) :
    (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Proof.KI

end
-- ==== Proof.KI.R2.lean ====
/-
  A per-node combine pallas_call: two dense layers, the first with one weight matrix for the node rows and one for the
  message rows, on a block of 2000 node rows per grid point.
  For any contents `V` of the TensorCore's buffers at the call's entry: the block each window holds at a point,
  what the body leaves in the output block (the combined rows, a pure function of the seven input blocks),
  the body's triple, the pipeline's proof data and its body obligation. Stated for every float instance.
-/
import proofs.«421803_j42709154791890_2_alg».proof.Proof.Gen.KernelIdeal.Launch
import proofs.«421803_j42709154791890_2_alg».proof.Proof.Gen.KernelIdeal.Skeleton
import proofs.«421803_j42709154791890_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`: the rows `2000·t … 2000·t + 1999` of the node states for window 0 and of the
    aggregated messages for window 1, the whole weight matrices and the whole bias rows for windows 2 to 6, read off
    the arrays as the call finds them. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, whether the pipeline fetched it there or the block index
    stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The whole-buffer rectangles of the body's loads and its store, one for each of the three block shapes. -/
abbrev r2_blk : Rect S2000x256 := Rect.unit (s := S2000x256) ![0, 0] S2000x256.size inb_S2000x256_S2000x256_0_0
abbrev r2_mat : Rect S256x256 := Rect.unit (s := S256x256) ![0, 0] S256x256.size inb_S256x256_S256x256_0_0
abbrev r2_row : Rect S1x256 := Rect.unit (s := S1x256) ![0, 0] S1x256.size inb_S1x256_S1x256_0_0

/-- The output block after the body: the one store's payload — two dense layers with a rectifier after each, the first
    on the node rows and the message rows side by side — written through the whole-block rectangle. -/
def out2_7 (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) : Vec F S2000x256 .bf16 :=
  View.canon [⟨r2_blk, k2_pay1 (View.ld x0 r2_blk) (View.ld x1 r2_blk) (View.ld x2 r2_mat) (View.ld x3 r2_mat) (View.ld x4 r2_row) (View.ld x5 r2_mat) (View.ld x6 r2_row)⟩]

/-- The one store covers the block. -/
theorem cover2_7 (p0 : Vec F S2000x256 .bf16) (y : S2000x256.Idx) :
    ∃ pc ∈ ([⟨r2_blk, p0⟩] : List (View.Piece (Elt F) S2000x256 .bf16)), y ∈ pc.1.set :=
  View.cover_of_tiled [⟨r2_blk, p0⟩] S2000x256.size (by rfl) y

/-! ## The body's triple -/

set_option maxHeartbeats 1000000 in
/-- The body on whole staging memrefs, the inputs' at contents `x0 … x6` and the output's at anything, ends with the
    inputs' as they were and the output's at `out2_7` of them. -/
theorem sound_kernel2 (c : Dev nD) (E : Set ℕ) (i : grid2.Coords) (arg1 : Memref sig .tc .vmem S2000x256 .bf16) (harg1 : arg1.IsWhole) (arg2 : Memref sig .tc .vmem S2000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .bf16) (harg8 : arg8.IsWhole)
    (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__upd_kernel i arg1 harg1 arg2 harg2 arg3 harg3 arg4 harg4 arg5 harg5 arg6 harg6 arg7 harg7 arg8 harg8) K := by
  simp only [cc2__upd_kernel_eq_skeleton]; unfold cc2__upd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The proof data and the body obligation -/

/-- The pipeline's proof data on core `c`: the arrays as the call finds them; after the body each input's buffer at its
    block and the output's at `out2_7` of the input blocks; the scoped rest and the generator register untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Proof.KI

end
-- ==== Proof.KI.R3.lean ====
/-
  The second pallas_call: the per-edge message network, one block of 2000 edge rows per grid point.
  For any contents `V` of the TensorCore's buffers at the call's entry: the block each of the fifteen windows holds at a
  point, what the body leaves in the output block (the message rows, a pure function of the fourteen input blocks),
  the body's triple, the pipeline's proof data and its body obligation. Stated for every float instance.
-/
import proofs.«421803_j42709154791890_2_alg».proof.Proof.Gen.KernelIdeal.Launch
import proofs.«421803_j42709154791890_2_alg».proof.Proof.Gen.KernelIdeal.Skeleton
import proofs.«421803_j42709154791890_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the arrays as the call finds them: for the six per-edge windows
    (the two endpoint state rows, the two endpoint scalar-feature columns, the edge features, the edge-weight column)
    the rows `2000·t … 2000·t + 1999`; for the eight weight and bias windows the whole array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds its block at every point, whether the pipeline fetched it there or the block index
    stood still since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output block -/

/-- The whole-buffer rectangles of the body's loads and its store, one per block shape. -/
abbrev r3_rows : Rect S2000x256 := Rect.unit (s := S2000x256) ![0, 0] S2000x256.size inb_S2000x256_S2000x256_0_0
abbrev r3_col : Rect S2000x1 := Rect.unit (s := S2000x1) ![0, 0] S2000x1.size inb_S2000x1_S2000x1_0_0
abbrev r3_feat : Rect S2000x64 := Rect.unit (s := S2000x64) ![0, 0] S2000x64.size inb_S2000x64_S2000x64_0_0
abbrev r3_sq : Rect S256x256 := Rect.unit (s := S256x256) ![0, 0] S256x256.size inb_S256x256_S256x256_0_0
abbrev r3_wx : Rect S64x256 := Rect.unit (s := S64x256) ![0, 0] S64x256.size inb_S64x256_S64x256_0_0
abbrev r3_bias : Rect S1x256 := Rect.unit (s := S1x256) ![0, 0] S1x256.size inb_S1x256_S1x256_0_0

/-- The output block after the body: the one store's payload — the first layer's sum of three matrix products and two
    outer products, its bias and rectifier, the second layer's product and bias, each row scaled by its edge weight —
    written through the whole-block rectangle. -/
def out3_14 (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) : Vec F S2000x256 .f32 :=
  View.canon [⟨r3_rows, k3_pay1 (k3_pay2 (View.ld x0 r3_rows) (View.ld x1 r3_rows) (View.ld x4 r3_feat) (View.ld x6 r3_sq) (View.ld x7 r3_sq) (View.ld x8 r3_wx) (View.ld x2 r3_col) (View.ld x3 r3_col) (View.ld x9 r3_bias) (View.ld x10 r3_bias)) (View.ld x11 r3_bias) (View.ld x12 r3_sq) (View.ld x13 r3_bias) (View.ld x5 r3_col)⟩]

/-- The one store covers the block. -/
theorem cover3_14 (p0 : Vec F S2000x256 .f32) (y : S2000x256.Idx) :
    ∃ pc ∈ ([⟨r3_rows, p0⟩] : List (View.Piece (Elt F) S2000x256 .f32)), y ∈ pc.1.set :=
  View.cover_of_tiled [⟨r3_rows, p0⟩] S2000x256.size (by rfl) y

/-! ## The body's triple -/

set_option maxHeartbeats 4000000 in
/-- The body on whole staging memrefs, the inputs' at contents `x0 … x13` and the output's at anything, ends with the
    inputs' as they were and the output's at `out3_14` of them. -/
theorem sound_kernel3 (c : Dev nD) (E : Set ℕ) (i : grid3.Coords) (arg1 : Memref sig .tc .vmem S2000x256 .bf16) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2000x256 .f32) (harg15 : arg15.IsWhole)
    (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out3_14 x0 x1 x2 x3 x4 x5 x6 x7 x8 x9 x10 x11 x12 x13)) -∗ K ⟨⟩))
      ⊢ wp frame (wpE (defs₀ (F := F)) Variants.none c none) E (cc3__msg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc3__msg_kernel_eq_skeleton]; unfold cc3__msg_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover3_14 _)

/-! ## The proof data and the body obligation -/

/-- The pipeline's proof data on core `c`: the arrays as the call finds them; after the body each input's buffer at its
    block and the output's at `out3_14` of the input blocks; the scoped rest and the generator register untouched;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) :
    (dat3 V c).after 14 t = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel3 c Set.univ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Proof.KI

end
-- ==== Proof.KI.R4.lean ====
/-
  A per-node combine pallas_call: two dense layers, the first with one weight matrix for the node rows and one for the
  message rows, on a block of 2000 node rows per grid point.
  For any contents `V` of the TensorCore's buffers at the call's entry: the block each window holds at a point,
  what the body leaves in the output block (the combined rows, a pure function of the seven input blocks),
  the body's triple, the pipeline's proof data and its body obligation. Stated for every float instance.
-/
import proofs.«421803_j42709154791890_2_alg».proof.Proof.Gen.KernelIdeal.Launch
import proofs.«421803_j42709154791890_2_alg».proof.Proof.Gen.KernelIdeal.Skeleton
import proofs.«421803_j42709154791890_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`: the rows `2000·t … 2000·t + 1999` of the node states for window 0 and of the
    aggregated messages for window 1, the whole weight matrices and the whole bias rows for windows 2 to 6, read off
    the arrays as the call finds them. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's staging buffer holds its block at every point, whether the pipeline fetched it there or the block index
    stood still since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in the output block -/

/-- The whole-buffer rectangles of the body's loads and its store, one for each of the three block shapes. -/
abbrev r4_blk : Rect S2000x256 := Rect.unit (s := S2000x256) ![0, 0] S2000x256.size inb_S2000x256_S2000x256_0_0
abbrev r4_mat : Rect S256x256 := Rect.unit (s := S256x256) ![0, 0] S256x256.size inb_S256x256_S256x256_0_0
abbrev r4_row : Rect S1x256 := Rect.unit (s := S1x256) ![0, 0] S1x256.size inb_S1x256_S1x256_0_0

/-- The output block after the body: the one store's payload — two dense layers with a rectifier after each, the first
    on the node rows and the message rows side by side — written through the whole-block rectangle. -/
def out4_7 (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) : Vec F S2000x256 .bf16 :=
  View.canon [⟨r4_blk, k4_pay1 (View.ld x0 r4_blk) (View.ld x1 r4_blk) (View.ld x2 r4_mat) (View.ld x3 r4_mat) (View.ld x4 r4_row) (View.ld x5 r4_mat) (View.ld x6 r4_row)⟩]

/-- The one store covers the block. -/
theorem cover4_7 (p0 : Vec F S2000x256 .bf16) (y : S2000x256.Idx) :
    ∃ pc ∈ ([⟨r4_blk, p0⟩] : List (View.Piece (Elt F) S2000x256 .bf16)), y ∈ pc.1.set :=
  View.cover_of_tiled [⟨r4_blk, p0⟩] S2000x256.size (by rfl) y

/-! ## The body's triple -/

set_option maxHeartbeats 1000000 in
/-- The body on whole staging memrefs, the inputs' at contents `x0 … x6` and the output's at anything, ends with the
    inputs' as they were and the output's at `out4_7` of them. -/
theorem sound_kernel4 (c : Dev nD) (E : Set ℕ) (i : grid4.Coords) (arg1 : Memref sig .tc .vmem S2000x256 .bf16) (harg1 : arg1.IsWhole) (arg2 : Memref sig .tc .vmem S2000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .bf16) (harg8 : arg8.IsWhole)
    (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out4_7 x0 x1 x2 x3 x4 x5 x6)) -∗ K ⟨⟩))
      ⊢ wp frame (wpE (defs₀ (F := F)) Variants.none c none) E (cc4__upd_kernel i arg1 harg1 arg2 harg2 arg3 harg3 arg4 harg4 arg5 harg5 arg6 harg6 arg7 harg7 arg8 harg8) K := by
  simp only [cc4__upd_kernel_eq_skeleton]; unfold cc4__upd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The proof data and the body obligation -/

/-- The pipeline's proof data on core `c`: the arrays as the call finds them; after the body each input's buffer at its
    block and the output's at `out4_7` of the input blocks; the scoped rest and the generator register untouched;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) :
    (dat4 V c).after 7 t = out4_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Proof.KI

end
-- ==== Proof.KI.R5.lean ====
/-
  The second pallas_call: the per-edge message network, one block of 2000 edge rows per grid point.
  For any contents `V` of the TensorCore's buffers at the call's entry: the block each of the fifteen windows holds at a
  point, what the body leaves in the output block (the message rows, a pure function of the fourteen input blocks),
  the body's triple, the pipeline's proof data and its body obligation. Stated for every float instance.
-/
import proofs.«421803_j42709154791890_2_alg».proof.Proof.Gen.KernelIdeal.Launch
import proofs.«421803_j42709154791890_2_alg».proof.Proof.Gen.KernelIdeal.Skeleton
import proofs.«421803_j42709154791890_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`, read off the arrays as the call finds them: for the six per-edge windows
    (the two endpoint state rows, the two endpoint scalar-feature columns, the edge features, the edge-weight column)
    the rows `2000·t … 2000·t + 1999`; for the eight weight and bias windows the whole array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input's staging buffer holds its block at every point, whether the pipeline fetched it there or the block index
    stood still since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)
theorem before5_11_of {c : Dev nD} (dat : Dat τ (Elt F) Unit ℕ (UR sig nD τ) ℕ cfg5 c) (hA : dat.A 11 = V c (Pipeline.arrRef spec5 11))
    (hafter : ∀ t, dat.after 11 t = iblk5 V c 11 t) (t : Fin cfg5.N) (d) : dat.before 11 t d = iblk5 V c 11 t :=
  (dat.before_in_eq_fetched 11 rfl (fun _ => rfl) (fun _ _ _ => rfl) (fun t => by rw [hafter]; unfold Dat.blockOf iblk5; rw [hA]; try rfl) t d).trans
    (by unfold Dat.fetched Dat.blockOf iblk5; rw [hA]; try rfl)
theorem before5_12_of {c : Dev nD} (dat : Dat τ (Elt F) Unit ℕ (UR sig nD τ) ℕ cfg5 c) (hA : dat.A 12 = V c (Pipeline.arrRef spec5 12))
    (hafter : ∀ t, dat.after 12 t = iblk5 V c 12 t) (t : Fin cfg5.N) (d) : dat.before 12 t d = iblk5 V c 12 t :=
  (dat.before_in_eq_fetched 12 rfl (fun _ => rfl) (fun _ _ _ => rfl) (fun t => by rw [hafter]; unfold Dat.blockOf iblk5; rw [hA]; try rfl) t d).trans
    (by unfold Dat.fetched Dat.blockOf iblk5; rw [hA]; try rfl)
theorem before5_13_of {c : Dev nD} (dat : Dat τ (Elt F) Unit ℕ (UR sig nD τ) ℕ cfg5 c) (hA : dat.A 13 = V c (Pipeline.arrRef spec5 13))
    (hafter : ∀ t, dat.after 13 t = iblk5 V c 13 t) (t : Fin cfg5.N) (d) : dat.before 13 t d = iblk5 V c 13 t :=
  (dat.before_in_eq_fetched 13 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in the output block -/

/-- The whole-buffer rectangles of the body's loads and its store, one per block shape. -/
abbrev r5_rows : Rect S2000x256 := Rect.unit (s := S2000x256) ![0, 0] S2000x256.size inb_S2000x256_S2000x256_0_0
abbrev r5_col : Rect S2000x1 := Rect.unit (s := S2000x1) ![0, 0] S2000x1.size inb_S2000x1_S2000x1_0_0
abbrev r5_feat : Rect S2000x64 := Rect.unit (s := S2000x64) ![0, 0] S2000x64.size inb_S2000x64_S2000x64_0_0
abbrev r5_sq : Rect S256x256 := Rect.unit (s := S256x256) ![0, 0] S256x256.size inb_S256x256_S256x256_0_0
abbrev r5_wx : Rect S64x256 := Rect.unit (s := S64x256) ![0, 0] S64x256.size inb_S64x256_S64x256_0_0
abbrev r5_bias : Rect S1x256 := Rect.unit (s := S1x256) ![0, 0] S1x256.size inb_S1x256_S1x256_0_0

/-- The output block after the body: the one store's payload — the first layer's sum of three matrix products and two
    outer products, its bias and rectifier, the second layer's product and bias, each row scaled by its edge weight —
    written through the whole-block rectangle. -/
def out5_14 (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) : Vec F S2000x256 .f32 :=
  View.canon [⟨r5_rows, k5_pay1 (k5_pay2 (View.ld x0 r5_rows) (View.ld x1 r5_rows) (View.ld x4 r5_feat) (View.ld x6 r5_sq) (View.ld x7 r5_sq) (View.ld x8 r5_wx) (View.ld x2 r5_col) (View.ld x3 r5_col) (View.ld x9 r5_bias) (View.ld x10 r5_bias)) (View.ld x11 r5_bias) (View.ld x12 r5_sq) (View.ld x13 r5_bias) (View.ld x5 r5_col)⟩]

/-- The one store covers the block. -/
theorem cover5_14 (p0 : Vec F S2000x256 .f32) (y : S2000x256.Idx) :
    ∃ pc ∈ ([⟨r5_rows, p0⟩] : List (View.Piece (Elt F) S2000x256 .f32)), y ∈ pc.1.set :=
  View.cover_of_tiled [⟨r5_rows, p0⟩] S2000x256.size (by rfl) y

/-! ## The body's triple -/

set_option maxHeartbeats 4000000 in
/-- The body on whole staging memrefs, the inputs' at contents `x0 … x13` and the output's at anything, ends with the
    inputs' as they were and the output's at `out5_14` of them. -/
theorem sound_kernel5 (c : Dev nD) (E : Set ℕ) (i : grid5.Coords) (arg1 : Memref sig .tc .vmem S2000x256 .bf16) (harg1 : arg1.IsWhole) (arg2 : Memref sig .tc .vmem S2000x256 .bf16) (harg2 : arg2.IsWhole) (arg3 : Memref sig .tc .vmem S2000x1 .f32) (harg3 : arg3.IsWhole) (arg4 : Memref sig .tc .vmem S2000x1 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S2000x256 .f32) (harg15 : arg15.IsWhole)
    (x0 : Vec F S2000x256 .bf16) (x1 : Vec F S2000x256 .bf16) (x2 : Vec F S2000x1 .f32) (x3 : Vec F S2000x1 .f32) (x4 : Vec F S2000x64 .f32) (x5 : Vec F S2000x1 .f32) (x6 : Vec F S256x256 .f32) (x7 : Vec F S256x256 .f32) (x8 : Vec F S64x256 .f32) (x9 : Vec F S1x256 .f32) (x10 : Vec F S1x256 .f32) (x11 : Vec F S1x256 .f32) (x12 : Vec F S256x256 .f32) (x13 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out5_14 x0 x1 x2 x3 x4 x5 x6 x7 x8 x9 x10 x11 x12 x13)) -∗ K ⟨⟩))
      ⊢ wp frame (wpE (defs₀ (F := F)) Variants.none c none) E (cc5__msg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc5__msg_kernel_eq_skeleton]; unfold cc5__msg_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover5_14 _)

/-! ## The proof data and the body obligation -/

/-- The pipeline's proof data on core `c`: the arrays as the call finds them; after the body each input's buffer at its
    block and the output's at `out5_14` of the input blocks; the scoped rest and the generator register untouched;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => iblk5 V c 13 t
    | ⟨14, _⟩ => out5_14 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = iblk5 V c 11 t := by dsimp only [dat5]
theorem after5_12 (c : Dev nD) (t : Fin cfg5.N) : (dat5 V c).after 12 t = iblk5 V c 12 t := by dsimp only [dat5]
theorem after5_13 (c : Dev nD) (t : Fin cfg5.N) : (dat5 V c).after 13 t = iblk5 V c 13 t := by dsimp only [dat5]
theorem after5_14 (c : Dev nD) (t : Fin cfg5.N) :
    (dat5 V c).after 14 t = out5_14 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d
theorem before5_11 (c : Dev nD) (t : Fin cfg5.N) (d) : (dat5 V c).before 11 t d = iblk5 V c 11 t :=
  before5_11_of V (dat5 V c) (A_eq5 V c 11) (after5_11 V c) t d
theorem before5_12 (c : Dev nD) (t : Fin cfg5.N) (d) : (dat5 V c).before 12 t d = iblk5 V c 12 t :=
  before5_12_of V (dat5 V c) (A_eq5 V c 12) (after5_12 V c) t d
theorem before5_13 (c : Dev nD) (t : Fin cfg5.N) (d) : (dat5 V c).before 13 t d = iblk5 V c 13 t :=
  before5_13_of V (dat5 V c) (A_eq5 V c 13) (after5_13 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d))
    ∗ (∃ d, owns (c : Thread nD τ) (st5_13 t) fullShare ((dat5 V c).before 13 t d))
    ∗ (∃ d, owns (c : Thread nD τ) (st5_14 t) fullShare ((dat5 V c).before 14 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t)
    ∗ owns (c : Thread nD τ) (st5_13 t) fullShare ((dat5 V c).after 13 t)
    ∗ owns (c : Thread nD τ) (st5_14 t) fullShare ((dat5 V c).after 14 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10, before5_11, before5_12, before5_13]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12, after5_13, after5_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel5 c Set.univ _ _ _ _ _ _ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Proof.KI

end
-- ==== Proof.KI.R6.lean ====
/-
  A per-node combine pallas_call: two dense layers, the first with one weight matrix for the node rows and one for the
  message rows, on a block of 2000 node rows per grid point.
  For any contents `V` of the TensorCore's buffers at the call's entry: the block each window holds at a point,
  what the body leaves in the output block (the combined rows, a pure function of the seven input blocks),
  the body's triple, the pipeline's proof data and its body obligation. Stated for every float instance.
-/
import proofs.«421803_j42709154791890_2_alg».proof.Proof.Gen.KernelIdeal.Launch
import proofs.«421803_j42709154791890_2_alg».proof.Proof.Gen.KernelIdeal.Skeleton
import proofs.«421803_j42709154791890_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window `w`'s block at grid point `t`: the rows `2000·t … 2000·t + 1999` of the node states for window 0 and of the
    aggregated messages for window 1, the whole weight matrices and the whole bias rows for windows 2 to 6, read off
    the arrays as the call finds them. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input's staging buffer holds its block at every point, whether the pipeline fetched it there or the block index
    stood still since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## What the body leaves in the output block -/

/-- The whole-buffer rectangles of the body's loads and its store, one for each of the three block shapes. -/
abbrev r6_blk : Rect S2000x256 := Rect.unit (s := S2000x256) ![0, 0] S2000x256.size inb_S2000x256_S2000x256_0_0
abbrev r6_mat : Rect S256x256 := Rect.unit (s := S256x256) ![0, 0] S256x256.size inb_S256x256_S256x256_0_0
abbrev r6_row : Rect S1x256 := Rect.unit (s := S1x256) ![0, 0] S1x256.size inb_S1x256_S1x256_0_0

/-- The output block after the body: the one store's payload — two dense layers with a rectifier after each, the first
    on the node rows and the message rows side by side — written through the whole-block rectangle. -/
def out6_7 (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) : Vec F S2000x256 .bf16 :=
  View.canon [⟨r6_blk, k6_pay1 (View.ld x0 r6_blk) (View.ld x1 r6_blk) (View.ld x2 r6_mat) (View.ld x3 r6_mat) (View.ld x4 r6_row) (View.ld x5 r6_mat) (View.ld x6 r6_row)⟩]

/-- The one store covers the block. -/
theorem cover6_7 (p0 : Vec F S2000x256 .bf16) (y : S2000x256.Idx) :
    ∃ pc ∈ ([⟨r6_blk, p0⟩] : List (View.Piece (Elt F) S2000x256 .bf16)), y ∈ pc.1.set :=
  View.cover_of_tiled [⟨r6_blk, p0⟩] S2000x256.size (by rfl) y

/-! ## The body's triple -/

set_option maxHeartbeats 1000000 in
/-- The body on whole staging memrefs, the inputs' at contents `x0 … x6` and the output's at anything, ends with the
    inputs' as they were and the output's at `out6_7` of them. -/
theorem sound_kernel6 (c : Dev nD) (E : Set ℕ) (i : grid6.Coords) (arg1 : Memref sig .tc .vmem S2000x256 .bf16) (harg1 : arg1.IsWhole) (arg2 : Memref sig .tc .vmem S2000x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2000x256 .bf16) (harg8 : arg8.IsWhole)
    (x0 : Vec F S2000x256 .bf16) (x1 : Vec F S2000x256 .f32) (x2 : Vec F S256x256 .f32) (x3 : Vec F S256x256 .f32) (x4 : Vec F S1x256 .f32) (x5 : Vec F S256x256 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out6_7 x0 x1 x2 x3 x4 x5 x6)) -∗ K ⟨⟩))
      ⊢ wp frame (wpE (defs₀ (F := F)) Variants.none c none) E (cc6__upd_kernel i arg1 harg1 arg2 harg2 arg3 harg3 arg4 harg4 arg5 harg5 arg6 harg6 arg7 harg7 arg8 harg8) K := by
  simp only [cc6__upd_kernel_eq_skeleton]; unfold cc6__upd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The proof data and the body obligation -/

/-- The pipeline's proof data on core `c`: the arrays as the call finds them; after the body each input's buffer at its
    block and the output's at `out6_7` of the input blocks; the scoped rest and the generator register untouched;
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) :
    (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Proof.KI

end
-- ==== Proof.KI.R7.lean ====
/-
  The last pallas_call: the per-graph readout. Ten grid points, one block of 2000 node rows and their 2000 graph
  ids per point; the kernel keeps a 128 × 256 accumulator in a scratch buffer of its own, resets it at the first
  point, adds at every point the one-hot product of the block's graph ids with its rows, and at the last point
  copies the accumulator into the output block, which the pipeline writes back there and nowhere else.
  For any contents `V` of the TensorCore's buffers at the call's entry: the block each input window holds at a
  point, the accumulator's value after each point (by recursion on the point), the body's triple in each of the
  three cases, the pipeline's proof data — whose invariant carries the accumulator's value from point to point —
  and its body obligation. Stated for every float instance.
-/
import proofs.«421803_j42709154791890_2_alg».proof.Proof.Gen.KernelIdeal.Launch
import proofs.«421803_j42709154791890_2_alg».proof.Proof.Gen.KernelIdeal.Skeleton
import proofs.«421803_j42709154791890_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the input windows hold -/

/-- Window `w`'s block at grid point `t`: the rows `2000·t … 2000·t + 1999` of the node features for window 0 and of
    the graph ids for window 1, read off the arrays as the call finds them. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input's staging buffer holds its block at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The two conditions of the body and where they hold -/

/-- The first conditional's condition ("this is the first point"), from the grid coordinate. -/
abbrev cond7_0 (i : grid7.Coords) : Prop := (Scalar.cmpi .ne (Scalar.extui (Scalar.cmpi .eq (BitVec.ofNat 32 (i 0).val) 0#32)) 0#32) = 1#1
/-- The second conditional's condition ("this is the last point"). -/
abbrev cond7_1 (i : grid7.Coords) : Prop := k7_cond2 i = 1#1

/-- The first holds at point 0 only, -/
theorem hcond7_0 : ∀ t : Fin cfg7.N, cond7_0 (grid7.coords t) ↔ t.val = 0 :=
  (by decide +kernel : ∀ t : Fin grid7.N, cond7_0 (grid7.coords t) ↔ t.val = 0)
/-- the second at point 9 only. -/
theorem hcond7_1 : ∀ t : Fin cfg7.N, cond7_1 (grid7.coords t) ↔ t.val = 9 :=
  (by decide +kernel : ∀ t : Fin grid7.N, cond7_1 (grid7.coords t) ↔ t.val = 9)

/-- The inputs are never idle. -/
theorem liveAt7_0 : ∀ t : Fin cfg7.N, cfg7.idle 0 (grid7.coords t) = false := by decide +kernel
theorem liveAt7_1 : ∀ t : Fin cfg7.N, cfg7.idle 1 (grid7.coords t) = false := by decide +kernel
/-- Off the last point the output window is idle and not written back; -/
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
/-- at the last point it is live. -/
theorem liveAt7_2 : ∀ t : Fin cfg7.N, cond7_1 (grid7.coords t) → cfg7.idle 2 (grid7.coords t) = false := by decide +kernel

/-! ## The body's triple, case by case -/

theorem hz7 : (![0, 0] : Fin 2 → Nat) = fun _ => 0 := funext fun a => by fin_cases a <;> rfl

/-- The whole-buffer rectangle of the accumulator's and the output block's loads and stores. -/
abbrev ra7 : Rect S128x256 := Rect.unit (s := S128x256) ![0, 0] S128x256.size inb_S128x256_S128x256_0_0

/-- A last store through it covers the buffer, whatever was stored before. -/
theorem cover7 (p : Vec F S128x256 .f32) (L : List (View.Piece (Elt F) S128x256 .f32)) (y : S128x256.Idx) :
    ∃ pc ∈ ((⟨ra7, p⟩ : View.Piece (Elt F) S128x256 .f32) :: L), y ∈ pc.1.set :=
  ⟨_, List.mem_cons_self, View.mem_set_unit_zero hz7 inb_S128x256_S128x256_0_0 y⟩

set_option maxHeartbeats 1000000 in
/-- At the first point: whatever the accumulator held, the body resets it to zero and leaves one step over zero; the
    output block is handed back as it was. -/
theorem sound_kernel7_A (c : Dev nD) (E : Set ℕ) (i : grid7.Coords) (arg1 : Memref sig .tc .vmem S2000x256 .bf16) (harg1 : arg1.IsWhole) (arg2 : Memref sig .tc .vmem S2000x1 .i32) (harg2 : arg2.IsWhole)
    (arg3 : Memref sig .tc .vmem S128x256 .f32) (harg3 : arg3.IsWhole) (arg4 : Memref sig .tc .vmem S128x256 .f32) (harg4 : arg4.IsWhole)
    (hc0 : cond7_0 i) (hc1 : ¬cond7_1 i)
    (x0 : Vec F S2000x256 .bf16) (x1 : Vec F S2000x1 .i32) (y : Vec F S128x256 .f32) (K : PUnit → sProp 𝕄) :
    iprop(owns (c : Thread nD τ) arg1 fullShare x0 ∗ owns (c : Thread nD τ) arg2 fullShare x1 ∗ owns (c : Thread nD τ) arg3 fullShare y
        ∗ (∃ d, owns (c : Thread nD τ) arg4 fullShare d)
        ∗ (iprop(owns (c : Thread nD τ) arg1 fullShare x0 ∗ owns (c : Thread nD τ) arg2 fullShare x1 ∗ owns (c : Thread nD τ) arg3 fullShare y
            ∗ owns (c : Thread nD τ) arg4 fullShare (k7_pay2 x0 x1 (k7_pay1 (F := F)))) -∗ K ⟨⟩))
      ⊢ wp frame (wpE (defs₀ (F := F)) Variants.none c none) E (cc7__readout_kernel i arg1 harg1 arg2 harg2 arg3 harg3 arg4 harg4) K := by
  simp only [cc7__readout_kernel_eq_skeleton]; unfold cc7__readout_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (cover7 _ _)]
  rw [View.canon_cons_unit_zero (S := S128x256) hz7, View.readCov_unit_zero (S := S128x256) _ hz7]
  simp only [View.readAt_eq_ld, View.ld_unit_zero (S := S2000x256) hz7, View.ld_unit_zero (S := S2000x1) hz7]

set_option maxHeartbeats 1000000 in
/-- At a point that is neither first nor last: the accumulator at `xs` is left one step further; the output block is
    handed back as it was. -/
theorem sound_kernel7_B (c : Dev nD) (E : Set ℕ) (i : grid7.Coords) (arg1 : Memref sig .tc .vmem S2000x256 .bf16) (harg1 : arg1.IsWhole) (arg2 : Memref sig .tc .vmem S2000x1 .i32) (harg2 : arg2.IsWhole)
    (arg3 : Memref sig .tc .vmem S128x256 .f32) (harg3 : arg3.IsWhole) (arg4 : Memref sig .tc .vmem S128x256 .f32) (harg4 : arg4.IsWhole)
    (hc0 : ¬cond7_0 i) (hc1 : ¬cond7_1 i)
    (x0 : Vec F S2000x256 .bf16) (x1 : Vec F S2000x1 .i32) (y : Vec F S128x256 .f32) (xs : Vec F S128x256 .f32) (K : PUnit → sProp 𝕄) :
    iprop(owns (c : Thread nD τ) arg1 fullShare x0 ∗ owns (c : Thread nD τ) arg2 fullShare x1 ∗ owns (c : Thread nD τ) arg3 fullShare y
        ∗ owns (c : Thread nD τ) arg4 fullShare xs
        ∗ (iprop(owns (c : Thread nD τ) arg1 fullShare x0 ∗ owns (c : Thread nD τ) arg2 fullShare x1 ∗ owns (c : Thread nD τ) arg3 fullShare y
            ∗ owns (c : Thread nD τ) arg4 fullShare (k7_pay2 x0 x1 xs)) -∗ K ⟨⟩))
      ⊢ wp frame (wpE (defs₀ (F := F)) Variants.none c none) E (cc7__readout_kernel i arg1 harg1 arg2 harg2 arg3 harg3 arg4 harg4) K := by
  simp only [cc7__readout_kernel_eq_skeleton]; unfold cc7__readout_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (cover7 _ _)]
  rw [View.canon_cons_unit_zero (S := S128x256) hz7]
  simp only [View.readAt_eq_ld, View.ld_unit_zero (S := S2000x256) hz7, View.ld_unit_zero (S := S2000x1) hz7, View.ld_unit_zero (S := S128x256) hz7]

set_option maxHeartbeats 1000000 in
/-- At the last point: the accumulator at `xs` is left one step further, and the output block, whatever it held, is left
    at the same value. -/
theorem sound_kernel7_C (c : Dev nD) (E : Set ℕ) (i : grid7.Coords) (arg1 : Memref sig .tc .vmem S2000x256 .bf16) (harg1 : arg1.IsWhole) (arg2 : Memref sig .tc .vmem S2000x1 .i32) (harg2 : arg2.IsWhole)
    (arg3 : Memref sig .tc .vmem S128x256 .f32) (harg3 : arg3.IsWhole) (arg4 : Memref sig .tc .vmem S128x256 .f32) (harg4 : arg4.IsWhole)
    (hc0 : ¬cond7_0 i) (hc1 : cond7_1 i)
    (x0 : Vec F S2000x256 .bf16) (x1 : Vec F S2000x1 .i32) (xs : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1 ∗ owns (c : Thread nD τ) arg3 fullShare (k7_pay2 x0 x1 xs)
            ∗ owns (c : Thread nD τ) arg4 fullShare (k7_pay2 x0 x1 xs)) -∗ K ⟨⟩))
      ⊢ wp frame (wpE (defs₀ (F := F)) Variants.none c none) E (cc7__readout_kernel i arg1 harg1 arg2 harg2 arg3 harg3 arg4 harg4) K := by
  simp only [cc7__readout_kernel_eq_skeleton]; unfold cc7__readout_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover7 _ _)]
    rw [View.canon_unit_zero (S := S128x256) hz7, View.readCov_unit_zero (S := S128x256) _ hz7]
    simp only [View.readAt_eq_ld, View.ld_unit_zero (S := S2000x256) hz7, View.ld_unit_zero (S := S2000x1) hz7, View.ld_unit_zero (S := S128x256) hz7]
  iexists _; isplitr
  swap; · iexact H3
  ipureintro
  sl_unfold_run_names
  rw [View.read_writes_eq_canon _ _ _ (cover7 _ _)]
  rw [View.canon_unit_zero (S := S128x256) hz7]
  simp only [View.readAt_eq_ld, View.ld_unit_zero (S := S2000x256) hz7, View.ld_unit_zero (S := S2000x1) hz7, View.ld_unit_zero (S := S128x256) hz7]

/-! ## The accumulator after each point -/

/-- The accumulator after the body at point `n`: one step over zero at the first point, one step over the previous
    point's value afterwards — a step adds to the accumulator the one-hot product of the point's graph ids with its rows. -/
def acc7 (c : Dev nD) : (n : ℕ) → n < cfg7.N → Vec F S128x256 .f32
  | 0, h => k7_pay2 (iblk7 V c 0 ⟨0, h⟩) (iblk7 V c 1 ⟨0, h⟩) (k7_pay1 (F := F))
  | n + 1, h => k7_pay2 (iblk7 V c 0 ⟨n + 1, h⟩) (iblk7 V c 1 ⟨n + 1, h⟩) (acc7 c n (Nat.lt_of_succ_lt h))

theorem acc7_zero (c : Dev nD) (h : 0 < cfg7.N) :
    acc7 V c 0 h = k7_pay2 (iblk7 V c 0 ⟨0, h⟩) (iblk7 V c 1 ⟨0, h⟩) (k7_pay1 (F := F)) := rfl

theorem acc7_succ (c : Dev nD) (n : ℕ) (h : n + 1 < cfg7.N) :
    acc7 V c (n + 1) h = k7_pay2 (iblk7 V c 0 ⟨n + 1, h⟩) (iblk7 V c 1 ⟨n + 1, h⟩) (acc7 V c n (Nat.lt_of_succ_lt h)) := rfl

/-- The same at a point given as such: the first, -/
theorem acc7_first (c : Dev nD) (t : Fin cfg7.N) (h0 : t.val = 0) :
    acc7 V c t.val t.isLt = k7_pay2 (iblk7 V c 0 t) (iblk7 V c 1 t) (k7_pay1 (F := F)) := by
  obtain ⟨n, hn⟩ := t
  cases n with
  | zero => rfl
  | succ n => exact absurd h0 (Nat.succ_ne_zero n)

/-- and a later one. -/
theorem acc7_later (c : Dev nD) (t : Fin cfg7.N) (h0 : t.val ≠ 0) :
    acc7 V c t.val t.isLt = k7_pay2 (iblk7 V c 0 t) (iblk7 V c 1 t)
      (acc7 V c (t.val - 1) (Nat.lt_of_le_of_lt (Nat.sub_le _ _) t.isLt)) := by
  obtain ⟨n, hn⟩ := t
  cases n with
  | zero => exact absurd rfl h0
  | succ n => rfl

/-! ## The invariant: the accumulator carried from point to point -/

/-- The kernel's scratch operand, a whole scoped buffer of its own. -/
abbrev scM7 : Memref sig .tc .vmem S128x256 .f32 := Memref.whole cc7_scratch0

/-- The call's scoped buffers other than its staging buffers and its scratch, at some contents each. -/
abbrev rest7 (c : Dev nD) : sProp 𝕄 :=
  Pipeline.scopedRestBut (Ix := Unit) (Name := ℕ) (U := UR sig nD τ) (Lvl := ℕ) (Val := Elt F) spec7 c [cc7_scratch0]

/-- What the region is entered with, the scratch set apart as a memref owned at some contents. -/
theorem PhiA7_eq (c : Dev nD) :
    (Pipeline.ΦA spec7 c : sProp 𝕄)
      = iprop(iprop(iprop(∃ d, owns (c : Thread nD τ) scM7 fullShare d) ∗ rest7 (F := F) c) ∗ (∃ r, prngReg c r)) := by
  unfold Pipeline.ΦA; rw [scopedRest7_split]; simp only [scM7, owns_whole]; try rfl

/-- The invariant before position `n`: before the first point what the region is entered with; afterwards the scratch
    at the accumulator's value after the point before, the other scoped buffers at some contents, the generator
    register at some state. -/
def Phi7 (c : Dev nD) : (n : ℕ) → n ≤ cfg7.N → sProp 𝕄
  | 0, _ => Pipeline.ΦA spec7 c
  | n + 1, hn => iprop(iprop(owns (c : Thread nD τ) scM7 fullShare (acc7 V c n hn) ∗ rest7 (F := F) c) ∗ (∃ r, prngReg c r))

theorem Phi7_zero (c : Dev nD) (n : ℕ) (h : n ≤ cfg7.N) (hz : n = 0) : Phi7 V c n h = Pipeline.ΦA spec7 c := by
  subst hz; rfl

theorem Phi7_succ (c : Dev nD) (n : ℕ) (hn : n < cfg7.N) :
    Phi7 V c (n + 1) hn = iprop(iprop(owns (c : Thread nD τ) scM7 fullShare (acc7 V c n hn) ∗ rest7 (F := F) c) ∗ (∃ r, prngReg c r)) := rfl

theorem Phi7_pos (c : Dev nD) (n : ℕ) (h : n ≤ cfg7.N) (hz : n ≠ 0) :
    Phi7 V c n h = iprop(iprop(owns (c : Thread nD τ) scM7 fullShare (acc7 V c (n - 1) (by omega)) ∗ rest7 (F := F) c) ∗ (∃ r, prngReg c r)) := by
  cases n with
  | zero => exact absurd rfl hz
  | succ n => rfl

/-! ## The proof data and the body obligation -/

/-- The pipeline's proof data on core `c`: the arrays as the call finds them; after the body each input's buffer at its
    block and the output's at the accumulator's value after the point (what the last point writes back; at the other
    points, where the window is idle, nothing consults it); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => acc7 V c t.val t.isLt
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = acc7 V c t.val t.isLt := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The invariant at a point's start, restated at the point's position. -/
theorem Phi7_castSucc (c : Dev nD) (t : Fin cfg7.N) :
    (dat7 V c).Φ t.castSucc = Phi7 V c t.val (Nat.le_of_lt t.isLt) := by
  dsimp only [dat7]; simp only [Fin.coe_castSucc]

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 2000000 in
/-- The body at any point. The inputs' memrefs hold their blocks; the point's position says which of the three cases it
    is in; the invariant hands the body the scratch — at anything at the first point, at the previous point's
    accumulator afterwards — and takes it back at this point's accumulator; off the last point the output block comes
    back as it was handed over, at the last point it comes back at the accumulator; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = Phi7 V c (t.val + 1) t.isLt from rfl, Phi7_succ]
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  have hN : t.val < 10 := lt_of_lt_of_eq t.isLt (show cfg7.N = 10 from N_7)
  by_cases h0 : t.val = 0
  · have h9 : ¬t.val = 9 := by omega
    have hc0 : cond7_0 (grid7.coords t) := (hcond7_0 t).mpr h0
    have hc1 : ¬cond7_1 (grid7.coords t) := fun h => h9 ((hcond7_1 t).mp h)
    rw [Dat.leavesExact_idle (dat7 V c) 2 t (idleAt7_2 t hc1) (noFlush7_2 t hc1)]
    rw [acc7_first V c t h0]
    rw [Phi7_castSucc V c t, Phi7_zero V c _ _ h0, PhiA7_eq]
    iintro ⟨⟨⟨HS, HR⟩, Hg⟩, Ho, ⟨%d0, H0⟩, ⟨%d1, H1⟩, ⟨%d2, H2⟩⟩
    iapply (sound_kernel7_A c Set.univ (grid7.coords t) _ _ _ _ _ _ _ _ hc0 hc1 (iblk7 V c 0 t) (iblk7 V c 1 t) ((dat7 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hc0 : ¬cond7_0 (grid7.coords t) := fun h => h0 ((hcond7_0 t).mp h)
    rw [acc7_later V c t h0]
    rw [Phi7_castSucc V c t, Phi7_pos V c _ _ h0]
    by_cases h9 : t.val = 9
    · have hc1 : cond7_1 (grid7.coords t) := (hcond7_1 t).mpr h9
      rw [show (dat7 V c).leavesExact 2 t = owns (c : Thread nD τ) (st7_2 t) fullShare ((dat7 V c).after 2 t) from by
        unfold Dat.leavesExact; rw [liveAt7_2 t hc1], after7_2, acc7_later V c t h0]
      iintro ⟨⟨⟨HS, HR⟩, Hg⟩, Ho, ⟨%d0, H0⟩, ⟨%d1, H1⟩, ⟨%d2, H2⟩⟩
      iapply (sound_kernel7_C c Set.univ (grid7.coords t) _ _ _ _ _ _ _ _ hc0 hc1 (iblk7 V c 0 t) (iblk7 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc1 : ¬cond7_1 (grid7.coords t) := fun h => h9 ((hcond7_1 t).mp h)
      rw [Dat.leavesExact_idle (dat7 V c) 2 t (idleAt7_2 t hc1) (noFlush7_2 t hc1)]
      iintro ⟨⟨⟨HS, HR⟩, Hg⟩, Ho, ⟨%d0, H0⟩, ⟨%d1, H1⟩, ⟨%d2, H2⟩⟩
      iapply (sound_kernel7_B c Set.univ (grid7.coords t) _ _ _ _ _ _ _ _ hc0 hc1 (iblk7 V c 0 t) (iblk7 V c 1 t) ((dat7 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the call is entered with is the invariant before the first point. -/
theorem hin7 (c : Dev nD) : Pipeline.ΦA spec7 c ⊢ (dat7 V c).Φ 0 := by
  rw [show (dat7 V c).Φ 0 = Phi7 V c 0 (Nat.zero_le _) from rfl, Phi7_zero V c 0 _ rfl]
  try exact Idealize.SL.BI.Entails.refl _

/-- After the last point the invariant gives it back: the accumulator's named contents are forgotten. -/
theorem hout7 (c : Dev nD) : (dat7 V c).Φ (Fin.last cfg7.N) ⊢ Pipeline.ΦA spec7 c := by
  have hne : (Fin.last cfg7.N).val ≠ 0 := by rw [Fin.val_last]; have : cfg7.N = 10 := N_7; omega
  rw [show (dat7 V c).Φ (Fin.last cfg7.N) = Phi7 V c (Fin.last cfg7.N).val (Nat.le_of_lt_succ (Fin.last cfg7.N).isLt) from rfl,
    Phi7_pos V c _ _ hne, PhiA7_eq]
  iintro ⟨⟨HS, HR⟩, Hg⟩
  isplitl [HS HR]
  · isplitl [HS]
    · iexists _; iexact HS
    iexact HR
  iexact Hg

end Cert.Proof.KI

end
-- ==== Proof.KI.Run.lean ====
/-
  The whole program run: the contents of the TensorCore's buffers between the items of @main (a host stretch applies
  its operations; a pallas_call replaces its output array by what its pipeline wrote), every pipeline's proof data
  at its call's entry contents, each pallas_call as a segment between two such states, and the launch.
-/
import proofs.«421803_j42709154791890_2_alg».proof.Proof.KI.RunCond
import proofs.«421803_j42709154791890_2_alg».proof.Proof.KI.R0
import proofs.«421803_j42709154791890_2_alg».proof.Proof.KI.R1
import proofs.«421803_j42709154791890_2_alg».proof.Proof.KI.R2
import proofs.«421803_j42709154791890_2_alg».proof.Proof.KI.R3
import proofs.«421803_j42709154791890_2_alg».proof.Proof.KI.R4
import proofs.«421803_j42709154791890_2_alg».proof.Proof.KI.R5
import proofs.«421803_j42709154791890_2_alg».proof.Proof.KI.R6
import proofs.«421803_j42709154791890_2_alg».proof.Proof.KI.R7

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- The TensorCore's references read off a valuation. -/
abbrev T (W : Dev nD → Valuation τ sig (Elt F)) : (c : Dev nD) → (b : Ref sig .tc) → Buf (Elt F) ((c : Thread nD τ).loc b) := fun c b => W c b

/-- Core `c`'s buffers before the first pallas_call: the launch contents through the first host stretch. -/
def U1 (c : Dev nD) : Valuation τ sig (Elt F) := StableHlo.after hostOps0 (fun b => m (c, b))
/-- What pallas_call 0 leaves in its output array: the pipeline's write-backs folded over the entry contents. -/
def o0 (c : Dev nD) := (dat0 (T (U1 m)) c).arrAt 3 cfg0.N
/-- After pallas_call 0: its output array at what it wrote, every other buffer as before. -/
def U2 (c : Dev nD) : Valuation τ sig (Elt F) := Function.update (U1 m c) main_v5 (o0 m c)
/-- Through the host stretch that follows. -/
def U3 (c : Dev nD) : Valuation τ sig (Elt F) := StableHlo.after hostOps1 (U2 m c)
/-- What pallas_call 1 leaves in its output array: the pipeline's write-backs folded over the entry contents. -/
def o1 (c : Dev nD) := (dat1 (T (U3 m)) c).arrAt 14 cfg1.N
/-- After pallas_call 1: its output array at what it wrote, every other buffer as before. -/
def U4 (c : Dev nD) : Valuation τ sig (Elt F) := Function.update (U3 m c) main_v53 (o1 m c)
/-- Through the host stretch that follows. -/
def U5 (c : Dev nD) : Valuation τ sig (Elt F) := StableHlo.after hostOps2 (U4 m c)
/-- What pallas_call 2 leaves in its output array: the pipeline's write-backs folded over the entry contents. -/
def o2 (c : Dev nD) := (dat2 (T (U5 m)) c).arrAt 7 cfg2.N
/-- After pallas_call 2: its output array at what it wrote, every other buffer as before. -/
def U6 (c : Dev nD) : Valuation τ sig (Elt F) := Function.update (U5 m c) main_v69 (o2 m c)
/-- Through the host stretch that follows. -/
def U7 (c : Dev nD) : Valuation τ sig (Elt F) := StableHlo.after hostOps3 (U6 m c)
/-- What pallas_call 3 leaves in its output array: the pipeline's write-backs folded over the entry contents. -/
def o3 (c : Dev nD) := (dat3 (T (U7 m)) c).arrAt 14 cfg3.N
/-- After pallas_call 3: its output array at what it wrote, every other buffer as before. -/
def U8 (c : Dev nD) : Valuation τ sig (Elt F) := Function.update (U7 m c) main_v116 (o3 m c)
/-- Through the host stretch that follows. -/
def U9 (c : Dev nD) : Valuation τ sig (Elt F) := StableHlo.after hostOps4 (U8 m c)
/-- What pallas_call 4 leaves in its output array: the pipeline's write-backs folded over the entry contents. -/
def o4 (c : Dev nD) := (dat4 (T (U9 m)) c).arrAt 7 cfg4.N
/-- After pallas_call 4: its output array at what it wrote, every other buffer as before. -/
def U10 (c : Dev nD) : Valuation τ sig (Elt F) := Function.update (U9 m c) main_v132 (o4 m c)
/-- Through the host stretch that follows. -/
def U11 (c : Dev nD) : Valuation τ sig (Elt F) := StableHlo.after hostOps5 (U10 m c)
/-- What pallas_call 5 leaves in its output array: the pipeline's write-backs folded over the entry contents. -/
def o5 (c : Dev nD) := (dat5 (T (U11 m)) c).arrAt 14 cfg5.N
/-- After pallas_call 5: its output array at what it wrote, every other buffer as before. -/
def U12 (c : Dev nD) : Valuation τ sig (Elt F) := Function.update (U11 m c) main_v179 (o5 m c)
/-- Through the host stretch that follows. -/
def U13 (c : Dev nD) : Valuation τ sig (Elt F) := StableHlo.after hostOps6 (U12 m c)
/-- What pallas_call 6 leaves in its output array: the pipeline's write-backs folded over the entry contents. -/
def o6 (c : Dev nD) := (dat6 (T (U13 m)) c).arrAt 7 cfg6.N
/-- After pallas_call 6: its output array at what it wrote, every other buffer as before. -/
def U14 (c : Dev nD) : Valuation τ sig (Elt F) := Function.update (U13 m c) main_v195 (o6 m c)
/-- Through the host stretch that follows. -/
def U15 (c : Dev nD) : Valuation τ sig (Elt F) := StableHlo.after hostOps7 (U14 m c)
/-- What pallas_call 7 leaves in its output array: the pipeline's write-backs folded over the entry contents. -/
def o7 (c : Dev nD) := (dat7 (T (U15 m)) c).arrAt 2 cfg7.N
/-- After pallas_call 7: its output array at what it wrote, every other buffer as before. -/
def U16 (c : Dev nD) : Valuation τ sig (Elt F) := Function.update (U15 m c) main_v197 (o7 m c)

/-- What each pallas_call leaves, as the conditional launch asks for it: indexed by the item after which it is read. -/
def outs : Outs (F := F) := fun J r c => match J with
  | 2 => U2 m c r
  | 4 => U4 m c r
  | 6 => U6 m c r
  | 8 => U8 m c r
  | 10 => U10 m c r
  | 12 => U12 m c r
  | 14 => U14 m c r
  | 16 => U16 m c r
  | _ => U1 m c r

/-! The conditional launch's valuations at these `outs` are the chain above. -/
theorem V1_eq (c : Dev nD) : V1 m c = U1 m c := rfl
theorem V2_eq (c : Dev nD) : V2 m (outs m) c = U2 m c := by
  rw [show V2 m (outs m) c = Function.update (V1 m c) main_v5 (U2 m c main_v5) from rfl, V1_eq,
    show U2 m c main_v5 = o0 m c from by
      show Function.update (U1 m c) (Proc.devRef .tc main_v5) (o0 m c) (Proc.devRef .tc main_v5) = _
      rw [Function.update_self]]
  rfl
theorem V3_eq (c : Dev nD) : V3 m (outs m) c = U3 m c := congrArg (StableHlo.after hostOps1) (V2_eq m c)
theorem V4_eq (c : Dev nD) : V4 m (outs m) c = U4 m c := by
  rw [show V4 m (outs m) c = Function.update (V3 m (outs m) c) main_v53 (U4 m c main_v53) from rfl, V3_eq,
    show U4 m c main_v53 = o1 m c from by
      show Function.update (U3 m c) (Proc.devRef .tc main_v53) (o1 m c) (Proc.devRef .tc main_v53) = _
      rw [Function.update_self]]
  rfl
theorem V5_eq (c : Dev nD) : V5 m (outs m) c = U5 m c := congrArg (StableHlo.after hostOps2) (V4_eq m c)
theorem V6_eq (c : Dev nD) : V6 m (outs m) c = U6 m c := by
  rw [show V6 m (outs m) c = Function.update (V5 m (outs m) c) main_v69 (U6 m c main_v69) from rfl, V5_eq,
    show U6 m c main_v69 = o2 m c from by
      show Function.update (U5 m c) (Proc.devRef .tc main_v69) (o2 m c) (Proc.devRef .tc main_v69) = _
      rw [Function.update_self]]
  rfl
theorem V7_eq (c : Dev nD) : V7 m (outs m) c = U7 m c := congrArg (StableHlo.after hostOps3) (V6_eq m c)
theorem V8_eq (c : Dev nD) : V8 m (outs m) c = U8 m c := by
  rw [show V8 m (outs m) c = Function.update (V7 m (outs m) c) main_v116 (U8 m c main_v116) from rfl, V7_eq,
    show U8 m c main_v116 = o3 m c from by
      show Function.update (U7 m c) (Proc.devRef .tc main_v116) (o3 m c) (Proc.devRef .tc main_v116) = _
      rw [Function.update_self]]
  rfl
theorem V9_eq (c : Dev nD) : V9 m (outs m) c = U9 m c := congrArg (StableHlo.after hostOps4) (V8_eq m c)
theorem V10_eq (c : Dev nD) : V10 m (outs m) c = U10 m c := by
  rw [show V10 m (outs m) c = Function.update (V9 m (outs m) c) main_v132 (U10 m c main_v132) from rfl, V9_eq,
    show U10 m c main_v132 = o4 m c from by
      show Function.update (U9 m c) (Proc.devRef .tc main_v132) (o4 m c) (Proc.devRef .tc main_v132) = _
      rw [Function.update_self]]
  rfl
theorem V11_eq (c : Dev nD) : V11 m (outs m) c = U11 m c := congrArg (StableHlo.after hostOps5) (V10_eq m c)
theorem V12_eq (c : Dev nD) : V12 m (outs m) c = U12 m c := by
  rw [show V12 m (outs m) c = Function.update (V11 m (outs m) c) main_v179 (U12 m c main_v179) from rfl, V11_eq,
    show U12 m c main_v179 = o5 m c from by
      show Function.update (U11 m c) (Proc.devRef .tc main_v179) (o5 m c) (Proc.devRef .tc main_v179) = _
      rw [Function.update_self]]
  rfl
theorem V13_eq (c : Dev nD) : V13 m (outs m) c = U13 m c := congrArg (StableHlo.after hostOps6) (V12_eq m c)
theorem V14_eq (c : Dev nD) : V14 m (outs m) c = U14 m c := by
  rw [show V14 m (outs m) c = Function.update (V13 m (outs m) c) main_v195 (U14 m c main_v195) from rfl, V13_eq,
    show U14 m c main_v195 = o6 m c from by
      show Function.update (U13 m c) (Proc.devRef .tc main_v195) (o6 m c) (Proc.devRef .tc main_v195) = _
      rw [Function.update_self]]
  rfl
theorem V15_eq (c : Dev nD) : V15 m (outs m) c = U15 m c := congrArg (StableHlo.after hostOps7) (V14_eq m c)
theorem V16_eq (c : Dev nD) : V16 m (outs m) c = U16 m c := by
  rw [show V16 m (outs m) c = Function.update (V15 m (outs m) c) main_v197 (U16 m c main_v197) from rfl, V15_eq,
    show U16 m c main_v197 = o7 m c from by
      show Function.update (U15 m c) (Proc.devRef .tc main_v197) (o7 m c) (Proc.devRef .tc main_v197) = _
      rw [Function.update_self]]
  rfl

/-! ## The proof data of every pipeline, the thread state between items -/

/-- Every pipeline's proof data, each at its call's entry contents. -/
def pdats : (p : Fin 8) → (c : Dev nD) → Dat τ (Elt F) Unit ℕ (UR sig nD τ) ℕ (cfgs p) c
  | ⟨0, _⟩ => fun c => dat0 (T (U1 m)) c
  | ⟨1, _⟩ => fun c => dat1 (T (U3 m)) c
  | ⟨2, _⟩ => fun c => dat2 (T (U5 m)) c
  | ⟨3, _⟩ => fun c => dat3 (T (U7 m)) c
  | ⟨4, _⟩ => fun c => dat4 (T (U9 m)) c
  | ⟨5, _⟩ => fun c => dat5 (T (U11 m)) c
  | ⟨6, _⟩ => fun c => dat6 (T (U13 m)) c
  | ⟨7, _⟩ => fun c => dat7 (T (U15 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The pallas_calls as segments -/

/-- At the call's exit each of its arrays holds what the pipeline leaves: an input as entered, the output its write-backs folded. -/
theorem hF0 (c : Dev nD) (w : Fin cfg0.W) :
    (dat0 (T (U1 m)) c).arrAt w cfg0.N = T (U2 m) c (Pipeline.arrRef spec0 w) := by
  by_cases hw : w = 3
  · subst hw
    show _ = Function.update (U1 m c) (Proc.devRef .tc main_v5) (o0 m c) (Proc.devRef .tc main_v5)
    rw [Function.update_self]; rfl
  · have hne : (Proc.devRef .tc (Pipeline.arrRef spec0 w) : DevRef τ sig) ≠ Proc.devRef .tc main_v5 := by
      revert w; decide
    have hin : (cfg0.win w).isOut = false := by revert w; decide
    refine ((dat0 (T (U1 m)) c).arrAt_in w hin _).trans ((A_eq0 (T (U1 m)) c w).trans ?_)
    show U1 m c (Proc.devRef .tc (Pipeline.arrRef spec0 w)) = Function.update (U1 m c) (Proc.devRef .tc main_v5) (o0 m c) (Proc.devRef .tc (Pipeline.arrRef spec0 w))
    rw [Function.update_of_ne hne]

/-- Every other buffer is as it was at the call's entry. -/
theorem hrest0 (c : Dev nD) : ∀ b, b ∉ Finset.univ.image (Pipeline.arrRef spec0) → T (U2 m) c b = T (U1 m) c b := by
  intro b hb
  have hne : (Proc.devRef .tc b : DevRef τ sig) ≠ Proc.devRef .tc main_v5 :=
    StableHlo.devRef_ne_of_ne fun e => hb (Finset.mem_image.mpr ⟨3, Finset.mem_univ _, by rw [e]⟩)
  show Function.update (U1 m c) (Proc.devRef .tc main_v5) (o0 m c) (Proc.devRef .tc b) = U1 m c (Proc.devRef .tc b)
  rw [Function.update_of_ne hne]

set_option backward.isDefEq.respectTransparency.types false in
/-- pallas_call 0 as a segment: entered with every unscoped buffer at the contents before it, left with its output
    array at what the pipeline wrote and everything else unchanged; the generator register rides through the
    invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (T (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (T (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T (U1 m) c) (T (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF1 (c : Dev nD) (w : Fin cfg1.W) :
    (dat1 (T (U3 m)) c).arrAt w cfg1.N = T (U4 m) c (Pipeline.arrRef spec1 w) := by
  by_cases hw : w = 14
  · subst hw
    show _ = Function.update (U3 m c) (Proc.devRef .tc main_v53) (o1 m c) (Proc.devRef .tc main_v53)
    rw [Function.update_self]; rfl
  · have hne : (Proc.devRef .tc (Pipeline.arrRef spec1 w) : DevRef τ sig) ≠ Proc.devRef .tc main_v53 := by
      revert w; decide
    have hin : (cfg1.win w).isOut = false := by revert w; decide
    refine ((dat1 (T (U3 m)) c).arrAt_in w hin _).trans ((A_eq1 (T (U3 m)) c w).trans ?_)
    show U3 m c (Proc.devRef .tc (Pipeline.arrRef spec1 w)) = Function.update (U3 m c) (Proc.devRef .tc main_v53) (o1 m c) (Proc.devRef .tc (Pipeline.arrRef spec1 w))
    rw [Function.update_of_ne hne]

/-- Every other buffer is as it was at the call's entry. -/
theorem hrest1 (c : Dev nD) : ∀ b, b ∉ Finset.univ.image (Pipeline.arrRef spec1) → T (U4 m) c b = T (U3 m) c b := by
  intro b hb
  have hne : (Proc.devRef .tc b : DevRef τ sig) ≠ Proc.devRef .tc main_v53 :=
    StableHlo.devRef_ne_of_ne fun e => hb (Finset.mem_image.mpr ⟨14, Finset.mem_univ _, by rw [e]⟩)
  show Function.update (U3 m c) (Proc.devRef .tc main_v53) (o1 m c) (Proc.devRef .tc b) = U3 m c (Proc.devRef .tc b)
  rw [Function.update_of_ne hne]

set_option backward.isDefEq.respectTransparency.types false in
/-- pallas_call 1 as a segment: entered with every unscoped buffer at the contents before it, left with its output
    array at what the pipeline wrote and everything else unchanged; the generator register rides through the
    invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (T (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (T (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T (U3 m) c) (T (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF2 (c : Dev nD) (w : Fin cfg2.W) :
    (dat2 (T (U5 m)) c).arrAt w cfg2.N = T (U6 m) c (Pipeline.arrRef spec2 w) := by
  by_cases hw : w = 7
  · subst hw
    show _ = Function.update (U5 m c) (Proc.devRef .tc main_v69) (o2 m c) (Proc.devRef .tc main_v69)
    rw [Function.update_self]; rfl
  · have hne : (Proc.devRef .tc (Pipeline.arrRef spec2 w) : DevRef τ sig) ≠ Proc.devRef .tc main_v69 := by
      revert w; decide
    have hin : (cfg2.win w).isOut = false := by revert w; decide
    refine ((dat2 (T (U5 m)) c).arrAt_in w hin _).trans ((A_eq2 (T (U5 m)) c w).trans ?_)
    show U5 m c (Proc.devRef .tc (Pipeline.arrRef spec2 w)) = Function.update (U5 m c) (Proc.devRef .tc main_v69) (o2 m c) (Proc.devRef .tc (Pipeline.arrRef spec2 w))
    rw [Function.update_of_ne hne]

/-- Every other buffer is as it was at the call's entry. -/
theorem hrest2 (c : Dev nD) : ∀ b, b ∉ Finset.univ.image (Pipeline.arrRef spec2) → T (U6 m) c b = T (U5 m) c b := by
  intro b hb
  have hne : (Proc.devRef .tc b : DevRef τ sig) ≠ Proc.devRef .tc main_v69 :=
    StableHlo.devRef_ne_of_ne fun e => hb (Finset.mem_image.mpr ⟨7, Finset.mem_univ _, by rw [e]⟩)
  show Function.update (U5 m c) (Proc.devRef .tc main_v69) (o2 m c) (Proc.devRef .tc b) = U5 m c (Proc.devRef .tc b)
  rw [Function.update_of_ne hne]

set_option backward.isDefEq.respectTransparency.types false in
/-- pallas_call 2 as a segment: entered with every unscoped buffer at the contents before it, left with its output
    array at what the pipeline wrote and everything else unchanged; the generator register rides through the
    invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (T (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (T (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T (U5 m) c) (T (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF3 (c : Dev nD) (w : Fin cfg3.W) :
    (dat3 (T (U7 m)) c).arrAt w cfg3.N = T (U8 m) c (Pipeline.arrRef spec3 w) := by
  by_cases hw : w = 14
  · subst hw
    show _ = Function.update (U7 m c) (Proc.devRef .tc main_v116) (o3 m c) (Proc.devRef .tc main_v116)
    rw [Function.update_self]; rfl
  · have hne : (Proc.devRef .tc (Pipeline.arrRef spec3 w) : DevRef τ sig) ≠ Proc.devRef .tc main_v116 := by
      revert w; decide
    have hin : (cfg3.win w).isOut = false := by revert w; decide
    refine ((dat3 (T (U7 m)) c).arrAt_in w hin _).trans ((A_eq3 (T (U7 m)) c w).trans ?_)
    show U7 m c (Proc.devRef .tc (Pipeline.arrRef spec3 w)) = Function.update (U7 m c) (Proc.devRef .tc main_v116) (o3 m c) (Proc.devRef .tc (Pipeline.arrRef spec3 w))
    rw [Function.update_of_ne hne]

/-- Every other buffer is as it was at the call's entry. -/
theorem hrest3 (c : Dev nD) : ∀ b, b ∉ Finset.univ.image (Pipeline.arrRef spec3) → T (U8 m) c b = T (U7 m) c b := by
  intro b hb
  have hne : (Proc.devRef .tc b : DevRef τ sig) ≠ Proc.devRef .tc main_v116 :=
    StableHlo.devRef_ne_of_ne fun e => hb (Finset.mem_image.mpr ⟨14, Finset.mem_univ _, by rw [e]⟩)
  show Function.update (U7 m c) (Proc.devRef .tc main_v116) (o3 m c) (Proc.devRef .tc b) = U7 m c (Proc.devRef .tc b)
  rw [Function.update_of_ne hne]

set_option backward.isDefEq.respectTransparency.types false in
/-- pallas_call 3 as a segment: entered with every unscoped buffer at the contents before it, left with its output
    array at what the pipeline wrote and everything else unchanged; the generator register rides through the
    invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (T (U7 m)) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec3 c (T (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (T (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T (U7 m) c) (T (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF4 (c : Dev nD) (w : Fin cfg4.W) :
    (dat4 (T (U9 m)) c).arrAt w cfg4.N = T (U10 m) c (Pipeline.arrRef spec4 w) := by
  by_cases hw : w = 7
  · subst hw
    show _ = Function.update (U9 m c) (Proc.devRef .tc main_v132) (o4 m c) (Proc.devRef .tc main_v132)
    rw [Function.update_self]; rfl
  · have hne : (Proc.devRef .tc (Pipeline.arrRef spec4 w) : DevRef τ sig) ≠ Proc.devRef .tc main_v132 := by
      revert w; decide
    have hin : (cfg4.win w).isOut = false := by revert w; decide
    refine ((dat4 (T (U9 m)) c).arrAt_in w hin _).trans ((A_eq4 (T (U9 m)) c w).trans ?_)
    show U9 m c (Proc.devRef .tc (Pipeline.arrRef spec4 w)) = Function.update (U9 m c) (Proc.devRef .tc main_v132) (o4 m c) (Proc.devRef .tc (Pipeline.arrRef spec4 w))
    rw [Function.update_of_ne hne]

/-- Every other buffer is as it was at the call's entry. -/
theorem hrest4 (c : Dev nD) : ∀ b, b ∉ Finset.univ.image (Pipeline.arrRef spec4) → T (U10 m) c b = T (U9 m) c b := by
  intro b hb
  have hne : (Proc.devRef .tc b : DevRef τ sig) ≠ Proc.devRef .tc main_v132 :=
    StableHlo.devRef_ne_of_ne fun e => hb (Finset.mem_image.mpr ⟨7, Finset.mem_univ _, by rw [e]⟩)
  show Function.update (U9 m c) (Proc.devRef .tc main_v132) (o4 m c) (Proc.devRef .tc b) = U9 m c (Proc.devRef .tc b)
  rw [Function.update_of_ne hne]

set_option backward.isDefEq.respectTransparency.types false in
/-- pallas_call 4 as a segment: entered with every unscoped buffer at the contents before it, left with its output
    array at what the pipeline wrote and everything else unchanged; the generator register rides through the
    invariant; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (T (U9 m)) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (T (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (T (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (T (U9 m) c) (T (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF5 (c : Dev nD) (w : Fin cfg5.W) :
    (dat5 (T (U11 m)) c).arrAt w cfg5.N = T (U12 m) c (Pipeline.arrRef spec5 w) := by
  by_cases hw : w = 14
  · subst hw
    show _ = Function.update (U11 m c) (Proc.devRef .tc main_v179) (o5 m c) (Proc.devRef .tc main_v179)
    rw [Function.update_self]; rfl
  · have hne : (Proc.devRef .tc (Pipeline.arrRef spec5 w) : DevRef τ sig) ≠ Proc.devRef .tc main_v179 := by
      revert w; decide
    have hin : (cfg5.win w).isOut = false := by revert w; decide
    refine ((dat5 (T (U11 m)) c).arrAt_in w hin _).trans ((A_eq5 (T (U11 m)) c w).trans ?_)
    show U11 m c (Proc.devRef .tc (Pipeline.arrRef spec5 w)) = Function.update (U11 m c) (Proc.devRef .tc main_v179) (o5 m c) (Proc.devRef .tc (Pipeline.arrRef spec5 w))
    rw [Function.update_of_ne hne]

/-- Every other buffer is as it was at the call's entry. -/
theorem hrest5 (c : Dev nD) : ∀ b, b ∉ Finset.univ.image (Pipeline.arrRef spec5) → T (U12 m) c b = T (U11 m) c b := by
  intro b hb
  have hne : (Proc.devRef .tc b : DevRef τ sig) ≠ Proc.devRef .tc main_v179 :=
    StableHlo.devRef_ne_of_ne fun e => hb (Finset.mem_image.mpr ⟨14, Finset.mem_univ _, by rw [e]⟩)
  show Function.update (U11 m c) (Proc.devRef .tc main_v179) (o5 m c) (Proc.devRef .tc b) = U11 m c (Proc.devRef .tc b)
  rw [Function.update_of_ne hne]

set_option backward.isDefEq.respectTransparency.types false in
/-- pallas_call 5 as a segment: entered with every unscoped buffer at the contents before it, left with its output
    array at what the pipeline wrote and everything else unchanged; the generator register rides through the
    invariant; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (T (U11 m)) c).loose
  hwaits := Pipeline.hwaits_of_owed_zero _ _ _ _ L lv 5 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec5 c (T (U11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (T (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (T (U11 m) c) (T (U12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF6 (c : Dev nD) (w : Fin cfg6.W) :
    (dat6 (T (U13 m)) c).arrAt w cfg6.N = T (U14 m) c (Pipeline.arrRef spec6 w) := by
  by_cases hw : w = 7
  · subst hw
    show _ = Function.update (U13 m c) (Proc.devRef .tc main_v195) (o6 m c) (Proc.devRef .tc main_v195)
    rw [Function.update_self]; rfl
  · have hne : (Proc.devRef .tc (Pipeline.arrRef spec6 w) : DevRef τ sig) ≠ Proc.devRef .tc main_v195 := by
      revert w; decide
    have hin : (cfg6.win w).isOut = false := by revert w; decide
    refine ((dat6 (T (U13 m)) c).arrAt_in w hin _).trans ((A_eq6 (T (U13 m)) c w).trans ?_)
    show U13 m c (Proc.devRef .tc (Pipeline.arrRef spec6 w)) = Function.update (U13 m c) (Proc.devRef .tc main_v195) (o6 m c) (Proc.devRef .tc (Pipeline.arrRef spec6 w))
    rw [Function.update_of_ne hne]

/-- Every other buffer is as it was at the call's entry. -/
theorem hrest6 (c : Dev nD) : ∀ b, b ∉ Finset.univ.image (Pipeline.arrRef spec6) → T (U14 m) c b = T (U13 m) c b := by
  intro b hb
  have hne : (Proc.devRef .tc b : DevRef τ sig) ≠ Proc.devRef .tc main_v195 :=
    StableHlo.devRef_ne_of_ne fun e => hb (Finset.mem_image.mpr ⟨7, Finset.mem_univ _, by rw [e]⟩)
  show Function.update (U13 m c) (Proc.devRef .tc main_v195) (o6 m c) (Proc.devRef .tc b) = U13 m c (Proc.devRef .tc b)
  rw [Function.update_of_ne hne]

set_option backward.isDefEq.respectTransparency.types false in
/-- pallas_call 6 as a segment: entered with every unscoped buffer at the contents before it, left with its output
    array at what the pipeline wrote and everything else unchanged; the generator register rides through the
    invariant; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (T (U13 m)) c).loose
  hwaits := Pipeline.hwaits_of_owed_zero _ _ _ _ L lv 6 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec6 c (T (U13 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (T (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (T (U13 m) c) (T (U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the call's exit each of its arrays holds what the pipeline leaves: an input as entered, the output its write-backs folded. -/
theorem hF7 (c : Dev nD) (w : Fin cfg7.W) :
    (dat7 (T (U15 m)) c).arrAt w cfg7.N = T (U16 m) c (Pipeline.arrRef spec7 w) := by
  by_cases hw : w = 2
  · subst hw
    show _ = Function.update (U15 m c) (Proc.devRef .tc main_v197) (o7 m c) (Proc.devRef .tc main_v197)
    rw [Function.update_self]; rfl
  · have hne : (Proc.devRef .tc (Pipeline.arrRef spec7 w) : DevRef τ sig) ≠ Proc.devRef .tc main_v197 := by
      revert w; decide
    have hin : (cfg7.win w).isOut = false := by revert w; decide
    refine ((dat7 (T (U15 m)) c).arrAt_in w hin _).trans ((A_eq7 (T (U15 m)) c w).trans ?_)
    show U15 m c (Proc.devRef .tc (Pipeline.arrRef spec7 w)) = Function.update (U15 m c) (Proc.devRef .tc main_v197) (o7 m c) (Proc.devRef .tc (Pipeline.arrRef spec7 w))
    rw [Function.update_of_ne hne]

/-- Every other buffer is as it was at the call's entry. -/
theorem hrest7 (c : Dev nD) : ∀ b, b ∉ Finset.univ.image (Pipeline.arrRef spec7) → T (U16 m) c b = T (U15 m) c b := by
  intro b hb
  have hne : (Proc.devRef .tc b : DevRef τ sig) ≠ Proc.devRef .tc main_v197 :=
    StableHlo.devRef_ne_of_ne fun e => hb (Finset.mem_image.mpr ⟨2, Finset.mem_univ _, by rw [e]⟩)
  show Function.update (U15 m c) (Proc.devRef .tc main_v197) (o7 m c) (Proc.devRef .tc b) = U15 m c (Proc.devRef .tc b)
  rw [Function.update_of_ne hne]

set_option backward.isDefEq.respectTransparency.types false in
/-- pallas_call 7 as a segment: entered with every unscoped buffer at the contents before it, left with its output
    array at what the pipeline wrote and everything else unchanged; the generator register rides through the
    invariant; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (T (U15 m)) c).loose
  hwaits := Pipeline.hwaits_of_owed_zero _ _ _ _ L lv 7 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec7 c (T (U15 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (T (U15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (T (U15 m)) c).Φ 0 from rfl]
    iintro ⟨Hp, -, Hr⟩
    iapply (hin7 (T (U15 m)) c)
    unfold Pipeline.ΦA
    isplitl [Hr]; · iexact Hr
    iexact Hp
  hout c := by
    rw [Pipeline.ownSems0_none, show (pdats m 7 c).Φ (Fin.last _) = (dat7 (T (U15 m)) c).Φ (Fin.last cfg7.N) from rfl]
    refine (hout7 (T (U15 m)) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (T (U15 m) c) (T (U16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main terminates without a fault; the result buffer ends holding what the last
    pallas_call wrote (`o7`) and every argument ends as launched. -/
theorem run_main : θ_run defs (onTc (τ := τ) (main (F := F))) ⟨m, fun _ => 0, ρ⟩ (fun r => ∀ c : Dev nD,
      r.2.mem ((c.tc : Thread nD τ).loc main_v197) = o7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
      ⊢ (bigSep Finset.univ (fun c : Dev nD => R (F := F) c) : sProp 𝕄) :=
    bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ R (F := F) c from by
      iintro ⟨-, HO, -, Hp, -⟩
      isplitl [Hp]; · iexists _; iexact Hp
      iexists ∅; iexact HO)
  have h := run_cond (F := F) m (Ix := Unit) (U := UR sig nD τ) (Lvl := ℕ) (EP := emb₁) (ι := ()) (𝒱₀ := 𝒱₀) (L := L) (lv := lv)
    (hL := fun _ _ => rfl) (ρ := ρ) (outs := outs m) (pdats := pdats m)
    (O₀ := 0) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      iintro ⟨H, -⟩
      imodintro
      iapply hmono
      iexact H)
    (hE8 := fun c => by iintro ⟨-, HO⟩; iexact HO)
    (R0 := reg0 m) (hpre0 := fun c => by rw [V1_eq m c]; exact .rfl) (hpost0 := fun c => by rw [V2_eq m c]; exact .rfl)
    (R1 := reg1 m) (hpre1 := fun c => by rw [V3_eq m c]; exact .rfl) (hpost1 := fun c => by rw [V4_eq m c]; exact .rfl)
    (R2 := reg2 m) (hpre2 := fun c => by rw [V5_eq m c]; exact .rfl) (hpost2 := fun c => by rw [V6_eq m c]; exact .rfl)
    (R3 := reg3 m) (hpre3 := fun c => by rw [V7_eq m c]; exact .rfl) (hpost3 := fun c => by rw [V8_eq m c]; exact .rfl)
    (R4 := reg4 m) (hpre4 := fun c => by rw [V9_eq m c]; exact .rfl) (hpost4 := fun c => by rw [V10_eq m c]; exact .rfl)
    (R5 := reg5 m) (hpre5 := fun c => by rw [V11_eq m c]; exact .rfl) (hpost5 := fun c => by rw [V12_eq m c]; exact .rfl)
    (R6 := reg6 m) (hpre6 := fun c => by rw [V13_eq m c]; exact .rfl) (hpost6 := fun c => by rw [V14_eq m c]; exact .rfl)
    (R7 := reg7 m) (hpre7 := fun c => by rw [V15_eq m c]; exact .rfl) (hpost7 := fun c => by rw [V16_eq m c]; exact .rfl)
  refine (θ_run defs _ _).mono (fun r hr c => ?_) h
  have hc := hr c
  rw [V16_eq m c, show U16 m c main_v197 = o7 m c from by
    show Function.update (U15 m c) (Proc.devRef .tc main_v197) (o7 m c) (Proc.devRef .tc main_v197) = _
    rw [Function.update_self]] at hc
  exact hc

end Cert.Proof.KI

end
-- ==== Proof.Spec.lean ====
/-
  What each pallas_call of the network computes, as a function of the arrays it is handed, entry by entry over the
  extended reals. Nothing here depends on a program.

  * `dense`: a row of `x` times a weight matrix plus a bias row — the projection and every layer of both MLPs;
  * `linK`: the input projection of the node features;
  * `msgPre`, `msgK`: the per-edge message MLP. Its first layer is the sum of five partial products — the gathered
    source rows, the gathered destination rows, the edge features, and the two structural counts, each count a single
    column, so its product is one scalar times one weight row — plus the bias; then the rectifier, the second layer
    and the edge weight;
  * `updK`: the per-node combine MLP: the node's state and the aggregated messages against the two halves of the
    first weight matrix, the bias, the rectifier, the second layer, the outer rectifier;
  * `poolK`: the readout — entry `(g, q)` adds column `q` of every node whose graph id is `g`; a node whose id is
    outside the range of graphs matches no `g`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- A real-valued array of rank 2 over literal extents. -/
abbrev A2 (a b : ℕ) := (⟨2, ![a, b]⟩ : Shape).Idx → EReal

/-- Row `r` of `x` against column `j` of `W`, plus entry `j` of the bias row. -/
def dense {n k : ℕ} (x : A2 n k) (W : A2 k 256) (b : A2 1 256) (r : Fin n) (j : Fin 256) : EReal :=
  (∑ q : Fin k, x (ix2 r q) * W (ix2 q j)) + b (ix2 0 j)

/-- The input projection: every node row through one dense layer. -/
def linK (x : A2 20000 64) (W : A2 64 256) (b : A2 1 256) : A2 20000 256 :=
  fun i => dense x W b (i 0) (i 1)

/-- The message MLP's first layer before the rectifier, at edge `e` and hidden unit `k`. -/
def msgPre (hin hout : A2 160000 256) (sin sout : A2 160000 1) (ef : A2 160000 64)
    (Whin Whout : A2 256 256) (Wedge : A2 64 256) (wsin wsout b1 : A2 1 256) (e : Fin 160000) (k : Fin 256) : EReal :=
  ((∑ q : Fin 256, hin (ix2 e q) * Whin (ix2 q k)) + (∑ q : Fin 256, hout (ix2 e q) * Whout (ix2 q k))
      + (∑ q : Fin 64, ef (ix2 e q) * Wedge (ix2 q k))
      + sin (ix2 e 0) * wsin (ix2 0 k) + sout (ix2 e 0) * wsout (ix2 0 k)) + b1 (ix2 0 k)

/-- The weighted message of every edge. -/
def msgK (hin hout : A2 160000 256) (sin sout : A2 160000 1) (ef : A2 160000 64) (ew : A2 160000 1)
    (Whin Whout : A2 256 256) (Wedge : A2 64 256) (wsin wsout b1 : A2 1 256) (W2 : A2 256 256) (b2 : A2 1 256) : A2 160000 256 :=
  fun i => ((∑ k : Fin 256, max (msgPre hin hout sin sout ef Whin Whout Wedge wsin wsout b1 (i 0) k) 0 * W2 (ix2 k (i 1)))
      + b2 (ix2 0 (i 1))) * ew (ix2 (i 0) 0)

/-- The combine MLP's first layer before the rectifier, at node `r` and hidden unit `k`. -/
def updPre (h upd : A2 20000 256) (Wa Wb : A2 256 256) (b1 : A2 1 256) (r : Fin 20000) (k : Fin 256) : EReal :=
  ((∑ q : Fin 256, h (ix2 r q) * Wa (ix2 q k)) + (∑ q : Fin 256, upd (ix2 r q) * Wb (ix2 q k))) + b1 (ix2 0 k)

/-- The next state of every node. -/
def updK (h upd : A2 20000 256) (Wa Wb : A2 256 256) (b1 : A2 1 256) (W2 : A2 256 256) (b2 : A2 1 256) : A2 20000 256 :=
  fun i => max ((∑ k : Fin 256, max (updPre h upd Wa Wb b1 (i 0) k) 0 * W2 (ix2 k (i 1))) + b2 (ix2 0 (i 1))) 0

/-- The per-graph sum of the node states. -/
def poolK (h : A2 20000 256) (ng : (⟨2, ![20000, 1]⟩ : Shape).Idx → BitVec 32) : A2 128 256 :=
  fun i => ∑ n : Fin 20000, if (ng (ix2 n 0)).toInt = ((i 0).val : ℤ) then h (ix2 n (i 1)) else 0

end Cert.Spec

end
-- ==== Proof.Net.lean ====
/-
  The whole network as ONE function of the sixteen argument arrays, over the extended reals: the projection, three
  rounds of (gather the endpoint rows and counts of every edge → message MLP → weighted sum into the destination
  nodes → combine MLP), and the per-graph sum. The gathers and the sums into nodes are the host operations both
  programs apply, kept as they are; the dense stages are the entry-by-entry functions of the specification.
  Both the tiled program and the plain one are shown to end with this array.
-/
import proofs.«421803_j42709154791890_2_alg».proof.KernelIdeal
import proofs.«421803_j42709154791890_2_alg».proof.Proof.Gen.KernelIdeal
import proofs.«421803_j42709154791890_2_alg».proof.Proof.Spec

noncomputable section

namespace Cert.Net

open Cert.KernelIdeal Cert.KernelIdeal.Facts₀ Cert.KernelIdeal.Facts Idealize.ShloMosaic
open Cert.Spec (A2)

/-- A real-valued array of rank 3 or 1 over literal extents. -/
abbrev A3 (a b c : ℕ) := (⟨3, ![a, b, c]⟩ : Shape).Idx → EReal
abbrev A1 (a : ℕ) := (⟨1, ![a]⟩ : Shape).Idx → EReal

/-- The source node of every edge: column 0 of the edge list. -/
def nodeIn (el : IVec S160000x2 32) : IVec S160000 32 :=
  shapeCast S160000 (extractStridedSlice S160000x1 ![0, 0] el slices_S160000x2_S160000x1_0_0) shapeCasts_S160000x1_S160000
/-- The destination node of every edge: column 1. -/
def nodeOut (el : IVec S160000x2 32) : IVec S160000 32 :=
  shapeCast S160000 (extractStridedSlice S160000x1 ![0, 1] el slices_S160000x2_S160000x1_0_1) shapeCasts_S160000x1_S160000

/-- Node numbers as a column of row numbers for a gather, a negative number counted from the end. -/
def wrapCol (v : IVec S160000 32) : IVec S160000x1 32 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 20000#32))) v)
/-- Node numbers as a column of segment ids, as they are. -/
def plainCol (v : IVec S160000 32) : IVec S160000x1 32 :=
  broadcastInDim S160000x1 ![0] bcast_S160000_S160000x1_0 v

/-- The state rows of the nodes a column names. -/
def rowsOf (h : A2 20000 256) (ic : IVec S160000x1 32) : A2 160000 256 :=
  Host.gather gather_S20000x256_S160000x1_S160000x256_1_0_n_n_0_1_1256 h ic
/-- The structural counts of the nodes a column names. -/
def countsOf (sf : A2 20000 1) (ic : IVec S160000x1 32) : A2 160000 1 :=
  Host.gather gather_S20000x1_S160000x1_S160000x1_1_0_n_n_0_1_11 sf ic
/-- The zero state. -/
def zerosN : A2 20000 256 :=
  broadcastInDim S20000x256 ![] bcast_S_S20000x256 (constant (F := Ideal) S_ .f32 0x00000000#32)
/-- The messages summed into the nodes a column of ids names. -/
def aggregate (ic : IVec S160000x1 32) (msg : A2 160000 256) : A2 20000 256 :=
  Host.scatterAdd (F := Ideal) (φ := .f32) scatter_S20000x256_S160000x1_S160000x256_1_0_0_1 zerosN ic msg

/-- One layer's weights, cut out of the stacked argument arrays. -/
structure LayerW where
  Whin : A2 256 256
  Whout : A2 256 256
  Wedge : A2 64 256
  wsin : A2 1 256
  wsout : A2 1 256
  b1 : A2 1 256
  W2 : A2 256 256
  b2 : A2 1 256
  Wa : A2 256 256
  Wb : A2 256 256
  c1 : A2 1 256
  U2 : A2 256 256
  c2 : A2 1 256

/-- Layer 0's weights: the row blocks of the message MLP's first matrix (source rows, destination rows, the two
    count rows, the edge-feature rows), its bias as a row, its second layer; the two halves of the combine MLP's first
    matrix, its bias row, its second layer. -/
def layerW0 (mW1 : A3 3 578 256) (mb1 : A2 3 256) (mW2 : A3 3 256 256) (mb2 : A2 3 256)
    (uW1 : A3 3 512 256) (ub1 : A2 3 256) (uW2 : A3 3 256 256) (ub2 : A2 3 256) : LayerW where
  Whin := shapeCast S256x256 (extractStridedSlice S1x256x256 ![0, 0, 0] mW1 slices_S3x578x256_S1x256x256_0_0_0) shapeCasts_S1x256x256_S256x256
  Whout := shapeCast S256x256 (extractStridedSlice S1x256x256 ![0, 256, 0] mW1 slices_S3x578x256_S1x256x256_0_256_0) shapeCasts_S1x256x256_S256x256
  wsin := shapeCast S1x256 (extractStridedSlice S1x1x256 ![0, 512, 0] mW1 slices_S3x578x256_S1x1x256_0_512_0) shapeCasts_S1x1x256_S1x256
  wsout := shapeCast S1x256 (extractStridedSlice S1x1x256 ![0, 513, 0] mW1 slices_S3x578x256_S1x1x256_0_513_0) shapeCasts_S1x1x256_S1x256
  Wedge := shapeCast S64x256 (extractStridedSlice S1x64x256 ![0, 514, 0] mW1 slices_S3x578x256_S1x64x256_0_514_0) shapeCasts_S1x64x256_S64x256
  b1 := shapeCast S1x256 (shapeCast S256 (extractStridedSlice S1x256 ![0, 0] mb1 slices_S3x256_S1x256_0_0) shapeCasts_S1x256_S256) shapeCasts_S256_S1x256
  W2 := shapeCast S256x256 (extractStridedSlice S1x256x256 ![0, 0, 0] mW2 slices_S3x256x256_S1x256x256_0_0_0) shapeCasts_S1x256x256_S256x256
  b2 := shapeCast S1x256 (shapeCast S256 (extractStridedSlice S1x256 ![0, 0] mb2 slices_S3x256_S1x256_0_0) shapeCasts_S1x256_S256) shapeCasts_S256_S1x256
  Wa := shapeCast S256x256 (extractStridedSlice S1x256x256 ![0, 0, 0] uW1 slices_S3x512x256_S1x256x256_0_0_0) shapeCasts_S1x256x256_S256x256
  Wb := shapeCast S256x256 (extractStridedSlice S1x256x256 ![0, 256, 0] uW1 slices_S3x512x256_S1x256x256_0_256_0) shapeCasts_S1x256x256_S256x256
  c1 := shapeCast S1x256 (shapeCast S256 (extractStridedSlice S1x256 ![0, 0] ub1 slices_S3x256_S1x256_0_0) shapeCasts_S1x256_S256) shapeCasts_S256_S1x256
  U2 := shapeCast S256x256 (extractStridedSlice S1x256x256 ![0, 0, 0] uW2 slices_S3x256x256_S1x256x256_0_0_0) shapeCasts_S1x256x256_S256x256
  c2 := shapeCast S1x256 (shapeCast S256 (extractStridedSlice S1x256 ![0, 0] ub2 slices_S3x256_S1x256_0_0) shapeCasts_S1x256_S256) shapeCasts_S256_S1x256

/-- Layer 1's weights: the row blocks of the message MLP's first matrix (source rows, destination rows, the two
    count rows, the edge-feature rows), its bias as a row, its second layer; the two halves of the combine MLP's first
    matrix, its bias row, its second layer. -/
def layerW1 (mW1 : A3 3 578 256) (mb1 : A2 3 256) (mW2 : A3 3 256 256) (mb2 : A2 3 256)
    (uW1 : A3 3 512 256) (ub1 : A2 3 256) (uW2 : A3 3 256 256) (ub2 : A2 3 256) : LayerW where
  Whin := shapeCast S256x256 (extractStridedSlice S1x256x256 ![1, 0, 0] mW1 slices_S3x578x256_S1x256x256_1_0_0) shapeCasts_S1x256x256_S256x256
  Whout := shapeCast S256x256 (extractStridedSlice S1x256x256 ![1, 256, 0] mW1 slices_S3x578x256_S1x256x256_1_256_0) shapeCasts_S1x256x256_S256x256
  wsin := shapeCast S1x256 (extractStridedSlice S1x1x256 ![1, 512, 0] mW1 slices_S3x578x256_S1x1x256_1_512_0) shapeCasts_S1x1x256_S1x256
  wsout := shapeCast S1x256 (extractStridedSlice S1x1x256 ![1, 513, 0] mW1 slices_S3x578x256_S1x1x256_1_513_0) shapeCasts_S1x1x256_S1x256
  Wedge := shapeCast S64x256 (extractStridedSlice S1x64x256 ![1, 514, 0] mW1 slices_S3x578x256_S1x64x256_1_514_0) shapeCasts_S1x64x256_S64x256
  b1 := shapeCast S1x256 (shapeCast S256 (extractStridedSlice S1x256 ![1, 0] mb1 slices_S3x256_S1x256_1_0) shapeCasts_S1x256_S256) shapeCasts_S256_S1x256
  W2 := shapeCast S256x256 (extractStridedSlice S1x256x256 ![1, 0, 0] mW2 slices_S3x256x256_S1x256x256_1_0_0) shapeCasts_S1x256x256_S256x256
  b2 := shapeCast S1x256 (shapeCast S256 (extractStridedSlice S1x256 ![1, 0] mb2 slices_S3x256_S1x256_1_0) shapeCasts_S1x256_S256) shapeCasts_S256_S1x256
  Wa := shapeCast S256x256 (extractStridedSlice S1x256x256 ![1, 0, 0] uW1 slices_S3x512x256_S1x256x256_1_0_0) shapeCasts_S1x256x256_S256x256
  Wb := shapeCast S256x256 (extractStridedSlice S1x256x256 ![1, 256, 0] uW1 slices_S3x512x256_S1x256x256_1_256_0) shapeCasts_S1x256x256_S256x256
  c1 := shapeCast S1x256 (shapeCast S256 (extractStridedSlice S1x256 ![1, 0] ub1 slices_S3x256_S1x256_1_0) shapeCasts_S1x256_S256) shapeCasts_S256_S1x256
  U2 := shapeCast S256x256 (extractStridedSlice S1x256x256 ![1, 0, 0] uW2 slices_S3x256x256_S1x256x256_1_0_0) shapeCasts_S1x256x256_S256x256
  c2 := shapeCast S1x256 (shapeCast S256 (extractStridedSlice S1x256 ![1, 0] ub2 slices_S3x256_S1x256_1_0) shapeCasts_S1x256_S256) shapeCasts_S256_S1x256

/-- Layer 2's weights: the row blocks of the message MLP's first matrix (source rows, destination rows, the two
    count rows, the edge-feature rows), its bias as a row, its second layer; the two halves of the combine MLP's first
    matrix, its bias row, its second layer. -/
def layerW2 (mW1 : A3 3 578 256) (mb1 : A2 3 256) (mW2 : A3 3 256 256) (mb2 : A2 3 256)
    (uW1 : A3 3 512 256) (ub1 : A2 3 256) (uW2 : A3 3 256 256) (ub2 : A2 3 256) : LayerW where
  Whin := shapeCast S256x256 (extractStridedSlice S1x256x256 ![2, 0, 0] mW1 slices_S3x578x256_S1x256x256_2_0_0) shapeCasts_S1x256x256_S256x256
  Whout := shapeCast S256x256 (extractStridedSlice S1x256x256 ![2, 256, 0] mW1 slices_S3x578x256_S1x256x256_2_256_0) shapeCasts_S1x256x256_S256x256
  wsin := shapeCast S1x256 (extractStridedSlice S1x1x256 ![2, 512, 0] mW1 slices_S3x578x256_S1x1x256_2_512_0) shapeCasts_S1x1x256_S1x256
  wsout := shapeCast S1x256 (extractStridedSlice S1x1x256 ![2, 513, 0] mW1 slices_S3x578x256_S1x1x256_2_513_0) shapeCasts_S1x1x256_S1x256
  Wedge := shapeCast S64x256 (extractStridedSlice S1x64x256 ![2, 514, 0] mW1 slices_S3x578x256_S1x64x256_2_514_0) shapeCasts_S1x64x256_S64x256
  b1 := shapeCast S1x256 (shapeCast S256 (extractStridedSlice S1x256 ![2, 0] mb1 slices_S3x256_S1x256_2_0) shapeCasts_S1x256_S256) shapeCasts_S256_S1x256
  W2 := shapeCast S256x256 (extractStridedSlice S1x256x256 ![2, 0, 0] mW2 slices_S3x256x256_S1x256x256_2_0_0) shapeCasts_S1x256x256_S256x256
  b2 := shapeCast S1x256 (shapeCast S256 (extractStridedSlice S1x256 ![2, 0] mb2 slices_S3x256_S1x256_2_0) shapeCasts_S1x256_S256) shapeCasts_S256_S1x256
  Wa := shapeCast S256x256 (extractStridedSlice S1x256x256 ![2, 0, 0] uW1 slices_S3x512x256_S1x256x256_2_0_0) shapeCasts_S1x256x256_S256x256
  Wb := shapeCast S256x256 (extractStridedSlice S1x256x256 ![2, 256, 0] uW1 slices_S3x512x256_S1x256x256_2_256_0) shapeCasts_S1x256x256_S256x256
  c1 := shapeCast S1x256 (shapeCast S256 (extractStridedSlice S1x256 ![2, 0] ub1 slices_S3x256_S1x256_2_0) shapeCasts_S1x256_S256) shapeCasts_S256_S1x256
  U2 := shapeCast S256x256 (extractStridedSlice S1x256x256 ![2, 0, 0] uW2 slices_S3x256x256_S1x256x256_2_0_0) shapeCasts_S1x256x256_S256x256
  c2 := shapeCast S1x256 (shapeCast S256 (extractStridedSlice S1x256 ![2, 0] ub2 slices_S3x256_S1x256_2_0) shapeCasts_S1x256_S256) shapeCasts_S256_S1x256

/-- One round of message passing from the node states `h`. -/
def layerStep (nin nout oc : IVec S160000x1 32) (sf : A2 20000 1) (ef : A2 160000 64) (ewc : A2 160000 1)
    (w : LayerW) (h : A2 20000 256) : A2 20000 256 :=
  Spec.updK h
    (aggregate oc (Spec.msgK (rowsOf h nin) (rowsOf h nout) (countsOf sf nin) (countsOf sf nout) ef ewc
      w.Whin w.Whout w.Wedge w.wsin w.wsout w.b1 w.W2 w.b2))
    w.Wa w.Wb w.c1 w.U2 w.c2

/-- The projected node features. -/
def h0 (x : A2 20000 64) (Wlin : A2 64 256) (blin : A1 256) : A2 20000 256 :=
  Spec.linK x Wlin (shapeCast S1x256 blin shapeCasts_S256_S1x256)

/-- The graph features: the whole network. -/
def KT (x : A2 20000 64) (sf : A2 20000 1) (ef : A2 160000 64) (ew : A1 160000) (el : IVec S160000x2 32) (ng : IVec S20000 32)
    (Wlin : A2 64 256) (blin : A1 256) (mW1 : A3 3 578 256) (mb1 : A2 3 256) (mW2 : A3 3 256 256) (mb2 : A2 3 256)
    (uW1 : A3 3 512 256) (ub1 : A2 3 256) (uW2 : A3 3 256 256) (ub2 : A2 3 256) : A2 128 256 :=
  Spec.poolK
    (layerStep (wrapCol (nodeIn el)) (wrapCol (nodeOut el)) (plainCol (nodeOut el)) sf ef (shapeCast S160000x1 ew shapeCasts_S160000_S160000x1)
      (layerW2 mW1 mb1 mW2 mb2 uW1 ub1 uW2 ub2)
      (layerStep (wrapCol (nodeIn el)) (wrapCol (nodeOut el)) (plainCol (nodeOut el)) sf ef (shapeCast S160000x1 ew shapeCasts_S160000_S160000x1)
        (layerW1 mW1 mb1 mW2 mb2 uW1 ub1 uW2 ub2)
        (layerStep (wrapCol (nodeIn el)) (wrapCol (nodeOut el)) (plainCol (nodeOut el)) sf ef (shapeCast S160000x1 ew shapeCasts_S160000_S160000x1)
          (layerW0 mW1 mb1 mW2 mb2 uW1 ub1 uW2 ub2)
          (h0 x Wlin blin))))
    (shapeCast S20000x1 ng shapeCasts_S20000_S20000x1)

end Cert.Net

end
-- ==== Proof.KI.KVBase.lean ====
/-
  Through the chain of buffer contents between the items of @main: a buffer an item does not write keeps its contents,
  so every argument reaches every item as launched; the two columns of the edge list, the projection's bias row and the
  edge-weight column are made once by host operations and kept; each pallas_call's output array holds what its
  pipeline wrote until the next item that names it.
-/
import proofs.«421803_j42709154791890_2_alg».proof.Proof.KI.Run
import proofs.«421803_j42709154791890_2_alg».proof.Proof.Net
import Idealize.ShloMosaic.Lib.StableHlo.Run

set_option maxRecDepth 16384

noncomputable section

namespace Cert.Proof.KI

open Cert.KernelIdeal Cert.KernelIdeal.Gen
open Idealize.ShloMosaic.StableHlo (after_cons after_nil)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-! ## A buffer an item does not write keeps its contents -/

theorem U1_of (c : Dev nD) (r : Ref sig .tc) (h : r ∉ (hostOps0_W : List (Ref sig .tc))) : U1 m c r = m ((c : Thread nD τ).loc r) := by
  rw [← V1_eq m c]; exact V1_of m c r h
theorem U2_of (c : Dev nD) (r : Ref sig .tc) (h : r ∉ ([main_v5] : List (Ref sig .tc))) : U2 m c r = U1 m c r := by
  rw [← V2_eq m c, ← V1_eq m c]; exact V2_of m (outs m) c r h
theorem U3_of (c : Dev nD) (r : Ref sig .tc) (h : r ∉ (hostOps1_W : List (Ref sig .tc))) : U3 m c r = U2 m c r := by
  rw [← V3_eq m c, ← V2_eq m c]; exact V3_of m (outs m) c r h
theorem U4_of (c : Dev nD) (r : Ref sig .tc) (h : r ∉ ([main_v53] : List (Ref sig .tc))) : U4 m c r = U3 m c r := by
  rw [← V4_eq m c, ← V3_eq m c]; exact V4_of m (outs m) c r h
theorem U5_of (c : Dev nD) (r : Ref sig .tc) (h : r ∉ (hostOps2_W : List (Ref sig .tc))) : U5 m c r = U4 m c r := by
  rw [← V5_eq m c, ← V4_eq m c]; exact V5_of m (outs m) c r h
theorem U6_of (c : Dev nD) (r : Ref sig .tc) (h : r ∉ ([main_v69] : List (Ref sig .tc))) : U6 m c r = U5 m c r := by
  rw [← V6_eq m c, ← V5_eq m c]; exact V6_of m (outs m) c r h
theorem U7_of (c : Dev nD) (r : Ref sig .tc) (h : r ∉ (hostOps3_W : List (Ref sig .tc))) : U7 m c r = U6 m c r := by
  rw [← V7_eq m c, ← V6_eq m c]; exact V7_of m (outs m) c r h
theorem U8_of (c : Dev nD) (r : Ref sig .tc) (h : r ∉ ([main_v116] : List (Ref sig .tc))) : U8 m c r = U7 m c r := by
  rw [← V8_eq m c, ← V7_eq m c]; exact V8_of m (outs m) c r h
theorem U9_of (c : Dev nD) (r : Ref sig .tc) (h : r ∉ (hostOps4_W : List (Ref sig .tc))) : U9 m c r = U8 m c r := by
  rw [← V9_eq m c, ← V8_eq m c]; exact V9_of m (outs m) c r h
theorem U10_of (c : Dev nD) (r : Ref sig .tc) (h : r ∉ ([main_v132] : List (Ref sig .tc))) : U10 m c r = U9 m c r := by
  rw [← V10_eq m c, ← V9_eq m c]; exact V10_of m (outs m) c r h
theorem U11_of (c : Dev nD) (r : Ref sig .tc) (h : r ∉ (hostOps5_W : List (Ref sig .tc))) : U11 m c r = U10 m c r := by
  rw [← V11_eq m c, ← V10_eq m c]; exact V11_of m (outs m) c r h
theorem U12_of (c : Dev nD) (r : Ref sig .tc) (h : r ∉ ([main_v179] : List (Ref sig .tc))) : U12 m c r = U11 m c r := by
  rw [← V12_eq m c, ← V11_eq m c]; exact V12_of m (outs m) c r h
theorem U13_of (c : Dev nD) (r : Ref sig .tc) (h : r ∉ (hostOps6_W : List (Ref sig .tc))) : U13 m c r = U12 m c r := by
  rw [← V13_eq m c, ← V12_eq m c]; exact V13_of m (outs m) c r h
theorem U14_of (c : Dev nD) (r : Ref sig .tc) (h : r ∉ ([main_v195] : List (Ref sig .tc))) : U14 m c r = U13 m c r := by
  rw [← V14_eq m c, ← V13_eq m c]; exact V14_of m (outs m) c r h
theorem U15_of (c : Dev nD) (r : Ref sig .tc) (h : r ∉ (hostOps7_W : List (Ref sig .tc))) : U15 m c r = U14 m c r := by
  rw [← V15_eq m c, ← V14_eq m c]; exact V15_of m (outs m) c r h
theorem U16_of (c : Dev nD) (r : Ref sig .tc) (h : r ∉ ([main_v197] : List (Ref sig .tc))) : U16 m c r = U15 m c r := by
  rw [← V16_eq m c, ← V15_eq m c]; exact V16_of m (outs m) c r h

/-! ## The arguments reach every item as launched -/

theorem arg0_1 (c : Dev nD) : U1 m c main_arg0 = m ((c : Thread nD τ).loc main_arg0) := (U1_of m c main_arg0 (by decide)).trans rfl
theorem arg0_2 (c : Dev nD) : U2 m c main_arg0 = m ((c : Thread nD τ).loc main_arg0) := (U2_of m c main_arg0 (by decide)).trans (arg0_1 m c)
theorem arg0_3 (c : Dev nD) : U3 m c main_arg0 = m ((c : Thread nD τ).loc main_arg0) := (U3_of m c main_arg0 (by decide)).trans (arg0_2 m c)
theorem arg0_4 (c : Dev nD) : U4 m c main_arg0 = m ((c : Thread nD τ).loc main_arg0) := (U4_of m c main_arg0 (by decide)).trans (arg0_3 m c)
theorem arg0_5 (c : Dev nD) : U5 m c main_arg0 = m ((c : Thread nD τ).loc main_arg0) := (U5_of m c main_arg0 (by decide)).trans (arg0_4 m c)
theorem arg0_6 (c : Dev nD) : U6 m c main_arg0 = m ((c : Thread nD τ).loc main_arg0) := (U6_of m c main_arg0 (by decide)).trans (arg0_5 m c)
theorem arg0_7 (c : Dev nD) : U7 m c main_arg0 = m ((c : Thread nD τ).loc main_arg0) := (U7_of m c main_arg0 (by decide)).trans (arg0_6 m c)
theorem arg0_8 (c : Dev nD) : U8 m c main_arg0 = m ((c : Thread nD τ).loc main_arg0) := (U8_of m c main_arg0 (by decide)).trans (arg0_7 m c)
theorem arg0_9 (c : Dev nD) : U9 m c main_arg0 = m ((c : Thread nD τ).loc main_arg0) := (U9_of m c main_arg0 (by decide)).trans (arg0_8 m c)
theorem arg0_10 (c : Dev nD) : U10 m c main_arg0 = m ((c : Thread nD τ).loc main_arg0) := (U10_of m c main_arg0 (by decide)).trans (arg0_9 m c)
theorem arg0_11 (c : Dev nD) : U11 m c main_arg0 = m ((c : Thread nD τ).loc main_arg0) := (U11_of m c main_arg0 (by decide)).trans (arg0_10 m c)
theorem arg0_12 (c : Dev nD) : U12 m c main_arg0 = m ((c : Thread nD τ).loc main_arg0) := (U12_of m c main_arg0 (by decide)).trans (arg0_11 m c)
theorem arg0_13 (c : Dev nD) : U13 m c main_arg0 = m ((c : Thread nD τ).loc main_arg0) := (U13_of m c main_arg0 (by decide)).trans (arg0_12 m c)
theorem arg0_14 (c : Dev nD) : U14 m c main_arg0 = m ((c : Thread nD τ).loc main_arg0) := (U14_of m c main_arg0 (by decide)).trans (arg0_13 m c)
theorem arg0_15 (c : Dev nD) : U15 m c main_arg0 = m ((c : Thread nD τ).loc main_arg0) := (U15_of m c main_arg0 (by decide)).trans (arg0_14 m c)
theorem arg1_1 (c : Dev nD) : U1 m c main_arg1 = m ((c : Thread nD τ).loc main_arg1) := (U1_of m c main_arg1 (by decide)).trans rfl
theorem arg1_2 (c : Dev nD) : U2 m c main_arg1 = m ((c : Thread nD τ).loc main_arg1) := (U2_of m c main_arg1 (by decide)).trans (arg1_1 m c)
theorem arg1_3 (c : Dev nD) : U3 m c main_arg1 = m ((c : Thread nD τ).loc main_arg1) := (U3_of m c main_arg1 (by decide)).trans (arg1_2 m c)
theorem arg1_4 (c : Dev nD) : U4 m c main_arg1 = m ((c : Thread nD τ).loc main_arg1) := (U4_of m c main_arg1 (by decide)).trans (arg1_3 m c)
theorem arg1_5 (c : Dev nD) : U5 m c main_arg1 = m ((c : Thread nD τ).loc main_arg1) := (U5_of m c main_arg1 (by decide)).trans (arg1_4 m c)
theorem arg1_6 (c : Dev nD) : U6 m c main_arg1 = m ((c : Thread nD τ).loc main_arg1) := (U6_of m c main_arg1 (by decide)).trans (arg1_5 m c)
theorem arg1_7 (c : Dev nD) : U7 m c main_arg1 = m ((c : Thread nD τ).loc main_arg1) := (U7_of m c main_arg1 (by decide)).trans (arg1_6 m c)
theorem arg1_8 (c : Dev nD) : U8 m c main_arg1 = m ((c : Thread nD τ).loc main_arg1) := (U8_of m c main_arg1 (by decide)).trans (arg1_7 m c)
theorem arg1_9 (c : Dev nD) : U9 m c main_arg1 = m ((c : Thread nD τ).loc main_arg1) := (U9_of m c main_arg1 (by decide)).trans (arg1_8 m c)
theorem arg1_10 (c : Dev nD) : U10 m c main_arg1 = m ((c : Thread nD τ).loc main_arg1) := (U10_of m c main_arg1 (by decide)).trans (arg1_9 m c)
theorem arg1_11 (c : Dev nD) : U11 m c main_arg1 = m ((c : Thread nD τ).loc main_arg1) := (U11_of m c main_arg1 (by decide)).trans (arg1_10 m c)
theorem arg1_12 (c : Dev nD) : U12 m c main_arg1 = m ((c : Thread nD τ).loc main_arg1) := (U12_of m c main_arg1 (by decide)).trans (arg1_11 m c)
theorem arg1_13 (c : Dev nD) : U13 m c main_arg1 = m ((c : Thread nD τ).loc main_arg1) := (U13_of m c main_arg1 (by decide)).trans (arg1_12 m c)
theorem arg1_14 (c : Dev nD) : U14 m c main_arg1 = m ((c : Thread nD τ).loc main_arg1) := (U14_of m c main_arg1 (by decide)).trans (arg1_13 m c)
theorem arg1_15 (c : Dev nD) : U15 m c main_arg1 = m ((c : Thread nD τ).loc main_arg1) := (U15_of m c main_arg1 (by decide)).trans (arg1_14 m c)
theorem arg2_1 (c : Dev nD) : U1 m c main_arg2 = m ((c : Thread nD τ).loc main_arg2) := (U1_of m c main_arg2 (by decide)).trans rfl
theorem arg2_2 (c : Dev nD) : U2 m c main_arg2 = m ((c : Thread nD τ).loc main_arg2) := (U2_of m c main_arg2 (by decide)).trans (arg2_1 m c)
theorem arg2_3 (c : Dev nD) : U3 m c main_arg2 = m ((c : Thread nD τ).loc main_arg2) := (U3_of m c main_arg2 (by decide)).trans (arg2_2 m c)
theorem arg2_4 (c : Dev nD) : U4 m c main_arg2 = m ((c : Thread nD τ).loc main_arg2) := (U4_of m c main_arg2 (by decide)).trans (arg2_3 m c)
theorem arg2_5 (c : Dev nD) : U5 m c main_arg2 = m ((c : Thread nD τ).loc main_arg2) := (U5_of m c main_arg2 (by decide)).trans (arg2_4 m c)
theorem arg2_6 (c : Dev nD) : U6 m c main_arg2 = m ((c : Thread nD τ).loc main_arg2) := (U6_of m c main_arg2 (by decide)).trans (arg2_5 m c)
theorem arg2_7 (c : Dev nD) : U7 m c main_arg2 = m ((c : Thread nD τ).loc main_arg2) := (U7_of m c main_arg2 (by decide)).trans (arg2_6 m c)
theorem arg2_8 (c : Dev nD) : U8 m c main_arg2 = m ((c : Thread nD τ).loc main_arg2) := (U8_of m c main_arg2 (by decide)).trans (arg2_7 m c)
theorem arg2_9 (c : Dev nD) : U9 m c main_arg2 = m ((c : Thread nD τ).loc main_arg2) := (U9_of m c main_arg2 (by decide)).trans (arg2_8 m c)
theorem arg2_10 (c : Dev nD) : U10 m c main_arg2 = m ((c : Thread nD τ).loc main_arg2) := (U10_of m c main_arg2 (by decide)).trans (arg2_9 m c)
theorem arg2_11 (c : Dev nD) : U11 m c main_arg2 = m ((c : Thread nD τ).loc main_arg2) := (U11_of m c main_arg2 (by decide)).trans (arg2_10 m c)
theorem arg2_12 (c : Dev nD) : U12 m c main_arg2 = m ((c : Thread nD τ).loc main_arg2) := (U12_of m c main_arg2 (by decide)).trans (arg2_11 m c)
theorem arg2_13 (c : Dev nD) : U13 m c main_arg2 = m ((c : Thread nD τ).loc main_arg2) := (U13_of m c main_arg2 (by decide)).trans (arg2_12 m c)
theorem arg2_14 (c : Dev nD) : U14 m c main_arg2 = m ((c : Thread nD τ).loc main_arg2) := (U14_of m c main_arg2 (by decide)).trans (arg2_13 m c)
theorem arg2_15 (c : Dev nD) : U15 m c main_arg2 = m ((c : Thread nD τ).loc main_arg2) := (U15_of m c main_arg2 (by decide)).trans (arg2_14 m c)
theorem arg3_1 (c : Dev nD) : U1 m c main_arg3 = m ((c : Thread nD τ).loc main_arg3) := (U1_of m c main_arg3 (by decide)).trans rfl
theorem arg3_2 (c : Dev nD) : U2 m c main_arg3 = m ((c : Thread nD τ).loc main_arg3) := (U2_of m c main_arg3 (by decide)).trans (arg3_1 m c)
theorem arg3_3 (c : Dev nD) : U3 m c main_arg3 = m ((c : Thread nD τ).loc main_arg3) := (U3_of m c main_arg3 (by decide)).trans (arg3_2 m c)
theorem arg3_4 (c : Dev nD) : U4 m c main_arg3 = m ((c : Thread nD τ).loc main_arg3) := (U4_of m c main_arg3 (by decide)).trans (arg3_3 m c)
theorem arg3_5 (c : Dev nD) : U5 m c main_arg3 = m ((c : Thread nD τ).loc main_arg3) := (U5_of m c main_arg3 (by decide)).trans (arg3_4 m c)
theorem arg3_6 (c : Dev nD) : U6 m c main_arg3 = m ((c : Thread nD τ).loc main_arg3) := (U6_of m c main_arg3 (by decide)).trans (arg3_5 m c)
theorem arg3_7 (c : Dev nD) : U7 m c main_arg3 = m ((c : Thread nD τ).loc main_arg3) := (U7_of m c main_arg3 (by decide)).trans (arg3_6 m c)
theorem arg3_8 (c : Dev nD) : U8 m c main_arg3 = m ((c : Thread nD τ).loc main_arg3) := (U8_of m c main_arg3 (by decide)).trans (arg3_7 m c)
theorem arg3_9 (c : Dev nD) : U9 m c main_arg3 = m ((c : Thread nD τ).loc main_arg3) := (U9_of m c main_arg3 (by decide)).trans (arg3_8 m c)
theorem arg3_10 (c : Dev nD) : U10 m c main_arg3 = m ((c : Thread nD τ).loc main_arg3) := (U10_of m c main_arg3 (by decide)).trans (arg3_9 m c)
theorem arg3_11 (c : Dev nD) : U11 m c main_arg3 = m ((c : Thread nD τ).loc main_arg3) := (U11_of m c main_arg3 (by decide)).trans (arg3_10 m c)
theorem arg3_12 (c : Dev nD) : U12 m c main_arg3 = m ((c : Thread nD τ).loc main_arg3) := (U12_of m c main_arg3 (by decide)).trans (arg3_11 m c)
theorem arg3_13 (c : Dev nD) : U13 m c main_arg3 = m ((c : Thread nD τ).loc main_arg3) := (U13_of m c main_arg3 (by decide)).trans (arg3_12 m c)
theorem arg3_14 (c : Dev nD) : U14 m c main_arg3 = m ((c : Thread nD τ).loc main_arg3) := (U14_of m c main_arg3 (by decide)).trans (arg3_13 m c)
theorem arg3_15 (c : Dev nD) : U15 m c main_arg3 = m ((c : Thread nD τ).loc main_arg3) := (U15_of m c main_arg3 (by decide)).trans (arg3_14 m c)
theorem arg4_1 (c : Dev nD) : U1 m c main_arg4 = m ((c : Thread nD τ).loc main_arg4) := (U1_of m c main_arg4 (by decide)).trans rfl
theorem arg4_2 (c : Dev nD) : U2 m c main_arg4 = m ((c : Thread nD τ).loc main_arg4) := (U2_of m c main_arg4 (by decide)).trans (arg4_1 m c)
theorem arg4_3 (c : Dev nD) : U3 m c main_arg4 = m ((c : Thread nD τ).loc main_arg4) := (U3_of m c main_arg4 (by decide)).trans (arg4_2 m c)
theorem arg4_4 (c : Dev nD) : U4 m c main_arg4 = m ((c : Thread nD τ).loc main_arg4) := (U4_of m c main_arg4 (by decide)).trans (arg4_3 m c)
theorem arg4_5 (c : Dev nD) : U5 m c main_arg4 = m ((c : Thread nD τ).loc main_arg4) := (U5_of m c main_arg4 (by decide)).trans (arg4_4 m c)
theorem arg4_6 (c : Dev nD) : U6 m c main_arg4 = m ((c : Thread nD τ).loc main_arg4) := (U6_of m c main_arg4 (by decide)).trans (arg4_5 m c)
theorem arg4_7 (c : Dev nD) : U7 m c main_arg4 = m ((c : Thread nD τ).loc main_arg4) := (U7_of m c main_arg4 (by decide)).trans (arg4_6 m c)
theorem arg4_8 (c : Dev nD) : U8 m c main_arg4 = m ((c : Thread nD τ).loc main_arg4) := (U8_of m c main_arg4 (by decide)).trans (arg4_7 m c)
theorem arg4_9 (c : Dev nD) : U9 m c main_arg4 = m ((c : Thread nD τ).loc main_arg4) := (U9_of m c main_arg4 (by decide)).trans (arg4_8 m c)
theorem arg4_10 (c : Dev nD) : U10 m c main_arg4 = m ((c : Thread nD τ).loc main_arg4) := (U10_of m c main_arg4 (by decide)).trans (arg4_9 m c)
theorem arg4_11 (c : Dev nD) : U11 m c main_arg4 = m ((c : Thread nD τ).loc main_arg4) := (U11_of m c main_arg4 (by decide)).trans (arg4_10 m c)
theorem arg4_12 (c : Dev nD) : U12 m c main_arg4 = m ((c : Thread nD τ).loc main_arg4) := (U12_of m c main_arg4 (by decide)).trans (arg4_11 m c)
theorem arg4_13 (c : Dev nD) : U13 m c main_arg4 = m ((c : Thread nD τ).loc main_arg4) := (U13_of m c main_arg4 (by decide)).trans (arg4_12 m c)
theorem arg4_14 (c : Dev nD) : U14 m c main_arg4 = m ((c : Thread nD τ).loc main_arg4) := (U14_of m c main_arg4 (by decide)).trans (arg4_13 m c)
theorem arg4_15 (c : Dev nD) : U15 m c main_arg4 = m ((c : Thread nD τ).loc main_arg4) := (U15_of m c main_arg4 (by decide)).trans (arg4_14 m c)
theorem arg5_1 (c : Dev nD) : U1 m c main_arg5 = m ((c : Thread nD τ).loc main_arg5) := (U1_of m c main_arg5 (by decide)).trans rfl
theorem arg5_2 (c : Dev nD) : U2 m c main_arg5 = m ((c : Thread nD τ).loc main_arg5) := (U2_of m c main_arg5 (by decide)).trans (arg5_1 m c)
theorem arg5_3 (c : Dev nD) : U3 m c main_arg5 = m ((c : Thread nD τ).loc main_arg5) := (U3_of m c main_arg5 (by decide)).trans (arg5_2 m c)
theorem arg5_4 (c : Dev nD) : U4 m c main_arg5 = m ((c : Thread nD τ).loc main_arg5) := (U4_of m c main_arg5 (by decide)).trans (arg5_3 m c)
theorem arg5_5 (c : Dev nD) : U5 m c main_arg5 = m ((c : Thread nD τ).loc main_arg5) := (U5_of m c main_arg5 (by decide)).trans (arg5_4 m c)
theorem arg5_6 (c : Dev nD) : U6 m c main_arg5 = m ((c : Thread nD τ).loc main_arg5) := (U6_of m c main_arg5 (by decide)).trans (arg5_5 m c)
theorem arg5_7 (c : Dev nD) : U7 m c main_arg5 = m ((c : Thread nD τ).loc main_arg5) := (U7_of m c main_arg5 (by decide)).trans (arg5_6 m c)
theorem arg5_8 (c : Dev nD) : U8 m c main_arg5 = m ((c : Thread nD τ).loc main_arg5) := (U8_of m c main_arg5 (by decide)).trans (arg5_7 m c)
theorem arg5_9 (c : Dev nD) : U9 m c main_arg5 = m ((c : Thread nD τ).loc main_arg5) := (U9_of m c main_arg5 (by decide)).trans (arg5_8 m c)
theorem arg5_10 (c : Dev nD) : U10 m c main_arg5 = m ((c : Thread nD τ).loc main_arg5) := (U10_of m c main_arg5 (by decide)).trans (arg5_9 m c)
theorem arg5_11 (c : Dev nD) : U11 m c main_arg5 = m ((c : Thread nD τ).loc main_arg5) := (U11_of m c main_arg5 (by decide)).trans (arg5_10 m c)
theorem arg5_12 (c : Dev nD) : U12 m c main_arg5 = m ((c : Thread nD τ).loc main_arg5) := (U12_of m c main_arg5 (by decide)).trans (arg5_11 m c)
theorem arg5_13 (c : Dev nD) : U13 m c main_arg5 = m ((c : Thread nD τ).loc main_arg5) := (U13_of m c main_arg5 (by decide)).trans (arg5_12 m c)
theorem arg5_14 (c : Dev nD) : U14 m c main_arg5 = m ((c : Thread nD τ).loc main_arg5) := (U14_of m c main_arg5 (by decide)).trans (arg5_13 m c)
theorem arg5_15 (c : Dev nD) : U15 m c main_arg5 = m ((c : Thread nD τ).loc main_arg5) := (U15_of m c main_arg5 (by decide)).trans (arg5_14 m c)
theorem arg6_1 (c : Dev nD) : U1 m c main_arg6 = m ((c : Thread nD τ).loc main_arg6) := (U1_of m c main_arg6 (by decide)).trans rfl
theorem arg6_2 (c : Dev nD) : U2 m c main_arg6 = m ((c : Thread nD τ).loc main_arg6) := (U2_of m c main_arg6 (by decide)).trans (arg6_1 m c)
theorem arg6_3 (c : Dev nD) : U3 m c main_arg6 = m ((c : Thread nD τ).loc main_arg6) := (U3_of m c main_arg6 (by decide)).trans (arg6_2 m c)
theorem arg6_4 (c : Dev nD) : U4 m c main_arg6 = m ((c : Thread nD τ).loc main_arg6) := (U4_of m c main_arg6 (by decide)).trans (arg6_3 m c)
theorem arg6_5 (c : Dev nD) : U5 m c main_arg6 = m ((c : Thread nD τ).loc main_arg6) := (U5_of m c main_arg6 (by decide)).trans (arg6_4 m c)
theorem arg6_6 (c : Dev nD) : U6 m c main_arg6 = m ((c : Thread nD τ).loc main_arg6) := (U6_of m c main_arg6 (by decide)).trans (arg6_5 m c)
theorem arg6_7 (c : Dev nD) : U7 m c main_arg6 = m ((c : Thread nD τ).loc main_arg6) := (U7_of m c main_arg6 (by decide)).trans (arg6_6 m c)
theorem arg6_8 (c : Dev nD) : U8 m c main_arg6 = m ((c : Thread nD τ).loc main_arg6) := (U8_of m c main_arg6 (by decide)).trans (arg6_7 m c)
theorem arg6_9 (c : Dev nD) : U9 m c main_arg6 = m ((c : Thread nD τ).loc main_arg6) := (U9_of m c main_arg6 (by decide)).trans (arg6_8 m c)
theorem arg6_10 (c : Dev nD) : U10 m c main_arg6 = m ((c : Thread nD τ).loc main_arg6) := (U10_of m c main_arg6 (by decide)).trans (arg6_9 m c)
theorem arg6_11 (c : Dev nD) : U11 m c main_arg6 = m ((c : Thread nD τ).loc main_arg6) := (U11_of m c main_arg6 (by decide)).trans (arg6_10 m c)
theorem arg6_12 (c : Dev nD) : U12 m c main_arg6 = m ((c : Thread nD τ).loc main_arg6) := (U12_of m c main_arg6 (by decide)).trans (arg6_11 m c)
theorem arg6_13 (c : Dev nD) : U13 m c main_arg6 = m ((c : Thread nD τ).loc main_arg6) := (U13_of m c main_arg6 (by decide)).trans (arg6_12 m c)
theorem arg6_14 (c : Dev nD) : U14 m c main_arg6 = m ((c : Thread nD τ).loc main_arg6) := (U14_of m c main_arg6 (by decide)).trans (arg6_13 m c)
theorem arg6_15 (c : Dev nD) : U15 m c main_arg6 = m ((c : Thread nD τ).loc main_arg6) := (U15_of m c main_arg6 (by decide)).trans (arg6_14 m c)
theorem arg7_1 (c : Dev nD) : U1 m c main_arg7 = m ((c : Thread nD τ).loc main_arg7) := (U1_of m c main_arg7 (by decide)).trans rfl
theorem arg7_2 (c : Dev nD) : U2 m c main_arg7 = m ((c : Thread nD τ).loc main_arg7) := (U2_of m c main_arg7 (by decide)).trans (arg7_1 m c)
theorem arg7_3 (c : Dev nD) : U3 m c main_arg7 = m ((c : Thread nD τ).loc main_arg7) := (U3_of m c main_arg7 (by decide)).trans (arg7_2 m c)
theorem arg7_4 (c : Dev nD) : U4 m c main_arg7 = m ((c : Thread nD τ).loc main_arg7) := (U4_of m c main_arg7 (by decide)).trans (arg7_3 m c)
theorem arg7_5 (c : Dev nD) : U5 m c main_arg7 = m ((c : Thread nD τ).loc main_arg7) := (U5_of m c main_arg7 (by decide)).trans (arg7_4 m c)
theorem arg7_6 (c : Dev nD) : U6 m c main_arg7 = m ((c : Thread nD τ).loc main_arg7) := (U6_of m c main_arg7 (by decide)).trans (arg7_5 m c)
theorem arg7_7 (c : Dev nD) : U7 m c main_arg7 = m ((c : Thread nD τ).loc main_arg7) := (U7_of m c main_arg7 (by decide)).trans (arg7_6 m c)
theorem arg7_8 (c : Dev nD) : U8 m c main_arg7 = m ((c : Thread nD τ).loc main_arg7) := (U8_of m c main_arg7 (by decide)).trans (arg7_7 m c)
theorem arg7_9 (c : Dev nD) : U9 m c main_arg7 = m ((c : Thread nD τ).loc main_arg7) := (U9_of m c main_arg7 (by decide)).trans (arg7_8 m c)
theorem arg7_10 (c : Dev nD) : U10 m c main_arg7 = m ((c : Thread nD τ).loc main_arg7) := (U10_of m c main_arg7 (by decide)).trans (arg7_9 m c)
theorem arg7_11 (c : Dev nD) : U11 m c main_arg7 = m ((c : Thread nD τ).loc main_arg7) := (U11_of m c main_arg7 (by decide)).trans (arg7_10 m c)
theorem arg7_12 (c : Dev nD) : U12 m c main_arg7 = m ((c : Thread nD τ).loc main_arg7) := (U12_of m c main_arg7 (by decide)).trans (arg7_11 m c)
theorem arg7_13 (c : Dev nD) : U13 m c main_arg7 = m ((c : Thread nD τ).loc main_arg7) := (U13_of m c main_arg7 (by decide)).trans (arg7_12 m c)
theorem arg7_14 (c : Dev nD) : U14 m c main_arg7 = m ((c : Thread nD τ).loc main_arg7) := (U14_of m c main_arg7 (by decide)).trans (arg7_13 m c)
theorem arg7_15 (c : Dev nD) : U15 m c main_arg7 = m ((c : Thread nD τ).loc main_arg7) := (U15_of m c main_arg7 (by decide)).trans (arg7_14 m c)
theorem arg8_1 (c : Dev nD) : U1 m c main_arg8 = m ((c : Thread nD τ).loc main_arg8) := (U1_of m c main_arg8 (by decide)).trans rfl
theorem arg8_2 (c : Dev nD) : U2 m c main_arg8 = m ((c : Thread nD τ).loc main_arg8) := (U2_of m c main_arg8 (by decide)).trans (arg8_1 m c)
theorem arg8_3 (c : Dev nD) : U3 m c main_arg8 = m ((c : Thread nD τ).loc main_arg8) := (U3_of m c main_arg8 (by decide)).trans (arg8_2 m c)
theorem arg8_4 (c : Dev nD) : U4 m c main_arg8 = m ((c : Thread nD τ).loc main_arg8) := (U4_of m c main_arg8 (by decide)).trans (arg8_3 m c)
theorem arg8_5 (c : Dev nD) : U5 m c main_arg8 = m ((c : Thread nD τ).loc main_arg8) := (U5_of m c main_arg8 (by decide)).trans (arg8_4 m c)
theorem arg8_6 (c : Dev nD) : U6 m c main_arg8 = m ((c : Thread nD τ).loc main_arg8) := (U6_of m c main_arg8 (by decide)).trans (arg8_5 m c)
theorem arg8_7 (c : Dev nD) : U7 m c main_arg8 = m ((c : Thread nD τ).loc main_arg8) := (U7_of m c main_arg8 (by decide)).trans (arg8_6 m c)
theorem arg8_8 (c : Dev nD) : U8 m c main_arg8 = m ((c : Thread nD τ).loc main_arg8) := (U8_of m c main_arg8 (by decide)).trans (arg8_7 m c)
theorem arg8_9 (c : Dev nD) : U9 m c main_arg8 = m ((c : Thread nD τ).loc main_arg8) := (U9_of m c main_arg8 (by decide)).trans (arg8_8 m c)
theorem arg8_10 (c : Dev nD) : U10 m c main_arg8 = m ((c : Thread nD τ).loc main_arg8) := (U10_of m c main_arg8 (by decide)).trans (arg8_9 m c)
theorem arg8_11 (c : Dev nD) : U11 m c main_arg8 = m ((c : Thread nD τ).loc main_arg8) := (U11_of m c main_arg8 (by decide)).trans (arg8_10 m c)
theorem arg8_12 (c : Dev nD) : U12 m c main_arg8 = m ((c : Thread nD τ).loc main_arg8) := (U12_of m c main_arg8 (by decide)).trans (arg8_11 m c)
theorem arg8_13 (c : Dev nD) : U13 m c main_arg8 = m ((c : Thread nD τ).loc main_arg8) := (U13_of m c main_arg8 (by decide)).trans (arg8_12 m c)
theorem arg8_14 (c : Dev nD) : U14 m c main_arg8 = m ((c : Thread nD τ).loc main_arg8) := (U14_of m c main_arg8 (by decide)).trans (arg8_13 m c)
theorem arg8_15 (c : Dev nD) : U15 m c main_arg8 = m ((c : Thread nD τ).loc main_arg8) := (U15_of m c main_arg8 (by decide)).trans (arg8_14 m c)
theorem arg9_1 (c : Dev nD) : U1 m c main_arg9 = m ((c : Thread nD τ).loc main_arg9) := (U1_of m c main_arg9 (by decide)).trans rfl
theorem arg9_2 (c : Dev nD) : U2 m c main_arg9 = m ((c : Thread nD τ).loc main_arg9) := (U2_of m c main_arg9 (by decide)).trans (arg9_1 m c)
theorem arg9_3 (c : Dev nD) : U3 m c main_arg9 = m ((c : Thread nD τ).loc main_arg9) := (U3_of m c main_arg9 (by decide)).trans (arg9_2 m c)
theorem arg9_4 (c : Dev nD) : U4 m c main_arg9 = m ((c : Thread nD τ).loc main_arg9) := (U4_of m c main_arg9 (by decide)).trans (arg9_3 m c)
theorem arg9_5 (c : Dev nD) : U5 m c main_arg9 = m ((c : Thread nD τ).loc main_arg9) := (U5_of m c main_arg9 (by decide)).trans (arg9_4 m c)
theorem arg9_6 (c : Dev nD) : U6 m c main_arg9 = m ((c : Thread nD τ).loc main_arg9) := (U6_of m c main_arg9 (by decide)).trans (arg9_5 m c)
theorem arg9_7 (c : Dev nD) : U7 m c main_arg9 = m ((c : Thread nD τ).loc main_arg9) := (U7_of m c main_arg9 (by decide)).trans (arg9_6 m c)
theorem arg9_8 (c : Dev nD) : U8 m c main_arg9 = m ((c : Thread nD τ).loc main_arg9) := (U8_of m c main_arg9 (by decide)).trans (arg9_7 m c)
theorem arg9_9 (c : Dev nD) : U9 m c main_arg9 = m ((c : Thread nD τ).loc main_arg9) := (U9_of m c main_arg9 (by decide)).trans (arg9_8 m c)
theorem arg9_10 (c : Dev nD) : U10 m c main_arg9 = m ((c : Thread nD τ).loc main_arg9) := (U10_of m c main_arg9 (by decide)).trans (arg9_9 m c)
theorem arg9_11 (c : Dev nD) : U11 m c main_arg9 = m ((c : Thread nD τ).loc main_arg9) := (U11_of m c main_arg9 (by decide)).trans (arg9_10 m c)
theorem arg9_12 (c : Dev nD) : U12 m c main_arg9 = m ((c : Thread nD τ).loc main_arg9) := (U12_of m c main_arg9 (by decide)).trans (arg9_11 m c)
theorem arg9_13 (c : Dev nD) : U13 m c main_arg9 = m ((c : Thread nD τ).loc main_arg9) := (U13_of m c main_arg9 (by decide)).trans (arg9_12 m c)
theorem arg9_14 (c : Dev nD) : U14 m c main_arg9 = m ((c : Thread nD τ).loc main_arg9) := (U14_of m c main_arg9 (by decide)).trans (arg9_13 m c)
theorem arg9_15 (c : Dev nD) : U15 m c main_arg9 = m ((c : Thread nD τ).loc main_arg9) := (U15_of m c main_arg9 (by decide)).trans (arg9_14 m c)
theorem arg10_1 (c : Dev nD) : U1 m c main_arg10 = m ((c : Thread nD τ).loc main_arg10) := (U1_of m c main_arg10 (by decide)).trans rfl
theorem arg10_2 (c : Dev nD) : U2 m c main_arg10 = m ((c : Thread nD τ).loc main_arg10) := (U2_of m c main_arg10 (by decide)).trans (arg10_1 m c)
theorem arg10_3 (c : Dev nD) : U3 m c main_arg10 = m ((c : Thread nD τ).loc main_arg10) := (U3_of m c main_arg10 (by decide)).trans (arg10_2 m c)
theorem arg10_4 (c : Dev nD) : U4 m c main_arg10 = m ((c : Thread nD τ).loc main_arg10) := (U4_of m c main_arg10 (by decide)).trans (arg10_3 m c)
theorem arg10_5 (c : Dev nD) : U5 m c main_arg10 = m ((c : Thread nD τ).loc main_arg10) := (U5_of m c main_arg10 (by decide)).trans (arg10_4 m c)
theorem arg10_6 (c : Dev nD) : U6 m c main_arg10 = m ((c : Thread nD τ).loc main_arg10) := (U6_of m c main_arg10 (by decide)).trans (arg10_5 m c)
theorem arg10_7 (c : Dev nD) : U7 m c main_arg10 = m ((c : Thread nD τ).loc main_arg10) := (U7_of m c main_arg10 (by decide)).trans (arg10_6 m c)
theorem arg10_8 (c : Dev nD) : U8 m c main_arg10 = m ((c : Thread nD τ).loc main_arg10) := (U8_of m c main_arg10 (by decide)).trans (arg10_7 m c)
theorem arg10_9 (c : Dev nD) : U9 m c main_arg10 = m ((c : Thread nD τ).loc main_arg10) := (U9_of m c main_arg10 (by decide)).trans (arg10_8 m c)
theorem arg10_10 (c : Dev nD) : U10 m c main_arg10 = m ((c : Thread nD τ).loc main_arg10) := (U10_of m c main_arg10 (by decide)).trans (arg10_9 m c)
theorem arg10_11 (c : Dev nD) : U11 m c main_arg10 = m ((c : Thread nD τ).loc main_arg10) := (U11_of m c main_arg10 (by decide)).trans (arg10_10 m c)
theorem arg10_12 (c : Dev nD) : U12 m c main_arg10 = m ((c : Thread nD τ).loc main_arg10) := (U12_of m c main_arg10 (by decide)).trans (arg10_11 m c)
theorem arg10_13 (c : Dev nD) : U13 m c main_arg10 = m ((c : Thread nD τ).loc main_arg10) := (U13_of m c main_arg10 (by decide)).trans (arg10_12 m c)
theorem arg10_14 (c : Dev nD) : U14 m c main_arg10 = m ((c : Thread nD τ).loc main_arg10) := (U14_of m c main_arg10 (by decide)).trans (arg10_13 m c)
theorem arg10_15 (c : Dev nD) : U15 m c main_arg10 = m ((c : Thread nD τ).loc main_arg10) := (U15_of m c main_arg10 (by decide)).trans (arg10_14 m c)
theorem arg11_1 (c : Dev nD) : U1 m c main_arg11 = m ((c : Thread nD τ).loc main_arg11) := (U1_of m c main_arg11 (by decide)).trans rfl
theorem arg11_2 (c : Dev nD) : U2 m c main_arg11 = m ((c : Thread nD τ).loc main_arg11) := (U2_of m c main_arg11 (by decide)).trans (arg11_1 m c)
theorem arg11_3 (c : Dev nD) : U3 m c main_arg11 = m ((c : Thread nD τ).loc main_arg11) := (U3_of m c main_arg11 (by decide)).trans (arg11_2 m c)
theorem arg11_4 (c : Dev nD) : U4 m c main_arg11 = m ((c : Thread nD τ).loc main_arg11) := (U4_of m c main_arg11 (by decide)).trans (arg11_3 m c)
theorem arg11_5 (c : Dev nD) : U5 m c main_arg11 = m ((c : Thread nD τ).loc main_arg11) := (U5_of m c main_arg11 (by decide)).trans (arg11_4 m c)
theorem arg11_6 (c : Dev nD) : U6 m c main_arg11 = m ((c : Thread nD τ).loc main_arg11) := (U6_of m c main_arg11 (by decide)).trans (arg11_5 m c)
theorem arg11_7 (c : Dev nD) : U7 m c main_arg11 = m ((c : Thread nD τ).loc main_arg11) := (U7_of m c main_arg11 (by decide)).trans (arg11_6 m c)
theorem arg11_8 (c : Dev nD) : U8 m c main_arg11 = m ((c : Thread nD τ).loc main_arg11) := (U8_of m c main_arg11 (by decide)).trans (arg11_7 m c)
theorem arg11_9 (c : Dev nD) : U9 m c main_arg11 = m ((c : Thread nD τ).loc main_arg11) := (U9_of m c main_arg11 (by decide)).trans (arg11_8 m c)
theorem arg11_10 (c : Dev nD) : U10 m c main_arg11 = m ((c : Thread nD τ).loc main_arg11) := (U10_of m c main_arg11 (by decide)).trans (arg11_9 m c)
theorem arg11_11 (c : Dev nD) : U11 m c main_arg11 = m ((c : Thread nD τ).loc main_arg11) := (U11_of m c main_arg11 (by decide)).trans (arg11_10 m c)
theorem arg11_12 (c : Dev nD) : U12 m c main_arg11 = m ((c : Thread nD τ).loc main_arg11) := (U12_of m c main_arg11 (by decide)).trans (arg11_11 m c)
theorem arg11_13 (c : Dev nD) : U13 m c main_arg11 = m ((c : Thread nD τ).loc main_arg11) := (U13_of m c main_arg11 (by decide)).trans (arg11_12 m c)
theorem arg11_14 (c : Dev nD) : U14 m c main_arg11 = m ((c : Thread nD τ).loc main_arg11) := (U14_of m c main_arg11 (by decide)).trans (arg11_13 m c)
theorem arg11_15 (c : Dev nD) : U15 m c main_arg11 = m ((c : Thread nD τ).loc main_arg11) := (U15_of m c main_arg11 (by decide)).trans (arg11_14 m c)
theorem arg12_1 (c : Dev nD) : U1 m c main_arg12 = m ((c : Thread nD τ).loc main_arg12) := (U1_of m c main_arg12 (by decide)).trans rfl
theorem arg12_2 (c : Dev nD) : U2 m c main_arg12 = m ((c : Thread nD τ).loc main_arg12) := (U2_of m c main_arg12 (by decide)).trans (arg12_1 m c)
theorem arg12_3 (c : Dev nD) : U3 m c main_arg12 = m ((c : Thread nD τ).loc main_arg12) := (U3_of m c main_arg12 (by decide)).trans (arg12_2 m c)
theorem arg12_4 (c : Dev nD) : U4 m c main_arg12 = m ((c : Thread nD τ).loc main_arg12) := (U4_of m c main_arg12 (by decide)).trans (arg12_3 m c)
theorem arg12_5 (c : Dev nD) : U5 m c main_arg12 = m ((c : Thread nD τ).loc main_arg12) := (U5_of m c main_arg12 (by decide)).trans (arg12_4 m c)
theorem arg12_6 (c : Dev nD) : U6 m c main_arg12 = m ((c : Thread nD τ).loc main_arg12) := (U6_of m c main_arg12 (by decide)).trans (arg12_5 m c)
theorem arg12_7 (c : Dev nD) : U7 m c main_arg12 = m ((c : Thread nD τ).loc main_arg12) := (U7_of m c main_arg12 (by decide)).trans (arg12_6 m c)
theorem arg12_8 (c : Dev nD) : U8 m c main_arg12 = m ((c : Thread nD τ).loc main_arg12) := (U8_of m c main_arg12 (by decide)).trans (arg12_7 m c)
theorem arg12_9 (c : Dev nD) : U9 m c main_arg12 = m ((c : Thread nD τ).loc main_arg12) := (U9_of m c main_arg12 (by decide)).trans (arg12_8 m c)
theorem arg12_10 (c : Dev nD) : U10 m c main_arg12 = m ((c : Thread nD τ).loc main_arg12) := (U10_of m c main_arg12 (by decide)).trans (arg12_9 m c)
theorem arg12_11 (c : Dev nD) : U11 m c main_arg12 = m ((c : Thread nD τ).loc main_arg12) := (U11_of m c main_arg12 (by decide)).trans (arg12_10 m c)
theorem arg12_12 (c : Dev nD) : U12 m c main_arg12 = m ((c : Thread nD τ).loc main_arg12) := (U12_of m c main_arg12 (by decide)).trans (arg12_11 m c)
theorem arg12_13 (c : Dev nD) : U13 m c main_arg12 = m ((c : Thread nD τ).loc main_arg12) := (U13_of m c main_arg12 (by decide)).trans (arg12_12 m c)
theorem arg12_14 (c : Dev nD) : U14 m c main_arg12 = m ((c : Thread nD τ).loc main_arg12) := (U14_of m c main_arg12 (by decide)).trans (arg12_13 m c)
theorem arg12_15 (c : Dev nD) : U15 m c main_arg12 = m ((c : Thread nD τ).loc main_arg12) := (U15_of m c main_arg12 (by decide)).trans (arg12_14 m c)
theorem arg13_1 (c : Dev nD) : U1 m c main_arg13 = m ((c : Thread nD τ).loc main_arg13) := (U1_of m c main_arg13 (by decide)).trans rfl
theorem arg13_2 (c : Dev nD) : U2 m c main_arg13 = m ((c : Thread nD τ).loc main_arg13) := (U2_of m c main_arg13 (by decide)).trans (arg13_1 m c)
theorem arg13_3 (c : Dev nD) : U3 m c main_arg13 = m ((c : Thread nD τ).loc main_arg13) := (U3_of m c main_arg13 (by decide)).trans (arg13_2 m c)
theorem arg13_4 (c : Dev nD) : U4 m c main_arg13 = m ((c : Thread nD τ).loc main_arg13) := (U4_of m c main_arg13 (by decide)).trans (arg13_3 m c)
theorem arg13_5 (c : Dev nD) : U5 m c main_arg13 = m ((c : Thread nD τ).loc main_arg13) := (U5_of m c main_arg13 (by decide)).trans (arg13_4 m c)
theorem arg13_6 (c : Dev nD) : U6 m c main_arg13 = m ((c : Thread nD τ).loc main_arg13) := (U6_of m c main_arg13 (by decide)).trans (arg13_5 m c)
theorem arg13_7 (c : Dev nD) : U7 m c main_arg13 = m ((c : Thread nD τ).loc main_arg13) := (U7_of m c main_arg13 (by decide)).trans (arg13_6 m c)
theorem arg13_8 (c : Dev nD) : U8 m c main_arg13 = m ((c : Thread nD τ).loc main_arg13) := (U8_of m c main_arg13 (by decide)).trans (arg13_7 m c)
theorem arg13_9 (c : Dev nD) : U9 m c main_arg13 = m ((c : Thread nD τ).loc main_arg13) := (U9_of m c main_arg13 (by decide)).trans (arg13_8 m c)
theorem arg13_10 (c : Dev nD) : U10 m c main_arg13 = m ((c : Thread nD τ).loc main_arg13) := (U10_of m c main_arg13 (by decide)).trans (arg13_9 m c)
theorem arg13_11 (c : Dev nD) : U11 m c main_arg13 = m ((c : Thread nD τ).loc main_arg13) := (U11_of m c main_arg13 (by decide)).trans (arg13_10 m c)
theorem arg13_12 (c : Dev nD) : U12 m c main_arg13 = m ((c : Thread nD τ).loc main_arg13) := (U12_of m c main_arg13 (by decide)).trans (arg13_11 m c)
theorem arg13_13 (c : Dev nD) : U13 m c main_arg13 = m ((c : Thread nD τ).loc main_arg13) := (U13_of m c main_arg13 (by decide)).trans (arg13_12 m c)
theorem arg13_14 (c : Dev nD) : U14 m c main_arg13 = m ((c : Thread nD τ).loc main_arg13) := (U14_of m c main_arg13 (by decide)).trans (arg13_13 m c)
theorem arg13_15 (c : Dev nD) : U15 m c main_arg13 = m ((c : Thread nD τ).loc main_arg13) := (U15_of m c main_arg13 (by decide)).trans (arg13_14 m c)
theorem arg14_1 (c : Dev nD) : U1 m c main_arg14 = m ((c : Thread nD τ).loc main_arg14) := (U1_of m c main_arg14 (by decide)).trans rfl
theorem arg14_2 (c : Dev nD) : U2 m c main_arg14 = m ((c : Thread nD τ).loc main_arg14) := (U2_of m c main_arg14 (by decide)).trans (arg14_1 m c)
theorem arg14_3 (c : Dev nD) : U3 m c main_arg14 = m ((c : Thread nD τ).loc main_arg14) := (U3_of m c main_arg14 (by decide)).trans (arg14_2 m c)
theorem arg14_4 (c : Dev nD) : U4 m c main_arg14 = m ((c : Thread nD τ).loc main_arg14) := (U4_of m c main_arg14 (by decide)).trans (arg14_3 m c)
theorem arg14_5 (c : Dev nD) : U5 m c main_arg14 = m ((c : Thread nD τ).loc main_arg14) := (U5_of m c main_arg14 (by decide)).trans (arg14_4 m c)
theorem arg14_6 (c : Dev nD) : U6 m c main_arg14 = m ((c : Thread nD τ).loc main_arg14) := (U6_of m c main_arg14 (by decide)).trans (arg14_5 m c)
theorem arg14_7 (c : Dev nD) : U7 m c main_arg14 = m ((c : Thread nD τ).loc main_arg14) := (U7_of m c main_arg14 (by decide)).trans (arg14_6 m c)
theorem arg14_8 (c : Dev nD) : U8 m c main_arg14 = m ((c : Thread nD τ).loc main_arg14) := (U8_of m c main_arg14 (by decide)).trans (arg14_7 m c)
theorem arg14_9 (c : Dev nD) : U9 m c main_arg14 = m ((c : Thread nD τ).loc main_arg14) := (U9_of m c main_arg14 (by decide)).trans (arg14_8 m c)
theorem arg14_10 (c : Dev nD) : U10 m c main_arg14 = m ((c : Thread nD τ).loc main_arg14) := (U10_of m c main_arg14 (by decide)).trans (arg14_9 m c)
theorem arg14_11 (c : Dev nD) : U11 m c main_arg14 = m ((c : Thread nD τ).loc main_arg14) := (U11_of m c main_arg14 (by decide)).trans (arg14_10 m c)
theorem arg14_12 (c : Dev nD) : U12 m c main_arg14 = m ((c : Thread nD τ).loc main_arg14) := (U12_of m c main_arg14 (by decide)).trans (arg14_11 m c)
theorem arg14_13 (c : Dev nD) : U13 m c main_arg14 = m ((c : Thread nD τ).loc main_arg14) := (U13_of m c main_arg14 (by decide)).trans (arg14_12 m c)
theorem arg14_14 (c : Dev nD) : U14 m c main_arg14 = m ((c : Thread nD τ).loc main_arg14) := (U14_of m c main_arg14 (by decide)).trans (arg14_13 m c)
theorem arg14_15 (c : Dev nD) : U15 m c main_arg14 = m ((c : Thread nD τ).loc main_arg14) := (U15_of m c main_arg14 (by decide)).trans (arg14_14 m c)
theorem arg15_1 (c : Dev nD) : U1 m c main_arg15 = m ((c : Thread nD τ).loc main_arg15) := (U1_of m c main_arg15 (by decide)).trans rfl
theorem arg15_2 (c : Dev nD) : U2 m c main_arg15 = m ((c : Thread nD τ).loc main_arg15) := (U2_of m c main_arg15 (by decide)).trans (arg15_1 m c)
theorem arg15_3 (c : Dev nD) : U3 m c main_arg15 = m ((c : Thread nD τ).loc main_arg15) := (U3_of m c main_arg15 (by decide)).trans (arg15_2 m c)
theorem arg15_4 (c : Dev nD) : U4 m c main_arg15 = m ((c : Thread nD τ).loc main_arg15) := (U4_of m c main_arg15 (by decide)).trans (arg15_3 m c)
theorem arg15_5 (c : Dev nD) : U5 m c main_arg15 = m ((c : Thread nD τ).loc main_arg15) := (U5_of m c main_arg15 (by decide)).trans (arg15_4 m c)
theorem arg15_6 (c : Dev nD) : U6 m c main_arg15 = m ((c : Thread nD τ).loc main_arg15) := (U6_of m c main_arg15 (by decide)).trans (arg15_5 m c)
theorem arg15_7 (c : Dev nD) : U7 m c main_arg15 = m ((c : Thread nD τ).loc main_arg15) := (U7_of m c main_arg15 (by decide)).trans (arg15_6 m c)
theorem arg15_8 (c : Dev nD) : U8 m c main_arg15 = m ((c : Thread nD τ).loc main_arg15) := (U8_of m c main_arg15 (by decide)).trans (arg15_7 m c)
theorem arg15_9 (c : Dev nD) : U9 m c main_arg15 = m ((c : Thread nD τ).loc main_arg15) := (U9_of m c main_arg15 (by decide)).trans (arg15_8 m c)
theorem arg15_10 (c : Dev nD) : U10 m c main_arg15 = m ((c : Thread nD τ).loc main_arg15) := (U10_of m c main_arg15 (by decide)).trans (arg15_9 m c)
theorem arg15_11 (c : Dev nD) : U11 m c main_arg15 = m ((c : Thread nD τ).loc main_arg15) := (U11_of m c main_arg15 (by decide)).trans (arg15_10 m c)
theorem arg15_12 (c : Dev nD) : U12 m c main_arg15 = m ((c : Thread nD τ).loc main_arg15) := (U12_of m c main_arg15 (by decide)).trans (arg15_11 m c)
theorem arg15_13 (c : Dev nD) : U13 m c main_arg15 = m ((c : Thread nD τ).loc main_arg15) := (U13_of m c main_arg15 (by decide)).trans (arg15_12 m c)
theorem arg15_14 (c : Dev nD) : U14 m c main_arg15 = m ((c : Thread nD τ).loc main_arg15) := (U14_of m c main_arg15 (by decide)).trans (arg15_13 m c)
theorem arg15_15 (c : Dev nD) : U15 m c main_arg15 = m ((c : Thread nD τ).loc main_arg15) := (U15_of m c main_arg15 (by decide)).trans (arg15_14 m c)

/-! ## The first stretch: the two columns of the edge list, the projection's bias as a row -/

theorem v1_1 (c : Dev nD) : U1 m c main_v1 = Net.nodeIn (m ((c : Thread nD τ).loc main_arg4)) := by
  unfold U1; after_results; try rfl
theorem v3_1 (c : Dev nD) : U1 m c main_v3 = Net.nodeOut (m ((c : Thread nD τ).loc main_arg4)) := by
  unfold U1; after_results; try rfl
theorem v4_1 (c : Dev nD) : U1 m c main_v4 = shapeCast S1x256 (m ((c : Thread nD τ).loc main_arg7)) shapeCasts_S256_S1x256 := by
  unfold U1; after_results; try rfl
theorem v1_2 (c : Dev nD) : U2 m c main_v1 = Net.nodeIn (m ((c : Thread nD τ).loc main_arg4)) := (U2_of m c main_v1 (by decide)).trans (v1_1 m c)
theorem v1_3 (c : Dev nD) : U3 m c main_v1 = Net.nodeIn (m ((c : Thread nD τ).loc main_arg4)) := (U3_of m c main_v1 (by decide)).trans (v1_2 m c)
theorem v1_4 (c : Dev nD) : U4 m c main_v1 = Net.nodeIn (m ((c : Thread nD τ).loc main_arg4)) := (U4_of m c main_v1 (by decide)).trans (v1_3 m c)
theorem v1_5 (c : Dev nD) : U5 m c main_v1 = Net.nodeIn (m ((c : Thread nD τ).loc main_arg4)) := (U5_of m c main_v1 (by decide)).trans (v1_4 m c)
theorem v1_6 (c : Dev nD) : U6 m c main_v1 = Net.nodeIn (m ((c : Thread nD τ).loc main_arg4)) := (U6_of m c main_v1 (by decide)).trans (v1_5 m c)
theorem v1_7 (c : Dev nD) : U7 m c main_v1 = Net.nodeIn (m ((c : Thread nD τ).loc main_arg4)) := (U7_of m c main_v1 (by decide)).trans (v1_6 m c)
theorem v1_8 (c : Dev nD) : U8 m c main_v1 = Net.nodeIn (m ((c : Thread nD τ).loc main_arg4)) := (U8_of m c main_v1 (by decide)).trans (v1_7 m c)
theorem v1_9 (c : Dev nD) : U9 m c main_v1 = Net.nodeIn (m ((c : Thread nD τ).loc main_arg4)) := (U9_of m c main_v1 (by decide)).trans (v1_8 m c)
theorem v1_10 (c : Dev nD) : U10 m c main_v1 = Net.nodeIn (m ((c : Thread nD τ).loc main_arg4)) := (U10_of m c main_v1 (by decide)).trans (v1_9 m c)
theorem v1_11 (c : Dev nD) : U11 m c main_v1 = Net.nodeIn (m ((c : Thread nD τ).loc main_arg4)) := (U11_of m c main_v1 (by decide)).trans (v1_10 m c)
theorem v1_12 (c : Dev nD) : U12 m c main_v1 = Net.nodeIn (m ((c : Thread nD τ).loc main_arg4)) := (U12_of m c main_v1 (by decide)).trans (v1_11 m c)
theorem v1_13 (c : Dev nD) : U13 m c main_v1 = Net.nodeIn (m ((c : Thread nD τ).loc main_arg4)) := (U13_of m c main_v1 (by decide)).trans (v1_12 m c)
theorem v1_14 (c : Dev nD) : U14 m c main_v1 = Net.nodeIn (m ((c : Thread nD τ).loc main_arg4)) := (U14_of m c main_v1 (by decide)).trans (v1_13 m c)
theorem v3_2 (c : Dev nD) : U2 m c main_v3 = Net.nodeOut (m ((c : Thread nD τ).loc main_arg4)) := (U2_of m c main_v3 (by decide)).trans (v3_1 m c)
theorem v3_3 (c : Dev nD) : U3 m c main_v3 = Net.nodeOut (m ((c : Thread nD τ).loc main_arg4)) := (U3_of m c main_v3 (by decide)).trans (v3_2 m c)
theorem v3_4 (c : Dev nD) : U4 m c main_v3 = Net.nodeOut (m ((c : Thread nD τ).loc main_arg4)) := (U4_of m c main_v3 (by decide)).trans (v3_3 m c)
theorem v3_5 (c : Dev nD) : U5 m c main_v3 = Net.nodeOut (m ((c : Thread nD τ).loc main_arg4)) := (U5_of m c main_v3 (by decide)).trans (v3_4 m c)
theorem v3_6 (c : Dev nD) : U6 m c main_v3 = Net.nodeOut (m ((c : Thread nD τ).loc main_arg4)) := (U6_of m c main_v3 (by decide)).trans (v3_5 m c)
theorem v3_7 (c : Dev nD) : U7 m c main_v3 = Net.nodeOut (m ((c : Thread nD τ).loc main_arg4)) := (U7_of m c main_v3 (by decide)).trans (v3_6 m c)
theorem v3_8 (c : Dev nD) : U8 m c main_v3 = Net.nodeOut (m ((c : Thread nD τ).loc main_arg4)) := (U8_of m c main_v3 (by decide)).trans (v3_7 m c)
theorem v3_9 (c : Dev nD) : U9 m c main_v3 = Net.nodeOut (m ((c : Thread nD τ).loc main_arg4)) := (U9_of m c main_v3 (by decide)).trans (v3_8 m c)
theorem v3_10 (c : Dev nD) : U10 m c main_v3 = Net.nodeOut (m ((c : Thread nD τ).loc main_arg4)) := (U10_of m c main_v3 (by decide)).trans (v3_9 m c)
theorem v3_11 (c : Dev nD) : U11 m c main_v3 = Net.nodeOut (m ((c : Thread nD τ).loc main_arg4)) := (U11_of m c main_v3 (by decide)).trans (v3_10 m c)
theorem v3_12 (c : Dev nD) : U12 m c main_v3 = Net.nodeOut (m ((c : Thread nD τ).loc main_arg4)) := (U12_of m c main_v3 (by decide)).trans (v3_11 m c)
theorem v3_13 (c : Dev nD) : U13 m c main_v3 = Net.nodeOut (m ((c : Thread nD τ).loc main_arg4)) := (U13_of m c main_v3 (by decide)).trans (v3_12 m c)
theorem v3_14 (c : Dev nD) : U14 m c main_v3 = Net.nodeOut (m ((c : Thread nD τ).loc main_arg4)) := (U14_of m c main_v3 (by decide)).trans (v3_13 m c)

/-! ## The edge-weight column, made once -/

theorem v6_3 (c : Dev nD) : U3 m c main_v6 = shapeCast S160000x1 (m ((c : Thread nD τ).loc main_arg3)) shapeCasts_S160000_S160000x1 := by
  unfold U3; after_results; rw [arg3_2]
  try rfl
theorem v6_4 (c : Dev nD) : U4 m c main_v6 = shapeCast S160000x1 (m ((c : Thread nD τ).loc main_arg3)) shapeCasts_S160000_S160000x1 := (U4_of m c main_v6 (by decide)).trans (v6_3 m c)
theorem v6_5 (c : Dev nD) : U5 m c main_v6 = shapeCast S160000x1 (m ((c : Thread nD τ).loc main_arg3)) shapeCasts_S160000_S160000x1 := (U5_of m c main_v6 (by decide)).trans (v6_4 m c)
theorem v6_6 (c : Dev nD) : U6 m c main_v6 = shapeCast S160000x1 (m ((c : Thread nD τ).loc main_arg3)) shapeCasts_S160000_S160000x1 := (U6_of m c main_v6 (by decide)).trans (v6_5 m c)
theorem v6_7 (c : Dev nD) : U7 m c main_v6 = shapeCast S160000x1 (m ((c : Thread nD τ).loc main_arg3)) shapeCasts_S160000_S160000x1 := (U7_of m c main_v6 (by decide)).trans (v6_6 m c)
theorem v6_8 (c : Dev nD) : U8 m c main_v6 = shapeCast S160000x1 (m ((c : Thread nD τ).loc main_arg3)) shapeCasts_S160000_S160000x1 := (U8_of m c main_v6 (by decide)).trans (v6_7 m c)
theorem v6_9 (c : Dev nD) : U9 m c main_v6 = shapeCast S160000x1 (m ((c : Thread nD τ).loc main_arg3)) shapeCasts_S160000_S160000x1 := (U9_of m c main_v6 (by decide)).trans (v6_8 m c)
theorem v6_10 (c : Dev nD) : U10 m c main_v6 = shapeCast S160000x1 (m ((c : Thread nD τ).loc main_arg3)) shapeCasts_S160000_S160000x1 := (U10_of m c main_v6 (by decide)).trans (v6_9 m c)
theorem v6_11 (c : Dev nD) : U11 m c main_v6 = shapeCast S160000x1 (m ((c : Thread nD τ).loc main_arg3)) shapeCasts_S160000_S160000x1 := (U11_of m c main_v6 (by decide)).trans (v6_10 m c)

/-! ## What each pallas_call's output array holds, read off the chain -/

theorem out_2 (c : Dev nD) : U2 m c main_v5 = o0 m c := by
  show Function.update (U1 m c) (Proc.devRef .tc main_v5) (o0 m c) (Proc.devRef .tc main_v5) = _
  rw [Function.update_self]
theorem out_4 (c : Dev nD) : U4 m c main_v53 = o1 m c := by
  show Function.update (U3 m c) (Proc.devRef .tc main_v53) (o1 m c) (Proc.devRef .tc main_v53) = _
  rw [Function.update_self]
theorem out_6 (c : Dev nD) : U6 m c main_v69 = o2 m c := by
  show Function.update (U5 m c) (Proc.devRef .tc main_v69) (o2 m c) (Proc.devRef .tc main_v69) = _
  rw [Function.update_self]
theorem out_8 (c : Dev nD) : U8 m c main_v116 = o3 m c := by
  show Function.update (U7 m c) (Proc.devRef .tc main_v116) (o3 m c) (Proc.devRef .tc main_v116) = _
  rw [Function.update_self]
theorem out_10 (c : Dev nD) : U10 m c main_v132 = o4 m c := by
  show Function.update (U9 m c) (Proc.devRef .tc main_v132) (o4 m c) (Proc.devRef .tc main_v132) = _
  rw [Function.update_self]
theorem out_12 (c : Dev nD) : U12 m c main_v179 = o5 m c := by
  show Function.update (U11 m c) (Proc.devRef .tc main_v179) (o5 m c) (Proc.devRef .tc main_v179) = _
  rw [Function.update_self]
theorem out_14 (c : Dev nD) : U14 m c main_v195 = o6 m c := by
  show Function.update (U13 m c) (Proc.devRef .tc main_v195) (o6 m c) (Proc.devRef .tc main_v195) = _
  rw [Function.update_self]
theorem out_16 (c : Dev nD) : U16 m c main_v197 = o7 m c := by
  show Function.update (U15 m c) (Proc.devRef .tc main_v197) (o7 m c) (Proc.devRef .tc main_v197) = _
  rw [Function.update_self]

end Cert.Proof.KI

end
-- ==== Proof.KI.KSm0.lean ====
/-
  What the message MLP's call of layer 0 is handed: the host stretch before it read at each array the call stages — first from any buffer
  contents, then at the chain's, in terms of the arguments as launched and of the earlier calls' outputs.
-/
import proofs.«421803_j42709154791890_2_alg».proof.Proof.KI.KVBase

set_option maxRecDepth 16384

noncomputable section

namespace Cert.Proof.KI

open Cert.KernelIdeal Cert.KernelIdeal.Gen
open Idealize.ShloMosaic.StableHlo (after_cons after_nil)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

/-! ## The stretch read at each array, from any contents -/

theorem g_hin_0 (W : Valuation τ sig (Elt Ideal)) : StableHlo.after hostOps1 W main_v13 = Net.rowsOf (W main_v5) (Net.wrapCol (W main_v1)) := by
  after_results
  try rfl
theorem g_hout_0 (W : Valuation τ sig (Elt Ideal)) : StableHlo.after hostOps1 W main_v20 = Net.rowsOf (W main_v5) (Net.wrapCol (W main_v3)) := by
  after_results
  try rfl
theorem g_sin_0 (W : Valuation τ sig (Elt Ideal)) : StableHlo.after hostOps1 W main_v27 = Net.countsOf (W main_arg1) (Net.wrapCol (W main_v1)) := by
  after_results
  try rfl
theorem g_sout_0 (W : Valuation τ sig (Elt Ideal)) : StableHlo.after hostOps1 W main_v34 = Net.countsOf (W main_arg1) (Net.wrapCol (W main_v3)) := by
  after_results
  try rfl
theorem g_whin_0 (W : Valuation τ sig (Elt Ideal)) : StableHlo.after hostOps1 W main_v36 = (Net.layerW0 (W main_arg8) (W main_arg9) (W main_arg10) (W main_arg11) (W main_arg12) (W main_arg13) (W main_arg14) (W main_arg15)).Whin := by
  after_results
  try rfl
theorem g_whout_0 (W : Valuation τ sig (Elt Ideal)) : StableHlo.after hostOps1 W main_v38 = (Net.layerW0 (W main_arg8) (W main_arg9) (W main_arg10) (W main_arg11) (W main_arg12) (W main_arg13) (W main_arg14) (W main_arg15)).Whout := by
  after_results
  try rfl
theorem g_wedge_0 (W : Valuation τ sig (Elt Ideal)) : StableHlo.after hostOps1 W main_v44 = (Net.layerW0 (W main_arg8) (W main_arg9) (W main_arg10) (W main_arg11) (W main_arg12) (W main_arg13) (W main_arg14) (W main_arg15)).Wedge := by
  after_results
  try rfl
theorem g_wsin_0 (W : Valuation τ sig (Elt Ideal)) : StableHlo.after hostOps1 W main_v40 = (Net.layerW0 (W main_arg8) (W main_arg9) (W main_arg10) (W main_arg11) (W main_arg12) (W main_arg13) (W main_arg14) (W main_arg15)).wsin := by
  after_results
  try rfl
theorem g_wsout_0 (W : Valuation τ sig (Elt Ideal)) : StableHlo.after hostOps1 W main_v42 = (Net.layerW0 (W main_arg8) (W main_arg9) (W main_arg10) (W main_arg11) (W main_arg12) (W main_arg13) (W main_arg14) (W main_arg15)).wsout := by
  after_results
  try rfl
theorem g_b1_0 (W : Valuation τ sig (Elt Ideal)) : StableHlo.after hostOps1 W main_v51 = (Net.layerW0 (W main_arg8) (W main_arg9) (W main_arg10) (W main_arg11) (W main_arg12) (W main_arg13) (W main_arg14) (W main_arg15)).b1 := by
  after_results
  try rfl
theorem g_w2_0 (W : Valuation τ sig (Elt Ideal)) : StableHlo.after hostOps1 W main_v48 = (Net.layerW0 (W main_arg8) (W main_arg9) (W main_arg10) (W main_arg11) (W main_arg12) (W main_arg13) (W main_arg14) (W main_arg15)).W2 := by
  after_results
  try rfl
theorem g_b2_0 (W : Valuation τ sig (Elt Ideal)) : StableHlo.after hostOps1 W main_v52 = (Net.layerW0 (W main_arg8) (W main_arg9) (W main_arg10) (W main_arg11) (W main_arg12) (W main_arg13) (W main_arg14) (W main_arg15)).b2 := by
  after_results
  try rfl

variable (m : (ℓ : Loc nD τ sig) → Buf (Elt Ideal) ℓ)

/-! ## The same at the chain's contents -/

theorem hin_0 (c : Dev nD) : U3 m c main_v13 = Net.rowsOf (o0 m c) (Net.wrapCol (Net.nodeIn (m ((c : Thread nD τ).loc main_arg4)))) := by
  show StableHlo.after hostOps1 (U2 m c) main_v13 = _
  rw [g_hin_0, out_2, v1_2]
theorem hout_0 (c : Dev nD) : U3 m c main_v20 = Net.rowsOf (o0 m c) (Net.wrapCol (Net.nodeOut (m ((c : Thread nD τ).loc main_arg4)))) := by
  show StableHlo.after hostOps1 (U2 m c) main_v20 = _
  rw [g_hout_0, out_2, v3_2]
theorem sin_0 (c : Dev nD) : U3 m c main_v27 = Net.countsOf (m ((c : Thread nD τ).loc main_arg1)) (Net.wrapCol (Net.nodeIn (m ((c : Thread nD τ).loc main_arg4)))) := by
  show StableHlo.after hostOps1 (U2 m c) main_v27 = _
  rw [g_sin_0, arg1_2, v1_2]
theorem sout_0 (c : Dev nD) : U3 m c main_v34 = Net.countsOf (m ((c : Thread nD τ).loc main_arg1)) (Net.wrapCol (Net.nodeOut (m ((c : Thread nD τ).loc main_arg4)))) := by
  show StableHlo.after hostOps1 (U2 m c) main_v34 = _
  rw [g_sout_0, arg1_2, v3_2]
theorem whin_0 (c : Dev nD) : U3 m c main_v36 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whin := by
  show StableHlo.after hostOps1 (U2 m c) main_v36 = _
  rw [g_whin_0, arg8_2, arg9_2, arg10_2, arg11_2, arg12_2, arg13_2, arg14_2, arg15_2]
theorem whout_0 (c : Dev nD) : U3 m c main_v38 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whout := by
  show StableHlo.after hostOps1 (U2 m c) main_v38 = _
  rw [g_whout_0, arg8_2, arg9_2, arg10_2, arg11_2, arg12_2, arg13_2, arg14_2, arg15_2]
theorem wedge_0 (c : Dev nD) : U3 m c main_v44 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wedge := by
  show StableHlo.after hostOps1 (U2 m c) main_v44 = _
  rw [g_wedge_0, arg8_2, arg9_2, arg10_2, arg11_2, arg12_2, arg13_2, arg14_2, arg15_2]
theorem wsin_0 (c : Dev nD) : U3 m c main_v40 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsin := by
  show StableHlo.after hostOps1 (U2 m c) main_v40 = _
  rw [g_wsin_0, arg8_2, arg9_2, arg10_2, arg11_2, arg12_2, arg13_2, arg14_2, arg15_2]
theorem wsout_0 (c : Dev nD) : U3 m c main_v42 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsout := by
  show StableHlo.after hostOps1 (U2 m c) main_v42 = _
  rw [g_wsout_0, arg8_2, arg9_2, arg10_2, arg11_2, arg12_2, arg13_2, arg14_2, arg15_2]
theorem b1_0 (c : Dev nD) : U3 m c main_v51 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b1 := by
  show StableHlo.after hostOps1 (U2 m c) main_v51 = _
  rw [g_b1_0, arg8_2, arg9_2, arg10_2, arg11_2, arg12_2, arg13_2, arg14_2, arg15_2]
theorem w2_0 (c : Dev nD) : U3 m c main_v48 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).W2 := by
  show StableHlo.after hostOps1 (U2 m c) main_v48 = _
  rw [g_w2_0, arg8_2, arg9_2, arg10_2, arg11_2, arg12_2, arg13_2, arg14_2, arg15_2]
theorem b2_0 (c : Dev nD) : U3 m c main_v52 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b2 := by
  show StableHlo.after hostOps1 (U2 m c) main_v52 = _
  rw [g_b2_0, arg8_2, arg9_2, arg10_2, arg11_2, arg12_2, arg13_2, arg14_2, arg15_2]

end Cert.Proof.KI

end
-- ==== Proof.KI.KSu0.lean ====
/-
  What the combine MLP's call of layer 0 is handed: the host stretch before it read at each array the call stages — first from any buffer
  contents, then at the chain's, in terms of the arguments as launched and of the earlier calls' outputs.
-/
import proofs.«421803_j42709154791890_2_alg».proof.Proof.KI.KVBase

set_option maxRecDepth 16384

noncomputable section

namespace Cert.Proof.KI

open Cert.KernelIdeal Cert.KernelIdeal.Gen
open Idealize.ShloMosaic.StableHlo (after_cons after_nil)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

/-! ## The stretch read at each array, from any contents -/

theorem g_wa_0 (W : Valuation τ sig (Elt Ideal)) : StableHlo.after hostOps2 W main_v58 = (Net.layerW0 (W main_arg8) (W main_arg9) (W main_arg10) (W main_arg11) (W main_arg12) (W main_arg13) (W main_arg14) (W main_arg15)).Wa := by
  after_results
  try rfl
theorem g_wb_0 (W : Valuation τ sig (Elt Ideal)) : StableHlo.after hostOps2 W main_v60 = (Net.layerW0 (W main_arg8) (W main_arg9) (W main_arg10) (W main_arg11) (W main_arg12) (W main_arg13) (W main_arg14) (W main_arg15)).Wb := by
  after_results
  try rfl
theorem g_c1_0 (W : Valuation τ sig (Elt Ideal)) : StableHlo.after hostOps2 W main_v67 = (Net.layerW0 (W main_arg8) (W main_arg9) (W main_arg10) (W main_arg11) (W main_arg12) (W main_arg13) (W main_arg14) (W main_arg15)).c1 := by
  after_results
  try rfl
theorem g_u2_0 (W : Valuation τ sig (Elt Ideal)) : StableHlo.after hostOps2 W main_v64 = (Net.layerW0 (W main_arg8) (W main_arg9) (W main_arg10) (W main_arg11) (W main_arg12) (W main_arg13) (W main_arg14) (W main_arg15)).U2 := by
  after_results
  try rfl
theorem g_c2_0 (W : Valuation τ sig (Elt Ideal)) : StableHlo.after hostOps2 W main_v68 = (Net.layerW0 (W main_arg8) (W main_arg9) (W main_arg10) (W main_arg11) (W main_arg12) (W main_arg13) (W main_arg14) (W main_arg15)).c2 := by
  after_results
  try rfl
theorem g_agg_0 (W : Valuation τ sig (Elt Ideal)) : StableHlo.after hostOps2 W main_v56 = Net.aggregate (Net.plainCol (W main_v3)) (W main_v53) := by
  after_results
  try rfl

variable (m : (ℓ : Loc nD τ sig) → Buf (Elt Ideal) ℓ)

/-! ## The same at the chain's contents -/

theorem wa_0 (c : Dev nD) : U5 m c main_v58 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wa := by
  show StableHlo.after hostOps2 (U4 m c) main_v58 = _
  rw [g_wa_0, arg8_4, arg9_4, arg10_4, arg11_4, arg12_4, arg13_4, arg14_4, arg15_4]
theorem wb_0 (c : Dev nD) : U5 m c main_v60 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wb := by
  show StableHlo.after hostOps2 (U4 m c) main_v60 = _
  rw [g_wb_0, arg8_4, arg9_4, arg10_4, arg11_4, arg12_4, arg13_4, arg14_4, arg15_4]
theorem c1_0 (c : Dev nD) : U5 m c main_v67 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).c1 := by
  show StableHlo.after hostOps2 (U4 m c) main_v67 = _
  rw [g_c1_0, arg8_4, arg9_4, arg10_4, arg11_4, arg12_4, arg13_4, arg14_4, arg15_4]
theorem u2_0 (c : Dev nD) : U5 m c main_v64 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).U2 := by
  show StableHlo.after hostOps2 (U4 m c) main_v64 = _
  rw [g_u2_0, arg8_4, arg9_4, arg10_4, arg11_4, arg12_4, arg13_4, arg14_4, arg15_4]
theorem c2_0 (c : Dev nD) : U5 m c main_v68 = (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).c2 := by
  show StableHlo.after hostOps2 (U4 m c) main_v68 = _
  rw [g_c2_0, arg8_4, arg9_4, arg10_4, arg11_4, arg12_4, arg13_4, arg14_4, arg15_4]
theorem agg_0 (c : Dev nD) : U5 m c main_v56 = Net.aggregate (Net.plainCol (Net.nodeOut (m ((c : Thread nD τ).loc main_arg4)))) (o1 m c) := by
  show StableHlo.after hostOps2 (U4 m c) main_v56 = _
  rw [g_agg_0, out_4, v3_4]
theorem hkeep_0 (c : Dev nD) : U5 m c main_v5 = o0 m c :=
  (U5_of m c main_v5 (by decide)).trans ((U4_of m c main_v5 (by decide)).trans ((U3_of m c main_v5 (by decide)).trans (out_2 m c)))

end Cert.Proof.KI

end
-- ==== Proof.KI.KSm1.lean ====
/-
  What the message MLP's call of layer 1 is handed: the host stretch before it read at each array the call stages — first from any buffer
  contents, then at the chain's, in terms of the arguments as launched and of the earlier calls' outputs.
-/
import proofs.«421803_j42709154791890_2_alg».proof.Proof.KI.KVBase

set_option maxRecDepth 16384

noncomputable section

namespace Cert.Proof.KI

open Cert.KernelIdeal Cert.KernelIdeal.Gen
open Idealize.ShloMosaic.StableHlo (after_cons after_nil)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

/-! ## The stretch read at each array, from any contents -/

theorem g_hin_1 (W : Valuation τ sig (Elt Ideal)) : StableHlo.after hostOps3 W main_v76 = Net.rowsOf (W main_v69) (Net.wrapCol (W main_v1)) := by
  after_results
  try rfl
theorem g_hout_1 (W : Valuation τ sig (Elt Ideal)) : StableHlo.after hostOps3 W main_v83 = Net.rowsOf (W main_v69) (Net.wrapCol (W main_v3)) := by
  after_results
  try rfl
theorem g_sin_1 (W : Valuation τ sig (Elt Ideal)) : StableHlo.after hostOps3 W main_v90 = Net.countsOf (W main_arg1) (Net.wrapCol (W main_v1)) := by
  after_results
  try rfl
theorem g_sout_1 (W : Valuation τ sig (Elt Ideal)) : StableHlo.after hostOps3 W main_v97 = Net.countsOf (W main_arg1) (Net.wrapCol (W main_v3)) := by
  after_results
  try rfl
theorem g_whin_1 (W : Valuation τ sig (Elt Ideal)) : StableHlo.after hostOps3 W main_v99 = (Net.layerW1 (W main_arg8) (W main_arg9) (W main_arg10) (W main_arg11) (W main_arg12) (W main_arg13) (W main_arg14) (W main_arg15)).Whin := by
  after_results
  try rfl
theorem g_whout_1 (W : Valuation τ sig (Elt Ideal)) : StableHlo.after hostOps3 W main_v101 = (Net.layerW1 (W main_arg8) (W main_arg9) (W main_arg10) (W main_arg11) (W main_arg12) (W main_arg13) (W main_arg14) (W main_arg15)).Whout := by
  after_results
  try rfl
theorem g_wedge_1 (W : Valuation τ sig (Elt Ideal)) : StableHlo.after hostOps3 W main_v107 = (Net.layerW1 (W main_arg8) (W main_arg9) (W main_arg10) (W main_arg11) (W main_arg12) (W main_arg13) (W main_arg14) (W main_arg15)).Wedge := by
  after_results
  try rfl
theorem g_wsin_1 (W : Valuation τ sig (Elt Ideal)) : StableHlo.after hostOps3 W main_v103 = (Net.layerW1 (W main_arg8) (W main_arg9) (W main_arg10) (W main_arg11) (W main_arg12) (W main_arg13) (W main_arg14) (W main_arg15)).wsin := by
  after_results
  try rfl
theorem g_wsout_1 (W : Valuation τ sig (Elt Ideal)) : StableHlo.after hostOps3 W main_v105 = (Net.layerW1 (W main_arg8) (W main_arg9) (W main_arg10) (W main_arg11) (W main_arg12) (W main_arg13) (W main_arg14) (W main_arg15)).wsout := by
  after_results
  try rfl
theorem g_b1_1 (W : Valuation τ sig (Elt Ideal)) : StableHlo.after hostOps3 W main_v114 = (Net.layerW1 (W main_arg8) (W main_arg9) (W main_arg10) (W main_arg11) (W main_arg12) (W main_arg13) (W main_arg14) (W main_arg15)).b1 := by
  after_results
  try rfl
theorem g_w2_1 (W : Valuation τ sig (Elt Ideal)) : StableHlo.after hostOps3 W main_v111 = (Net.layerW1 (W main_arg8) (W main_arg9) (W main_arg10) (W main_arg11) (W main_arg12) (W main_arg13) (W main_arg14) (W main_arg15)).W2 := by
  after_results
  try rfl
theorem g_b2_1 (W : Valuation τ sig (Elt Ideal)) : StableHlo.after hostOps3 W main_v115 = (Net.layerW1 (W main_arg8) (W main_arg9) (W main_arg10) (W main_arg11) (W main_arg12) (W main_arg13) (W main_arg14) (W main_arg15)).b2 := by
  after_results
  try rfl

variable (m : (ℓ : Loc nD τ sig) → Buf (Elt Ideal) ℓ)

/-! ## The same at the chain's contents -/

theorem hin_1 (c : Dev nD) : U7 m c main_v76 = Net.rowsOf (o2 m c) (Net.wrapCol (Net.nodeIn (m ((c : Thread nD τ).loc main_arg4)))) := by
  show StableHlo.after hostOps3 (U6 m c) main_v76 = _
  rw [g_hin_1, out_6, v1_6]
theorem hout_1 (c : Dev nD) : U7 m c main_v83 = Net.rowsOf (o2 m c) (Net.wrapCol (Net.nodeOut (m ((c : Thread nD τ).loc main_arg4)))) := by
  show StableHlo.after hostOps3 (U6 m c) main_v83 = _
  rw [g_hout_1, out_6, v3_6]
theorem sin_1 (c : Dev nD) : U7 m c main_v90 = Net.countsOf (m ((c : Thread nD τ).loc main_arg1)) (Net.wrapCol (Net.nodeIn (m ((c : Thread nD τ).loc main_arg4)))) := by
  show StableHlo.after hostOps3 (U6 m c) main_v90 = _
  rw [g_sin_1, arg1_6, v1_6]
theorem sout_1 (c : Dev nD) : U7 m c main_v97 = Net.countsOf (m ((c : Thread nD τ).loc main_arg1)) (Net.wrapCol (Net.nodeOut (m ((c : Thread nD τ).loc main_arg4)))) := by
  show StableHlo.after hostOps3 (U6 m c) main_v97 = _
  rw [g_sout_1, arg1_6, v3_6]
theorem whin_1 (c : Dev nD) : U7 m c main_v99 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whin := by
  show StableHlo.after hostOps3 (U6 m c) main_v99 = _
  rw [g_whin_1, arg8_6, arg9_6, arg10_6, arg11_6, arg12_6, arg13_6, arg14_6, arg15_6]
theorem whout_1 (c : Dev nD) : U7 m c main_v101 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whout := by
  show StableHlo.after hostOps3 (U6 m c) main_v101 = _
  rw [g_whout_1, arg8_6, arg9_6, arg10_6, arg11_6, arg12_6, arg13_6, arg14_6, arg15_6]
theorem wedge_1 (c : Dev nD) : U7 m c main_v107 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wedge := by
  show StableHlo.after hostOps3 (U6 m c) main_v107 = _
  rw [g_wedge_1, arg8_6, arg9_6, arg10_6, arg11_6, arg12_6, arg13_6, arg14_6, arg15_6]
theorem wsin_1 (c : Dev nD) : U7 m c main_v103 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsin := by
  show StableHlo.after hostOps3 (U6 m c) main_v103 = _
  rw [g_wsin_1, arg8_6, arg9_6, arg10_6, arg11_6, arg12_6, arg13_6, arg14_6, arg15_6]
theorem wsout_1 (c : Dev nD) : U7 m c main_v105 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsout := by
  show StableHlo.after hostOps3 (U6 m c) main_v105 = _
  rw [g_wsout_1, arg8_6, arg9_6, arg10_6, arg11_6, arg12_6, arg13_6, arg14_6, arg15_6]
theorem b1_1 (c : Dev nD) : U7 m c main_v114 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b1 := by
  show StableHlo.after hostOps3 (U6 m c) main_v114 = _
  rw [g_b1_1, arg8_6, arg9_6, arg10_6, arg11_6, arg12_6, arg13_6, arg14_6, arg15_6]
theorem w2_1 (c : Dev nD) : U7 m c main_v111 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).W2 := by
  show StableHlo.after hostOps3 (U6 m c) main_v111 = _
  rw [g_w2_1, arg8_6, arg9_6, arg10_6, arg11_6, arg12_6, arg13_6, arg14_6, arg15_6]
theorem b2_1 (c : Dev nD) : U7 m c main_v115 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b2 := by
  show StableHlo.after hostOps3 (U6 m c) main_v115 = _
  rw [g_b2_1, arg8_6, arg9_6, arg10_6, arg11_6, arg12_6, arg13_6, arg14_6, arg15_6]

end Cert.Proof.KI

end
-- ==== Proof.KI.KSu1.lean ====
/-
  What the combine MLP's call of layer 1 is handed: the host stretch before it read at each array the call stages — first from any buffer
  contents, then at the chain's, in terms of the arguments as launched and of the earlier calls' outputs.
-/
import proofs.«421803_j42709154791890_2_alg».proof.Proof.KI.KVBase

set_option maxRecDepth 16384

noncomputable section

namespace Cert.Proof.KI

open Cert.KernelIdeal Cert.KernelIdeal.Gen
open Idealize.ShloMosaic.StableHlo (after_cons after_nil)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

/-! ## The stretch read at each array, from any contents -/

theorem g_wa_1 (W : Valuation τ sig (Elt Ideal)) : StableHlo.after hostOps4 W main_v121 = (Net.layerW1 (W main_arg8) (W main_arg9) (W main_arg10) (W main_arg11) (W main_arg12) (W main_arg13) (W main_arg14) (W main_arg15)).Wa := by
  after_results
  try rfl
theorem g_wb_1 (W : Valuation τ sig (Elt Ideal)) : StableHlo.after hostOps4 W main_v123 = (Net.layerW1 (W main_arg8) (W main_arg9) (W main_arg10) (W main_arg11) (W main_arg12) (W main_arg13) (W main_arg14) (W main_arg15)).Wb := by
  after_results
  try rfl
theorem g_c1_1 (W : Valuation τ sig (Elt Ideal)) : StableHlo.after hostOps4 W main_v130 = (Net.layerW1 (W main_arg8) (W main_arg9) (W main_arg10) (W main_arg11) (W main_arg12) (W main_arg13) (W main_arg14) (W main_arg15)).c1 := by
  after_results
  try rfl
theorem g_u2_1 (W : Valuation τ sig (Elt Ideal)) : StableHlo.after hostOps4 W main_v127 = (Net.layerW1 (W main_arg8) (W main_arg9) (W main_arg10) (W main_arg11) (W main_arg12) (W main_arg13) (W main_arg14) (W main_arg15)).U2 := by
  after_results
  try rfl
theorem g_c2_1 (W : Valuation τ sig (Elt Ideal)) : StableHlo.after hostOps4 W main_v131 = (Net.layerW1 (W main_arg8) (W main_arg9) (W main_arg10) (W main_arg11) (W main_arg12) (W main_arg13) (W main_arg14) (W main_arg15)).c2 := by
  after_results
  try rfl
theorem g_agg_1 (W : Valuation τ sig (Elt Ideal)) : StableHlo.after hostOps4 W main_v119 = Net.aggregate (Net.plainCol (W main_v3)) (W main_v116) := by
  after_results
  try rfl

variable (m : (ℓ : Loc nD τ sig) → Buf (Elt Ideal) ℓ)

/-! ## The same at the chain's contents -/

theorem wa_1 (c : Dev nD) : U9 m c main_v121 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wa := by
  show StableHlo.after hostOps4 (U8 m c) main_v121 = _
  rw [g_wa_1, arg8_8, arg9_8, arg10_8, arg11_8, arg12_8, arg13_8, arg14_8, arg15_8]
theorem wb_1 (c : Dev nD) : U9 m c main_v123 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wb := by
  show StableHlo.after hostOps4 (U8 m c) main_v123 = _
  rw [g_wb_1, arg8_8, arg9_8, arg10_8, arg11_8, arg12_8, arg13_8, arg14_8, arg15_8]
theorem c1_1 (c : Dev nD) : U9 m c main_v130 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).c1 := by
  show StableHlo.after hostOps4 (U8 m c) main_v130 = _
  rw [g_c1_1, arg8_8, arg9_8, arg10_8, arg11_8, arg12_8, arg13_8, arg14_8, arg15_8]
theorem u2_1 (c : Dev nD) : U9 m c main_v127 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).U2 := by
  show StableHlo.after hostOps4 (U8 m c) main_v127 = _
  rw [g_u2_1, arg8_8, arg9_8, arg10_8, arg11_8, arg12_8, arg13_8, arg14_8, arg15_8]
theorem c2_1 (c : Dev nD) : U9 m c main_v131 = (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).c2 := by
  show StableHlo.after hostOps4 (U8 m c) main_v131 = _
  rw [g_c2_1, arg8_8, arg9_8, arg10_8, arg11_8, arg12_8, arg13_8, arg14_8, arg15_8]
theorem agg_1 (c : Dev nD) : U9 m c main_v119 = Net.aggregate (Net.plainCol (Net.nodeOut (m ((c : Thread nD τ).loc main_arg4)))) (o3 m c) := by
  show StableHlo.after hostOps4 (U8 m c) main_v119 = _
  rw [g_agg_1, out_8, v3_8]
theorem hkeep_1 (c : Dev nD) : U9 m c main_v69 = o2 m c :=
  (U9_of m c main_v69 (by decide)).trans ((U8_of m c main_v69 (by decide)).trans ((U7_of m c main_v69 (by decide)).trans (out_6 m c)))

end Cert.Proof.KI

end
-- ==== Proof.KI.KSm2.lean ====
/-
  What the message MLP's call of layer 2 is handed: the host stretch before it read at each array the call stages — first from any buffer
  contents, then at the chain's, in terms of the arguments as launched and of the earlier calls' outputs.
-/
import proofs.«421803_j42709154791890_2_alg».proof.Proof.KI.KVBase

set_option maxRecDepth 16384

noncomputable section

namespace Cert.Proof.KI

open Cert.KernelIdeal Cert.KernelIdeal.Gen
open Idealize.ShloMosaic.StableHlo (after_cons after_nil)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

/-! ## The stretch read at each array, from any contents -/

theorem g_hin_2 (W : Valuation τ sig (Elt Ideal)) : StableHlo.after hostOps5 W main_v139 = Net.rowsOf (W main_v132) (Net.wrapCol (W main_v1)) := by
  after_results
  try rfl
theorem g_hout_2 (W : Valuation τ sig (Elt Ideal)) : StableHlo.after hostOps5 W main_v146 = Net.rowsOf (W main_v132) (Net.wrapCol (W main_v3)) := by
  after_results
  try rfl
theorem g_sin_2 (W : Valuation τ sig (Elt Ideal)) : StableHlo.after hostOps5 W main_v153 = Net.countsOf (W main_arg1) (Net.wrapCol (W main_v1)) := by
  after_results
  try rfl
theorem g_sout_2 (W : Valuation τ sig (Elt Ideal)) : StableHlo.after hostOps5 W main_v160 = Net.countsOf (W main_arg1) (Net.wrapCol (W main_v3)) := by
  after_results
  try rfl
theorem g_whin_2 (W : Valuation τ sig (Elt Ideal)) : StableHlo.after hostOps5 W main_v162 = (Net.layerW2 (W main_arg8) (W main_arg9) (W main_arg10) (W main_arg11) (W main_arg12) (W main_arg13) (W main_arg14) (W main_arg15)).Whin := by
  after_results
  try rfl
theorem g_whout_2 (W : Valuation τ sig (Elt Ideal)) : StableHlo.after hostOps5 W main_v164 = (Net.layerW2 (W main_arg8) (W main_arg9) (W main_arg10) (W main_arg11) (W main_arg12) (W main_arg13) (W main_arg14) (W main_arg15)).Whout := by
  after_results
  try rfl
theorem g_wedge_2 (W : Valuation τ sig (Elt Ideal)) : StableHlo.after hostOps5 W main_v170 = (Net.layerW2 (W main_arg8) (W main_arg9) (W main_arg10) (W main_arg11) (W main_arg12) (W main_arg13) (W main_arg14) (W main_arg15)).Wedge := by
  after_results
  try rfl
theorem g_wsin_2 (W : Valuation τ sig (Elt Ideal)) : StableHlo.after hostOps5 W main_v166 = (Net.layerW2 (W main_arg8) (W main_arg9) (W main_arg10) (W main_arg11) (W main_arg12) (W main_arg13) (W main_arg14) (W main_arg15)).wsin := by
  after_results
  try rfl
theorem g_wsout_2 (W : Valuation τ sig (Elt Ideal)) : StableHlo.after hostOps5 W main_v168 = (Net.layerW2 (W main_arg8) (W main_arg9) (W main_arg10) (W main_arg11) (W main_arg12) (W main_arg13) (W main_arg14) (W main_arg15)).wsout := by
  after_results
  try rfl
theorem g_b1_2 (W : Valuation τ sig (Elt Ideal)) : StableHlo.after hostOps5 W main_v177 = (Net.layerW2 (W main_arg8) (W main_arg9) (W main_arg10) (W main_arg11) (W main_arg12) (W main_arg13) (W main_arg14) (W main_arg15)).b1 := by
  after_results
  try rfl
theorem g_w2_2 (W : Valuation τ sig (Elt Ideal)) : StableHlo.after hostOps5 W main_v174 = (Net.layerW2 (W main_arg8) (W main_arg9) (W main_arg10) (W main_arg11) (W main_arg12) (W main_arg13) (W main_arg14) (W main_arg15)).W2 := by
  after_results
  try rfl
theorem g_b2_2 (W : Valuation τ sig (Elt Ideal)) : StableHlo.after hostOps5 W main_v178 = (Net.layerW2 (W main_arg8) (W main_arg9) (W main_arg10) (W main_arg11) (W main_arg12) (W main_arg13) (W main_arg14) (W main_arg15)).b2 := by
  after_results
  try rfl

variable (m : (ℓ : Loc nD τ sig) → Buf (Elt Ideal) ℓ)

/-! ## The same at the chain's contents -/

theorem hin_2 (c : Dev nD) : U11 m c main_v139 = Net.rowsOf (o4 m c) (Net.wrapCol (Net.nodeIn (m ((c : Thread nD τ).loc main_arg4)))) := by
  show StableHlo.after hostOps5 (U10 m c) main_v139 = _
  rw [g_hin_2, out_10, v1_10]
theorem hout_2 (c : Dev nD) : U11 m c main_v146 = Net.rowsOf (o4 m c) (Net.wrapCol (Net.nodeOut (m ((c : Thread nD τ).loc main_arg4)))) := by
  show StableHlo.after hostOps5 (U10 m c) main_v146 = _
  rw [g_hout_2, out_10, v3_10]
theorem sin_2 (c : Dev nD) : U11 m c main_v153 = Net.countsOf (m ((c : Thread nD τ).loc main_arg1)) (Net.wrapCol (Net.nodeIn (m ((c : Thread nD τ).loc main_arg4)))) := by
  show StableHlo.after hostOps5 (U10 m c) main_v153 = _
  rw [g_sin_2, arg1_10, v1_10]
theorem sout_2 (c : Dev nD) : U11 m c main_v160 = Net.countsOf (m ((c : Thread nD τ).loc main_arg1)) (Net.wrapCol (Net.nodeOut (m ((c : Thread nD τ).loc main_arg4)))) := by
  show StableHlo.after hostOps5 (U10 m c) main_v160 = _
  rw [g_sout_2, arg1_10, v3_10]
theorem whin_2 (c : Dev nD) : U11 m c main_v162 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whin := by
  show StableHlo.after hostOps5 (U10 m c) main_v162 = _
  rw [g_whin_2, arg8_10, arg9_10, arg10_10, arg11_10, arg12_10, arg13_10, arg14_10, arg15_10]
theorem whout_2 (c : Dev nD) : U11 m c main_v164 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whout := by
  show StableHlo.after hostOps5 (U10 m c) main_v164 = _
  rw [g_whout_2, arg8_10, arg9_10, arg10_10, arg11_10, arg12_10, arg13_10, arg14_10, arg15_10]
theorem wedge_2 (c : Dev nD) : U11 m c main_v170 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wedge := by
  show StableHlo.after hostOps5 (U10 m c) main_v170 = _
  rw [g_wedge_2, arg8_10, arg9_10, arg10_10, arg11_10, arg12_10, arg13_10, arg14_10, arg15_10]
theorem wsin_2 (c : Dev nD) : U11 m c main_v166 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsin := by
  show StableHlo.after hostOps5 (U10 m c) main_v166 = _
  rw [g_wsin_2, arg8_10, arg9_10, arg10_10, arg11_10, arg12_10, arg13_10, arg14_10, arg15_10]
theorem wsout_2 (c : Dev nD) : U11 m c main_v168 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsout := by
  show StableHlo.after hostOps5 (U10 m c) main_v168 = _
  rw [g_wsout_2, arg8_10, arg9_10, arg10_10, arg11_10, arg12_10, arg13_10, arg14_10, arg15_10]
theorem b1_2 (c : Dev nD) : U11 m c main_v177 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b1 := by
  show StableHlo.after hostOps5 (U10 m c) main_v177 = _
  rw [g_b1_2, arg8_10, arg9_10, arg10_10, arg11_10, arg12_10, arg13_10, arg14_10, arg15_10]
theorem w2_2 (c : Dev nD) : U11 m c main_v174 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).W2 := by
  show StableHlo.after hostOps5 (U10 m c) main_v174 = _
  rw [g_w2_2, arg8_10, arg9_10, arg10_10, arg11_10, arg12_10, arg13_10, arg14_10, arg15_10]
theorem b2_2 (c : Dev nD) : U11 m c main_v178 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b2 := by
  show StableHlo.after hostOps5 (U10 m c) main_v178 = _
  rw [g_b2_2, arg8_10, arg9_10, arg10_10, arg11_10, arg12_10, arg13_10, arg14_10, arg15_10]

end Cert.Proof.KI

end
-- ==== Proof.KI.KSu2.lean ====
/-
  What the combine MLP's call of layer 2 is handed: the host stretch before it read at each array the call stages — first from any buffer
  contents, then at the chain's, in terms of the arguments as launched and of the earlier calls' outputs.
-/
import proofs.«421803_j42709154791890_2_alg».proof.Proof.KI.KVBase

set_option maxRecDepth 16384

noncomputable section

namespace Cert.Proof.KI

open Cert.KernelIdeal Cert.KernelIdeal.Gen
open Idealize.ShloMosaic.StableHlo (after_cons after_nil)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

/-! ## The stretch read at each array, from any contents -/

theorem g_wa_2 (W : Valuation τ sig (Elt Ideal)) : StableHlo.after hostOps6 W main_v184 = (Net.layerW2 (W main_arg8) (W main_arg9) (W main_arg10) (W main_arg11) (W main_arg12) (W main_arg13) (W main_arg14) (W main_arg15)).Wa := by
  after_results
  try rfl
theorem g_wb_2 (W : Valuation τ sig (Elt Ideal)) : StableHlo.after hostOps6 W main_v186 = (Net.layerW2 (W main_arg8) (W main_arg9) (W main_arg10) (W main_arg11) (W main_arg12) (W main_arg13) (W main_arg14) (W main_arg15)).Wb := by
  after_results
  try rfl
theorem g_c1_2 (W : Valuation τ sig (Elt Ideal)) : StableHlo.after hostOps6 W main_v193 = (Net.layerW2 (W main_arg8) (W main_arg9) (W main_arg10) (W main_arg11) (W main_arg12) (W main_arg13) (W main_arg14) (W main_arg15)).c1 := by
  after_results
  try rfl
theorem g_u2_2 (W : Valuation τ sig (Elt Ideal)) : StableHlo.after hostOps6 W main_v190 = (Net.layerW2 (W main_arg8) (W main_arg9) (W main_arg10) (W main_arg11) (W main_arg12) (W main_arg13) (W main_arg14) (W main_arg15)).U2 := by
  after_results
  try rfl
theorem g_c2_2 (W : Valuation τ sig (Elt Ideal)) : StableHlo.after hostOps6 W main_v194 = (Net.layerW2 (W main_arg8) (W main_arg9) (W main_arg10) (W main_arg11) (W main_arg12) (W main_arg13) (W main_arg14) (W main_arg15)).c2 := by
  after_results
  try rfl
theorem g_agg_2 (W : Valuation τ sig (Elt Ideal)) : StableHlo.after hostOps6 W main_v182 = Net.aggregate (Net.plainCol (W main_v3)) (W main_v179) := by
  after_results
  try rfl

variable (m : (ℓ : Loc nD τ sig) → Buf (Elt Ideal) ℓ)

/-! ## The same at the chain's contents -/

theorem wa_2 (c : Dev nD) : U13 m c main_v184 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wa := by
  show StableHlo.after hostOps6 (U12 m c) main_v184 = _
  rw [g_wa_2, arg8_12, arg9_12, arg10_12, arg11_12, arg12_12, arg13_12, arg14_12, arg15_12]
theorem wb_2 (c : Dev nD) : U13 m c main_v186 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wb := by
  show StableHlo.after hostOps6 (U12 m c) main_v186 = _
  rw [g_wb_2, arg8_12, arg9_12, arg10_12, arg11_12, arg12_12, arg13_12, arg14_12, arg15_12]
theorem c1_2 (c : Dev nD) : U13 m c main_v193 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).c1 := by
  show StableHlo.after hostOps6 (U12 m c) main_v193 = _
  rw [g_c1_2, arg8_12, arg9_12, arg10_12, arg11_12, arg12_12, arg13_12, arg14_12, arg15_12]
theorem u2_2 (c : Dev nD) : U13 m c main_v190 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).U2 := by
  show StableHlo.after hostOps6 (U12 m c) main_v190 = _
  rw [g_u2_2, arg8_12, arg9_12, arg10_12, arg11_12, arg12_12, arg13_12, arg14_12, arg15_12]
theorem c2_2 (c : Dev nD) : U13 m c main_v194 = (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).c2 := by
  show StableHlo.after hostOps6 (U12 m c) main_v194 = _
  rw [g_c2_2, arg8_12, arg9_12, arg10_12, arg11_12, arg12_12, arg13_12, arg14_12, arg15_12]
theorem agg_2 (c : Dev nD) : U13 m c main_v182 = Net.aggregate (Net.plainCol (Net.nodeOut (m ((c : Thread nD τ).loc main_arg4)))) (o5 m c) := by
  show StableHlo.after hostOps6 (U12 m c) main_v182 = _
  rw [g_agg_2, out_12, v3_12]
theorem hkeep_2 (c : Dev nD) : U13 m c main_v132 = o4 m c :=
  (U13_of m c main_v132 (by decide)).trans ((U12_of m c main_v132 (by decide)).trans ((U11_of m c main_v132 (by decide)).trans (out_10 m c)))

end Cert.Proof.KI

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.KI.Val0.lean ====
/-
  The value of the first pallas_call, over the extended reals: the array its output window ends holding is the input
  projection of the specification — every node row times the weight matrix plus the bias row — of the three arrays
  the call reads, as it finds them.

  * the payload at an entry: entry (p, q) of the one store is the sum over k of x (p, k) * W (k, q), plus b (0, q);
  * each input block read in place: the node block at point t holds rows 2000·t … 2000·t + 1999 of the node features,
    the weight and bias blocks are their whole arrays;
  * what point t writes back is block t of the projection; row r lies in block r / 2000, so the blocks cover the
    array, and the array ends holding the projection.
-/
import proofs.«421803_j42709154791890_2_alg».proof.Proof.KI.R0
import proofs.«421803_j42709154791890_2_alg».proof.Proof.Spec
import proofs.«421803_j42709154791890_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## The payload at an entry -/

/-- The two zero offsets, as the constant function. -/
theorem zeros2 : (![0, 0] : Fin 2 → Nat) = fun _ => 0 := funext fun a => by fin_cases a <;> rfl

/-- The bias row broadcast over the 2000 rows, read at (p, q), is the bias at (0, q). -/
theorem bias_bcast_apply (x2 : Vec Ideal S1x256 .f32) (p : Fin 2000) (q : Fin 256) :
    (broadcastTo S2000x256 (shapeCast S1x256 x2 shapeCasts_S1x256_S1x256) broadcasts_S1x256_S2000x256 : FVec Ideal S2000x256 .f32) (ix2 p q)
      = x2 (ix2 0 q) := by
  rw [shapeCast_self]
  refine broadcastTo_apply x2 _ (ix2 p q) (ix2 0 q) fun a => ?_
  match a with
  | ⟨0, _⟩ => rfl
  | ⟨1, _⟩ => rfl

/-- The product of the block by the weights into the zero accumulator, read at (p, q): the sum over the 64 features. -/
theorem prod_apply (a : FVec Ideal S2000x64 .bf16) (b : FVec Ideal S64x256 .bf16) (p : Fin 2000) (q : Fin 256) :
    (matmul dot_S2000x64_S64x256_S2000x256_1_0_0_1_n_n none a b (constant S2000x256 .f32 0x00000000#32) : FVec Ideal S2000x256 .f32) (ix2 p q)
      = ∑ k : Fin 64, a (ix2 p k) * b (ix2 k q) :=
  Cert.PlainMatmul.apply (M := 2000) (K := 64) (N := 256) none a b p q

/-- Entry (p, q) of what the body stores: row p of the node block against column q of the weights, plus the bias. -/
theorem out0_3_apply (x0 : Vec Ideal S2000x64 .f32) (x1 : Vec Ideal S64x256 .f32) (x2 : Vec Ideal S1x256 .f32)
    (p : Fin 2000) (q : Fin 256) :
    out0_3 x0 x1 x2 (ix2 p q) = (∑ k : Fin 64, x0 (ix2 p k) * x1 (ix2 k q)) + x2 (ix2 0 q) := by
  unfold out0_3
  rw [View.canon_unit_zero zeros2]
  simp only [View.ld_unit_zero (S := S2000x64) zeros2, View.ld_unit_zero (S := S64x256) zeros2, View.ld_unit_zero (S := S1x256) zeros2]
  unfold k0_pay1
  rw [truncf_apply, addf_apply, prod_apply, bias_bcast_apply]
  rfl

/-! ## The input blocks, read in place -/

/-- The four index maps over the grid: the node and output blocks move down one block of rows per point, the weight
    and bias blocks stand at the origin. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three arrays the call reads, as it finds them, and the projection of them. -/
abbrev nodes0 (c : Dev nD) : Cert.Spec.A2 20000 64 := V c (Pipeline.arrRef spec0 0)
abbrev weights0 (c : Dev nD) : Cert.Spec.A2 64 256 := V c (Pipeline.arrRef spec0 1)
abbrev bias0 (c : Dev nD) : Cert.Spec.A2 1 256 := V c (Pipeline.arrRef spec0 2)
abbrev proj0 (c : Dev nD) : Cert.Spec.A2 20000 256 := Cert.Spec.linK (nodes0 V c) (weights0 V c) (bias0 V c)

/-- Entry (p, k) of the node block at point t is entry (2000·t + p, k) of the node features. -/
theorem nodes_blk_apply (c : Dev nD) (t : Fin cfg0.N) (p : Fin 2000) (k : Fin 64) (r : Fin 20000) (hr : r.val = 2000 * t.val + p.val) :
    (iblk0 V c 0 t : Vec Ideal S2000x64 .f32) (ix2 p k) = nodes0 V c (ix2 r k) := by
  obtain ⟨e0, e1, -⟩ := index_maps0 t
  unfold iblk0
  rw [View.read_apply]
  refine congrArg (V c (Pipeline.arrRef spec0 0)) (funext fun a => Fin.ext ?_)
  match a with
  | ⟨0, _⟩ => show win0_0.index t (0 : Fin 2) * 2000 + 1 * p.val = r.val; omega
  | ⟨1, _⟩ => show win0_0.index t (1 : Fin 2) * 64 + 1 * k.val = k.val; omega

/-- The weight block at any point is the weight matrix. -/
theorem weights_blk_apply (c : Dev nD) (t : Fin cfg0.N) (k : Fin 64) (q : Fin 256) :
    (iblk0 V c 1 t : Vec Ideal S64x256 .f32) (ix2 k q) = weights0 V c (ix2 k q) := by
  obtain ⟨-, -, e0, e1, -⟩ := index_maps0 t
  unfold iblk0
  rw [View.read_apply]
  refine congrArg (V c (Pipeline.arrRef spec0 1)) (funext fun a => Fin.ext ?_)
  match a with
  | ⟨0, _⟩ => show win0_1.index t (0 : Fin 2) * 64 + 1 * k.val = k.val; omega
  | ⟨1, _⟩ => show win0_1.index t (1 : Fin 2) * 256 + 1 * q.val = q.val; omega

/-- The bias block at any point is the bias row. -/
theorem bias_blk_apply (c : Dev nD) (t : Fin cfg0.N) (q : Fin 256) :
    (iblk0 V c 2 t : Vec Ideal S1x256 .f32) (ix2 0 q) = bias0 V c (ix2 0 q) := by
  obtain ⟨-, -, -, -, e0, e1, -⟩ := index_maps0 t
  unfold iblk0
  rw [View.read_apply]
  refine congrArg (V c (Pipeline.arrRef spec0 2)) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 256 + 1 * q.val = q.val; omega

/-! ## What a point writes back, the cover, the array -/

/-- Entry (p, q) of what the body leaves at point t is entry (2000·t + p, q) of the projection. -/
theorem body_out_apply (c : Dev nD) (t : Fin cfg0.N) (p : Fin 2000) (q : Fin 256) (r : Fin 20000) (hr : r.val = 2000 * t.val + p.val) :
    out0_3 (iblk0 V c 0 t) (iblk0 V c 1 t) (iblk0 V c 2 t) (ix2 p q) = proj0 V c (ix2 r q) := by
  rw [out0_3_apply, bias_blk_apply]
  show _ = (∑ k : Fin 64, nodes0 V c (ix2 r k) * weights0 V c (ix2 k q)) + bias0 V c (ix2 0 q)
  refine congrArg (· + bias0 V c (ix2 0 q)) (Finset.sum_congr rfl fun k _ => ?_)
  rw [nodes_blk_apply V c t p k r hr, weights_blk_apply]

/-- Entry (p, q) of the output block at point t sits at entry (2000·t + p, q) of the output array. -/
theorem out_blk_emb (t : Fin cfg0.N) (p : Fin 2000) (q : Fin 256) (r : Fin 20000) (hr : r.val = 2000 * t.val + p.val) :
    (((cfg0.win 3).blk t).view.emb (ix2 p q) : S20000x256.Idx) = ix2 r q := by
  obtain ⟨-, -, -, -, -, -, e0, e1⟩ := index_maps0 t
  refine funext fun a => Fin.ext ?_
  match a with
  | ⟨0, _⟩ => show win0_3.index t (0 : Fin 2) * 2000 + 1 * p.val = r.val; omega
  | ⟨1, _⟩ => show win0_3.index t (1 : Fin 2) * 256 + 1 * q.val = q.val; omega

/-- What point t writes back is block t of the projection. -/
theorem flushed0_3_eq (c : Dev nD) (t : Fin cfg0.N) :
    (dat0 (F := Ideal) V c).flushed 3 t = ((cfg0.win 3).blk t).view.read (Elt Ideal) (proj0 V c) := by
  show (cfg0.win 3).cut (grid0.coords t) ((dat0 V c).after 3 t) = _
  rw [after0_3]
  funext j
  obtain ⟨p, q, rfl⟩ : ∃ (p : Fin 2000) (q : Fin 256), j = ix2 p q := ⟨j 0, j 1, eq_ix2 j⟩
  have ht : t.val < 10 := t.isLt
  rw [View.read_apply, out_blk_emb t p q ⟨2000 * t.val + p.val, by omega⟩ rfl]
  exact body_out_apply V c t p q ⟨2000 * t.val + p.val, by omega⟩ rfl

/-- An index of the output array is in point t's block iff its coordinates are in the block's ranges. -/
theorem mem_blk0_3 (t : Fin cfg0.N) (i : S20000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v5).slice (win0_3.rect t)).set ↔ _
  rw [View.set_slice_whole, Rect.mem_set_unit]
  exact Iff.rfl

/-- Row r of the output array is in the block of point r / 2000. -/
theorem cover0_3_arr (i : S20000x256.Idx) :
    ∃ t : Fin cfg0.N, (cfg0.win 3).flush t = true ∧ i ∈ ((cfg0.win 3).blk t).view.set := by
  have hi0 : (i 0).val < 20000 := (i 0).isLt
  have hi1 : (i 1).val < 256 := (i 1).isLt
  have hN : (i 0).val / 2000 < cfg0.N := by rw [show cfg0.N = 10 from N_0]; omega
  obtain ⟨-, -, -, -, -, -, e0, e1⟩ := index_maps0 ⟨(i 0).val / 2000, hN⟩
  refine ⟨⟨(i 0).val / 2000, hN⟩, flush0_3 _, ?_⟩
  rw [mem_blk0_3]
  intro a
  match a with
  | ⟨0, _⟩ => show win0_3.index ⟨(i 0).val / 2000, hN⟩ (0 : Fin 2) * 2000 ≤ (i 0).val ∧ (i 0).val < win0_3.index ⟨(i 0).val / 2000, hN⟩ (0 : Fin 2) * 2000 + 2000; rw [e0]; show (i 0).val / 2000 * 2000 ≤ (i 0).val ∧ (i 0).val < (i 0).val / 2000 * 2000 + 2000; omega
  | ⟨1, _⟩ => show win0_3.index ⟨(i 0).val / 2000, hN⟩ (1 : Fin 2) * 256 ≤ (i 1).val ∧ (i 1).val < win0_3.index ⟨(i 0).val / 2000, hN⟩ (1 : Fin 2) * 256 + 256; omega

/-- The output array after the call is the projection of the three arrays the call reads. -/
theorem final0 (c : Dev nD) : (dat0 (F := Ideal) V c).arrAt 3 cfg0.N
    = Cert.Spec.linK (V c (Pipeline.arrRef spec0 0)) (V c (Pipeline.arrRef spec0 1)) (V c (Pipeline.arrRef spec0 2)) :=
  (dat0 (F := Ideal) V c).arrAt_eq_of_cover 3 (proj0 V c) (fun t _ => flushed0_3_eq V c t) cover0_3_arr

end Cert.Proof.KI

end
-- ==== Proof.KI.Val1.lean ====
/-
  The second pallas_call's output array, over the extended reals: after the call it holds the weighted message of
  every edge — the message network's first layer (three matrix products and two outer products, added in the body's
  order, plus the bias), the rectifier, the second layer and its bias, the row scaled by its edge weight — as one
  function of the fourteen input arrays as the call finds them. First the body's stored payload at an entry, then each
  window's block as rows of its array, then the eighty write-backs, which tile the output array.
-/
import proofs.«421803_j42709154791890_2_alg».proof.Proof.KI.R1
import proofs.«421803_j42709154791890_2_alg».proof.Proof.Spec
import proofs.«421803_j42709154791890_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The value of the call's output array, over the extended reals -/

section Value

open Idealize.ShloMosaic.ValueIdx
open scoped BigOperators

variable (V : (c : Dev nD) → (b : Ref sig .tc) → Buf (Elt Ideal) ((c : Thread nD τ).loc b))

/-! ## The body's arithmetic at an entry -/

/-- The zero offsets, as the constant function. -/
theorem hz1 : (![0, 0] : Fin 2 → Nat) = fun _ => 0 := funext fun a => by fin_cases a <;> rfl

/-- A [2000, 1] column spread over 256 columns reads, at `(p, k)`, the column's entry `p`. -/
theorem val1_col (v : FVec Ideal S2000x1 .f32) (p : Fin 2000) (k : Fin 256) :
    broadcastTo S2000x256 v broadcasts_S2000x1_S2000x256 (ix2 p k) = v (ix2 p (0 : Fin 1)) := by
  refine broadcastTo_apply v _ (ix2 p k) (ix2 p (0 : Fin 1)) fun ax => ?_
  match ax with
  | ⟨0, _⟩ => rfl
  | ⟨1, _⟩ => rfl

/-- A [1, 256] row spread over 2000 rows reads, at `(p, k)`, the row's entry `k`. -/
theorem val1_row (v : FVec Ideal S1x256 .f32) (p : Fin 2000) (k : Fin 256) :
    broadcastTo S2000x256 v broadcasts_S1x256_S2000x256 (ix2 p k) = v (ix2 (0 : Fin 1) k) :=
  broadcastTo_1b_ab_apply v _ p k

/-- Entry `(p, k)` of a [2000, 256] by [256, 256] product into the zero accumulator. -/
theorem val1_sq {φ₁ φ₂ : FTy} (a : FVec Ideal S2000x256 φ₁) (b : FVec Ideal S256x256 φ₂) (p : Fin 2000) (k : Fin 256) :
    matmul dot_S2000x256_S256x256_S2000x256_1_0_0_1_n_n none a b (constant (F := Ideal) S2000x256 .f32 0x00000000#32) (ix2 p k)
      = ∑ q : Fin 256, a (ix2 p q) * b (ix2 q k) :=
  Cert.PlainMatmul.apply (M := 2000) (K := 256) (N := 256) none a b p k

/-- Entry `(p, k)` of a [2000, 64] by [64, 256] product into the zero accumulator. -/
theorem val1_wx {φ₁ φ₂ : FTy} (a : FVec Ideal S2000x64 φ₁) (b : FVec Ideal S64x256 φ₂) (p : Fin 2000) (k : Fin 256) :
    matmul dot_S2000x64_S64x256_S2000x256_1_0_0_1_n_n none a b (constant (F := Ideal) S2000x256 .f32 0x00000000#32) (ix2 p k)
      = ∑ q : Fin 64, a (ix2 p q) * b (ix2 q k) :=
  Cert.PlainMatmul.apply (M := 2000) (K := 64) (N := 256) none a b p k

/-- The first layer before its bias, at edge row `p` and hidden unit `k`: the three products and the two outer
    products, added in the body's order. -/
theorem val1_pre (x0 x1 : S2000x256.Idx → EReal) (x4 : S2000x64.Idx → EReal) (x6 x7 : S256x256.Idx → EReal)
    (x8 : S64x256.Idx → EReal) (x2 x3 : S2000x1.Idx → EReal) (x9 x10 : S1x256.Idx → EReal) (p : Fin 2000) (k : Fin 256) :
    (k1_pay2 (F := Ideal) x0 x1 x4 x6 x7 x8 x2 x3 x9 x10 (ix2 p k) : EReal)
      = (∑ q : Fin 256, x0 (ix2 p q) * x6 (ix2 q k)) + (∑ q : Fin 256, x1 (ix2 p q) * x7 (ix2 q k))
        + (∑ q : Fin 64, x4 (ix2 p q) * x8 (ix2 q k))
        + x2 (ix2 p (0 : Fin 1)) * x9 (ix2 (0 : Fin 1) k) + x3 (ix2 p (0 : Fin 1)) * x10 (ix2 (0 : Fin 1) k) := by
  unfold k1_pay2
  simp only [shapeCast_self, addf_apply, mulf_apply, val1_col, val1_row]
  rw [val1_sq, val1_sq, val1_wx]
  rfl

/-- The stored payload at `(p, q)`: bias and rectifier on the first layer, the second layer's product and bias, the
    row's edge weight. -/
theorem val1 (y : S2000x256.Idx → EReal) (x11 : S1x256.Idx → EReal) (x12 : S256x256.Idx → EReal)
    (x13 : S1x256.Idx → EReal) (x5 : S2000x1.Idx → EReal) (p : Fin 2000) (q : Fin 256) :
    (k1_pay1 (F := Ideal) y x11 x12 x13 x5 (ix2 p q) : EReal)
      = ((∑ k : Fin 256, max (y (ix2 p k) + x11 (ix2 (0 : Fin 1) k)) 0 * x12 (ix2 k q)) + x13 (ix2 (0 : Fin 1) q))
        * x5 (ix2 p (0 : Fin 1)) := by
  unfold k1_pay1
  simp only [shapeCast_self, addf_apply, mulf_apply, val1_col, val1_row]
  rw [val1_sq]
  simp only [truncf_apply, maximumf_apply, addf_apply, val1_row, broadcast_apply]
  rw [show (Scalar.ofBits (F := Ideal) .f32 0x00000000#32 : EReal) = 0 from Ideal.ofBits_zero_f32]

/-! ## The blocks as rows of the arrays -/

/-- The printed index maps, decided over the grid: a per-edge window's block index is the point on the row axis and zero
    on the column axis; a weight's or a bias's is zero on both. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_14 : ∀ t : Fin cfg1.N, win1_14.index t (0 : Fin 2) = t.val ∧ win1_14.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)

/-- Entry `(p, q)` of a per-edge window's block at point `t` is entry `(2000·t + p, q)` of its array. -/
theorem blk1_0 (c : Dev nD) (t : Fin cfg1.N) (p : Fin 2000) (q : Fin 256) (h : t.val * 2000 + p.val < 160000) :
    (iblk1 V c 0 t (ix2 p q) : EReal) = V c (Pipeline.arrRef spec1 0) (ix2 (⟨t.val * 2000 + p.val, h⟩ : Fin 160000) q) := by
  show V c (Pipeline.arrRef spec1 0) (((cfg1.win 0).blk t).view.emb (ix2 p q)) = _
  refine congrArg _ (funext fun a => Fin.ext ?_)
  obtain ⟨ea, eb⟩ := idx1_0 t
  match a with
  | ⟨0, _⟩ => show win1_0.index t (0 : Fin 2) * 2000 + 1 * p.val = t.val * 2000 + p.val; rw [ea]; omega
  | ⟨1, _⟩ => show win1_0.index t (1 : Fin 2) * 256 + 1 * q.val = q.val; rw [eb]; omega
theorem blk1_1 (c : Dev nD) (t : Fin cfg1.N) (p : Fin 2000) (q : Fin 256) (h : t.val * 2000 + p.val < 160000) :
    (iblk1 V c 1 t (ix2 p q) : EReal) = V c (Pipeline.arrRef spec1 1) (ix2 (⟨t.val * 2000 + p.val, h⟩ : Fin 160000) q) := by
  show V c (Pipeline.arrRef spec1 1) (((cfg1.win 1).blk t).view.emb (ix2 p q)) = _
  refine congrArg _ (funext fun a => Fin.ext ?_)
  obtain ⟨ea, eb⟩ := idx1_1 t
  match a with
  | ⟨0, _⟩ => show win1_1.index t (0 : Fin 2) * 2000 + 1 * p.val = t.val * 2000 + p.val; rw [ea]; omega
  | ⟨1, _⟩ => show win1_1.index t (1 : Fin 2) * 256 + 1 * q.val = q.val; rw [eb]; omega
theorem blk1_2 (c : Dev nD) (t : Fin cfg1.N) (p : Fin 2000) (q : Fin 1) (h : t.val * 2000 + p.val < 160000) :
    (iblk1 V c 2 t (ix2 p q) : EReal) = V c (Pipeline.arrRef spec1 2) (ix2 (⟨t.val * 2000 + p.val, h⟩ : Fin 160000) q) := by
  show V c (Pipeline.arrRef spec1 2) (((cfg1.win 2).blk t).view.emb (ix2 p q)) = _
  refine congrArg _ (funext fun a => Fin.ext ?_)
  obtain ⟨ea, eb⟩ := idx1_2 t
  match a with
  | ⟨0, _⟩ => show win1_2.index t (0 : Fin 2) * 2000 + 1 * p.val = t.val * 2000 + p.val; rw [ea]; omega
  | ⟨1, _⟩ => show win1_2.index t (1 : Fin 2) * 1 + 1 * q.val = q.val; rw [eb]; omega
theorem blk1_3 (c : Dev nD) (t : Fin cfg1.N) (p : Fin 2000) (q : Fin 1) (h : t.val * 2000 + p.val < 160000) :
    (iblk1 V c 3 t (ix2 p q) : EReal) = V c (Pipeline.arrRef spec1 3) (ix2 (⟨t.val * 2000 + p.val, h⟩ : Fin 160000) q) := by
  show V c (Pipeline.arrRef spec1 3) (((cfg1.win 3).blk t).view.emb (ix2 p q)) = _
  refine congrArg _ (funext fun a => Fin.ext ?_)
  obtain ⟨ea, eb⟩ := idx1_3 t
  match a with
  | ⟨0, _⟩ => show win1_3.index t (0 : Fin 2) * 2000 + 1 * p.val = t.val * 2000 + p.val; rw [ea]; omega
  | ⟨1, _⟩ => show win1_3.index t (1 : Fin 2) * 1 + 1 * q.val = q.val; rw [eb]; omega
theorem blk1_4 (c : Dev nD) (t : Fin cfg1.N) (p : Fin 2000) (q : Fin 64) (h : t.val * 2000 + p.val < 160000) :
    (iblk1 V c 4 t (ix2 p q) : EReal) = V c (Pipeline.arrRef spec1 4) (ix2 (⟨t.val * 2000 + p.val, h⟩ : Fin 160000) q) := by
  show V c (Pipeline.arrRef spec1 4) (((cfg1.win 4).blk t).view.emb (ix2 p q)) = _
  refine congrArg _ (funext fun a => Fin.ext ?_)
  obtain ⟨ea, eb⟩ := idx1_4 t
  match a with
  | ⟨0, _⟩ => show win1_4.index t (0 : Fin 2) * 2000 + 1 * p.val = t.val * 2000 + p.val; rw [ea]; omega
  | ⟨1, _⟩ => show win1_4.index t (1 : Fin 2) * 64 + 1 * q.val = q.val; rw [eb]; omega
theorem blk1_5 (c : Dev nD) (t : Fin cfg1.N) (p : Fin 2000) (q : Fin 1) (h : t.val * 2000 + p.val < 160000) :
    (iblk1 V c 5 t (ix2 p q) : EReal) = V c (Pipeline.arrRef spec1 5) (ix2 (⟨t.val * 2000 + p.val, h⟩ : Fin 160000) q) := by
  show V c (Pipeline.arrRef spec1 5) (((cfg1.win 5).blk t).view.emb (ix2 p q)) = _
  refine congrArg _ (funext fun a => Fin.ext ?_)
  obtain ⟨ea, eb⟩ := idx1_5 t
  match a with
  | ⟨0, _⟩ => show win1_5.index t (0 : Fin 2) * 2000 + 1 * p.val = t.val * 2000 + p.val; rw [ea]; omega
  | ⟨1, _⟩ => show win1_5.index t (1 : Fin 2) * 1 + 1 * q.val = q.val; rw [eb]; omega

/-- A weight's or a bias's block, at every point, is its whole array. -/
theorem blk1_6 (c : Dev nD) (t : Fin cfg1.N) (p : Fin 256) (q : Fin 256) :
    (iblk1 V c 6 t (ix2 p q) : EReal) = V c (Pipeline.arrRef spec1 6) (ix2 p q) := by
  show V c (Pipeline.arrRef spec1 6) (((cfg1.win 6).blk t).view.emb (ix2 p q)) = _
  refine congrArg _ (funext fun a => Fin.ext ?_)
  obtain ⟨ea, eb⟩ := idx1_6 t
  match a with
  | ⟨0, _⟩ => show win1_6.index t (0 : Fin 2) * 256 + 1 * p.val = p.val; rw [ea]; omega
  | ⟨1, _⟩ => show win1_6.index t (1 : Fin 2) * 256 + 1 * q.val = q.val; rw [eb]; omega
theorem blk1_7 (c : Dev nD) (t : Fin cfg1.N) (p : Fin 256) (q : Fin 256) :
    (iblk1 V c 7 t (ix2 p q) : EReal) = V c (Pipeline.arrRef spec1 7) (ix2 p q) := by
  show V c (Pipeline.arrRef spec1 7) (((cfg1.win 7).blk t).view.emb (ix2 p q)) = _
  refine congrArg _ (funext fun a => Fin.ext ?_)
  obtain ⟨ea, eb⟩ := idx1_7 t
  match a with
  | ⟨0, _⟩ => show win1_7.index t (0 : Fin 2) * 256 + 1 * p.val = p.val; rw [ea]; omega
  | ⟨1, _⟩ => show win1_7.index t (1 : Fin 2) * 256 + 1 * q.val = q.val; rw [eb]; omega
theorem blk1_8 (c : Dev nD) (t : Fin cfg1.N) (p : Fin 64) (q : Fin 256) :
    (iblk1 V c 8 t (ix2 p q) : EReal) = V c (Pipeline.arrRef spec1 8) (ix2 p q) := by
  show V c (Pipeline.arrRef spec1 8) (((cfg1.win 8).blk t).view.emb (ix2 p q)) = _
  refine congrArg _ (funext fun a => Fin.ext ?_)
  obtain ⟨ea, eb⟩ := idx1_8 t
  match a with
  | ⟨0, _⟩ => show win1_8.index t (0 : Fin 2) * 64 + 1 * p.val = p.val; rw [ea]; omega
  | ⟨1, _⟩ => show win1_8.index t (1 : Fin 2) * 256 + 1 * q.val = q.val; rw [eb]; omega
theorem blk1_9 (c : Dev nD) (t : Fin cfg1.N) (p : Fin 1) (q : Fin 256) :
    (iblk1 V c 9 t (ix2 p q) : EReal) = V c (Pipeline.arrRef spec1 9) (ix2 p q) := by
  show V c (Pipeline.arrRef spec1 9) (((cfg1.win 9).blk t).view.emb (ix2 p q)) = _
  refine congrArg _ (funext fun a => Fin.ext ?_)
  obtain ⟨ea, eb⟩ := idx1_9 t
  match a with
  | ⟨0, _⟩ => show win1_9.index t (0 : Fin 2) * 1 + 1 * p.val = p.val; rw [ea]; omega
  | ⟨1, _⟩ => show win1_9.index t (1 : Fin 2) * 256 + 1 * q.val = q.val; rw [eb]; omega
theorem blk1_10 (c : Dev nD) (t : Fin cfg1.N) (p : Fin 1) (q : Fin 256) :
    (iblk1 V c 10 t (ix2 p q) : EReal) = V c (Pipeline.arrRef spec1 10) (ix2 p q) := by
  show V c (Pipeline.arrRef spec1 10) (((cfg1.win 10).blk t).view.emb (ix2 p q)) = _
  refine congrArg _ (funext fun a => Fin.ext ?_)
  obtain ⟨ea, eb⟩ := idx1_10 t
  match a with
  | ⟨0, _⟩ => show win1_10.index t (0 : Fin 2) * 1 + 1 * p.val = p.val; rw [ea]; omega
  | ⟨1, _⟩ => show win1_10.index t (1 : Fin 2) * 256 + 1 * q.val = q.val; rw [eb]; omega
theorem blk1_11 (c : Dev nD) (t : Fin cfg1.N) (p : Fin 1) (q : Fin 256) :
    (iblk1 V c 11 t (ix2 p q) : EReal) = V c (Pipeline.arrRef spec1 11) (ix2 p q) := by
  show V c (Pipeline.arrRef spec1 11) (((cfg1.win 11).blk t).view.emb (ix2 p q)) = _
  refine congrArg _ (funext fun a => Fin.ext ?_)
  obtain ⟨ea, eb⟩ := idx1_11 t
  match a with
  | ⟨0, _⟩ => show win1_11.index t (0 : Fin 2) * 1 + 1 * p.val = p.val; rw [ea]; omega
  | ⟨1, _⟩ => show win1_11.index t (1 : Fin 2) * 256 + 1 * q.val = q.val; rw [eb]; omega
theorem blk1_12 (c : Dev nD) (t : Fin cfg1.N) (p : Fin 256) (q : Fin 256) :
    (iblk1 V c 12 t (ix2 p q) : EReal) = V c (Pipeline.arrRef spec1 12) (ix2 p q) := by
  show V c (Pipeline.arrRef spec1 12) (((cfg1.win 12).blk t).view.emb (ix2 p q)) = _
  refine congrArg _ (funext fun a => Fin.ext ?_)
  obtain ⟨ea, eb⟩ := idx1_12 t
  match a with
  | ⟨0, _⟩ => show win1_12.index t (0 : Fin 2) * 256 + 1 * p.val = p.val; rw [ea]; omega
  | ⟨1, _⟩ => show win1_12.index t (1 : Fin 2) * 256 + 1 * q.val = q.val; rw [eb]; omega
theorem blk1_13 (c : Dev nD) (t : Fin cfg1.N) (p : Fin 1) (q : Fin 256) :
    (iblk1 V c 13 t (ix2 p q) : EReal) = V c (Pipeline.arrRef spec1 13) (ix2 p q) := by
  show V c (Pipeline.arrRef spec1 13) (((cfg1.win 13).blk t).view.emb (ix2 p q)) = _
  refine congrArg _ (funext fun a => Fin.ext ?_)
  obtain ⟨ea, eb⟩ := idx1_13 t
  match a with
  | ⟨0, _⟩ => show win1_13.index t (0 : Fin 2) * 1 + 1 * p.val = p.val; rw [ea]; omega
  | ⟨1, _⟩ => show win1_13.index t (1 : Fin 2) * 256 + 1 * q.val = q.val; rw [eb]; omega

/-- Entry `(p, q)` of the output's block at point `t` sits at `(2000·t + p, q)` of the output array. -/
theorem blk1_14 (t : Fin cfg1.N) (p : Fin 2000) (q : Fin 256) (h : t.val * 2000 + p.val < 160000) :
    ((cfg1.win 14).blk t).view.emb (ix2 p q) = ix2 (⟨t.val * 2000 + p.val, h⟩ : Fin 160000) q := by
  refine funext fun a => Fin.ext ?_
  obtain ⟨ea, eb⟩ := idx1_14 t
  match a with
  | ⟨0, _⟩ => show win1_14.index t (0 : Fin 2) * 2000 + 1 * p.val = t.val * 2000 + p.val; rw [ea]; omega
  | ⟨1, _⟩ => show win1_14.index t (1 : Fin 2) * 256 + 1 * q.val = q.val; rw [eb]; omega

/-! ## From the blocks to the array -/

/-- The weighted messages of all edges, of the fourteen arrays as the call finds them. -/
abbrev G1 (c : Dev nD) : Cert.Spec.A2 160000 256 :=
  Cert.Spec.msgK (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) (V c (Pipeline.arrRef spec1 13))

/-- What point `t` writes back is block `t` of the weighted messages. -/
theorem flushed1_eq (c : Dev nD) (t : Fin cfg1.N) :
    (dat1 (F := Ideal) V c).flushed 14 t = ((cfg1.win 14).blk t).view.read (Elt Ideal) (G1 V c) := by
  show (cfg1.win 14).cut (grid1.coords t) ((dat1 (F := Ideal) V c).after 14 t) = _
  rw [after1_14]
  unfold out1_14
  rw [View.canon_unit_zero hz1]
  simp only [View.ld_unit_zero (S := S2000x256) hz1, View.ld_unit_zero (S := S2000x1) hz1, View.ld_unit_zero (S := S2000x64) hz1,
    View.ld_unit_zero (S := S256x256) hz1, View.ld_unit_zero (S := S64x256) hz1, View.ld_unit_zero (S := S1x256) hz1]
  funext j
  obtain ⟨p, q, rfl⟩ : ∃ (p : Fin 2000) (q : Fin 256), j = ix2 p q := ⟨j 0, j 1, eq_ix2 j⟩
  have ht : t.val < 80 := lt_of_lt_of_eq t.isLt (by decide : grid1.N = 80)
  have hrow : t.val * 2000 + p.val < 160000 := by have := p.isLt; omega
  show (k1_pay1 (F := Ideal) (k1_pay2 (F := Ideal) (iblk1 V c 0 t) (iblk1 V c 1 t) (iblk1 V c 4 t) (iblk1 V c 6 t) (iblk1 V c 7 t) (iblk1 V c 8 t)
      (iblk1 V c 2 t) (iblk1 V c 3 t) (iblk1 V c 9 t) (iblk1 V c 10 t)) (iblk1 V c 11 t) (iblk1 V c 12 t) (iblk1 V c 13 t) (iblk1 V c 5 t) (ix2 p q) : EReal)
    = G1 V c (((cfg1.win 14).blk t).view.emb (ix2 p q))
  rw [blk1_14 t p q hrow, val1]
  simp only [val1_pre]
  simp only [blk1_0 V c t _ _ hrow, blk1_1 V c t _ _ hrow, blk1_2 V c t _ _ hrow, blk1_3 V c t _ _ hrow, blk1_4 V c t _ _ hrow,
    blk1_5 V c t _ _ hrow, blk1_6 V c t, blk1_7 V c t, blk1_8 V c t, blk1_9 V c t, blk1_10 V c t, blk1_11 V c t, blk1_12 V c t, blk1_13 V c t]
  rfl

/-- Every entry of the output array is in the block of the point its row falls in. -/
theorem cov1 (i : S160000x256.Idx) :
    ∃ t : Fin cfg1.N, (cfg1.win 14).flush t = true ∧ i ∈ ((cfg1.win 14).blk t).view.set := by
  have hia : (i 0).val < 160000 := (i 0).isLt
  have hib : (i 1).val < 256 := (i 1).isLt
  have hN : cfg1.N = 80 := (by decide : grid1.N = 80)
  have hlt : (i 0).val / 2000 < cfg1.N := by rw [hN]; omega
  refine ⟨⟨(i 0).val / 2000, hlt⟩, flush1_14 _, ?_⟩
  obtain ⟨ea, eb⟩ := idx1_14 ⟨(i 0).val / 2000, hlt⟩
  show i ∈ ((View.whole (Pipeline.arrRef spec1 14)).slice (win1_14.rect ⟨(i 0).val / 2000, hlt⟩)).set
  rw [View.set_slice_whole, Rect.mem_set_unit]
  intro a
  match a with
  | ⟨0, _⟩ =>
    show win1_14.index ⟨(i 0).val / 2000, hlt⟩ (0 : Fin 2) * 2000 ≤ (i 0).val
      ∧ (i 0).val < win1_14.index ⟨(i 0).val / 2000, hlt⟩ (0 : Fin 2) * 2000 + 2000
    rw [ea]; show (i 0).val / 2000 * 2000 ≤ (i 0).val ∧ (i 0).val < (i 0).val / 2000 * 2000 + 2000; omega
  | ⟨1, _⟩ =>
    show win1_14.index ⟨(i 0).val / 2000, hlt⟩ (1 : Fin 2) * 256 ≤ (i 1).val
      ∧ (i 1).val < win1_14.index ⟨(i 0).val / 2000, hlt⟩ (1 : Fin 2) * 256 + 256
    rw [eb]; omega

/-- The output array after the call: the weighted messages of all edges. -/
theorem final1 (c : Dev nD) : (dat1 (F := Ideal) V c).arrAt 14 cfg1.N
    = Cert.Spec.msgK (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) (V c (Pipeline.arrRef spec1 13)) :=
  (dat1 (F := Ideal) V c).arrAt_eq_of_cover 14 (G1 V c) (fun t _ => flushed1_eq V c t) cov1

end Value

end Cert.Proof.KI

end
-- ==== Proof.KI.Val2.lean ====
/-
  The per-node combine pallas_call at the ideal values: what the output array holds after the call, entry by entry.

  Entry (p, q) of the block the body stores is the outer rectifier of the second dense layer at (p, q), whose hidden row is
  the rectifier of the first layer: the node rows against the first weight matrix plus the message rows against the second,
  plus the first bias row. Each input block sits where the output's block says (the row blocks move with the grid point,
  the weight matrices and bias rows are whole), the ten row blocks tile the array, and so the array ends holding the
  specification's function of the seven input arrays.
-/
import proofs.«421803_j42709154791890_2_alg».proof.Proof.KI.R2
import proofs.«421803_j42709154791890_2_alg».proof.Proof.Spec
import proofs.«421803_j42709154791890_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The payload at an entry -/

/-- The two spellings of the zero offsets. -/
theorem hz2 : (![0, 0] : Fin 2 → Nat) = fun _ => 0 := funext fun a => by
  match a with
  | ⟨0, _⟩ => rfl
  | ⟨1, _⟩ => rfl

/-- Entry (p, q) of a product of a block of 2000 rows with a 256 by 256 matrix into the zero accumulator. -/
theorem val2_mm {φ₁ φ₂ : FTy} (a : FVec Ideal S2000x256 φ₁) (b : FVec Ideal S256x256 φ₂) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) :=
  Cert.PlainMatmul.apply none a b p q

/-- A bias row spread over the 2000 rows of a block reads, at (p, q), the row's entry q. -/
theorem val2_row (x : FVec Ideal S1x256 .f32) (p : Fin 2000) (q : Fin 256) :
    broadcastTo S2000x256 x broadcasts_S1x256_S2000x256 (ix2 p q) = x (ix2 0 q) :=
  broadcastTo_1b_ab_apply x broadcasts_S1x256_S2000x256 p q

/-- The zero the rectifier compares with is the extended real 0. -/
theorem val2_zero : (FloatOps.ofBits FTy.f32 0x00000000#32 : Ideal .f32) = 0 := Ideal.ofBits_zero_f32

/-- THE PAYLOAD AT AN ENTRY: the outer rectifier of the second layer over the rectified first layer. -/
theorem val2_pay (x0 : Vec Ideal S2000x256 .bf16) (x1 : Vec Ideal S2000x256 .f32) (wa wb : Vec Ideal S256x256 .f32)
    (ba : Vec Ideal S1x256 .f32) (wc : Vec Ideal S256x256 .f32) (bc : Vec Ideal S1x256 .f32) (p : Fin 2000) (q : Fin 256) :
    k2_pay1 x0 x1 wa wb ba wc bc (ix2 p q)
      = max ((∑ k : Fin 256, max (((∑ j : Fin 256, x0 (ix2 p j) * wa (ix2 j k)) + (∑ j : Fin 256, x1 (ix2 p j) * wb (ix2 j k)))
            + ba (ix2 0 k)) 0 * wc (ix2 k q)) + bc (ix2 0 q)) 0 := by
  unfold k2_pay1
  simp only [shapeCast_self, truncf_apply, maximumf_apply, addf_apply, broadcast_apply, val2_mm, val2_row, val2_zero]

/-- Entry (p, q) of the output block after the body, as a function of the seven input blocks. -/
theorem out2_7_apply (x0 : Vec Ideal S2000x256 .bf16) (x1 : Vec Ideal S2000x256 .f32) (wa wb : Vec Ideal S256x256 .f32)
    (ba : Vec Ideal S1x256 .f32) (wc : Vec Ideal S256x256 .f32) (bc : Vec Ideal S1x256 .f32) (p : Fin 2000) (q : Fin 256) :
    out2_7 x0 x1 wa wb ba wc bc (ix2 p q)
      = max ((∑ k : Fin 256, max (((∑ j : Fin 256, x0 (ix2 p j) * wa (ix2 j k)) + (∑ j : Fin 256, x1 (ix2 p j) * wb (ix2 j k)))
            + ba (ix2 0 k)) 0 * wc (ix2 k q)) + bc (ix2 0 q)) 0 := by
  unfold out2_7
  rw [View.canon_unit_zero hz2]
  simp only [View.ld_unit_zero (S := S2000x256) hz2, View.ld_unit_zero (S := S256x256) hz2, View.ld_unit_zero (S := S1x256) hz2]
  exact val2_pay x0 x1 wa wb ba wc bc p q

/-! ## Where the blocks sit -/

variable (V : (c : Dev nD) → (b : Ref sig .tc) → Buf (Elt Ideal) ((c : Thread nD τ).loc b))

/-- The printed index maps, decided over the grid: the row blocks of windows 0, 1 and 7 are block `t` at point `t`,
    the weight matrices and the bias rows are block 0 at every point. -/
theorem idx2_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of the row block at point `t`, as a row of the array. -/
def blk2_row (t : Fin cfg2.N) (p : Fin 2000) : Fin 20000 :=
  ⟨t.val * 2000 + p.val, by have ht : t.val < 10 := t.isLt; have hp := p.isLt; omega⟩

/-- Window 0's block at point `t` is rows `2000·t … 2000·t + 1999` of the node states. -/
theorem blk2_0 (c : Dev nD) (t : Fin cfg2.N) (p : Fin 2000) (j : Fin 256) :
    iblk2 V c 0 t (ix2 p j) = V c (Pipeline.arrRef spec2 0) (ix2 (blk2_row t p) j) := by
  obtain ⟨e0, e1, -⟩ := idx2_facts t
  show V c (Pipeline.arrRef spec2 0) (((cfg2.win 0).blk t).view.emb (ix2 p j)) = _
  refine congrArg (V c (Pipeline.arrRef spec2 0)) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 256 + 1 * j.val = j.val; rw [e1]; omega

/-- Window 1's block at point `t` is the same rows of the aggregated messages. -/
theorem blk2_1 (c : Dev nD) (t : Fin cfg2.N) (p : Fin 2000) (j : Fin 256) :
    iblk2 V c 1 t (ix2 p j) = V c (Pipeline.arrRef spec2 1) (ix2 (blk2_row t p) j) := by
  obtain ⟨-, -, e0, e1, -⟩ := idx2_facts t
  show V c (Pipeline.arrRef spec2 1) (((cfg2.win 1).blk t).view.emb (ix2 p j)) = _
  refine congrArg (V c (Pipeline.arrRef spec2 1)) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 256 + 1 * j.val = j.val; rw [e1]; omega

/-- Windows 2, 3 and 5 hold their whole weight matrix at every point. -/
theorem blk2_2 (c : Dev nD) (t : Fin cfg2.N) (j k : Fin 256) :
    iblk2 V c 2 t (ix2 j k) = V c (Pipeline.arrRef spec2 2) (ix2 j k) := by
  obtain ⟨-, -, -, -, e0, e1, -⟩ := idx2_facts t
  show V c (Pipeline.arrRef spec2 2) (((cfg2.win 2).blk t).view.emb (ix2 j k)) = _
  refine congrArg (V c (Pipeline.arrRef spec2 2)) (funext fun a => Fin.ext ?_)
  match a with
  | ⟨0, _⟩ => show win2_2.index t (0 : Fin 2) * 256 + 1 * j.val = j.val; rw [e0]; omega
  | ⟨1, _⟩ => show win2_2.index t (1 : Fin 2) * 256 + 1 * k.val = k.val; rw [e1]; omega

theorem blk2_3 (c : Dev nD) (t : Fin cfg2.N) (j k : Fin 256) :
    iblk2 V c 3 t (ix2 j k) = V c (Pipeline.arrRef spec2 3) (ix2 j k) := by
  obtain ⟨-, -, -, -, -, -, e0, e1, -⟩ := idx2_facts t
  show V c (Pipeline.arrRef spec2 3) (((cfg2.win 3).blk t).view.emb (ix2 j k)) = _
  refine congrArg (V c (Pipeline.arrRef spec2 3)) (funext fun a => Fin.ext ?_)
  match a with
  | ⟨0, _⟩ => show win2_3.index t (0 : Fin 2) * 256 + 1 * j.val = j.val; rw [e0]; omega
  | ⟨1, _⟩ => show win2_3.index t (1 : Fin 2) * 256 + 1 * k.val = k.val; rw [e1]; omega

theorem blk2_5 (c : Dev nD) (t : Fin cfg2.N) (j k : Fin 256) :
    iblk2 V c 5 t (ix2 j k) = V c (Pipeline.arrRef spec2 5) (ix2 j k) := by
  obtain ⟨-, -, -, -, -, -, -, -, -, -, e0, e1, -⟩ := idx2_facts t
  show V c (Pipeline.arrRef spec2 5) (((cfg2.win 5).blk t).view.emb (ix2 j k)) = _
  refine congrArg (V c (Pipeline.arrRef spec2 5)) (funext fun a => Fin.ext ?_)
  match a with
  | ⟨0, _⟩ => show win2_5.index t (0 : Fin 2) * 256 + 1 * j.val = j.val; rw [e0]; omega
  | ⟨1, _⟩ => show win2_5.index t (1 : Fin 2) * 256 + 1 * k.val = k.val; rw [e1]; omega

/-- Windows 4 and 6 hold their whole bias row at every point. -/
theorem blk2_4 (c : Dev nD) (t : Fin cfg2.N) (k : Fin 256) :
    iblk2 V c 4 t (ix2 0 k) = V c (Pipeline.arrRef spec2 4) (ix2 0 k) := by
  obtain ⟨-, -, -, -, -, -, -, -, e0, e1, -⟩ := idx2_facts t
  show V c (Pipeline.arrRef spec2 4) (((cfg2.win 4).blk t).view.emb (ix2 0 k)) = _
  refine congrArg (V c (Pipeline.arrRef spec2 4)) (funext fun a => Fin.ext ?_)
  match a with
  | ⟨0, _⟩ => show win2_4.index t (0 : Fin 2) * 1 + 1 * 0 = 0; rw [e0]
  | ⟨1, _⟩ => show win2_4.index t (1 : Fin 2) * 256 + 1 * k.val = k.val; rw [e1]; omega

theorem blk2_6 (c : Dev nD) (t : Fin cfg2.N) (k : Fin 256) :
    iblk2 V c 6 t (ix2 0 k) = V c (Pipeline.arrRef spec2 6) (ix2 0 k) := by
  obtain ⟨-, -, -, -, -, -, -, -, -, -, -, -, e0, e1, -⟩ := idx2_facts t
  show V c (Pipeline.arrRef spec2 6) (((cfg2.win 6).blk t).view.emb (ix2 0 k)) = _
  refine congrArg (V c (Pipeline.arrRef spec2 6)) (funext fun a => Fin.ext ?_)
  match a with
  | ⟨0, _⟩ => show win2_6.index t (0 : Fin 2) * 1 + 1 * 0 = 0; rw [e0]
  | ⟨1, _⟩ => show win2_6.index t (1 : Fin 2) * 256 + 1 * k.val = k.val; rw [e1]; omega

/-- Entry (p, q) of the output's block at point `t` is entry (2000·t + p, q) of the array. -/
theorem blk2_7 (t : Fin cfg2.N) (p : Fin 2000) (q : Fin 256) :
    ((cfg2.win 7).blk t).view.emb (ix2 p q) = ix2 (blk2_row t p) q := by
  obtain ⟨-, -, -, -, -, -, -, -, -, -, -, -, -, -, e0, e1⟩ := idx2_facts t
  refine funext fun a => Fin.ext ?_
  match a with
  | ⟨0, _⟩ => show win2_7.index t (0 : Fin 2) * 2000 + 1 * p.val = t.val * 2000 + p.val; rw [e0]; omega
  | ⟨1, _⟩ => show win2_7.index t (1 : Fin 2) * 256 + 1 * q.val = q.val; rw [e1]; omega

/-! ## What a point writes back, the cover, the array -/

/-- A function of the array's index read through the output's block at point `t`, at entry (p, q). -/
theorem blk2_read (G : S20000x256.Idx → EReal) (t : Fin cfg2.N) (p : Fin 2000) (q : Fin 256) :
    ((cfg2.win 7).blk t).view.read (Elt Ideal) G (ix2 p q) = G (ix2 (blk2_row t p) q) := by
  show G (((cfg2.win 7).blk t).view.emb (ix2 p q)) = _
  rw [blk2_7 t p q]

/-- WHAT POINT `t` WRITES BACK is block `t` of the specification's function of the seven arrays as the call finds them. -/
theorem flushed2_eq (c : Dev nD) (t : Fin cfg2.N) :
    (dat2 (F := Ideal) V c).flushed 7 t = ((cfg2.win 7).blk t).view.read (Elt Ideal)
      (Cert.Spec.updK (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  show (cfg2.win 7).cut (grid2.coords t) ((dat2 V c).after 7 t) = _
  rw [after2_7]
  funext j
  obtain ⟨p, q, rfl⟩ : ∃ (p : Fin 2000) (q : Fin 256), j = ix2 p q := ⟨j 0, j 1, eq_ix2 j⟩
  refine (out2_7_apply _ _ _ _ _ _ _ p q).trans ?_
  refine Eq.trans ?_ (blk2_read _ t p q).symm
  simp only [blk2_0 V c t, blk2_1 V c t, blk2_2 V c t, blk2_3 V c t, blk2_4 V c t, blk2_5 V c t, blk2_6 V c t]
  rfl

/-- An index of the array is in point `t`'s block iff each coordinate is in the block's range on its axis. -/
theorem cov2_mem (t : Fin cfg2.N) (i : S20000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole (Pipeline.arrRef spec2 7)).slice (win2_7.rect t)).set ↔ _
  rw [View.set_slice_whole, Rect.mem_set_unit]
  exact Iff.rfl

/-- THE COVER: row `r` of the array is in the block of point `r / 2000`, which writes back like every point. -/
theorem cov2 (i : S20000x256.Idx) : ∃ t : Fin cfg2.N, (cfg2.win 7).flush t = true ∧ i ∈ ((cfg2.win 7).blk t).view.set := by
  have hi0 : (i 0).val < 20000 := (i 0).isLt
  have hi1 : (i 1).val < 256 := (i 1).isLt
  obtain ⟨t, ht⟩ : ∃ t : Fin cfg2.N, t.val = (i 0).val / 2000 :=
    ⟨⟨(i 0).val / 2000, by show (i 0).val / 2000 < 10; omega⟩, rfl⟩
  obtain ⟨-, -, -, -, -, -, -, -, -, -, -, -, -, -, e0, e1⟩ := idx2_facts t
  refine ⟨t, flush2_7 t, ?_⟩
  rw [cov2_mem]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 256 ≤ (i 1).val ∧ (i 1).val < win2_7.index t (1 : Fin 2) * 256 + 256; omega

/-- THE ARRAY after the call: the specification's function of the seven input arrays as the call finds them. -/
theorem final2 (c : Dev nD) : (dat2 (F := Ideal) V c).arrAt 7 cfg2.N = Cert.Spec.updK (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (dat2 (F := Ideal) V c).arrAt_eq_of_cover 7 _ (fun t _ => flushed2_eq V c t) cov2

end Cert.Proof.KI

end
-- ==== Proof.KI.Val3.lean ====
/-
  The second pallas_call's output array, over the extended reals: after the call it holds the weighted message of
  every edge — the message network's first layer (three matrix products and two outer products, added in the body's
  order, plus the bias), the rectifier, the second layer and its bias, the row scaled by its edge weight — as one
  function of the fourteen input arrays as the call finds them. First the body's stored payload at an entry, then each
  window's block as rows of its array, then the eighty write-backs, which tile the output array.
-/
import proofs.«421803_j42709154791890_2_alg».proof.Proof.KI.R3
import proofs.«421803_j42709154791890_2_alg».proof.Proof.Spec
import proofs.«421803_j42709154791890_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The value of the call's output array, over the extended reals -/

section Value

open Idealize.ShloMosaic.ValueIdx
open scoped BigOperators

variable (V : (c : Dev nD) → (b : Ref sig .tc) → Buf (Elt Ideal) ((c : Thread nD τ).loc b))

/-! ## The body's arithmetic at an entry -/

/-- The zero offsets, as the constant function. -/
theorem hz3 : (![0, 0] : Fin 2 → Nat) = fun _ => 0 := funext fun a => by fin_cases a <;> rfl

/-- A [2000, 1] column spread over 256 columns reads, at `(p, k)`, the column's entry `p`. -/
theorem val3_col (v : FVec Ideal S2000x1 .f32) (p : Fin 2000) (k : Fin 256) :
    broadcastTo S2000x256 v broadcasts_S2000x1_S2000x256 (ix2 p k) = v (ix2 p (0 : Fin 1)) := by
  refine broadcastTo_apply v _ (ix2 p k) (ix2 p (0 : Fin 1)) fun ax => ?_
  match ax with
  | ⟨0, _⟩ => rfl
  | ⟨1, _⟩ => rfl

/-- A [1, 256] row spread over 2000 rows reads, at `(p, k)`, the row's entry `k`. -/
theorem val3_row (v : FVec Ideal S1x256 .f32) (p : Fin 2000) (k : Fin 256) :
    broadcastTo S2000x256 v broadcasts_S1x256_S2000x256 (ix2 p k) = v (ix2 (0 : Fin 1) k) :=
  broadcastTo_1b_ab_apply v _ p k

/-- Entry `(p, k)` of a [2000, 256] by [256, 256] product into the zero accumulator. -/
theorem val3_sq {φ₁ φ₂ : FTy} (a : FVec Ideal S2000x256 φ₁) (b : FVec Ideal S256x256 φ₂) (p : Fin 2000) (k : Fin 256) :
    matmul dot_S2000x256_S256x256_S2000x256_1_0_0_1_n_n none a b (constant (F := Ideal) S2000x256 .f32 0x00000000#32) (ix2 p k)
      = ∑ q : Fin 256, a (ix2 p q) * b (ix2 q k) :=
  Cert.PlainMatmul.apply (M := 2000) (K := 256) (N := 256) none a b p k

/-- Entry `(p, k)` of a [2000, 64] by [64, 256] product into the zero accumulator. -/
theorem val3_wx {φ₁ φ₂ : FTy} (a : FVec Ideal S2000x64 φ₁) (b : FVec Ideal S64x256 φ₂) (p : Fin 2000) (k : Fin 256) :
    matmul dot_S2000x64_S64x256_S2000x256_1_0_0_1_n_n none a b (constant (F := Ideal) S2000x256 .f32 0x00000000#32) (ix2 p k)
      = ∑ q : Fin 64, a (ix2 p q) * b (ix2 q k) :=
  Cert.PlainMatmul.apply (M := 2000) (K := 64) (N := 256) none a b p k

/-- The first layer before its bias, at edge row `p` and hidden unit `k`: the three products and the two outer
    products, added in the body's order. -/
theorem val3_pre (x0 x1 : S2000x256.Idx → EReal) (x4 : S2000x64.Idx → EReal) (x6 x7 : S256x256.Idx → EReal)
    (x8 : S64x256.Idx → EReal) (x2 x3 : S2000x1.Idx → EReal) (x9 x10 : S1x256.Idx → EReal) (p : Fin 2000) (k : Fin 256) :
    (k3_pay2 (F := Ideal) x0 x1 x4 x6 x7 x8 x2 x3 x9 x10 (ix2 p k) : EReal)
      = (∑ q : Fin 256, x0 (ix2 p q) * x6 (ix2 q k)) + (∑ q : Fin 256, x1 (ix2 p q) * x7 (ix2 q k))
        + (∑ q : Fin 64, x4 (ix2 p q) * x8 (ix2 q k))
        + x2 (ix2 p (0 : Fin 1)) * x9 (ix2 (0 : Fin 1) k) + x3 (ix2 p (0 : Fin 1)) * x10 (ix2 (0 : Fin 1) k) := by
  unfold k3_pay2
  simp only [shapeCast_self, addf_apply, mulf_apply, val3_col, val3_row]
  rw [val3_sq, val3_sq, val3_wx]
  rfl

/-- The stored payload at `(p, q)`: bias and rectifier on the first layer, the second layer's product and bias, the
    row's edge weight. -/
theorem val3 (y : S2000x256.Idx → EReal) (x11 : S1x256.Idx → EReal) (x12 : S256x256.Idx → EReal)
    (x13 : S1x256.Idx → EReal) (x5 : S2000x1.Idx → EReal) (p : Fin 2000) (q : Fin 256) :
    (k3_pay1 (F := Ideal) y x11 x12 x13 x5 (ix2 p q) : EReal)
      = ((∑ k : Fin 256, max (y (ix2 p k) + x11 (ix2 (0 : Fin 1) k)) 0 * x12 (ix2 k q)) + x13 (ix2 (0 : Fin 1) q))
        * x5 (ix2 p (0 : Fin 1)) := by
  unfold k3_pay1
  simp only [shapeCast_self, addf_apply, mulf_apply, val3_col, val3_row]
  rw [val3_sq]
  simp only [truncf_apply, maximumf_apply, addf_apply, val3_row, broadcast_apply]
  rw [show (Scalar.ofBits (F := Ideal) .f32 0x00000000#32 : EReal) = 0 from Ideal.ofBits_zero_f32]

/-! ## The blocks as rows of the arrays -/

/-- The printed index maps, decided over the grid: a per-edge window's block index is the point on the row axis and zero
    on the column axis; a weight's or a bias's is zero on both. -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_4 : ∀ t : Fin cfg3.N, win3_4.index t (0 : Fin 2) = t.val ∧ win3_4.index t (1 : Fin 2) = 0 :=
  (by decide +kernel : ∀ t : Fin grid3.N, _)
theorem idx3_5 : ∀ t : Fin cfg3.N, win3_5.index t (0 : Fin 2) = t.val ∧ win3_5.index t (1 : Fin 2) = 0 :=
  (by decide +kernel : ∀ t : Fin grid3.N, _)
theorem idx3_14 : ∀ t : Fin cfg3.N, win3_14.index t (0 : Fin 2) = t.val ∧ win3_14.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)
theorem idx3_10 : ∀ t : Fin cfg3.N, win3_10.index t (0 : Fin 2) = 0 ∧ win3_10.index t (1 : Fin 2) = 0 :=
  (by decide +kernel : ∀ t : Fin grid3.N, _)
theorem idx3_11 : ∀ t : Fin cfg3.N, win3_11.index t (0 : Fin 2) = 0 ∧ win3_11.index t (1 : Fin 2) = 0 :=
  (by decide +kernel : ∀ t : Fin grid3.N, _)
theorem idx3_12 : ∀ t : Fin cfg3.N, win3_12.index t (0 : Fin 2) = 0 ∧ win3_12.index t (1 : Fin 2) = 0 :=
  (by decide +kernel : ∀ t : Fin grid3.N, _)
theorem idx3_13 : ∀ t : Fin cfg3.N, win3_13.index t (0 : Fin 2) = 0 ∧ win3_13.index t (1 : Fin 2) = 0 :=
  (by decide +kernel : ∀ t : Fin grid3.N, _)

/-- Entry `(p, q)` of a per-edge window's block at point `t` is entry `(2000·t + p, q)` of its array. -/
theorem blk3_0 (c : Dev nD) (t : Fin cfg3.N) (p : Fin 2000) (q : Fin 256) (h : t.val * 2000 + p.val < 160000) :
    (iblk3 V c 0 t (ix2 p q) : EReal) = V c (Pipeline.arrRef spec3 0) (ix2 (⟨t.val * 2000 + p.val, h⟩ : Fin 160000) q) := by
  show V c (Pipeline.arrRef spec3 0) (((cfg3.win 0).blk t).view.emb (ix2 p q)) = _
  refine congrArg _ (funext fun a => Fin.ext ?_)
  obtain ⟨ea, eb⟩ := idx3_0 t
  match a with
  | ⟨0, _⟩ => show win3_0.index t (0 : Fin 2) * 2000 + 1 * p.val = t.val * 2000 + p.val; rw [ea]; omega
  | ⟨1, _⟩ => show win3_0.index t (1 : Fin 2) * 256 + 1 * q.val = q.val; rw [eb]; omega
theorem blk3_1 (c : Dev nD) (t : Fin cfg3.N) (p : Fin 2000) (q : Fin 256) (h : t.val * 2000 + p.val < 160000) :
    (iblk3 V c 1 t (ix2 p q) : EReal) = V c (Pipeline.arrRef spec3 1) (ix2 (⟨t.val * 2000 + p.val, h⟩ : Fin 160000) q) := by
  show V c (Pipeline.arrRef spec3 1) (((cfg3.win 1).blk t).view.emb (ix2 p q)) = _
  refine congrArg _ (funext fun a => Fin.ext ?_)
  obtain ⟨ea, eb⟩ := idx3_1 t
  match a with
  | ⟨0, _⟩ => show win3_1.index t (0 : Fin 2) * 2000 + 1 * p.val = t.val * 2000 + p.val; rw [ea]; omega
  | ⟨1, _⟩ => show win3_1.index t (1 : Fin 2) * 256 + 1 * q.val = q.val; rw [eb]; omega
theorem blk3_2 (c : Dev nD) (t : Fin cfg3.N) (p : Fin 2000) (q : Fin 1) (h : t.val * 2000 + p.val < 160000) :
    (iblk3 V c 2 t (ix2 p q) : EReal) = V c (Pipeline.arrRef spec3 2) (ix2 (⟨t.val * 2000 + p.val, h⟩ : Fin 160000) q) := by
  show V c (Pipeline.arrRef spec3 2) (((cfg3.win 2).blk t).view.emb (ix2 p q)) = _
  refine congrArg _ (funext fun a => Fin.ext ?_)
  obtain ⟨ea, eb⟩ := idx3_2 t
  match a with
  | ⟨0, _⟩ => show win3_2.index t (0 : Fin 2) * 2000 + 1 * p.val = t.val * 2000 + p.val; rw [ea]; omega
  | ⟨1, _⟩ => show win3_2.index t (1 : Fin 2) * 1 + 1 * q.val = q.val; rw [eb]; omega
theorem blk3_3 (c : Dev nD) (t : Fin cfg3.N) (p : Fin 2000) (q : Fin 1) (h : t.val * 2000 + p.val < 160000) :
    (iblk3 V c 3 t (ix2 p q) : EReal) = V c (Pipeline.arrRef spec3 3) (ix2 (⟨t.val * 2000 + p.val, h⟩ : Fin 160000) q) := by
  show V c (Pipeline.arrRef spec3 3) (((cfg3.win 3).blk t).view.emb (ix2 p q)) = _
  refine congrArg _ (funext fun a => Fin.ext ?_)
  obtain ⟨ea, eb⟩ := idx3_3 t
  match a with
  | ⟨0, _⟩ => show win3_3.index t (0 : Fin 2) * 2000 + 1 * p.val = t.val * 2000 + p.val; rw [ea]; omega
  | ⟨1, _⟩ => show win3_3.index t (1 : Fin 2) * 1 + 1 * q.val = q.val; rw [eb]; omega
theorem blk3_4 (c : Dev nD) (t : Fin cfg3.N) (p : Fin 2000) (q : Fin 64) (h : t.val * 2000 + p.val < 160000) :
    (iblk3 V c 4 t (ix2 p q) : EReal) = V c (Pipeline.arrRef spec3 4) (ix2 (⟨t.val * 2000 + p.val, h⟩ : Fin 160000) q) := by
  show V c (Pipeline.arrRef spec3 4) (((cfg3.win 4).blk t).view.emb (ix2 p q)) = _
  refine congrArg _ (funext fun a => Fin.ext ?_)
  obtain ⟨ea, eb⟩ := idx3_4 t
  match a with
  | ⟨0, _⟩ => show win3_4.index t (0 : Fin 2) * 2000 + 1 * p.val = t.val * 2000 + p.val; rw [ea]; omega
  | ⟨1, _⟩ => show win3_4.index t (1 : Fin 2) * 64 + 1 * q.val = q.val; rw [eb]; omega
theorem blk3_5 (c : Dev nD) (t : Fin cfg3.N) (p : Fin 2000) (q : Fin 1) (h : t.val * 2000 + p.val < 160000) :
    (iblk3 V c 5 t (ix2 p q) : EReal) = V c (Pipeline.arrRef spec3 5) (ix2 (⟨t.val * 2000 + p.val, h⟩ : Fin 160000) q) := by
  show V c (Pipeline.arrRef spec3 5) (((cfg3.win 5).blk t).view.emb (ix2 p q)) = _
  refine congrArg _ (funext fun a => Fin.ext ?_)
  obtain ⟨ea, eb⟩ := idx3_5 t
  match a with
  | ⟨0, _⟩ => show win3_5.index t (0 : Fin 2) * 2000 + 1 * p.val = t.val * 2000 + p.val; rw [ea]; omega
  | ⟨1, _⟩ => show win3_5.index t (1 : Fin 2) * 1 + 1 * q.val = q.val; rw [eb]; omega

/-- A weight's or a bias's block, at every point, is its whole array. -/
theorem blk3_6 (c : Dev nD) (t : Fin cfg3.N) (p : Fin 256) (q : Fin 256) :
    (iblk3 V c 6 t (ix2 p q) : EReal) = V c (Pipeline.arrRef spec3 6) (ix2 p q) := by
  show V c (Pipeline.arrRef spec3 6) (((cfg3.win 6).blk t).view.emb (ix2 p q)) = _
  refine congrArg _ (funext fun a => Fin.ext ?_)
  obtain ⟨ea, eb⟩ := idx3_6 t
  match a with
  | ⟨0, _⟩ => show win3_6.index t (0 : Fin 2) * 256 + 1 * p.val = p.val; rw [ea]; omega
  | ⟨1, _⟩ => show win3_6.index t (1 : Fin 2) * 256 + 1 * q.val = q.val; rw [eb]; omega
theorem blk3_7 (c : Dev nD) (t : Fin cfg3.N) (p : Fin 256) (q : Fin 256) :
    (iblk3 V c 7 t (ix2 p q) : EReal) = V c (Pipeline.arrRef spec3 7) (ix2 p q) := by
  show V c (Pipeline.arrRef spec3 7) (((cfg3.win 7).blk t).view.emb (ix2 p q)) = _
  refine congrArg _ (funext fun a => Fin.ext ?_)
  obtain ⟨ea, eb⟩ := idx3_7 t
  match a with
  | ⟨0, _⟩ => show win3_7.index t (0 : Fin 2) * 256 + 1 * p.val = p.val; rw [ea]; omega
  | ⟨1, _⟩ => show win3_7.index t (1 : Fin 2) * 256 + 1 * q.val = q.val; rw [eb]; omega
theorem blk3_8 (c : Dev nD) (t : Fin cfg3.N) (p : Fin 64) (q : Fin 256) :
    (iblk3 V c 8 t (ix2 p q) : EReal) = V c (Pipeline.arrRef spec3 8) (ix2 p q) := by
  show V c (Pipeline.arrRef spec3 8) (((cfg3.win 8).blk t).view.emb (ix2 p q)) = _
  refine congrArg _ (funext fun a => Fin.ext ?_)
  obtain ⟨ea, eb⟩ := idx3_8 t
  match a with
  | ⟨0, _⟩ => show win3_8.index t (0 : Fin 2) * 64 + 1 * p.val = p.val; rw [ea]; omega
  | ⟨1, _⟩ => show win3_8.index t (1 : Fin 2) * 256 + 1 * q.val = q.val; rw [eb]; omega
theorem blk3_9 (c : Dev nD) (t : Fin cfg3.N) (p : Fin 1) (q : Fin 256) :
    (iblk3 V c 9 t (ix2 p q) : EReal) = V c (Pipeline.arrRef spec3 9) (ix2 p q) := by
  show V c (Pipeline.arrRef spec3 9) (((cfg3.win 9).blk t).view.emb (ix2 p q)) = _
  refine congrArg _ (funext fun a => Fin.ext ?_)
  obtain ⟨ea, eb⟩ := idx3_9 t
  match a with
  | ⟨0, _⟩ => show win3_9.index t (0 : Fin 2) * 1 + 1 * p.val = p.val; rw [ea]; omega
  | ⟨1, _⟩ => show win3_9.index t (1 : Fin 2) * 256 + 1 * q.val = q.val; rw [eb]; omega
theorem blk3_10 (c : Dev nD) (t : Fin cfg3.N) (p : Fin 1) (q : Fin 256) :
    (iblk3 V c 10 t (ix2 p q) : EReal) = V c (Pipeline.arrRef spec3 10) (ix2 p q) := by
  show V c (Pipeline.arrRef spec3 10) (((cfg3.win 10).blk t).view.emb (ix2 p q)) = _
  refine congrArg _ (funext fun a => Fin.ext ?_)
  obtain ⟨ea, eb⟩ := idx3_10 t
  match a with
  | ⟨0, _⟩ => show win3_10.index t (0 : Fin 2) * 1 + 1 * p.val = p.val; rw [ea]; omega
  | ⟨1, _⟩ => show win3_10.index t (1 : Fin 2) * 256 + 1 * q.val = q.val; rw [eb]; omega
theorem blk3_11 (c : Dev nD) (t : Fin cfg3.N) (p : Fin 1) (q : Fin 256) :
    (iblk3 V c 11 t (ix2 p q) : EReal) = V c (Pipeline.arrRef spec3 11) (ix2 p q) := by
  show V c (Pipeline.arrRef spec3 11) (((cfg3.win 11).blk t).view.emb (ix2 p q)) = _
  refine congrArg _ (funext fun a => Fin.ext ?_)
  obtain ⟨ea, eb⟩ := idx3_11 t
  match a with
  | ⟨0, _⟩ => show win3_11.index t (0 : Fin 2) * 1 + 1 * p.val = p.val; rw [ea]; omega
  | ⟨1, _⟩ => show win3_11.index t (1 : Fin 2) * 256 + 1 * q.val = q.val; rw [eb]; omega
theorem blk3_12 (c : Dev nD) (t : Fin cfg3.N) (p : Fin 256) (q : Fin 256) :
    (iblk3 V c 12 t (ix2 p q) : EReal) = V c (Pipeline.arrRef spec3 12) (ix2 p q) := by
  show V c (Pipeline.arrRef spec3 12) (((cfg3.win 12).blk t).view.emb (ix2 p q)) = _
  refine congrArg _ (funext fun a => Fin.ext ?_)
  obtain ⟨ea, eb⟩ := idx3_12 t
  match a with
  | ⟨0, _⟩ => show win3_12.index t (0 : Fin 2) * 256 + 1 * p.val = p.val; rw [ea]; omega
  | ⟨1, _⟩ => show win3_12.index t (1 : Fin 2) * 256 + 1 * q.val = q.val; rw [eb]; omega
theorem blk3_13 (c : Dev nD) (t : Fin cfg3.N) (p : Fin 1) (q : Fin 256) :
    (iblk3 V c 13 t (ix2 p q) : EReal) = V c (Pipeline.arrRef spec3 13) (ix2 p q) := by
  show V c (Pipeline.arrRef spec3 13) (((cfg3.win 13).blk t).view.emb (ix2 p q)) = _
  refine congrArg _ (funext fun a => Fin.ext ?_)
  obtain ⟨ea, eb⟩ := idx3_13 t
  match a with
  | ⟨0, _⟩ => show win3_13.index t (0 : Fin 2) * 1 + 1 * p.val = p.val; rw [ea]; omega
  | ⟨1, _⟩ => show win3_13.index t (1 : Fin 2) * 256 + 1 * q.val = q.val; rw [eb]; omega

/-- Entry `(p, q)` of the output's block at point `t` sits at `(2000·t + p, q)` of the output array. -/
theorem blk3_14 (t : Fin cfg3.N) (p : Fin 2000) (q : Fin 256) (h : t.val * 2000 + p.val < 160000) :
    ((cfg3.win 14).blk t).view.emb (ix2 p q) = ix2 (⟨t.val * 2000 + p.val, h⟩ : Fin 160000) q := by
  refine funext fun a => Fin.ext ?_
  obtain ⟨ea, eb⟩ := idx3_14 t
  match a with
  | ⟨0, _⟩ => show win3_14.index t (0 : Fin 2) * 2000 + 1 * p.val = t.val * 2000 + p.val; rw [ea]; omega
  | ⟨1, _⟩ => show win3_14.index t (1 : Fin 2) * 256 + 1 * q.val = q.val; rw [eb]; omega

/-! ## From the blocks to the array -/

/-- The weighted messages of all edges, of the fourteen arrays as the call finds them. -/
abbrev G3 (c : Dev nD) : Cert.Spec.A2 160000 256 :=
  Cert.Spec.msgK (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13))

/-- What point `t` writes back is block `t` of the weighted messages. -/
theorem flushed3_eq (c : Dev nD) (t : Fin cfg3.N) :
    (dat3 (F := Ideal) V c).flushed 14 t = ((cfg3.win 14).blk t).view.read (Elt Ideal) (G3 V c) := by
  show (cfg3.win 14).cut (grid3.coords t) ((dat3 (F := Ideal) V c).after 14 t) = _
  rw [after3_14]
  unfold out3_14
  rw [View.canon_unit_zero hz3]
  simp only [View.ld_unit_zero (S := S2000x256) hz3, View.ld_unit_zero (S := S2000x1) hz3, View.ld_unit_zero (S := S2000x64) hz3,
    View.ld_unit_zero (S := S256x256) hz3, View.ld_unit_zero (S := S64x256) hz3, View.ld_unit_zero (S := S1x256) hz3]
  funext j
  obtain ⟨p, q, rfl⟩ : ∃ (p : Fin 2000) (q : Fin 256), j = ix2 p q := ⟨j 0, j 1, eq_ix2 j⟩
  have ht : t.val < 80 := lt_of_lt_of_eq t.isLt (by decide : grid3.N = 80)
  have hrow : t.val * 2000 + p.val < 160000 := by have := p.isLt; omega
  show (k3_pay1 (F := Ideal) (k3_pay2 (F := Ideal) (iblk3 V c 0 t) (iblk3 V c 1 t) (iblk3 V c 4 t) (iblk3 V c 6 t) (iblk3 V c 7 t) (iblk3 V c 8 t)
      (iblk3 V c 2 t) (iblk3 V c 3 t) (iblk3 V c 9 t) (iblk3 V c 10 t)) (iblk3 V c 11 t) (iblk3 V c 12 t) (iblk3 V c 13 t) (iblk3 V c 5 t) (ix2 p q) : EReal)
    = G3 V c (((cfg3.win 14).blk t).view.emb (ix2 p q))
  rw [blk3_14 t p q hrow, val3]
  simp only [val3_pre]
  simp only [blk3_0 V c t _ _ hrow, blk3_1 V c t _ _ hrow, blk3_2 V c t _ _ hrow, blk3_3 V c t _ _ hrow, blk3_4 V c t _ _ hrow,
    blk3_5 V c t _ _ hrow, blk3_6 V c t, blk3_7 V c t, blk3_8 V c t, blk3_9 V c t, blk3_10 V c t, blk3_11 V c t, blk3_12 V c t, blk3_13 V c t]
  rfl

/-- Every entry of the output array is in the block of the point its row falls in. -/
theorem cov3 (i : S160000x256.Idx) :
    ∃ t : Fin cfg3.N, (cfg3.win 14).flush t = true ∧ i ∈ ((cfg3.win 14).blk t).view.set := by
  have hia : (i 0).val < 160000 := (i 0).isLt
  have hib : (i 1).val < 256 := (i 1).isLt
  have hN : cfg3.N = 80 := (by decide : grid3.N = 80)
  have hlt : (i 0).val / 2000 < cfg3.N := by rw [hN]; omega
  refine ⟨⟨(i 0).val / 2000, hlt⟩, flush3_14 _, ?_⟩
  obtain ⟨ea, eb⟩ := idx3_14 ⟨(i 0).val / 2000, hlt⟩
  show i ∈ ((View.whole (Pipeline.arrRef spec3 14)).slice (win3_14.rect ⟨(i 0).val / 2000, hlt⟩)).set
  rw [View.set_slice_whole, Rect.mem_set_unit]
  intro a
  match a with
  | ⟨0, _⟩ =>
    show win3_14.index ⟨(i 0).val / 2000, hlt⟩ (0 : Fin 2) * 2000 ≤ (i 0).val
      ∧ (i 0).val < win3_14.index ⟨(i 0).val / 2000, hlt⟩ (0 : Fin 2) * 2000 + 2000
    rw [ea]; show (i 0).val / 2000 * 2000 ≤ (i 0).val ∧ (i 0).val < (i 0).val / 2000 * 2000 + 2000; omega
  | ⟨1, _⟩ =>
    show win3_14.index ⟨(i 0).val / 2000, hlt⟩ (1 : Fin 2) * 256 ≤ (i 1).val
      ∧ (i 1).val < win3_14.index ⟨(i 0).val / 2000, hlt⟩ (1 : Fin 2) * 256 + 256
    rw [eb]; omega

/-- The output array after the call: the weighted messages of all edges. -/
theorem final3 (c : Dev nD) : (dat3 (F := Ideal) V c).arrAt 14 cfg3.N
    = Cert.Spec.msgK (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13)) :=
  (dat3 (F := Ideal) V c).arrAt_eq_of_cover 14 (G3 V c) (fun t _ => flushed3_eq V c t) cov3

end Value

end Cert.Proof.KI

end
-- ==== Proof.KI.Val4.lean ====
/-
  The per-node combine pallas_call at the ideal values: what the output array holds after the call, entry by entry.

  Entry (p, q) of the block the body stores is the outer rectifier of the second dense layer at (p, q), whose hidden row is
  the rectifier of the first layer: the node rows against the first weight matrix plus the message rows against the second,
  plus the first bias row. Each input block sits where the output's block says (the row blocks move with the grid point,
  the weight matrices and bias rows are whole), the ten row blocks tile the array, and so the array ends holding the
  specification's function of the seven input arrays.
-/
import proofs.«421803_j42709154791890_2_alg».proof.Proof.KI.R4
import proofs.«421803_j42709154791890_2_alg».proof.Proof.Spec
import proofs.«421803_j42709154791890_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The payload at an entry -/

/-- The two spellings of the zero offsets. -/
theorem hz4 : (![0, 0] : Fin 2 → Nat) = fun _ => 0 := funext fun a => by
  match a with
  | ⟨0, _⟩ => rfl
  | ⟨1, _⟩ => rfl

/-- Entry (p, q) of a product of a block of 2000 rows with a 256 by 256 matrix into the zero accumulator. -/
theorem val4_mm {φ₁ φ₂ : FTy} (a : FVec Ideal S2000x256 φ₁) (b : FVec Ideal S256x256 φ₂) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) :=
  Cert.PlainMatmul.apply none a b p q

/-- A bias row spread over the 2000 rows of a block reads, at (p, q), the row's entry q. -/
theorem val4_row (x : FVec Ideal S1x256 .f32) (p : Fin 2000) (q : Fin 256) :
    broadcastTo S2000x256 x broadcasts_S1x256_S2000x256 (ix2 p q) = x (ix2 0 q) :=
  broadcastTo_1b_ab_apply x broadcasts_S1x256_S2000x256 p q

/-- The zero the rectifier compares with is the extended real 0. -/
theorem val4_zero : (FloatOps.ofBits FTy.f32 0x00000000#32 : Ideal .f32) = 0 := Ideal.ofBits_zero_f32

/-- THE PAYLOAD AT AN ENTRY: the outer rectifier of the second layer over the rectified first layer. -/
theorem val4_pay (x0 : Vec Ideal S2000x256 .bf16) (x1 : Vec Ideal S2000x256 .f32) (wa wb : Vec Ideal S256x256 .f32)
    (ba : Vec Ideal S1x256 .f32) (wc : Vec Ideal S256x256 .f32) (bc : Vec Ideal S1x256 .f32) (p : Fin 2000) (q : Fin 256) :
    k4_pay1 x0 x1 wa wb ba wc bc (ix2 p q)
      = max ((∑ k : Fin 256, max (((∑ j : Fin 256, x0 (ix2 p j) * wa (ix2 j k)) + (∑ j : Fin 256, x1 (ix2 p j) * wb (ix2 j k)))
            + ba (ix2 0 k)) 0 * wc (ix2 k q)) + bc (ix2 0 q)) 0 := by
  unfold k4_pay1
  simp only [shapeCast_self, truncf_apply, maximumf_apply, addf_apply, broadcast_apply, val4_mm, val4_row, val4_zero]

/-- Entry (p, q) of the output block after the body, as a function of the seven input blocks. -/
theorem out4_7_apply (x0 : Vec Ideal S2000x256 .bf16) (x1 : Vec Ideal S2000x256 .f32) (wa wb : Vec Ideal S256x256 .f32)
    (ba : Vec Ideal S1x256 .f32) (wc : Vec Ideal S256x256 .f32) (bc : Vec Ideal S1x256 .f32) (p : Fin 2000) (q : Fin 256) :
    out4_7 x0 x1 wa wb ba wc bc (ix2 p q)
      = max ((∑ k : Fin 256, max (((∑ j : Fin 256, x0 (ix2 p j) * wa (ix2 j k)) + (∑ j : Fin 256, x1 (ix2 p j) * wb (ix2 j k)))
            + ba (ix2 0 k)) 0 * wc (ix2 k q)) + bc (ix2 0 q)) 0 := by
  unfold out4_7
  rw [View.canon_unit_zero hz4]
  simp only [View.ld_unit_zero (S := S2000x256) hz4, View.ld_unit_zero (S := S256x256) hz4, View.ld_unit_zero (S := S1x256) hz4]
  exact val4_pay x0 x1 wa wb ba wc bc p q

/-! ## Where the blocks sit -/

variable (V : (c : Dev nD) → (b : Ref sig .tc) → Buf (Elt Ideal) ((c : Thread nD τ).loc b))

/-- The printed index maps, decided over the grid: the row blocks of windows 0, 1 and 7 are block `t` at point `t`,
    the weight matrices and the bias rows are block 0 at every point. -/
theorem idx4_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row `p` of the row block at point `t`, as a row of the array. -/
def blk4_row (t : Fin cfg4.N) (p : Fin 2000) : Fin 20000 :=
  ⟨t.val * 2000 + p.val, by have ht : t.val < 10 := t.isLt; have hp := p.isLt; omega⟩

/-- Window 0's block at point `t` is rows `2000·t … 2000·t + 1999` of the node states. -/
theorem blk4_0 (c : Dev nD) (t : Fin cfg4.N) (p : Fin 2000) (j : Fin 256) :
    iblk4 V c 0 t (ix2 p j) = V c (Pipeline.arrRef spec4 0) (ix2 (blk4_row t p) j) := by
  obtain ⟨e0, e1, -⟩ := idx4_facts t
  show V c (Pipeline.arrRef spec4 0) (((cfg4.win 0).blk t).view.emb (ix2 p j)) = _
  refine congrArg (V c (Pipeline.arrRef spec4 0)) (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 256 + 1 * j.val = j.val; rw [e1]; omega

/-- Window 1's block at point `t` is the same rows of the aggregated messages. -/
theorem blk4_1 (c : Dev nD) (t : Fin cfg4.N) (p : Fin 2000) (j : Fin 256) :
    iblk4 V c 1 t (ix2 p j) = V c (Pipeline.arrRef spec4 1) (ix2 (blk4_row t p) j) := by
  obtain ⟨-, -, e0, e1, -⟩ := idx4_facts t
  show V c (Pipeline.arrRef spec4 1) (((cfg4.win 1).blk t).view.emb (ix2 p j)) = _
  refine congrArg (V c (Pipeline.arrRef spec4 1)) (funext fun a => Fin.ext ?_)
  match a with
  | ⟨0, _⟩ => show win4_1.index t (0 : Fin 2) * 2000 + 1 * p.val = t.val * 2000 + p.val; rw [e0]; omega
  | ⟨1, _⟩ => show win4_1.index t (1 : Fin 2) * 256 + 1 * j.val = j.val; rw [e1]; omega

/-- Windows 2, 3 and 5 hold their whole weight matrix at every point. -/
theorem blk4_2 (c : Dev nD) (t : Fin cfg4.N) (j k : Fin 256) :
    iblk4 V c 2 t (ix2 j k) = V c (Pipeline.arrRef spec4 2) (ix2 j k) := by
  obtain ⟨-, -, -, -, e0, e1, -⟩ := idx4_facts t
  show V c (Pipeline.arrRef spec4 2) (((cfg4.win 2).blk t).view.emb (ix2 j k)) = _
  refine congrArg (V c (Pipeline.arrRef spec4 2)) (funext fun a => Fin.ext ?_)
  match a with
  | ⟨0, _⟩ => show win4_2.index t (0 : Fin 2) * 256 + 1 * j.val = j.val; rw [e0]; omega
  | ⟨1, _⟩ => show win4_2.index t (1 : Fin 2) * 256 + 1 * k.val = k.val; rw [e1]; omega

theorem blk4_3 (c : Dev nD) (t : Fin cfg4.N) (j k : Fin 256) :
    iblk4 V c 3 t (ix2 j k) = V c (Pipeline.arrRef spec4 3) (ix2 j k) := by
  obtain ⟨-, -, -, -, -, -, e0, e1, -⟩ := idx4_facts t
  show V c (Pipeline.arrRef spec4 3) (((cfg4.win 3).blk t).view.emb (ix2 j k)) = _
  refine congrArg (V c (Pipeline.arrRef spec4 3)) (funext fun a => Fin.ext ?_)
  match a with
  | ⟨0, _⟩ => show win4_3.index t (0 : Fin 2) * 256 + 1 * j.val = j.val; rw [e0]; omega
  | ⟨1, _⟩ => show win4_3.index t (1 : Fin 2) * 256 + 1 * k.val = k.val; rw [e1]; omega

theorem blk4_5 (c : Dev nD) (t : Fin cfg4.N) (j k : Fin 256) :
    iblk4 V c 5 t (ix2 j k) = V c (Pipeline.arrRef spec4 5) (ix2 j k) := by
  obtain ⟨-, -, -, -, -, -, -, -, -, -, e0, e1, -⟩ := idx4_facts t
  show V c (Pipeline.arrRef spec4 5) (((cfg4.win 5).blk t).view.emb (ix2 j k)) = _
  refine congrArg (V c (Pipeline.arrRef spec4 5)) (funext fun a => Fin.ext ?_)
  match a with
  | ⟨0, _⟩ => show win4_5.index t (0 : Fin 2) * 256 + 1 * j.val = j.val; rw [e0]; omega
  | ⟨1, _⟩ => show win4_5.index t (1 : Fin 2) * 256 + 1 * k.val = k.val; rw [e1]; omega

/-- Windows 4 and 6 hold their whole bias row at every point. -/
theorem blk4_4 (c : Dev nD) (t : Fin cfg4.N) (k : Fin 256) :
    iblk4 V c 4 t (ix2 0 k) = V c (Pipeline.arrRef spec4 4) (ix2 0 k) := by
  obtain ⟨-, -, -, -, -, -, -, -, e0, e1, -⟩ := idx4_facts t
  show V c (Pipeline.arrRef spec4 4) (((cfg4.win 4).blk t).view.emb (ix2 0 k)) = _
  refine congrArg (V c (Pipeline.arrRef spec4 4)) (funext fun a => Fin.ext ?_)
  match a with
  | ⟨0, _⟩ => show win4_4.index t (0 : Fin 2) * 1 + 1 * 0 = 0; rw [e0]
  | ⟨1, _⟩ => show win4_4.index t (1 : Fin 2) * 256 + 1 * k.val = k.val; rw [e1]; omega

theorem blk4_6 (c : Dev nD) (t : Fin cfg4.N) (k : Fin 256) :
    iblk4 V c 6 t (ix2 0 k) = V c (Pipeline.arrRef spec4 6) (ix2 0 k) := by
  obtain ⟨-, -, -, -, -, -, -, -, -, -, -, -, e0, e1, -⟩ := idx4_facts t
  show V c (Pipeline.arrRef spec4 6) (((cfg4.win 6).blk t).view.emb (ix2 0 k)) = _
  refine congrArg (V c (Pipeline.arrRef spec4 6)) (funext fun a => Fin.ext ?_)
  match a with
  | ⟨0, _⟩ => show win4_6.index t (0 : Fin 2) * 1 + 1 * 0 = 0; rw [e0]
  | ⟨1, _⟩ => show win4_6.index t (1 : Fin 2) * 256 + 1 * k.val = k.val; rw [e1]; omega

/-- Entry (p, q) of the output's block at point `t` is entry (2000·t + p, q) of the array. -/
theorem blk4_7 (t : Fin cfg4.N) (p : Fin 2000) (q : Fin 256) :
    ((cfg4.win 7).blk t).view.emb (ix2 p q) = ix2 (blk4_row t p) q := by
  obtain ⟨-, -, -, -, -, -, -, -, -, -, -, -, -, -, e0, e1⟩ := idx4_facts t
  refine funext fun a => Fin.ext ?_
  match a with
  | ⟨0, _⟩ => show win4_7.index t (0 : Fin 2) * 2000 + 1 * p.val = t.val * 2000 + p.val; rw [e0]; omega
  | ⟨1, _⟩ => show win4_7.index t (1 : Fin 2) * 256 + 1 * q.val = q.val; rw [e1]; omega

/-! ## What a point writes back, the cover, the array -/

/-- A function of the array's index read through the output's block at point `t`, at entry (p, q). -/
theorem blk4_read (G : S20000x256.Idx → EReal) (t : Fin cfg4.N) (p : Fin 2000) (q : Fin 256) :
    ((cfg4.win 7).blk t).view.read (Elt Ideal) G (ix2 p q) = G (ix2 (blk4_row t p) q) := by
  show G (((cfg4.win 7).blk t).view.emb (ix2 p q)) = _
  rw [blk4_7 t p q]

/-- WHAT POINT `t` WRITES BACK is block `t` of the specification's function of the seven arrays as the call finds them. -/
theorem flushed4_eq (c : Dev nD) (t : Fin cfg4.N) :
    (dat4 (F := Ideal) V c).flushed 7 t = ((cfg4.win 7).blk t).view.read (Elt Ideal)
      (Cert.Spec.updK (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) := by
  show (cfg4.win 7).cut (grid4.coords t) ((dat4 V c).after 7 t) = _
  rw [after4_7]
  funext j
  obtain ⟨p, q, rfl⟩ : ∃ (p : Fin 2000) (q : Fin 256), j = ix2 p q := ⟨j 0, j 1, eq_ix2 j⟩
  refine (out4_7_apply _ _ _ _ _ _ _ p q).trans ?_
  refine Eq.trans ?_ (blk4_read _ t p q).symm
  simp only [blk4_0 V c t, blk4_1 V c t, blk4_2 V c t, blk4_3 V c t, blk4_4 V c t, blk4_5 V c t, blk4_6 V c t]
  rfl

/-- An index of the array is in point `t`'s block iff each coordinate is in the block's range on its axis. -/
theorem cov4_mem (t : Fin cfg4.N) (i : S20000x256.Idx) :
    i ∈ ((cfg4.win 7).blk t).view.set ↔ ∀ a : Fin 2, win4_7.index t a * S2000x256.size a ≤ (i a).val ∧ (i a).val < win4_7.index t a * S2000x256.size a + S2000x256.size a := by
  show i ∈ ((View.whole (Pipeline.arrRef spec4 7)).slice (win4_7.rect t)).set ↔ _
  rw [View.set_slice_whole, Rect.mem_set_unit]
  exact Iff.rfl

/-- THE COVER: row `r` of the array is in the block of point `r / 2000`, which writes back like every point. -/
theorem cov4 (i : S20000x256.Idx) : ∃ t : Fin cfg4.N, (cfg4.win 7).flush t = true ∧ i ∈ ((cfg4.win 7).blk t).view.set := by
  have hi0 : (i 0).val < 20000 := (i 0).isLt
  have hi1 : (i 1).val < 256 := (i 1).isLt
  obtain ⟨t, ht⟩ : ∃ t : Fin cfg4.N, t.val = (i 0).val / 2000 :=
    ⟨⟨(i 0).val / 2000, by show (i 0).val / 2000 < 10; omega⟩, rfl⟩
  obtain ⟨-, -, -, -, -, -, -, -, -, -, -, -, -, -, e0, e1⟩ := idx4_facts t
  refine ⟨t, flush4_7 t, ?_⟩
  rw [cov4_mem]
  intro a
  match a with
  | ⟨0, _⟩ => show win4_7.index t (0 : Fin 2) * 2000 ≤ (i 0).val ∧ (i 0).val < win4_7.index t (0 : Fin 2) * 2000 + 2000; omega
  | ⟨1, _⟩ => show win4_7.index t (1 : Fin 2) * 256 ≤ (i 1).val ∧ (i 1).val < win4_7.index t (1 : Fin 2) * 256 + 256; omega

/-- THE ARRAY after the call: the specification's function of the seven input arrays as the call finds them. -/
theorem final4 (c : Dev nD) : (dat4 (F := Ideal) V c).arrAt 7 cfg4.N = Cert.Spec.updK (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) :=
  (dat4 (F := Ideal) V c).arrAt_eq_of_cover 7 _ (fun t _ => flushed4_eq V c t) cov4

end Cert.Proof.KI

end
-- ==== Proof.KI.Val5.lean ====
/-
  The second pallas_call's output array, over the extended reals: after the call it holds the weighted message of
  every edge — the message network's first layer (three matrix products and two outer products, added in the body's
  order, plus the bias), the rectifier, the second layer and its bias, the row scaled by its edge weight — as one
  function of the fourteen input arrays as the call finds them. First the body's stored payload at an entry, then each
  window's block as rows of its array, then the eighty write-backs, which tile the output array.
-/
import proofs.«421803_j42709154791890_2_alg».proof.Proof.KI.R5
import proofs.«421803_j42709154791890_2_alg».proof.Proof.Spec
import proofs.«421803_j42709154791890_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The value of the call's output array, over the extended reals -/

section Value

open Idealize.ShloMosaic.ValueIdx
open scoped BigOperators

variable (V : (c : Dev nD) → (b : Ref sig .tc) → Buf (Elt Ideal) ((c : Thread nD τ).loc b))

/-! ## The body's arithmetic at an entry -/

/-- The zero offsets, as the constant function. -/
theorem hz5 : (![0, 0] : Fin 2 → Nat) = fun _ => 0 := funext fun a => by fin_cases a <;> rfl

/-- A [2000, 1] column spread over 256 columns reads, at `(p, k)`, the column's entry `p`. -/
theorem val5_col (v : FVec Ideal S2000x1 .f32) (p : Fin 2000) (k : Fin 256) :
    broadcastTo S2000x256 v broadcasts_S2000x1_S2000x256 (ix2 p k) = v (ix2 p (0 : Fin 1)) := by
  refine broadcastTo_apply v _ (ix2 p k) (ix2 p (0 : Fin 1)) fun ax => ?_
  match ax with
  | ⟨0, _⟩ => rfl
  | ⟨1, _⟩ => rfl

/-- A [1, 256] row spread over 2000 rows reads, at `(p, k)`, the row's entry `k`. -/
theorem val5_row (v : FVec Ideal S1x256 .f32) (p : Fin 2000) (k : Fin 256) :
    broadcastTo S2000x256 v broadcasts_S1x256_S2000x256 (ix2 p k) = v (ix2 (0 : Fin 1) k) :=
  broadcastTo_1b_ab_apply v _ p k

/-- Entry `(p, k)` of a [2000, 256] by [256, 256] product into the zero accumulator. -/
theorem val5_sq {φ₁ φ₂ : FTy} (a : FVec Ideal S2000x256 φ₁) (b : FVec Ideal S256x256 φ₂) (p : Fin 2000) (k : Fin 256) :
    matmul dot_S2000x256_S256x256_S2000x256_1_0_0_1_n_n none a b (constant (F := Ideal) S2000x256 .f32 0x00000000#32) (ix2 p k)
      = ∑ q : Fin 256, a (ix2 p q) * b (ix2 q k) :=
  Cert.PlainMatmul.apply (M := 2000) (K := 256) (N := 256) none a b p k

/-- Entry `(p, k)` of a [2000, 64] by [64, 256] product into the zero accumulator. -/
theorem val5_wx {φ₁ φ₂ : FTy} (a : FVec Ideal S2000x64 φ₁) (b : FVec Ideal S64x256 φ₂) (p : Fin 2000) (k : Fin 256) :
    matmul dot_S2000x64_S64x256_S2000x256_1_0_0_1_n_n none a b (constant (F := Ideal) S2000x256 .f32 0x00000000#32) (ix2 p k)
      = ∑ q : Fin 64, a (ix2 p q) * b (ix2 q k) :=
  Cert.PlainMatmul.apply (M := 2000) (K := 64) (N := 256) none a b p k

/-- The first layer before its bias, at edge row `p` and hidden unit `k`: the three products and the two outer
    products, added in the body's order. -/
theorem val5_pre (x0 x1 : S2000x256.Idx → EReal) (x4 : S2000x64.Idx → EReal) (x6 x7 : S256x256.Idx → EReal)
    (x8 : S64x256.Idx → EReal) (x2 x3 : S2000x1.Idx → EReal) (x9 x10 : S1x256.Idx → EReal) (p : Fin 2000) (k : Fin 256) :
    (k5_pay2 (F := Ideal) x0 x1 x4 x6 x7 x8 x2 x3 x9 x10 (ix2 p k) : EReal)
      = (∑ q : Fin 256, x0 (ix2 p q) * x6 (ix2 q k)) + (∑ q : Fin 256, x1 (ix2 p q) * x7 (ix2 q k))
        + (∑ q : Fin 64, x4 (ix2 p q) * x8 (ix2 q k))
        + x2 (ix2 p (0 : Fin 1)) * x9 (ix2 (0 : Fin 1) k) + x3 (ix2 p (0 : Fin 1)) * x10 (ix2 (0 : Fin 1) k) := by
  unfold k5_pay2
  simp only [shapeCast_self, addf_apply, mulf_apply, val5_col, val5_row]
  rw [val5_sq, val5_sq, val5_wx]
  rfl

/-- The stored payload at `(p, q)`: bias and rectifier on the first layer, the second layer's product and bias, the
    row's edge weight. -/
theorem val5 (y : S2000x256.Idx → EReal) (x11 : S1x256.Idx → EReal) (x12 : S256x256.Idx → EReal)
    (x13 : S1x256.Idx → EReal) (x5 : S2000x1.Idx → EReal) (p : Fin 2000) (q : Fin 256) :
    (k5_pay1 (F := Ideal) y x11 x12 x13 x5 (ix2 p q) : EReal)
      = ((∑ k : Fin 256, max (y (ix2 p k) + x11 (ix2 (0 : Fin 1) k)) 0 * x12 (ix2 k q)) + x13 (ix2 (0 : Fin 1) q))
        * x5 (ix2 p (0 : Fin 1)) := by
  unfold k5_pay1
  simp only [shapeCast_self, addf_apply, mulf_apply, val5_col, val5_row]
  rw [val5_sq]
  simp only [truncf_apply, maximumf_apply, addf_apply, val5_row, broadcast_apply]
  rw [show (Scalar.ofBits (F := Ideal) .f32 0x00000000#32 : EReal) = 0 from Ideal.ofBits_zero_f32]

/-! ## The blocks as rows of the arrays -/

/-- The printed index maps, decided over the grid: a per-edge window's block index is the point on the row axis and zero
    on the column axis; a weight's or a bias's is zero on both. -/
theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = t.val ∧ win5_1.index t (1 : Fin 2) = 0 :=
  (by decide +kernel : ∀ t : Fin grid5.N, _)
theorem idx5_2 : ∀ t : Fin cfg5.N, win5_2.index t (0 : Fin 2) = t.val ∧ win5_2.index t (1 : Fin 2) = 0 :=
  (by decide +kernel : ∀ t : Fin grid5.N, _)
theorem idx5_3 : ∀ t : Fin cfg5.N, win5_3.index t (0 : Fin 2) = t.val ∧ win5_3.index t (1 : Fin 2) = 0 :=
  (by decide +kernel : ∀ t : Fin grid5.N, _)
theorem idx5_4 : ∀ t : Fin cfg5.N, win5_4.index t (0 : Fin 2) = t.val ∧ win5_4.index t (1 : Fin 2) = 0 :=
  (by decide +kernel : ∀ t : Fin grid5.N, _)
theorem idx5_5 : ∀ t : Fin cfg5.N, win5_5.index t (0 : Fin 2) = t.val ∧ win5_5.index t (1 : Fin 2) = 0 :=
  (by decide +kernel : ∀ t : Fin grid5.N, _)
theorem idx5_14 : ∀ t : Fin cfg5.N, win5_14.index t (0 : Fin 2) = t.val ∧ win5_14.index t (1 : Fin 2) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 2) = 0 ∧ win5_7.index t (1 : Fin 2) = 0 :=
  (by decide +kernel : ∀ t : Fin grid5.N, _)
theorem idx5_8 : ∀ t : Fin cfg5.N, win5_8.index t (0 : Fin 2) = 0 ∧ win5_8.index t (1 : Fin 2) = 0 :=
  (by decide +kernel : ∀ t : Fin grid5.N, _)
theorem idx5_9 : ∀ t : Fin cfg5.N, win5_9.index t (0 : Fin 2) = 0 ∧ win5_9.index t (1 : Fin 2) = 0 :=
  (by decide +kernel : ∀ t : Fin grid5.N, _)
theorem idx5_10 : ∀ t : Fin cfg5.N, win5_10.index t (0 : Fin 2) = 0 ∧ win5_10.index t (1 : Fin 2) = 0 :=
  (by decide +kernel : ∀ t : Fin grid5.N, _)
theorem idx5_11 : ∀ t : Fin cfg5.N, win5_11.index t (0 : Fin 2) = 0 ∧ win5_11.index t (1 : Fin 2) = 0 :=
  (by decide +kernel : ∀ t : Fin grid5.N, _)
theorem idx5_12 : ∀ t : Fin cfg5.N, win5_12.index t (0 : Fin 2) = 0 ∧ win5_12.index t (1 : Fin 2) = 0 :=
  (by decide +kernel : ∀ t : Fin grid5.N, _)
theorem idx5_13 : ∀ t : Fin cfg5.N, win5_13.index t (0 : Fin 2) = 0 ∧ win5_13.index t (1 : Fin 2) = 0 :=
  (by decide +kernel : ∀ t : Fin grid5.N, _)

/-- Entry `(p, q)` of a per-edge window's block at point `t` is entry `(2000·t + p, q)` of its array. -/
theorem blk5_0 (c : Dev nD) (t : Fin cfg5.N) (p : Fin 2000) (q : Fin 256) (h : t.val * 2000 + p.val < 160000) :
    (iblk5 V c 0 t (ix2 p q) : EReal) = V c (Pipeline.arrRef spec5 0) (ix2 (⟨t.val * 2000 + p.val, h⟩ : Fin 160000) q) := by
  show V c (Pipeline.arrRef spec5 0) (((cfg5.win 0).blk t).view.emb (ix2 p q)) = _
  refine congrArg _ (funext fun a => Fin.ext ?_)
  obtain ⟨ea, eb⟩ := idx5_0 t
  match a with
  | ⟨0, _⟩ => show win5_0.index t (0 : Fin 2) * 2000 + 1 * p.val = t.val * 2000 + p.val; rw [ea]; omega
  | ⟨1, _⟩ => show win5_0.index t (1 : Fin 2) * 256 + 1 * q.val = q.val; rw [eb]; omega
theorem blk5_1 (c : Dev nD) (t : Fin cfg5.N) (p : Fin 2000) (q : Fin 256) (h : t.val * 2000 + p.val < 160000) :
    (iblk5 V c 1 t (ix2 p q) : EReal) = V c (Pipeline.arrRef spec5 1) (ix2 (⟨t.val * 2000 + p.val, h⟩ : Fin 160000) q) := by
  show V c (Pipeline.arrRef spec5 1) (((cfg5.win 1).blk t).view.emb (ix2 p q)) = _
  refine congrArg _ (funext fun a => Fin.ext ?_)
  obtain ⟨ea, eb⟩ := idx5_1 t
  match a with
  | ⟨0, _⟩ => show win5_1.index t (0 : Fin 2) * 2000 + 1 * p.val = t.val * 2000 + p.val; rw [ea]; omega
  | ⟨1, _⟩ => show win5_1.index t (1 : Fin 2) * 256 + 1 * q.val = q.val; rw [eb]; omega
theorem blk5_2 (c : Dev nD) (t : Fin cfg5.N) (p : Fin 2000) (q : Fin 1) (h : t.val * 2000 + p.val < 160000) :
    (iblk5 V c 2 t (ix2 p q) : EReal) = V c (Pipeline.arrRef spec5 2) (ix2 (⟨t.val * 2000 + p.val, h⟩ : Fin 160000) q) := by
  show V c (Pipeline.arrRef spec5 2) (((cfg5.win 2).blk t).view.emb (ix2 p q)) = _
  refine congrArg _ (funext fun a => Fin.ext ?_)
  obtain ⟨ea, eb⟩ := idx5_2 t
  match a with
  | ⟨0, _⟩ => show win5_2.index t (0 : Fin 2) * 2000 + 1 * p.val = t.val * 2000 + p.val; rw [ea]; omega
  | ⟨1, _⟩ => show win5_2.index t (1 : Fin 2) * 1 + 1 * q.val = q.val; rw [eb]; omega
theorem blk5_3 (c : Dev nD) (t : Fin cfg5.N) (p : Fin 2000) (q : Fin 1) (h : t.val * 2000 + p.val < 160000) :
    (iblk5 V c 3 t (ix2 p q) : EReal) = V c (Pipeline.arrRef spec5 3) (ix2 (⟨t.val * 2000 + p.val, h⟩ : Fin 160000) q) := by
  show V c (Pipeline.arrRef spec5 3) (((cfg5.win 3).blk t).view.emb (ix2 p q)) = _
  refine congrArg _ (funext fun a => Fin.ext ?_)
  obtain ⟨ea, eb⟩ := idx5_3 t
  match a with
  | ⟨0, _⟩ => show win5_3.index t (0 : Fin 2) * 2000 + 1 * p.val = t.val * 2000 + p.val; rw [ea]; omega
  | ⟨1, _⟩ => show win5_3.index t (1 : Fin 2) * 1 + 1 * q.val = q.val; rw [eb]; omega
theorem blk5_4 (c : Dev nD) (t : Fin cfg5.N) (p : Fin 2000) (q : Fin 64) (h : t.val * 2000 + p.val < 160000) :
    (iblk5 V c 4 t (ix2 p q) : EReal) = V c (Pipeline.arrRef spec5 4) (ix2 (⟨t.val * 2000 + p.val, h⟩ : Fin 160000) q) := by
  show V c (Pipeline.arrRef spec5 4) (((cfg5.win 4).blk t).view.emb (ix2 p q)) = _
  refine congrArg _ (funext fun a => Fin.ext ?_)
  obtain ⟨ea, eb⟩ := idx5_4 t
  match a with
  | ⟨0, _⟩ => show win5_4.index t (0 : Fin 2) * 2000 + 1 * p.val = t.val * 2000 + p.val; rw [ea]; omega
  | ⟨1, _⟩ => show win5_4.index t (1 : Fin 2) * 64 + 1 * q.val = q.val; rw [eb]; omega
theorem blk5_5 (c : Dev nD) (t : Fin cfg5.N) (p : Fin 2000) (q : Fin 1) (h : t.val * 2000 + p.val < 160000) :
    (iblk5 V c 5 t (ix2 p q) : EReal) = V c (Pipeline.arrRef spec5 5) (ix2 (⟨t.val * 2000 + p.val, h⟩ : Fin 160000) q) := by
  show V c (Pipeline.arrRef spec5 5) (((cfg5.win 5).blk t).view.emb (ix2 p q)) = _
  refine congrArg _ (funext fun a => Fin.ext ?_)
  obtain ⟨ea, eb⟩ := idx5_5 t
  match a with
  | ⟨0, _⟩ => show win5_5.index t (0 : Fin 2) * 2000 + 1 * p.val = t.val * 2000 + p.val; rw [ea]; omega
  | ⟨1, _⟩ => show win5_5.index t (1 : Fin 2) * 1 + 1 * q.val = q.val; rw [eb]; omega

/-- A weight's or a bias's block, at every point, is its whole array. -/
theorem blk5_6 (c : Dev nD) (t : Fin cfg5.N) (p : Fin 256) (q : Fin 256) :
    (iblk5 V c 6 t (ix2 p q) : EReal) = V c (Pipeline.arrRef spec5 6) (ix2 p q) := by
  show V c (Pipeline.arrRef spec5 6) (((cfg5.win 6).blk t).view.emb (ix2 p q)) = _
  refine congrArg _ (funext fun a => Fin.ext ?_)
  obtain ⟨ea, eb⟩ := idx5_6 t
  match a with
  | ⟨0, _⟩ => show win5_6.index t (0 : Fin 2) * 256 + 1 * p.val = p.val; rw [ea]; omega
  | ⟨1, _⟩ => show win5_6.index t (1 : Fin 2) * 256 + 1 * q.val = q.val; rw [eb]; omega
theorem blk5_7 (c : Dev nD) (t : Fin cfg5.N) (p : Fin 256) (q : Fin 256) :
    (iblk5 V c 7 t (ix2 p q) : EReal) = V c (Pipeline.arrRef spec5 7) (ix2 p q) := by
  show V c (Pipeline.arrRef spec5 7) (((cfg5.win 7).blk t).view.emb (ix2 p q)) = _
  refine congrArg _ (funext fun a => Fin.ext ?_)
  obtain ⟨ea, eb⟩ := idx5_7 t
  match a with
  | ⟨0, _⟩ => show win5_7.index t (0 : Fin 2) * 256 + 1 * p.val = p.val; rw [ea]; omega
  | ⟨1, _⟩ => show win5_7.index t (1 : Fin 2) * 256 + 1 * q.val = q.val; rw [eb]; omega
theorem blk5_8 (c : Dev nD) (t : Fin cfg5.N) (p : Fin 64) (q : Fin 256) :
    (iblk5 V c 8 t (ix2 p q) : EReal) = V c (Pipeline.arrRef spec5 8) (ix2 p q) := by
  show V c (Pipeline.arrRef spec5 8) (((cfg5.win 8).blk t).view.emb (ix2 p q)) = _
  refine congrArg _ (funext fun a => Fin.ext ?_)
  obtain ⟨ea, eb⟩ := idx5_8 t
  match a with
  | ⟨0, _⟩ => show win5_8.index t (0 : Fin 2) * 64 + 1 * p.val = p.val; rw [ea]; omega
  | ⟨1, _⟩ => show win5_8.index t (1 : Fin 2) * 256 + 1 * q.val = q.val; rw [eb]; omega
theorem blk5_9 (c : Dev nD) (t : Fin cfg5.N) (p : Fin 1) (q : Fin 256) :
    (iblk5 V c 9 t (ix2 p q) : EReal) = V c (Pipeline.arrRef spec5 9) (ix2 p q) := by
  show V c (Pipeline.arrRef spec5 9) (((cfg5.win 9).blk t).view.emb (ix2 p q)) = _
  refine congrArg _ (funext fun a => Fin.ext ?_)
  obtain ⟨ea, eb⟩ := idx5_9 t
  match a with
  | ⟨0, _⟩ => show win5_9.index t (0 : Fin 2) * 1 + 1 * p.val = p.val; rw [ea]; omega
  | ⟨1, _⟩ => show win5_9.index t (1 : Fin 2) * 256 + 1 * q.val = q.val; rw [eb]; omega
theorem blk5_10 (c : Dev nD) (t : Fin cfg5.N) (p : Fin 1) (q : Fin 256) :
    (iblk5 V c 10 t (ix2 p q) : EReal) = V c (Pipeline.arrRef spec5 10) (ix2 p q) := by
  show V c (Pipeline.arrRef spec5 10) (((cfg5.win 10).blk t).view.emb (ix2 p q)) = _
  refine congrArg _ (funext fun a => Fin.ext ?_)
  obtain ⟨ea, eb⟩ := idx5_10 t
  match a with
  | ⟨0, _⟩ => show win5_10.index t (0 : Fin 2) * 1 + 1 * p.val = p.val; rw [ea]; omega
  | ⟨1, _⟩ => show win5_10.index t (1 : Fin 2) * 256 + 1 * q.val = q.val; rw [eb]; omega
theorem blk5_11 (c : Dev nD) (t : Fin cfg5.N) (p : Fin 1) (q : Fin 256) :
    (iblk5 V c 11 t (ix2 p q) : EReal) = V c (Pipeline.arrRef spec5 11) (ix2 p q) := by
  show V c (Pipeline.arrRef spec5 11) (((cfg5.win 11).blk t).view.emb (ix2 p q)) = _
  refine congrArg _ (funext fun a => Fin.ext ?_)
  obtain ⟨ea, eb⟩ := idx5_11 t
  match a with
  | ⟨0, _⟩ => show win5_11.index t (0 : Fin 2) * 1 + 1 * p.val = p.val; rw [ea]; omega
  | ⟨1, _⟩ => show win5_11.index t (1 : Fin 2) * 256 + 1 * q.val = q.val; rw [eb]; omega
theorem blk5_12 (c : Dev nD) (t : Fin cfg5.N) (p : Fin 256) (q : Fin 256) :
    (iblk5 V c 12 t (ix2 p q) : EReal) = V c (Pipeline.arrRef spec5 12) (ix2 p q) := by
  show V c (Pipeline.arrRef spec5 12) (((cfg5.win 12).blk t).view.emb (ix2 p q)) = _
  refine congrArg _ (funext fun a => Fin.ext ?_)
  obtain ⟨ea, eb⟩ := idx5_12 t
  match a with
  | ⟨0, _⟩ => show win5_12.index t (0 : Fin 2) * 256 + 1 * p.val = p.val; rw [ea]; omega
  | ⟨1, _⟩ => show win5_12.index t (1 : Fin 2) * 256 + 1 * q.val = q.val; rw [eb]; omega
theorem blk5_13 (c : Dev nD) (t : Fin cfg5.N) (p : Fin 1) (q : Fin 256) :
    (iblk5 V c 13 t (ix2 p q) : EReal) = V c (Pipeline.arrRef spec5 13) (ix2 p q) := by
  show V c (Pipeline.arrRef spec5 13) (((cfg5.win 13).blk t).view.emb (ix2 p q)) = _
  refine congrArg _ (funext fun a => Fin.ext ?_)
  obtain ⟨ea, eb⟩ := idx5_13 t
  match a with
  | ⟨0, _⟩ => show win5_13.index t (0 : Fin 2) * 1 + 1 * p.val = p.val; rw [ea]; omega
  | ⟨1, _⟩ => show win5_13.index t (1 : Fin 2) * 256 + 1 * q.val = q.val; rw [eb]; omega

/-- Entry `(p, q)` of the output's block at point `t` sits at `(2000·t + p, q)` of the output array. -/
theorem blk5_14 (t : Fin cfg5.N) (p : Fin 2000) (q : Fin 256) (h : t.val * 2000 + p.val < 160000) :
    ((cfg5.win 14).blk t).view.emb (ix2 p q) = ix2 (⟨t.val * 2000 + p.val, h⟩ : Fin 160000) q := by
  refine funext fun a => Fin.ext ?_
  obtain ⟨ea, eb⟩ := idx5_14 t
  match a with
  | ⟨0, _⟩ => show win5_14.index t (0 : Fin 2) * 2000 + 1 * p.val = t.val * 2000 + p.val; rw [ea]; omega
  | ⟨1, _⟩ => show win5_14.index t (1 : Fin 2) * 256 + 1 * q.val = q.val; rw [eb]; omega

/-! ## From the blocks to the array -/

/-- The weighted messages of all edges, of the fourteen arrays as the call finds them. -/
abbrev G5 (c : Dev nD) : Cert.Spec.A2 160000 256 :=
  Cert.Spec.msgK (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13))

/-- What point `t` writes back is block `t` of the weighted messages. -/
theorem flushed5_eq (c : Dev nD) (t : Fin cfg5.N) :
    (dat5 (F := Ideal) V c).flushed 14 t = ((cfg5.win 14).blk t).view.read (Elt Ideal) (G5 V c) := by
  show (cfg5.win 14).cut (grid5.coords t) ((dat5 (F := Ideal) V c).after 14 t) = _
  rw [after5_14]
  unfold out5_14
  rw [View.canon_unit_zero hz5]
  simp only [View.ld_unit_zero (S := S2000x256) hz5, View.ld_unit_zero (S := S2000x1) hz5, View.ld_unit_zero (S := S2000x64) hz5,
    View.ld_unit_zero (S := S256x256) hz5, View.ld_unit_zero (S := S64x256) hz5, View.ld_unit_zero (S := S1x256) hz5]
  funext j
  obtain ⟨p, q, rfl⟩ : ∃ (p : Fin 2000) (q : Fin 256), j = ix2 p q := ⟨j 0, j 1, eq_ix2 j⟩
  have ht : t.val < 80 := lt_of_lt_of_eq t.isLt (by decide : grid5.N = 80)
  have hrow : t.val * 2000 + p.val < 160000 := by have := p.isLt; omega
  show (k5_pay1 (F := Ideal) (k5_pay2 (F := Ideal) (iblk5 V c 0 t) (iblk5 V c 1 t) (iblk5 V c 4 t) (iblk5 V c 6 t) (iblk5 V c 7 t) (iblk5 V c 8 t)
      (iblk5 V c 2 t) (iblk5 V c 3 t) (iblk5 V c 9 t) (iblk5 V c 10 t)) (iblk5 V c 11 t) (iblk5 V c 12 t) (iblk5 V c 13 t) (iblk5 V c 5 t) (ix2 p q) : EReal)
    = G5 V c (((cfg5.win 14).blk t).view.emb (ix2 p q))
  rw [blk5_14 t p q hrow, val5]
  simp only [val5_pre]
  simp only [blk5_0 V c t _ _ hrow, blk5_1 V c t _ _ hrow, blk5_2 V c t _ _ hrow, blk5_3 V c t _ _ hrow, blk5_4 V c t _ _ hrow,
    blk5_5 V c t _ _ hrow, blk5_6 V c t, blk5_7 V c t, blk5_8 V c t, blk5_9 V c t, blk5_10 V c t, blk5_11 V c t, blk5_12 V c t, blk5_13 V c t]
  rfl

/-- Every entry of the output array is in the block of the point its row falls in. -/
theorem cov5 (i : S160000x256.Idx) :
    ∃ t : Fin cfg5.N, (cfg5.win 14).flush t = true ∧ i ∈ ((cfg5.win 14).blk t).view.set := by
  have hia : (i 0).val < 160000 := (i 0).isLt
  have hib : (i 1).val < 256 := (i 1).isLt
  have hN : cfg5.N = 80 := (by decide : grid5.N = 80)
  have hlt : (i 0).val / 2000 < cfg5.N := by rw [hN]; omega
  refine ⟨⟨(i 0).val / 2000, hlt⟩, flush5_14 _, ?_⟩
  obtain ⟨ea, eb⟩ := idx5_14 ⟨(i 0).val / 2000, hlt⟩
  show i ∈ ((View.whole (Pipeline.arrRef spec5 14)).slice (win5_14.rect ⟨(i 0).val / 2000, hlt⟩)).set
  rw [View.set_slice_whole, Rect.mem_set_unit]
  intro a
  match a with
  | ⟨0, _⟩ =>
    show win5_14.index ⟨(i 0).val / 2000, hlt⟩ (0 : Fin 2) * 2000 ≤ (i 0).val
      ∧ (i 0).val < win5_14.index ⟨(i 0).val / 2000, hlt⟩ (0 : Fin 2) * 2000 + 2000
    rw [ea]; show (i 0).val / 2000 * 2000 ≤ (i 0).val ∧ (i 0).val < (i 0).val / 2000 * 2000 + 2000; omega
  | ⟨1, _⟩ =>
    show win5_14.index ⟨(i 0).val / 2000, hlt⟩ (1 : Fin 2) * 256 ≤ (i 1).val
      ∧ (i 1).val < win5_14.index ⟨(i 0).val / 2000, hlt⟩ (1 : Fin 2) * 256 + 256
    rw [eb]; omega

/-- The output array after the call: the weighted messages of all edges. -/
theorem final5 (c : Dev nD) : (dat5 (F := Ideal) V c).arrAt 14 cfg5.N
    = Cert.Spec.msgK (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13)) :=
  (dat5 (F := Ideal) V c).arrAt_eq_of_cover 14 (G5 V c) (fun t _ => flushed5_eq V c t) cov5

end Value

end Cert.Proof.KI

end
-- ==== Proof.KI.Val6.lean ====
/-
  The per-node combine pallas_call at the ideal values: what the output array holds after the call, entry by entry.

  Entry (p, q) of the block the body stores is the outer rectifier of the second dense layer at (p, q), whose hidden row is
  the rectifier of the first layer: the node rows against the first weight matrix plus the message rows against the second,
  plus the first bias row. Each input block sits where the output's block says (the row blocks move with the grid point,
  the weight matrices and bias rows are whole), the ten row blocks tile the array, and so the array ends holding the
  specification's function of the seven input arrays.
-/
import proofs.«421803_j42709154791890_2_alg».proof.Proof.KI.R6
import proofs.«421803_j42709154791890_2_alg».proof.Proof.Spec
import proofs.«421803_j42709154791890_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The payload at an entry -/

/-- The two spellings of the zero offsets. -/
theorem hz6 : (![0, 0] : Fin 2 → Nat) = fun _ => 0 := funext fun a => by
  match a with
  | ⟨0, _⟩ => rfl
  | ⟨1, _⟩ => rfl

/-- Entry (p, q) of a product of a block of 2000 rows with a 256 by 256 matrix into the zero accumulator. -/
theorem val6_mm {φ₁ φ₂ : FTy} (a : FVec Ideal S2000x256 φ₁) (b : FVec Ideal S256x256 φ₂) (p : Fin 2000) (q : Fin 256) :
    matmul dot_S2000x256_S256x256_S2000x256_1_0_0_1_n_n none a b (constant (F := Ideal) S2000x256 .f32 0x00000000#32) (ix2 p q)
      = ∑ k : Fin 256, a (ix2 p k) * b (ix2 k q) :=
  Cert.PlainMatmul.apply none a b p q

/-- A bias row spread over the 2000 rows of a block reads, at (p, q), the row's entry q. -/
theorem val6_row (x : FVec Ideal S1x256 .f32) (p : Fin 2000) (q : Fin 256) :
    broadcastTo S2000x256 x broadcasts_S1x256_S2000x256 (ix2 p q) = x (ix2 0 q) :=
  broadcastTo_1b_ab_apply x broadcasts_S1x256_S2000x256 p q

/-- The zero the rectifier compares with is the extended real 0. -/
theorem val6_zero : (FloatOps.ofBits FTy.f32 0x00000000#32 : Ideal .f32) = 0 := Ideal.ofBits_zero_f32

/-- THE PAYLOAD AT AN ENTRY: the outer rectifier of the second layer over the rectified first layer. -/
theorem val6_pay (x0 : Vec Ideal S2000x256 .bf16) (x1 : Vec Ideal S2000x256 .f32) (wa wb : Vec Ideal S256x256 .f32)
    (ba : Vec Ideal S1x256 .f32) (wc : Vec Ideal S256x256 .f32) (bc : Vec Ideal S1x256 .f32) (p : Fin 2000) (q : Fin 256) :
    k6_pay1 x0 x1 wa wb ba wc bc (ix2 p q)
      = max ((∑ k : Fin 256, max (((∑ j : Fin 256, x0 (ix2 p j) * wa (ix2 j k)) + (∑ j : Fin 256, x1 (ix2 p j) * wb (ix2 j k)))
            + ba (ix2 0 k)) 0 * wc (ix2 k q)) + bc (ix2 0 q)) 0 := by
  unfold k6_pay1
  simp only [shapeCast_self, truncf_apply, maximumf_apply, addf_apply, broadcast_apply, val6_mm, val6_row, val6_zero]

/-- Entry (p, q) of the output block after the body, as a function of the seven input blocks. -/
theorem out6_7_apply (x0 : Vec Ideal S2000x256 .bf16) (x1 : Vec Ideal S2000x256 .f32) (wa wb : Vec Ideal S256x256 .f32)
    (ba : Vec Ideal S1x256 .f32) (wc : Vec Ideal S256x256 .f32) (bc : Vec Ideal S1x256 .f32) (p : Fin 2000) (q : Fin 256) :
    out6_7 x0 x1 wa wb ba wc bc (ix2 p q)
      = max ((∑ k : Fin 256, max (((∑ j : Fin 256, x0 (ix2 p j) * wa (ix2 j k)) + (∑ j : Fin 256, x1 (ix2 p j) * wb (ix2 j k)))
            + ba (ix2 0 k)) 0 * wc (ix2 k q)) + bc (ix2 0 q)) 0 := by
  unfold out6_7
  rw [View.canon_unit_zero hz6]
  simp only [View.ld_unit_zero (S := S2000x256) hz6, View.ld_unit_zero (S := S256x256) hz6, View.ld_unit_zero (S := S1x256) hz6]
  exact val6_pay x0 x1 wa wb ba wc bc p q

/-! ## Where the blocks sit -/

variable (V : (c : Dev nD) → (b : Ref sig .tc) → Buf (Elt Ideal) ((c : Thread nD τ).loc b))

/-- The printed index maps, decided over the grid: the row blocks of windows 0, 1 and 7 are block `t` at point `t`,
    the weight matrices and the bias rows are block 0 at every point. -/
theorem idx6_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Row `p` of the row block at point `t`, as a row of the array. -/
def blk6_row (t : Fin cfg6.N) (p : Fin 2000) : Fin 20000 :=
  ⟨t.val * 2000 + p.val, by have ht : t.val < 10 := t.isLt; have hp := p.isLt; omega⟩

/-- Window 0's block at point `t` is rows `2000·t … 2000·t + 1999` of the node states. -/
theorem blk6_0 (c : Dev nD) (t : Fin cfg6.N) (p : Fin 2000) (j : Fin 256) :
    iblk6 V c 0 t (ix2 p j) = V c (Pipeline.arrRef spec6 0) (ix2 (blk6_row t p) j) := by
  obtain ⟨e0, e1, -⟩ := idx6_facts t
  show V c (Pipeline.arrRef spec6 0) (((cfg6.win 0).blk t).view.emb (ix2 p j)) = _
  refine congrArg (V c (Pipeline.arrRef spec6 0)) (funext fun a => Fin.ext ?_)
  match a with
  | ⟨0, _⟩ => show win6_0.index t (0 : Fin 2) * 2000 + 1 * p.val = t.val * 2000 + p.val; rw [e0]; omega
  | ⟨1, _⟩ => show win6_0.index t (1 : Fin 2) * 256 + 1 * j.val = j.val; rw [e1]; omega

/-- Window 1's block at point `t` is the same rows of the aggregated messages. -/
theorem blk6_1 (c : Dev nD) (t : Fin cfg6.N) (p : Fin 2000) (j : Fin 256) :
    iblk6 V c 1 t (ix2 p j) = V c (Pipeline.arrRef spec6 1) (ix2 (blk6_row t p) j) := by
  obtain ⟨-, -, e0, e1, -⟩ := idx6_facts t
  show V c (Pipeline.arrRef spec6 1) (((cfg6.win 1).blk t).view.emb (ix2 p j)) = _
  refine congrArg (V c (Pipeline.arrRef spec6 1)) (funext fun a => Fin.ext ?_)
  match a with
  | ⟨0, _⟩ => show win6_1.index t (0 : Fin 2) * 2000 + 1 * p.val = t.val * 2000 + p.val; rw [e0]; omega
  | ⟨1, _⟩ => show win6_1.index t (1 : Fin 2) * 256 + 1 * j.val = j.val; rw [e1]; omega

/-- Windows 2, 3 and 5 hold their whole weight matrix at every point. -/
theorem blk6_2 (c : Dev nD) (t : Fin cfg6.N) (j k : Fin 256) :
    iblk6 V c 2 t (ix2 j k) = V c (Pipeline.arrRef spec6 2) (ix2 j k) := by
  obtain ⟨-, -, -, -, e0, e1, -⟩ := idx6_facts t
  show V c (Pipeline.arrRef spec6 2) (((cfg6.win 2).blk t).view.emb (ix2 j k)) = _
  refine congrArg (V c (Pipeline.arrRef spec6 2)) (funext fun a => Fin.ext ?_)
  match a with
  | ⟨0, _⟩ => show win6_2.index t (0 : Fin 2) * 256 + 1 * j.val = j.val; rw [e0]; omega
  | ⟨1, _⟩ => show win6_2.index t (1 : Fin 2) * 256 + 1 * k.val = k.val; rw [e1]; omega

theorem blk6_3 (c : Dev nD) (t : Fin cfg6.N) (j k : Fin 256) :
    iblk6 V c 3 t (ix2 j k) = V c (Pipeline.arrRef spec6 3) (ix2 j k) := by
  obtain ⟨-, -, -, -, -, -, e0, e1, -⟩ := idx6_facts t
  show V c (Pipeline.arrRef spec6 3) (((cfg6.win 3).blk t).view.emb (ix2 j k)) = _
  refine congrArg (V c (Pipeline.arrRef spec6 3)) (funext fun a => Fin.ext ?_)
  match a with
  | ⟨0, _⟩ => show win6_3.index t (0 : Fin 2) * 256 + 1 * j.val = j.val; rw [e0]; omega
  | ⟨1, _⟩ => show win6_3.index t (1 : Fin 2) * 256 + 1 * k.val = k.val; rw [e1]; omega

theorem blk6_5 (c : Dev nD) (t : Fin cfg6.N) (j k : Fin 256) :
    iblk6 V c 5 t (ix2 j k) = V c (Pipeline.arrRef spec6 5) (ix2 j k) := by
  obtain ⟨-, -, -, -, -, -, -, -, -, -, e0, e1, -⟩ := idx6_facts t
  show V c (Pipeline.arrRef spec6 5) (((cfg6.win 5).blk t).view.emb (ix2 j k)) = _
  refine congrArg (V c (Pipeline.arrRef spec6 5)) (funext fun a => Fin.ext ?_)
  match a with
  | ⟨0, _⟩ => show win6_5.index t (0 : Fin 2) * 256 + 1 * j.val = j.val; rw [e0]; omega
  | ⟨1, _⟩ => show win6_5.index t (1 : Fin 2) * 256 + 1 * k.val = k.val; rw [e1]; omega

/-- Windows 4 and 6 hold their whole bias row at every point. -/
theorem blk6_4 (c : Dev nD) (t : Fin cfg6.N) (k : Fin 256) :
    iblk6 V c 4 t (ix2 0 k) = V c (Pipeline.arrRef spec6 4) (ix2 0 k) := by
  obtain ⟨-, -, -, -, -, -, -, -, e0, e1, -⟩ := idx6_facts t
  show V c (Pipeline.arrRef spec6 4) (((cfg6.win 4).blk t).view.emb (ix2 0 k)) = _
  refine congrArg (V c (Pipeline.arrRef spec6 4)) (funext fun a => Fin.ext ?_)
  match a with
  | ⟨0, _⟩ => show win6_4.index t (0 : Fin 2) * 1 + 1 * 0 = 0; rw [e0]
  | ⟨1, _⟩ => show win6_4.index t (1 : Fin 2) * 256 + 1 * k.val = k.val; rw [e1]; omega

theorem blk6_6 (c : Dev nD) (t : Fin cfg6.N) (k : Fin 256) :
    iblk6 V c 6 t (ix2 0 k) = V c (Pipeline.arrRef spec6 6) (ix2 0 k) := by
  obtain ⟨-, -, -, -, -, -, -, -, -, -, -, -, e0, e1, -⟩ := idx6_facts t
  show V c (Pipeline.arrRef spec6 6) (((cfg6.win 6).blk t).view.emb (ix2 0 k)) = _
  refine congrArg (V c (Pipeline.arrRef spec6 6)) (funext fun a => Fin.ext ?_)
  match a with
  | ⟨0, _⟩ => show win6_6.index t (0 : Fin 2) * 1 + 1 * 0 = 0; rw [e0]
  | ⟨1, _⟩ => show win6_6.index t (1 : Fin 2) * 256 + 1 * k.val = k.val; rw [e1]; omega

/-- Entry (p, q) of the output's block at point `t` is entry (2000·t + p, q) of the array. -/
theorem blk6_7 (t : Fin cfg6.N) (p : Fin 2000) (q : Fin 256) :
    ((cfg6.win 7).blk t).view.emb (ix2 p q) = ix2 (blk6_row t p) q := by
  obtain ⟨-, -, -, -, -, -, -, -, -, -, -, -, -, -, e0, e1⟩ := idx6_facts t
  refine funext fun a => Fin.ext ?_
  match a with
  | ⟨0, _⟩ => show win6_7.index t (0 : Fin 2) * 2000 + 1 * p.val = t.val * 2000 + p.val; rw [e0]; omega
  | ⟨1, _⟩ => show win6_7.index t (1 : Fin 2) * 256 + 1 * q.val = q.val; rw [e1]; omega

/-! ## What a point writes back, the cover, the array -/

/-- A function of the array's index read through the output's block at point `t`, at entry (p, q). -/
theorem blk6_read (G : S20000x256.Idx → EReal) (t : Fin cfg6.N) (p : Fin 2000) (q : Fin 256) :
    ((cfg6.win 7).blk t).view.read (Elt Ideal) G (ix2 p q) = G (ix2 (blk6_row t p) q) := by
  show G (((cfg6.win 7).blk t).view.emb (ix2 p q)) = _
  rw [blk6_7 t p q]

/-- WHAT POINT `t` WRITES BACK is block `t` of the specification's function of the seven arrays as the call finds them. -/
theorem flushed6_eq (c : Dev nD) (t : Fin cfg6.N) :
    (dat6 (F := Ideal) V c).flushed 7 t = ((cfg6.win 7).blk t).view.read (Elt Ideal)
      (Cert.Spec.updK (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  show (cfg6.win 7).cut (grid6.coords t) ((dat6 V c).after 7 t) = _
  rw [after6_7]
  funext j
  obtain ⟨p, q, rfl⟩ : ∃ (p : Fin 2000) (q : Fin 256), j = ix2 p q := ⟨j 0, j 1, eq_ix2 j⟩
  refine (out6_7_apply _ _ _ _ _ _ _ p q).trans ?_
  refine Eq.trans ?_ (blk6_read _ t p q).symm
  simp only [blk6_0 V c t, blk6_1 V c t, blk6_2 V c t, blk6_3 V c t, blk6_4 V c t, blk6_5 V c t, blk6_6 V c t]
  rfl

/-- An index of the array is in point `t`'s block iff each coordinate is in the block's range on its axis. -/
theorem cov6_mem (t : Fin cfg6.N) (i : S20000x256.Idx) :
    i ∈ ((cfg6.win 7).blk t).view.set ↔ ∀ a : Fin 2, win6_7.index t a * S2000x256.size a ≤ (i a).val ∧ (i a).val < win6_7.index t a * S2000x256.size a + S2000x256.size a := by
  show i ∈ ((View.whole (Pipeline.arrRef spec6 7)).slice (win6_7.rect t)).set ↔ _
  rw [View.set_slice_whole, Rect.mem_set_unit]
  exact Iff.rfl

/-- THE COVER: row `r` of the array is in the block of point `r / 2000`, which writes back like every point. -/
theorem cov6 (i : S20000x256.Idx) : ∃ t : Fin cfg6.N, (cfg6.win 7).flush t = true ∧ i ∈ ((cfg6.win 7).blk t).view.set := by
  have hi0 : (i 0).val < 20000 := (i 0).isLt
  have hi1 : (i 1).val < 256 := (i 1).isLt
  obtain ⟨t, ht⟩ : ∃ t : Fin cfg6.N, t.val = (i 0).val / 2000 :=
    ⟨⟨(i 0).val / 2000, by show (i 0).val / 2000 < 10; omega⟩, rfl⟩
  obtain ⟨-, -, -, -, -, -, -, -, -, -, -, -, -, -, e0, e1⟩ := idx6_facts t
  refine ⟨t, flush6_7 t, ?_⟩
  rw [cov6_mem]
  intro a
  match a with
  | ⟨0, _⟩ => show win6_7.index t (0 : Fin 2) * 2000 ≤ (i 0).val ∧ (i 0).val < win6_7.index t (0 : Fin 2) * 2000 + 2000; omega
  | ⟨1, _⟩ => show win6_7.index t (1 : Fin 2) * 256 ≤ (i 1).val ∧ (i 1).val < win6_7.index t (1 : Fin 2) * 256 + 256; omega

/-- THE ARRAY after the call: the specification's function of the seven input arrays as the call finds them. -/
theorem final6 (c : Dev nD) : (dat6 (F := Ideal) V c).arrAt 7 cfg6.N = Cert.Spec.updK (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 (F := Ideal) V c).arrAt_eq_of_cover 7 _ (fun t _ => flushed6_eq V c t) cov6

end Cert.Proof.KI

end
-- ==== Proof.KI.Val7.lean ====
/-
  The value of the last pallas_call at the extended reals: after its ten points the output array holds, at entry
  (g, q), the sum of column q of the node states over the nodes whose graph id is g.

  One accumulation step, read at an entry, adds to the accumulator the rows of the point's block whose id matches:
  the one-hot table's entry (p, g) is one where row p's id is g and zero elsewhere, and the product contracts the
  table with the block over the rows. By induction on the point the accumulator after point n is the sum of the
  blocks 0 … n; the ten blocks of 2000 rows are the 20000 rows; and the one write-back, at the last point, puts the
  accumulator into the whole output array.
-/
import proofs.«421803_j42709154791890_2_alg».proof.Proof.KI.R7
import proofs.«421803_j42709154791890_2_alg».proof.Proof.Spec
import Idealize.ShloMosaic.Lib.Pipeline.Value
import Idealize.ShloMosaic.Lib.ValueIdx
import Idealize.ShloMosaic.PureOps.Ideal.Laws
import Mathlib.Logic.Equiv.Fin.Basic
import Mathlib.Data.Fintype.BigOperators
import Mathlib.Algebra.BigOperators.Fin

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The value of the readout at the extended reals

From here on the float instance is the extended reals. -/

section Value

open Idealize.ShloMosaic.ValueIdx
open scoped BigOperators

/-! ### Words: a graph id against a row of the one-hot table -/

/-- A 32-bit word is the word of a small natural number exactly when, read signed, it is that number. -/
theorem word_eq_iff7 (w : BitVec 32) (g : ℕ) (hg : g < 128) : w = BitVec.ofNat 32 g ↔ w.toInt = (g : ℤ) := by
  have hw : w.toNat < 2 ^ 32 := w.isLt
  rw [BitVec.toInt_eq_toNat_cond]
  constructor
  · rintro rfl
    rw [BitVec.toNat_ofNat, Nat.mod_eq_of_lt (by omega), if_pos (by omega)]
  · intro h
    apply BitVec.eq_of_toNat_eq
    rw [BitVec.toNat_ofNat, Nat.mod_eq_of_lt (by omega)]
    split at h <;> omega

/-- The one-hot factor times an entry: the comparison bit of an id against `g`, widened and converted, is one where the
    id is `g` and zero elsewhere, so the product keeps the entry or drops it. -/
theorem onehot_mul7 (w : BitVec 32) (g : ℕ) (hg : g < 128) (x : EReal) :
    (FloatOps.sitofp (F := Ideal) .f32 ((IntOp.cmpi .eq w (BitVec.ofNat 32 g)).setWidth 32) : EReal) * x
      = if w.toInt = (g : ℤ) then x else 0 := by
  show (((((IntOp.cmpi .eq w (BitVec.ofNat 32 g)).setWidth 32).toInt : ℝ) : EReal)) * x = _
  have e1 : ((1#1 : BitVec 1).setWidth 32).toInt = 1 := by decide
  have e0 : ((0#1 : BitVec 1).setWidth 32).toInt = 0 := by decide
  by_cases h : w = BitVec.ofNat 32 g
  · have e : IntOp.cmpi .eq w (BitVec.ofNat 32 g) = 1#1 := by
      show BitVec.ofBool (w == BitVec.ofNat 32 g) = 1#1
      rw [beq_iff_eq.mpr h]; rfl
    rw [if_pos ((word_eq_iff7 w g hg).mp h), e, e1, Int.cast_one, EReal.coe_one, one_mul]
  · have e : IntOp.cmpi .eq w (BitVec.ofNat 32 g) = 0#1 := by
      show BitVec.ofBool (w == BitVec.ofNat 32 g) = 0#1
      rw [beq_eq_false_iff_ne.mpr h]; rfl
    rw [if_neg (fun hh => h ((word_eq_iff7 w g hg).mpr hh)), e, e0, Int.cast_zero, EReal.coe_zero, zero_mul]

/-! ### The one-hot product at an entry -/

/-- The product's left operand is read at the contraction coordinate and the output's row, -/
theorem lhs7_0 (j : S128x256.Idx) (k : dot_S2000x128_S2000x256_S128x256_0_0_1_1_n_n.contr.Idx) :
    (dot_S2000x128_S2000x256_S128x256_0_0_1_1_n_n.lhsIdx j k 0).val = (k ⟨0, Nat.one_pos⟩).val :=
  dot_S2000x128_S2000x256_S128x256_0_0_1_1_n_n.lhsIdx_val_of_single rfl j k
theorem lhs7_1 (j : S128x256.Idx) (k : dot_S2000x128_S2000x256_S128x256_0_0_1_1_n_n.contr.Idx) :
    (dot_S2000x128_S2000x256_S128x256_0_0_1_1_n_n.lhsIdx j k 1).val = (j 0).val := by
  unfold DotDims.lhsIdx
  rw [dif_neg (show ¬(1 : Fin S2000x128.rank) ∈ dot_S2000x128_S2000x256_S128x256_0_0_1_1_n_n.lhsBatch from List.not_mem_nil),
    dif_pos (show (1 : Fin S2000x128.rank) ∈ dot_S2000x128_S2000x256_S128x256_0_0_1_1_n_n.lhsNonContracting from List.mem_singleton.mpr rfl)]
  rfl
/-- its right operand at the contraction coordinate and the output's column. -/
theorem rhs7_0 (j : S128x256.Idx) (k : dot_S2000x128_S2000x256_S128x256_0_0_1_1_n_n.contr.Idx) :
    (dot_S2000x128_S2000x256_S128x256_0_0_1_1_n_n.rhsIdx j k 0).val = (k ⟨0, Nat.one_pos⟩).val :=
  dot_S2000x128_S2000x256_S128x256_0_0_1_1_n_n.rhsIdx_val_of_single rfl j k
theorem rhs7_1 (j : S128x256.Idx) (k : dot_S2000x128_S2000x256_S128x256_0_0_1_1_n_n.contr.Idx) :
    (dot_S2000x128_S2000x256_S128x256_0_0_1_1_n_n.rhsIdx j k 1).val = (j 1).val := by
  unfold DotDims.rhsIdx
  rw [dif_neg (show ¬(1 : Fin S2000x256.rank) ∈ dot_S2000x128_S2000x256_S128x256_0_0_1_1_n_n.rhsBatch from List.not_mem_nil),
    dif_pos (show (1 : Fin S2000x256.rank) ∈ dot_S2000x128_S2000x256_S128x256_0_0_1_1_n_n.rhsNonContracting from List.mem_singleton.mpr rfl)]
  rfl

/-- Entry `(g, q)` of the product of a [2000, 128] table with a [2000, 256] block, contracted over the rows, into the
    zero accumulator: the sum over the rows `p` of table entry `(p, g)` times block entry `(p, q)`. -/
theorem dot7_apply (prec : Option ContractPrecision) (a : FVec Ideal S2000x128 .bf16) (b : FVec Ideal S2000x256 .bf16)
    (g : Fin 128) (q : Fin 256) :
    FloatOps.matmul dot_S2000x128_S2000x256_S128x256_0_0_1_1_n_n prec a b (constant S128x256 .f32 0x00000000#32) (ix2 g q)
      = ∑ p : Fin 2000, a (ix2 p g) * b (ix2 p q) := by
  rw [Ideal.matmul_constant_zero_apply,
    ← Equiv.sum_comp (contrEquiv1 dot_S2000x128_S2000x256_S128x256_0_0_1_1_n_n 2000 rfl rfl).symm]
  refine Finset.sum_congr rfl fun p _ => ?_
  have hk := contrEquiv1_symm_val dot_S2000x128_S2000x256_S128x256_0_0_1_1_n_n 2000 rfl rfl p
  have el : dot_S2000x128_S2000x256_S128x256_0_0_1_1_n_n.lhsIdx (ix2 g q)
      ((contrEquiv1 dot_S2000x128_S2000x256_S128x256_0_0_1_1_n_n 2000 rfl rfl).symm p) = ix2 p g :=
    funext fun x => Fin.ext (by
      match x with
      | ⟨0, _⟩ => exact (lhs7_0 _ _).trans hk
      | ⟨1, _⟩ => exact lhs7_1 _ _)
  have er : dot_S2000x128_S2000x256_S128x256_0_0_1_1_n_n.rhsIdx (ix2 g q)
      ((contrEquiv1 dot_S2000x128_S2000x256_S128x256_0_0_1_1_n_n 2000 rfl rfl).symm p) = ix2 p q :=
    funext fun x => Fin.ext (by
      match x with
      | ⟨0, _⟩ => exact (rhs7_0 _ _).trans hk
      | ⟨1, _⟩ => exact rhs7_1 _ _)
  rw [el, er]

/-! ### The payloads at an entry -/

/-- The column of ids broadcast along the table's columns reads, at `(p, g)`, row `p`'s id; -/
theorem bcast7_apply (gi : IVec S2000x1 32) (h : S2000x1.Broadcasts S2000x128) (p : Fin 2000) (g : Fin 128) :
    broadcastTo S2000x128 gi h (ix2 p g) = gi (ix2 p 0) :=
  broadcastTo_apply gi h (ix2 p g) (ix2 p 0) (fun a => by match a with | ⟨0, _⟩ => rfl | ⟨1, _⟩ => rfl)

/-- the column counter reads the word of `g`. -/
theorem iota7_apply (h : S2000x128.Iotas .tc 32 [1]) (p : Fin 2000) (g : Fin 128) :
    iota .tc S2000x128 32 [1] h (ix2 p g) = BitVec.ofNat 32 g.val := by
  show BitVec.ofNat 32 (0 * 128 + g.val) = _
  rw [Nat.zero_mul, Nat.zero_add]

/-- The reset value is zero everywhere. -/
theorem pay1_apply7 (j : S128x256.Idx) : k7_pay1 (F := Ideal) j = 0 := by
  unfold k7_pay1
  simp only [shapeCast_self]
  show Ideal.ofBits .f32 0x00000000#32 = 0
  exact Ideal.ofBits_zero_f32

/-- ONE STEP AT AN ENTRY: the accumulator's entry `(g, q)` plus column `q` of every row of the block whose graph id is `g`. -/
theorem pay2_apply7 (x : Vec Ideal S2000x256 .bf16) (gi : Vec Ideal S2000x1 .i32) (a : Vec Ideal S128x256 .f32)
    (g : Fin 128) (q : Fin 256) :
    k7_pay2 x gi a (ix2 g q)
      = a (ix2 g q) + ∑ p : Fin 2000, if (gi (ix2 p 0)).toInt = (g.val : ℤ) then x (ix2 p q) else 0 := by
  unfold k7_pay2
  simp only [shapeCast_self]
  rw [addf_apply]
  congr 1
  refine (dot7_apply none _ x g q).trans ?_
  refine Finset.sum_congr rfl fun p _ => ?_
  rw [truncf_apply, sitofp_apply, extui_apply]
  show (FloatOps.sitofp (F := Ideal) .f32 ((IntOp.cmpi .eq (broadcastTo S2000x128 gi _ (ix2 p g)) (iota .tc S2000x128 32 [1] _ (ix2 p g))).setWidth 32) : EReal) * x (ix2 p q) = _
  rw [bcast7_apply, iota7_apply]
  exact onehot_mul7 _ _ g.isLt _

end Value

section Final

open Idealize.ShloMosaic.ValueIdx
open scoped BigOperators

variable (V : (c : Dev nD) → (b : Ref sig .tc) → Buf (Elt Ideal) ((c : Thread nD τ).loc b))

/-! ### The arrays and blocks at their literal shapes -/

/-- The node states and the graph ids as the call finds them, and their blocks at a point. -/
abbrev H7 (c : Dev nD) : Vec Ideal S20000x256 .bf16 := V c (Pipeline.arrRef spec7 0)
abbrev NG7 (c : Dev nD) : Vec Ideal S20000x1 .i32 := V c (Pipeline.arrRef spec7 1)
abbrev hblk7 (c : Dev nD) (t : Fin cfg7.N) : Vec Ideal S2000x256 .bf16 := iblk7 V c 0 t
abbrev gblk7 (c : Dev nD) (t : Fin cfg7.N) : Vec Ideal S2000x1 .i32 := iblk7 V c 1 t

/-! ### Rows of a block among all rows -/

/-- Row `p` of block `t` is row `2000·t + p` of the node arrays. -/
def row7 (t : ℕ) (ht : t < 10) (p : Fin 2000) : Fin 20000 := ⟨2000 * t + p.val, by have := p.isLt; omega⟩

/-- A sum over all rows is the sum over the ten blocks of the sums over their rows. -/
theorem sum_rows7 {M : Type*} [AddCommMonoid M] (f : Fin 20000 → M) :
    ∑ r : Fin 20000, f r = ∑ t : Fin 10, ∑ p : Fin 2000, f (row7 t.val t.isLt p) := by
  rw [← Equiv.sum_comp (finProdFinEquiv : Fin 10 × Fin 2000 ≃ Fin (10 * 2000)) f, Fintype.sum_prod_type]
  refine Finset.sum_congr rfl fun t _ => Finset.sum_congr rfl fun p _ => congrArg f (Fin.ext ?_)
  show p.val + 2000 * t.val = 2000 * t.val + p.val
  omega

theorem hN7 (t : Fin cfg7.N) : t.val < 10 := lt_of_lt_of_eq t.isLt (show cfg7.N = 10 from N_7)

/-! ### The blocks read off the arrays -/

/-- The printed index maps, decided over the grid: the two input windows move one block of rows per point, the output
    window stays on its one block. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0 :=
  (by decide +kernel : ∀ t : Fin grid7.N, _)

/-- Entry `(p, q)` of the block of node rows at point `t` is entry `(2000·t + p, q)` of the node array; -/
theorem iblk7_0_apply (c : Dev nD) (t : Fin cfg7.N) (p : Fin 2000) (q : Fin 256) :
    hblk7 V c t (ix2 p q) = H7 V c (ix2 (row7 t.val (hN7 t) p) q) := by
  obtain ⟨e0, e1, -⟩ := idx_facts7 t
  show V c (Pipeline.arrRef spec7 0) (((cfg7.win 0).blk t).view.emb (ix2 p q)) = _
  refine congrArg (V c (Pipeline.arrRef spec7 0)) (funext fun a => Fin.ext ?_)
  match a with
  | ⟨0, _⟩ => show win7_0.index t (0 : Fin 2) * 2000 + 1 * p.val = 2000 * t.val + p.val; omega
  | ⟨1, _⟩ => show win7_0.index t (1 : Fin 2) * 256 + 1 * q.val = q.val; omega

/-- entry `(p, 0)` of the block of graph ids is entry `(2000·t + p, 0)` of the id array. -/
theorem iblk7_1_apply (c : Dev nD) (t : Fin cfg7.N) (p : Fin 2000) :
    gblk7 V c t (ix2 p 0) = NG7 V c (ix2 (row7 t.val (hN7 t) p) 0) := by
  obtain ⟨-, -, e0, e1, -⟩ := idx_facts7 t
  show V c (Pipeline.arrRef spec7 1) (((cfg7.win 1).blk t).view.emb (ix2 p 0)) = _
  refine congrArg (V c (Pipeline.arrRef spec7 1)) (funext fun a => Fin.ext ?_)
  match a with
  | ⟨0, _⟩ => show win7_1.index t (0 : Fin 2) * 2000 + 1 * p.val = 2000 * t.val + p.val; omega
  | ⟨1, _⟩ => show win7_1.index t (1 : Fin 2) * 1 + 1 * 0 = 0; omega

/-! ### The accumulator as a sum over the blocks so far -/

/-- Column `q` of the rows of block `t` whose graph id is `g`, added up. -/
def blockSum7 (H : Vec Ideal S20000x256 .bf16) (NG : Vec Ideal S20000x1 .i32) (g : Fin 128) (q : Fin 256) (t : ℕ) (ht : t < 10) : EReal :=
  ∑ p : Fin 2000, if (NG (ix2 (row7 t ht p) 0)).toInt = (g.val : ℤ) then H (ix2 (row7 t ht p) q) else 0

/-- What one step adds at point `t` is that block's sum. -/
theorem step_sum7 (c : Dev nD) (t : Fin cfg7.N) (g : Fin 128) (q : Fin 256) :
    (∑ p : Fin 2000, if (gblk7 V c t (ix2 p 0)).toInt = (g.val : ℤ) then hblk7 V c t (ix2 p q) else 0)
      = blockSum7 (H7 V c) (NG7 V c) g q t.val (hN7 t) := by
  unfold blockSum7
  refine Finset.sum_congr rfl fun p _ => ?_
  rw [iblk7_0_apply V c t p q, iblk7_1_apply V c t p]

/-- THE ACCUMULATOR AFTER POINT `n`, at entry `(g, q)`: the sums of the blocks `0 … n`. By induction on the point. -/
theorem acc7_sum (c : Dev nD) : ∀ (n : ℕ) (h : n < cfg7.N) (g : Fin 128) (q : Fin 256),
    acc7 V c n h (ix2 g q)
      = ∑ t : Fin (n + 1), blockSum7 (H7 V c) (NG7 V c) g q t.val
          (by have := t.isLt; have : cfg7.N = 10 := N_7; omega)
  | 0, h, g, q => by
    rw [acc7_zero]
    refine (pay2_apply7 (hblk7 V c ⟨0, h⟩) (gblk7 V c ⟨0, h⟩) _ g q).trans ?_
    rw [pay1_apply7, zero_add, step_sum7 V c ⟨0, h⟩ g q, Fin.sum_univ_one]
    rfl
  | n + 1, h, g, q => by
    rw [acc7_succ]
    refine (pay2_apply7 (hblk7 V c ⟨n + 1, h⟩) (gblk7 V c ⟨n + 1, h⟩) _ g q).trans ?_
    rw [acc7_sum c n (Nat.lt_of_succ_lt h) g q, step_sum7 V c ⟨n + 1, h⟩ g q]
    refine Eq.trans ?_ (Fin.sum_univ_castSucc _).symm
    rfl

/-- After the last point the accumulator is the per-graph sum of the node states. -/
theorem acc7_last (c : Dev nD) (h : 9 < cfg7.N) (g : Fin 128) (q : Fin 256) :
    acc7 V c 9 h (ix2 g q) = Cert.Spec.poolK (V c (Pipeline.arrRef spec7 0)) (V c (Pipeline.arrRef spec7 1)) (ix2 g q) := by
  rw [acc7_sum V c 9 h g q]
  exact (sum_rows7 (M := EReal) (fun n : Fin 20000 => if (NG7 V c (ix2 n 0)).toInt = (g.val : ℤ) then H7 V c (ix2 n q) else 0)).symm

/-! ### From the last point's block to the array -/

/-- An index of the output array is in point `t`'s block iff each coordinate is in the block's range on its axis. -/
theorem mem_blk7 (t : Fin cfg7.N) (i : S128x256.Idx) :
    i ∈ ((cfg7.win 2).blk t).view.set ↔ ∀ a : Fin 2, win7_2.index t a * S128x256.size a ≤ (i a).val ∧ (i a).val < win7_2.index t a * S128x256.size a + S128x256.size a := by
  show i ∈ ((View.whole main_v197).slice (win7_2.rect t)).set ↔ _
  rw [View.set_slice_whole, Rect.mem_set_unit]
  exact Iff.rfl

/-- At the last point the accumulator is the per-graph sum, at every index. -/
theorem acc7_flush (c : Dev nD) (t : Fin cfg7.N) (h9 : t.val = 9) (j : S128x256.Idx) :
    acc7 V c t.val t.isLt j = Cert.Spec.poolK (V c (Pipeline.arrRef spec7 0)) (V c (Pipeline.arrRef spec7 1)) j := by
  obtain ⟨n, hn⟩ := t
  have hn9 : n = 9 := h9
  subst hn9
  obtain ⟨g, q, rfl⟩ : ∃ (g : Fin 128) (q : Fin 256), j = ix2 g q := ⟨j 0, j 1, eq_ix2 j⟩
  exact acc7_last V c hn g q

/-- What the last point writes back is the per-graph sum, read through its block. -/
theorem flushed7_eq (c : Dev nD) (t : Fin cfg7.N) (hf : (cfg7.win 2).flush t = true) :
    (dat7 (F := Ideal) V c).flushed 2 t
      = ((cfg7.win 2).blk t).view.read (Elt Ideal) (Cert.Spec.poolK (V c (Pipeline.arrRef spec7 0)) (V c (Pipeline.arrRef spec7 1))) := by
  have h9 : t.val = 9 := by have := (flush7_2 t).mp hf; have := hN7 t; omega
  obtain ⟨-, -, -, -, e0, e1⟩ := idx_facts7 t
  have key := acc7_flush V c t h9
  generalize Cert.Spec.poolK (V c (Pipeline.arrRef spec7 0)) (V c (Pipeline.arrRef spec7 1)) = G at key ⊢
  show (cfg7.win 2).cut (grid7.coords t) ((dat7 (F := Ideal) V c).after 2 t) = _
  rw [after7_2]
  generalize acc7 V c t.val t.isLt = A at key ⊢
  funext j
  show A j = G (((cfg7.win 2).blk t).view.emb j)
  have hemb : ((cfg7.win 2).blk t).view.emb j = j := by
    funext a; apply Fin.ext
    match a with
    | ⟨0, _⟩ => show win7_2.index t (0 : Fin 2) * 128 + 1 * (j 0).val = (j 0).val; omega
    | ⟨1, _⟩ => show win7_2.index t (1 : Fin 2) * 256 + 1 * (j 1).val = (j 1).val; omega
  rw [hemb]
  exact key j

/-- THE ARRAY after the call: the per-graph sum of the node states, as the call finds the node states and the graph ids. -/
theorem final7 (c : Dev nD) :
    (dat7 (F := Ideal) V c).arrAt 2 cfg7.N = Cert.Spec.poolK (V c (Pipeline.arrRef spec7 0)) (V c (Pipeline.arrRef spec7 1)) :=
  (dat7 (F := Ideal) V c).arrAt_eq_of_cover 2 _ (fun t hf => flushed7_eq V c t hf) (fun i => by
    have h9 : 9 < cfg7.N := by rw [show cfg7.N = 10 from N_7]; omega
    refine ⟨⟨9, h9⟩, (flush7_2 _).mpr rfl, ?_⟩
    obtain ⟨-, -, -, -, e0, e1⟩ := idx_facts7 ⟨9, h9⟩
    rw [mem_blk7]
    intro a
    match a with
    | ⟨0, _⟩ =>
      show win7_2.index ⟨9, h9⟩ (0 : Fin 2) * 128 ≤ (i 0).val ∧ (i 0).val < win7_2.index ⟨9, h9⟩ (0 : Fin 2) * 128 + 128
      have := (i 0).isLt; have : (i 0).val < 128 := this; omega
    | ⟨1, _⟩ =>
      show win7_2.index ⟨9, h9⟩ (1 : Fin 2) * 256 ≤ (i 1).val ∧ (i 1).val < win7_2.index ⟨9, h9⟩ (1 : Fin 2) * 256 + 256
      have := (i 1).isLt; have : (i 1).val < 256 := this; omega)

end Final

end Cert.Proof.KI

end
-- ==== Proof.KI.KVal.lean ====
/-
  The value the tiled program ends with: each pallas_call's output array is its specification's function of what it is
  handed, and what it is handed is read off the chain; composed, the last output is the network term of the arguments.
-/
import proofs.«421803_j42709154791890_2_alg».proof.Proof.KI.KVBase
import proofs.«421803_j42709154791890_2_alg».proof.Proof.KI.KSm0
import proofs.«421803_j42709154791890_2_alg».proof.Proof.KI.KSu0
import proofs.«421803_j42709154791890_2_alg».proof.Proof.KI.KSm1
import proofs.«421803_j42709154791890_2_alg».proof.Proof.KI.KSu1
import proofs.«421803_j42709154791890_2_alg».proof.Proof.KI.KSm2
import proofs.«421803_j42709154791890_2_alg».proof.Proof.KI.KSu2
import proofs.«421803_j42709154791890_2_alg».proof.Proof.KI.Val0
import proofs.«421803_j42709154791890_2_alg».proof.Proof.KI.Val1
import proofs.«421803_j42709154791890_2_alg».proof.Proof.KI.Val2
import proofs.«421803_j42709154791890_2_alg».proof.Proof.KI.Val3
import proofs.«421803_j42709154791890_2_alg».proof.Proof.KI.Val4
import proofs.«421803_j42709154791890_2_alg».proof.Proof.KI.Val5
import proofs.«421803_j42709154791890_2_alg».proof.Proof.KI.Val6
import proofs.«421803_j42709154791890_2_alg».proof.Proof.KI.Val7

set_option maxRecDepth 16384

noncomputable section

namespace Cert.Proof.KI

open Cert.KernelIdeal Cert.KernelIdeal.Gen
open Idealize.ShloMosaic.StableHlo (after_cons after_nil)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ)

/-- The projection. -/
theorem lin_0 (c : Dev nD) : o0 m c = Net.h0 (m ((c : Thread nD τ).loc main_arg0)) (m ((c : Thread nD τ).loc main_arg6)) (m ((c : Thread nD τ).loc main_arg7)) := by
  unfold o0; rw [final0]
  show Cert.Spec.linK (U1 m c main_arg0) (U1 m c main_arg6) (U1 m c main_v4) = _
  rw [arg0_1, arg6_1, v4_1]; rfl

/-- The weighted messages of layer 0, from the node states before it. -/
theorem msg_0 (c : Dev nD) : o1 m c = Cert.Spec.msgK (Net.rowsOf (o0 m c) (Net.wrapCol (Net.nodeIn (m ((c : Thread nD τ).loc main_arg4))))) (Net.rowsOf (o0 m c) (Net.wrapCol (Net.nodeOut (m ((c : Thread nD τ).loc main_arg4)))))
    (Net.countsOf (m ((c : Thread nD τ).loc main_arg1)) (Net.wrapCol (Net.nodeIn (m ((c : Thread nD τ).loc main_arg4))))) (Net.countsOf (m ((c : Thread nD τ).loc main_arg1)) (Net.wrapCol (Net.nodeOut (m ((c : Thread nD τ).loc main_arg4))))) (m ((c : Thread nD τ).loc main_arg2)) (shapeCast S160000x1 (m ((c : Thread nD τ).loc main_arg3)) shapeCasts_S160000_S160000x1)
    (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whin (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whout (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wedge (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsin (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsout (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b1 (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).W2 (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b2 := by
  unfold o1; rw [final1]
  show Cert.Spec.msgK (U3 m c main_v13) (U3 m c main_v20) (U3 m c main_v27) (U3 m c main_v34) (U3 m c main_arg2) (U3 m c main_v6)
    (U3 m c main_v36) (U3 m c main_v38) (U3 m c main_v44) (U3 m c main_v40) (U3 m c main_v42) (U3 m c main_v51) (U3 m c main_v48) (U3 m c main_v52) = _
  rw [hin_0, hout_0, sin_0, sout_0, arg2_3, v6_3, whin_0, whout_0, wedge_0, wsin_0, wsout_0, b1_0, w2_0, b2_0]

/-- The node states after layer 0. -/
theorem upd_0 (c : Dev nD) : o2 m c = Net.layerStep (Net.wrapCol (Net.nodeIn (m ((c : Thread nD τ).loc main_arg4)))) (Net.wrapCol (Net.nodeOut (m ((c : Thread nD τ).loc main_arg4)))) (Net.plainCol (Net.nodeOut (m ((c : Thread nD τ).loc main_arg4)))) (m ((c : Thread nD τ).loc main_arg1)) (m ((c : Thread nD τ).loc main_arg2)) (shapeCast S160000x1 (m ((c : Thread nD τ).loc main_arg3)) shapeCasts_S160000_S160000x1) (Net.layerW0 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (o0 m c) := by
  unfold o2; rw [final2]
  show Cert.Spec.updK (U5 m c main_v5) (U5 m c main_v56) (U5 m c main_v58) (U5 m c main_v60) (U5 m c main_v67) (U5 m c main_v64) (U5 m c main_v68) = _
  rw [hkeep_0, agg_0, wa_0, wb_0, c1_0, u2_0, c2_0, msg_0]
  rfl

/-- The weighted messages of layer 1, from the node states before it. -/
theorem msg_1 (c : Dev nD) : o3 m c = Cert.Spec.msgK (Net.rowsOf (o2 m c) (Net.wrapCol (Net.nodeIn (m ((c : Thread nD τ).loc main_arg4))))) (Net.rowsOf (o2 m c) (Net.wrapCol (Net.nodeOut (m ((c : Thread nD τ).loc main_arg4)))))
    (Net.countsOf (m ((c : Thread nD τ).loc main_arg1)) (Net.wrapCol (Net.nodeIn (m ((c : Thread nD τ).loc main_arg4))))) (Net.countsOf (m ((c : Thread nD τ).loc main_arg1)) (Net.wrapCol (Net.nodeOut (m ((c : Thread nD τ).loc main_arg4))))) (m ((c : Thread nD τ).loc main_arg2)) (shapeCast S160000x1 (m ((c : Thread nD τ).loc main_arg3)) shapeCasts_S160000_S160000x1)
    (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whin (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whout (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wedge (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsin (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsout (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b1 (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).W2 (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b2 := by
  unfold o3; rw [final3]
  show Cert.Spec.msgK (U7 m c main_v76) (U7 m c main_v83) (U7 m c main_v90) (U7 m c main_v97) (U7 m c main_arg2) (U7 m c main_v6)
    (U7 m c main_v99) (U7 m c main_v101) (U7 m c main_v107) (U7 m c main_v103) (U7 m c main_v105) (U7 m c main_v114) (U7 m c main_v111) (U7 m c main_v115) = _
  rw [hin_1, hout_1, sin_1, sout_1, arg2_7, v6_7, whin_1, whout_1, wedge_1, wsin_1, wsout_1, b1_1, w2_1, b2_1]

/-- The node states after layer 1. -/
theorem upd_1 (c : Dev nD) : o4 m c = Net.layerStep (Net.wrapCol (Net.nodeIn (m ((c : Thread nD τ).loc main_arg4)))) (Net.wrapCol (Net.nodeOut (m ((c : Thread nD τ).loc main_arg4)))) (Net.plainCol (Net.nodeOut (m ((c : Thread nD τ).loc main_arg4)))) (m ((c : Thread nD τ).loc main_arg1)) (m ((c : Thread nD τ).loc main_arg2)) (shapeCast S160000x1 (m ((c : Thread nD τ).loc main_arg3)) shapeCasts_S160000_S160000x1) (Net.layerW1 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (o2 m c) := by
  unfold o4; rw [final4]
  show Cert.Spec.updK (U9 m c main_v69) (U9 m c main_v119) (U9 m c main_v121) (U9 m c main_v123) (U9 m c main_v130) (U9 m c main_v127) (U9 m c main_v131) = _
  rw [hkeep_1, agg_1, wa_1, wb_1, c1_1, u2_1, c2_1, msg_1]
  rfl

/-- The weighted messages of layer 2, from the node states before it. -/
theorem msg_2 (c : Dev nD) : o5 m c = Cert.Spec.msgK (Net.rowsOf (o4 m c) (Net.wrapCol (Net.nodeIn (m ((c : Thread nD τ).loc main_arg4))))) (Net.rowsOf (o4 m c) (Net.wrapCol (Net.nodeOut (m ((c : Thread nD τ).loc main_arg4)))))
    (Net.countsOf (m ((c : Thread nD τ).loc main_arg1)) (Net.wrapCol (Net.nodeIn (m ((c : Thread nD τ).loc main_arg4))))) (Net.countsOf (m ((c : Thread nD τ).loc main_arg1)) (Net.wrapCol (Net.nodeOut (m ((c : Thread nD τ).loc main_arg4))))) (m ((c : Thread nD τ).loc main_arg2)) (shapeCast S160000x1 (m ((c : Thread nD τ).loc main_arg3)) shapeCasts_S160000_S160000x1)
    (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whin (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Whout (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).Wedge (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsin (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).wsout (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b1 (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).W2 (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))).b2 := by
  unfold o5; rw [final5]
  show Cert.Spec.msgK (U11 m c main_v139) (U11 m c main_v146) (U11 m c main_v153) (U11 m c main_v160) (U11 m c main_arg2) (U11 m c main_v6)
    (U11 m c main_v162) (U11 m c main_v164) (U11 m c main_v170) (U11 m c main_v166) (U11 m c main_v168) (U11 m c main_v177) (U11 m c main_v174) (U11 m c main_v178) = _
  rw [hin_2, hout_2, sin_2, sout_2, arg2_11, v6_11, whin_2, whout_2, wedge_2, wsin_2, wsout_2, b1_2, w2_2, b2_2]

/-- The node states after layer 2. -/
theorem upd_2 (c : Dev nD) : o6 m c = Net.layerStep (Net.wrapCol (Net.nodeIn (m ((c : Thread nD τ).loc main_arg4)))) (Net.wrapCol (Net.nodeOut (m ((c : Thread nD τ).loc main_arg4)))) (Net.plainCol (Net.nodeOut (m ((c : Thread nD τ).loc main_arg4)))) (m ((c : Thread nD τ).loc main_arg1)) (m ((c : Thread nD τ).loc main_arg2)) (shapeCast S160000x1 (m ((c : Thread nD τ).loc main_arg3)) shapeCasts_S160000_S160000x1) (Net.layerW2 (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (o4 m c) := by
  unfold o6; rw [final6]
  show Cert.Spec.updK (U13 m c main_v132) (U13 m c main_v182) (U13 m c main_v184) (U13 m c main_v186) (U13 m c main_v193) (U13 m c main_v190) (U13 m c main_v194) = _
  rw [hkeep_2, agg_2, wa_2, wb_2, c1_2, u2_2, c2_2, msg_2]
  rfl

/-! ## The readout -/

theorem ng_15 (c : Dev nD) : U15 m c main_v196 = shapeCast S20000x1 (m ((c : Thread nD τ).loc main_arg5)) shapeCasts_S20000_S20000x1 := by
  unfold U15; after_results; rw [arg5_14]
  try rfl
theorem h_15 (c : Dev nD) : U15 m c main_v195 = o6 m c := (U15_of m c main_v195 (by decide)).trans (out_14 m c)

/-- THE TILED PROGRAM'S RESULT: the last pallas_call leaves the whole network's value of the arguments as launched. -/
theorem kernel_value (c : Dev nD) : o7 m c = Net.KT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold o7; rw [final7]
  show Cert.Spec.poolK (U15 m c main_v195) (U15 m c main_v196) = _
  rw [h_15, ng_15, upd_2, upd_1, upd_0, lin_0]
  rfl

end Cert.Proof.KI

end
-- ==== Proof.RefGen.lean ====
/- The reference program's operation list with its raw run, and its stage-by-stage reading, gathered under one import. -/
import proofs.«421803_j42709154791890_2_alg».proof.Proof.RefRunP
import proofs.«421803_j42709154791890_2_alg».proof.Proof.RefReadP
-- ==== Proof.RefChunks.lean ====
/-
  The plain program's 270 operations come cut into twenty stretches — the projection with the two columns of the edge
  list; per round of message passing the four gathers, the joined edge input, the message MLP, the sum into nodes, the
  joined node input, the combine MLP; the readout — so that what a buffer holds after all of them is computed stretch by
  stretch: the fold over the whole list is the folds over the stretches in turn, and a stretch leaves alone every
  buffer it does not write.
-/
import proofs.«421803_j42709154791890_2_alg».proof.Proof.RefGen
import Idealize.ShloMosaic.Lib.Pipeline.Frame
import Idealize.ShloMosaic.Lib.StableHlo.Run

set_option maxRecDepth 8192

noncomputable section

namespace Cert.RefChunks

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The fold over the whole list is the folds over the stretches in turn. -/
theorem after_ops (W : Valuation τ sig (Elt F)) :
    after (ops (F := F)) W = after s4 (after s3f (after s3e (after s3d (after s3c (after s3b (after s3a (after s2f (after s2e (after s2d (after s2c (after s2b (after s2a (after s1f (after s1e (after s1d (after s1c (after s1b (after s1a (after s0 (W)))))))))))))))))))) := by
  rw [ops_split, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append]

/-! ## What each stretch writes -/

abbrev s0_W : List (Ref sig .tc) := [main_v0, main_v1, main_v2, main_v3, main_v4, main_v5, main_v6, main_v7]
theorem s0_writes : (s0 : List (HloOp τ sig (Elt F))).Forall fun op => op.writes ⊆ (s0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s0_keep (W : Valuation τ sig (Elt F)) (r : Ref sig .tc) (h : r ∉ s0_W) : after (s0 (F := F)) W (Proc.devRef .tc r) = W (Proc.devRef .tc r) :=
  StableHlo.after_of_writes_sub s0 W s0_writes h

abbrev s1a_W : List (Ref sig .tc) := [main_c, main_v8, main_v9, main_c_0, main_v10, main_v11, main_v12, main_v13, main_v14, main_c_1, main_v15, main_v16, main_c_2, main_v17, main_v18, main_v19, main_v20, main_v21, main_c_3, main_v22, main_v23, main_c_4, main_v24, main_v25, main_v26, main_v27, main_v28, main_c_5, main_v29, main_v30, main_c_6, main_v31, main_v32, main_v33, main_v34, main_v35]
theorem s1a_writes : (s1a : List (HloOp τ sig (Elt F))).Forall fun op => op.writes ⊆ (s1a_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s1a_keep (W : Valuation τ sig (Elt F)) (r : Ref sig .tc) (h : r ∉ s1a_W) : after (s1a (F := F)) W (Proc.devRef .tc r) = W (Proc.devRef .tc r) :=
  StableHlo.after_of_writes_sub s1a W s1a_writes h

abbrev s1b_W : List (Ref sig .tc) := [main_v36]
theorem s1b_writes : (s1b : List (HloOp τ sig (Elt F))).Forall fun op => op.writes ⊆ (s1b_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s1b_keep (W : Valuation τ sig (Elt F)) (r : Ref sig .tc) (h : r ∉ s1b_W) : after (s1b (F := F)) W (Proc.devRef .tc r) = W (Proc.devRef .tc r) :=
  StableHlo.after_of_writes_sub s1b W s1b_writes h

abbrev s1c_W : List (Ref sig .tc) := [main_v37, main_v38, main_v39, main_v40, main_v41, main_v42, main_v43, main_v44, main_call0_cst, main_call0_v0, main_v45, main_v46, main_v47, main_v48, main_v49, main_v50, main_v51, main_v52, main_v53, main_v54, main_v55, main_v56]
theorem s1c_writes : (s1c : List (HloOp τ sig (Elt F))).Forall fun op => op.writes ⊆ (s1c_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s1c_keep (W : Valuation τ sig (Elt F)) (r : Ref sig .tc) (h : r ∉ s1c_W) : after (s1c (F := F)) W (Proc.devRef .tc r) = W (Proc.devRef .tc r) :=
  StableHlo.after_of_writes_sub s1c W s1c_writes h

abbrev s1d_W : List (Ref sig .tc) := [main_cst, main_v57, main_v58, main_v59]
theorem s1d_writes : (s1d : List (HloOp τ sig (Elt F))).Forall fun op => op.writes ⊆ (s1d_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s1d_keep (W : Valuation τ sig (Elt F)) (r : Ref sig .tc) (h : r ∉ s1d_W) : after (s1d (F := F)) W (Proc.devRef .tc r) = W (Proc.devRef .tc r) :=
  StableHlo.after_of_writes_sub s1d W s1d_writes h

abbrev s1e_W : List (Ref sig .tc) := [main_v60]
theorem s1e_writes : (s1e : List (HloOp τ sig (Elt F))).Forall fun op => op.writes ⊆ (s1e_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s1e_keep (W : Valuation τ sig (Elt F)) (r : Ref sig .tc) (h : r ∉ s1e_W) : after (s1e (F := F)) W (Proc.devRef .tc r) = W (Proc.devRef .tc r) :=
  StableHlo.after_of_writes_sub s1e W s1e_writes h

abbrev s1f_W : List (Ref sig .tc) := [main_v61, main_v62, main_v63, main_v64, main_v65, main_v66, main_v67, main_v68, main_call1_cst, main_call1_v0, main_v69, main_v70, main_v71, main_v72, main_v73, main_v74, main_v75, main_v76, main_v77, main_call2_cst, main_call2_v0, main_v78]
theorem s1f_writes : (s1f : List (HloOp τ sig (Elt F))).Forall fun op => op.writes ⊆ (s1f_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s1f_keep (W : Valuation τ sig (Elt F)) (r : Ref sig .tc) (h : r ∉ s1f_W) : after (s1f (F := F)) W (Proc.devRef .tc r) = W (Proc.devRef .tc r) :=
  StableHlo.after_of_writes_sub s1f W s1f_writes h

abbrev s2a_W : List (Ref sig .tc) := [main_c_7, main_v79, main_v80, main_c_8, main_v81, main_v82, main_v83, main_v84, main_v85, main_c_9, main_v86, main_v87, main_c_10, main_v88, main_v89, main_v90, main_v91, main_v92, main_c_11, main_v93, main_v94, main_c_12, main_v95, main_v96, main_v97, main_v98, main_v99, main_c_13, main_v100, main_v101, main_c_14, main_v102, main_v103, main_v104, main_v105, main_v106]
theorem s2a_writes : (s2a : List (HloOp τ sig (Elt F))).Forall fun op => op.writes ⊆ (s2a_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s2a_keep (W : Valuation τ sig (Elt F)) (r : Ref sig .tc) (h : r ∉ s2a_W) : after (s2a (F := F)) W (Proc.devRef .tc r) = W (Proc.devRef .tc r) :=
  StableHlo.after_of_writes_sub s2a W s2a_writes h

abbrev s2b_W : List (Ref sig .tc) := [main_v107]
theorem s2b_writes : (s2b : List (HloOp τ sig (Elt F))).Forall fun op => op.writes ⊆ (s2b_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s2b_keep (W : Valuation τ sig (Elt F)) (r : Ref sig .tc) (h : r ∉ s2b_W) : after (s2b (F := F)) W (Proc.devRef .tc r) = W (Proc.devRef .tc r) :=
  StableHlo.after_of_writes_sub s2b W s2b_writes h

abbrev s2c_W : List (Ref sig .tc) := [main_v108, main_v109, main_v110, main_v111, main_v112, main_v113, main_v114, main_v115, main_call3_cst, main_call3_v0, main_v116, main_v117, main_v118, main_v119, main_v120, main_v121, main_v122, main_v123, main_v124, main_v125, main_v126, main_v127]
theorem s2c_writes : (s2c : List (HloOp τ sig (Elt F))).Forall fun op => op.writes ⊆ (s2c_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s2c_keep (W : Valuation τ sig (Elt F)) (r : Ref sig .tc) (h : r ∉ s2c_W) : after (s2c (F := F)) W (Proc.devRef .tc r) = W (Proc.devRef .tc r) :=
  StableHlo.after_of_writes_sub s2c W s2c_writes h

abbrev s2d_W : List (Ref sig .tc) := [main_cst_15, main_v128, main_v129, main_v130]
theorem s2d_writes : (s2d : List (HloOp τ sig (Elt F))).Forall fun op => op.writes ⊆ (s2d_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s2d_keep (W : Valuation τ sig (Elt F)) (r : Ref sig .tc) (h : r ∉ s2d_W) : after (s2d (F := F)) W (Proc.devRef .tc r) = W (Proc.devRef .tc r) :=
  StableHlo.after_of_writes_sub s2d W s2d_writes h

abbrev s2e_W : List (Ref sig .tc) := [main_v131]
theorem s2e_writes : (s2e : List (HloOp τ sig (Elt F))).Forall fun op => op.writes ⊆ (s2e_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s2e_keep (W : Valuation τ sig (Elt F)) (r : Ref sig .tc) (h : r ∉ s2e_W) : after (s2e (F := F)) W (Proc.devRef .tc r) = W (Proc.devRef .tc r) :=
  StableHlo.after_of_writes_sub s2e W s2e_writes h

abbrev s2f_W : List (Ref sig .tc) := [main_v132, main_v133, main_v134, main_v135, main_v136, main_v137, main_v138, main_v139, main_call4_cst, main_call4_v0, main_v140, main_v141, main_v142, main_v143, main_v144, main_v145, main_v146, main_v147, main_v148, main_call5_cst, main_call5_v0, main_v149]
theorem s2f_writes : (s2f : List (HloOp τ sig (Elt F))).Forall fun op => op.writes ⊆ (s2f_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s2f_keep (W : Valuation τ sig (Elt F)) (r : Ref sig .tc) (h : r ∉ s2f_W) : after (s2f (F := F)) W (Proc.devRef .tc r) = W (Proc.devRef .tc r) :=
  StableHlo.after_of_writes_sub s2f W s2f_writes h

abbrev s3a_W : List (Ref sig .tc) := [main_c_16, main_v150, main_v151, main_c_17, main_v152, main_v153, main_v154, main_v155, main_v156, main_c_18, main_v157, main_v158, main_c_19, main_v159, main_v160, main_v161, main_v162, main_v163, main_c_20, main_v164, main_v165, main_c_21, main_v166, main_v167, main_v168, main_v169, main_v170, main_c_22, main_v171, main_v172, main_c_23, main_v173, main_v174, main_v175, main_v176, main_v177]
theorem s3a_writes : (s3a : List (HloOp τ sig (Elt F))).Forall fun op => op.writes ⊆ (s3a_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s3a_keep (W : Valuation τ sig (Elt F)) (r : Ref sig .tc) (h : r ∉ s3a_W) : after (s3a (F := F)) W (Proc.devRef .tc r) = W (Proc.devRef .tc r) :=
  StableHlo.after_of_writes_sub s3a W s3a_writes h

abbrev s3b_W : List (Ref sig .tc) := [main_v178]
theorem s3b_writes : (s3b : List (HloOp τ sig (Elt F))).Forall fun op => op.writes ⊆ (s3b_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s3b_keep (W : Valuation τ sig (Elt F)) (r : Ref sig .tc) (h : r ∉ s3b_W) : after (s3b (F := F)) W (Proc.devRef .tc r) = W (Proc.devRef .tc r) :=
  StableHlo.after_of_writes_sub s3b W s3b_writes h

abbrev s3c_W : List (Ref sig .tc) := [main_v179, main_v180, main_v181, main_v182, main_v183, main_v184, main_v185, main_v186, main_call6_cst, main_call6_v0, main_v187, main_v188, main_v189, main_v190, main_v191, main_v192, main_v193, main_v194, main_v195, main_v196, main_v197, main_v198]
theorem s3c_writes : (s3c : List (HloOp τ sig (Elt F))).Forall fun op => op.writes ⊆ (s3c_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s3c_keep (W : Valuation τ sig (Elt F)) (r : Ref sig .tc) (h : r ∉ s3c_W) : after (s3c (F := F)) W (Proc.devRef .tc r) = W (Proc.devRef .tc r) :=
  StableHlo.after_of_writes_sub s3c W s3c_writes h

abbrev s3d_W : List (Ref sig .tc) := [main_cst_24, main_v199, main_v200, main_v201]
theorem s3d_writes : (s3d : List (HloOp τ sig (Elt F))).Forall fun op => op.writes ⊆ (s3d_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s3d_keep (W : Valuation τ sig (Elt F)) (r : Ref sig .tc) (h : r ∉ s3d_W) : after (s3d (F := F)) W (Proc.devRef .tc r) = W (Proc.devRef .tc r) :=
  StableHlo.after_of_writes_sub s3d W s3d_writes h

abbrev s3e_W : List (Ref sig .tc) := [main_v202]
theorem s3e_writes : (s3e : List (HloOp τ sig (Elt F))).Forall fun op => op.writes ⊆ (s3e_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s3e_keep (W : Valuation τ sig (Elt F)) (r : Ref sig .tc) (h : r ∉ s3e_W) : after (s3e (F := F)) W (Proc.devRef .tc r) = W (Proc.devRef .tc r) :=
  StableHlo.after_of_writes_sub s3e W s3e_writes h

abbrev s3f_W : List (Ref sig .tc) := [main_v203, main_v204, main_v205, main_v206, main_v207, main_v208, main_v209, main_v210, main_call7_cst, main_call7_v0, main_v211, main_v212, main_v213, main_v214, main_v215, main_v216, main_v217, main_v218, main_v219, main_call8_cst, main_call8_v0, main_v220]
theorem s3f_writes : (s3f : List (HloOp τ sig (Elt F))).Forall fun op => op.writes ⊆ (s3f_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s3f_keep (W : Valuation τ sig (Elt F)) (r : Ref sig .tc) (h : r ∉ s3f_W) : after (s3f (F := F)) W (Proc.devRef .tc r) = W (Proc.devRef .tc r) :=
  StableHlo.after_of_writes_sub s3f W s3f_writes h

abbrev s4_W : List (Ref sig .tc) := [main_cst_25, main_v221, main_v222, main_v223]
theorem s4_writes : (s4 : List (HloOp τ sig (Elt F))).Forall fun op => op.writes ⊆ (s4_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem s4_keep (W : Valuation τ sig (Elt F)) (r : Ref sig .tc) (h : r ∉ s4_W) : after (s4 (F := F)) W (Proc.devRef .tc r) = W (Proc.devRef .tc r) :=
  StableHlo.after_of_writes_sub s4 W s4_writes h

end Cert.RefChunks

end
-- ==== Proof.RefL0.lean ====
/-
  The plain program's first stretch (the projection and the two columns of the edge list) and its last (the per-graph sum), each read at the stage it ends with.
-/
import proofs.«421803_j42709154791890_2_alg».proof.Proof.RefChunks

set_option maxRecDepth 8192
set_option maxHeartbeats 1000000

noncomputable section

namespace Cert.RefChunks

open Cert.ReferenceIdeal Cert.ReferenceIdeal.Gen Cert.ReferenceIdeal.ValueP Idealize.ShloMosaic Idealize.ShloMosaic.TcCoe Idealize.SL.Sem Idealize.ShloMosaic.StableHlo

theorem s0_v1 (W : Valuation τ sig (Elt Ideal)) (x4 : (⟨S160000x2, .i32⟩ : BufTy).Contents (Elt Ideal))
     (e4 : W main_arg4 = x4) :
    after (s0 (F := Ideal)) W main_v1 = ReadP.val_main_v1 (F := Ideal) x4 := by
  after_results
  rw [e4]
  first | rfl | (simp only [TRef.ofBuf, TRef.toBuf, cast_eq]; rfl) | done

theorem s0_v3 (W : Valuation τ sig (Elt Ideal)) (x4 : (⟨S160000x2, .i32⟩ : BufTy).Contents (Elt Ideal))
     (e4 : W main_arg4 = x4) :
    after (s0 (F := Ideal)) W main_v3 = ReadP.val_main_v3 (F := Ideal) x4 := by
  after_results
  rw [e4]
  first | rfl | (simp only [TRef.ofBuf, TRef.toBuf, cast_eq]; rfl) | done

theorem s0_v7 (W : Valuation τ sig (Elt Ideal)) (x0 : (⟨S20000x64, .f32⟩ : BufTy).Contents (Elt Ideal)) (x6 : (⟨S64x256, .f32⟩ : BufTy).Contents (Elt Ideal)) (x7 : (⟨S256, .f32⟩ : BufTy).Contents (Elt Ideal))
     (e0 : W main_arg0 = x0) (e6 : W main_arg6 = x6) (e7 : W main_arg7 = x7) :
    after (s0 (F := Ideal)) W main_v7 = ReadP.val_main_v7 (F := Ideal) x0 x6 x7 := by
  after_results
  rw [e0, e6, e7]
  first | rfl | (simp only [TRef.ofBuf, TRef.toBuf, cast_eq]; rfl) | done

theorem s4_v223 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x5 : (⟨S20000, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v220 : W main_v220 = ReadP.val_main_v220 (F := Ideal) x0 x1 x2 x3 x4 x6 x7 x8 x9 x10 x11 x12 x13 x14 x15) (e5 : W main_arg5 = x5) :
    after (s4 (F := Ideal)) W main_v223 = ReadP.val_main_v223 (F := Ideal) x0 x1 x2 x3 x4 x5 x6 x7 x8 x9 x10 x11 x12 x13 x14 x15 := by
  after_results
  rw [h_v220, e5]
  first | rfl | (simp only [TRef.ofBuf, TRef.toBuf, cast_eq]; rfl) | done

end Cert.RefChunks

end
-- ==== Proof.RefL1.lean ====
/-
  Round 1 of the plain program, stretch by stretch: from buffers holding the earlier stages a stretch reads, its operations leave the stage it ends with.
-/
import proofs.«421803_j42709154791890_2_alg».proof.Proof.RefChunks

set_option maxRecDepth 8192
set_option maxHeartbeats 1000000

noncomputable section

namespace Cert.RefChunks

open Cert.ReferenceIdeal Cert.ReferenceIdeal.Gen Cert.ReferenceIdeal.ValueP Idealize.ShloMosaic Idealize.ShloMosaic.TcCoe Idealize.SL.Sem Idealize.ShloMosaic.StableHlo

theorem s1a_v14 (W : Valuation τ sig (Elt Ideal)) (x0 : (⟨S20000x64, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal))
    (h_v7 : W main_v7 = ReadP.val_main_v7 (F := Ideal) x0 x6 x7) (h_v1 : W main_v1 = ReadP.val_main_v1 (F := Ideal) x4)  :
    after (s1a (F := Ideal)) W main_v14 = ReadP.val_main_v14 (F := Ideal) x0 x4 x6 x7 := by
  after_results
  rw [h_v7, h_v1]
  first | rfl | (simp only [TRef.ofBuf, TRef.toBuf, cast_eq]; rfl) | done

theorem s1a_v21 (W : Valuation τ sig (Elt Ideal)) (x0 : (⟨S20000x64, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal))
    (h_v7 : W main_v7 = ReadP.val_main_v7 (F := Ideal) x0 x6 x7) (h_v3 : W main_v3 = ReadP.val_main_v3 (F := Ideal) x4)  :
    after (s1a (F := Ideal)) W main_v21 = ReadP.val_main_v21 (F := Ideal) x0 x4 x6 x7 := by
  after_results
  rw [h_v7, h_v3]
  first | rfl | (simp only [TRef.ofBuf, TRef.toBuf, cast_eq]; rfl) | done

theorem s1a_v28 (W : Valuation τ sig (Elt Ideal)) (x1 : (⟨S20000x1, .f32⟩ : BufTy).Contents (Elt Ideal)) (x4 : (⟨S160000x2, .i32⟩ : BufTy).Contents (Elt Ideal))
    (h_v1 : W main_v1 = ReadP.val_main_v1 (F := Ideal) x4) (e1 : W main_arg1 = x1) :
    after (s1a (F := Ideal)) W main_v28 = ReadP.val_main_v28 (F := Ideal) x1 x4 := by
  after_results
  rw [h_v1, e1]
  first | rfl | (simp only [TRef.ofBuf, TRef.toBuf, cast_eq]; rfl) | done

theorem s1a_v35 (W : Valuation τ sig (Elt Ideal)) (x1 : (⟨S20000x1, .f32⟩ : BufTy).Contents (Elt Ideal)) (x4 : (⟨S160000x2, .i32⟩ : BufTy).Contents (Elt Ideal))
    (h_v3 : W main_v3 = ReadP.val_main_v3 (F := Ideal) x4) (e1 : W main_arg1 = x1) :
    after (s1a (F := Ideal)) W main_v35 = ReadP.val_main_v35 (F := Ideal) x1 x4 := by
  after_results
  rw [h_v3, e1]
  first | rfl | (simp only [TRef.ofBuf, TRef.toBuf, cast_eq]; rfl) | done

theorem s1b_v36 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal))
    (h_v14 : W main_v14 = ReadP.val_main_v14 (F := Ideal) x0 x4 x6 x7) (h_v21 : W main_v21 = ReadP.val_main_v21 (F := Ideal) x0 x4 x6 x7) (h_v28 : W main_v28 = ReadP.val_main_v28 (F := Ideal) x1 x4) (h_v35 : W main_v35 = ReadP.val_main_v35 (F := Ideal) x1 x4) (e2 : W main_arg2 = x2) :
    after (s1b (F := Ideal)) W main_v36 = ReadP.val_main_v36 (F := Ideal) x0 x1 x2 x4 x6 x7 := by
  after_results
  show concatenate S160000x578 1 [⟨S160000x256, W main_v14⟩, ⟨S160000x256, W main_v21⟩, ⟨S160000x1, W main_v28⟩, ⟨S160000x1, W main_v35⟩, ⟨S160000x64, W main_arg2⟩] concatenates_S160000x256_S160000x256_S160000x1_S160000x1_S160000x64_S160000x578_d1 = _
  rw [h_v14, h_v21, h_v28, h_v35, e2]
  first | rfl | (simp only [TRef.ofBuf, TRef.toBuf, cast_eq]; rfl) | done

theorem s1c_v56 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal))
    (h_v36 : W main_v36 = ReadP.val_main_v36 (F := Ideal) x0 x1 x2 x4 x6 x7) (e3 : W main_arg3 = x3) (e8 : W main_arg8 = x8) (e9 : W main_arg9 = x9) (e10 : W main_arg10 = x10) (e11 : W main_arg11 = x11) :
    after (s1c (F := Ideal)) W main_v56 = ReadP.val_main_v56 (F := Ideal) x0 x1 x2 x3 x4 x6 x7 x8 x9 x10 x11 := by
  after_results
  rw [h_v36, e3, e8, e9, e10, e11]
  first | rfl | (simp only [TRef.ofBuf, TRef.toBuf, cast_eq]; rfl) | done

theorem s1d_v59 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal))
    (h_v56 : W main_v56 = ReadP.val_main_v56 (F := Ideal) x0 x1 x2 x3 x4 x6 x7 x8 x9 x10 x11) (h_v3 : W main_v3 = ReadP.val_main_v3 (F := Ideal) x4)  :
    after (s1d (F := Ideal)) W main_v59 = ReadP.val_main_v59 (F := Ideal) x0 x1 x2 x3 x4 x6 x7 x8 x9 x10 x11 := by
  after_results
  rw [h_v56, h_v3]
  first | rfl | (simp only [TRef.ofBuf, TRef.toBuf, cast_eq]; rfl) | done

theorem s1e_v60 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal))
    (h_v7 : W main_v7 = ReadP.val_main_v7 (F := Ideal) x0 x6 x7) (h_v59 : W main_v59 = ReadP.val_main_v59 (F := Ideal) x0 x1 x2 x3 x4 x6 x7 x8 x9 x10 x11)  :
    after (s1e (F := Ideal)) W main_v60 = ReadP.val_main_v60 (F := Ideal) x0 x1 x2 x3 x4 x6 x7 x8 x9 x10 x11 := by
  after_results
  rw [h_v7, h_v59]
  first | rfl | (simp only [TRef.ofBuf, TRef.toBuf, cast_eq]; rfl) | done

theorem s1f_v78 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v60 : W main_v60 = ReadP.val_main_v60 (F := Ideal) x0 x1 x2 x3 x4 x6 x7 x8 x9 x10 x11) (e12 : W main_arg12 = x12) (e13 : W main_arg13 = x13) (e14 : W main_arg14 = x14) (e15 : W main_arg15 = x15) :
    after (s1f (F := Ideal)) W main_v78 = ReadP.val_main_v78 (F := Ideal) x0 x1 x2 x3 x4 x6 x7 x8 x9 x10 x11 x12 x13 x14 x15 := by
  after_results
  rw [h_v60, e12, e13, e14, e15]
  first | rfl | (simp only [TRef.ofBuf, TRef.toBuf, cast_eq]; rfl) | done

end Cert.RefChunks

end
-- ==== Proof.RefL2.lean ====
/-
  Round 2 of the plain program, stretch by stretch.
-/
import proofs.«421803_j42709154791890_2_alg».proof.Proof.RefChunks

set_option maxRecDepth 8192
set_option maxHeartbeats 1000000

noncomputable section

namespace Cert.RefChunks

open Cert.ReferenceIdeal Cert.ReferenceIdeal.Gen Cert.ReferenceIdeal.ValueP Idealize.ShloMosaic Idealize.ShloMosaic.TcCoe Idealize.SL.Sem Idealize.ShloMosaic.StableHlo

theorem s2a_v85 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v78 : W main_v78 = ReadP.val_main_v78 (F := Ideal) x0 x1 x2 x3 x4 x6 x7 x8 x9 x10 x11 x12 x13 x14 x15) (h_v1 : W main_v1 = ReadP.val_main_v1 (F := Ideal) x4)  :
    after (s2a (F := Ideal)) W main_v85 = ReadP.val_main_v85 (F := Ideal) x0 x1 x2 x3 x4 x6 x7 x8 x9 x10 x11 x12 x13 x14 x15 := by
  after_results
  rw [h_v78, h_v1]
  first | rfl | (simp only [TRef.ofBuf, TRef.toBuf, cast_eq]; rfl) | done

theorem s2a_v92 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v78 : W main_v78 = ReadP.val_main_v78 (F := Ideal) x0 x1 x2 x3 x4 x6 x7 x8 x9 x10 x11 x12 x13 x14 x15) (h_v3 : W main_v3 = ReadP.val_main_v3 (F := Ideal) x4)  :
    after (s2a (F := Ideal)) W main_v92 = ReadP.val_main_v92 (F := Ideal) x0 x1 x2 x3 x4 x6 x7 x8 x9 x10 x11 x12 x13 x14 x15 := by
  after_results
  rw [h_v78, h_v3]
  first | rfl | (simp only [TRef.ofBuf, TRef.toBuf, cast_eq]; rfl) | done

theorem s2a_v99 (W : Valuation τ sig (Elt Ideal)) (x1 : (⟨S20000x1, .f32⟩ : BufTy).Contents (Elt Ideal)) (x4 : (⟨S160000x2, .i32⟩ : BufTy).Contents (Elt Ideal))
    (h_v1 : W main_v1 = ReadP.val_main_v1 (F := Ideal) x4) (e1 : W main_arg1 = x1) :
    after (s2a (F := Ideal)) W main_v99 = ReadP.val_main_v99 (F := Ideal) x1 x4 := by
  after_results
  rw [h_v1, e1]
  first | rfl | (simp only [TRef.ofBuf, TRef.toBuf, cast_eq]; rfl) | done

theorem s2a_v106 (W : Valuation τ sig (Elt Ideal)) (x1 : (⟨S20000x1, .f32⟩ : BufTy).Contents (Elt Ideal)) (x4 : (⟨S160000x2, .i32⟩ : BufTy).Contents (Elt Ideal))
    (h_v3 : W main_v3 = ReadP.val_main_v3 (F := Ideal) x4) (e1 : W main_arg1 = x1) :
    after (s2a (F := Ideal)) W main_v106 = ReadP.val_main_v106 (F := Ideal) x1 x4 := by
  after_results
  rw [h_v3, e1]
  first | rfl | (simp only [TRef.ofBuf, TRef.toBuf, cast_eq]; rfl) | done

theorem s2b_v107 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v85 : W main_v85 = ReadP.val_main_v85 (F := Ideal) x0 x1 x2 x3 x4 x6 x7 x8 x9 x10 x11 x12 x13 x14 x15) (h_v92 : W main_v92 = ReadP.val_main_v92 (F := Ideal) x0 x1 x2 x3 x4 x6 x7 x8 x9 x10 x11 x12 x13 x14 x15) (h_v99 : W main_v99 = ReadP.val_main_v99 (F := Ideal) x1 x4) (h_v106 : W main_v106 = ReadP.val_main_v106 (F := Ideal) x1 x4) (e2 : W main_arg2 = x2) :
    after (s2b (F := Ideal)) W main_v107 = ReadP.val_main_v107 (F := Ideal) x0 x1 x2 x3 x4 x6 x7 x8 x9 x10 x11 x12 x13 x14 x15 := by
  after_results
  show concatenate S160000x578 1 [⟨S160000x256, W main_v85⟩, ⟨S160000x256, W main_v92⟩, ⟨S160000x1, W main_v99⟩, ⟨S160000x1, W main_v106⟩, ⟨S160000x64, W main_arg2⟩] concatenates_S160000x256_S160000x256_S160000x1_S160000x1_S160000x64_S160000x578_d1 = _
  rw [h_v85, h_v92, h_v99, h_v106, e2]
  first | rfl | (simp only [TRef.ofBuf, TRef.toBuf, cast_eq]; rfl) | done

theorem s2c_v127 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v107 : W main_v107 = ReadP.val_main_v107 (F := Ideal) x0 x1 x2 x3 x4 x6 x7 x8 x9 x10 x11 x12 x13 x14 x15) (e3 : W main_arg3 = x3) (e8 : W main_arg8 = x8) (e9 : W main_arg9 = x9) (e10 : W main_arg10 = x10) (e11 : W main_arg11 = x11) :
    after (s2c (F := Ideal)) W main_v127 = ReadP.val_main_v127 (F := Ideal) x0 x1 x2 x3 x4 x6 x7 x8 x9 x10 x11 x12 x13 x14 x15 := by
  after_results
  rw [h_v107, e3, e8, e9, e10, e11]
  first | rfl | (simp only [TRef.ofBuf, TRef.toBuf, cast_eq]; rfl) | done

theorem s2d_v130 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v127 : W main_v127 = ReadP.val_main_v127 (F := Ideal) x0 x1 x2 x3 x4 x6 x7 x8 x9 x10 x11 x12 x13 x14 x15) (h_v3 : W main_v3 = ReadP.val_main_v3 (F := Ideal) x4)  :
    after (s2d (F := Ideal)) W main_v130 = ReadP.val_main_v130 (F := Ideal) x0 x1 x2 x3 x4 x6 x7 x8 x9 x10 x11 x12 x13 x14 x15 := by
  after_results
  rw [h_v127, h_v3]
  first | rfl | (simp only [TRef.ofBuf, TRef.toBuf, cast_eq]; rfl) | done

theorem s2e_v131 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v78 : W main_v78 = ReadP.val_main_v78 (F := Ideal) x0 x1 x2 x3 x4 x6 x7 x8 x9 x10 x11 x12 x13 x14 x15) (h_v130 : W main_v130 = ReadP.val_main_v130 (F := Ideal) x0 x1 x2 x3 x4 x6 x7 x8 x9 x10 x11 x12 x13 x14 x15)  :
    after (s2e (F := Ideal)) W main_v131 = ReadP.val_main_v131 (F := Ideal) x0 x1 x2 x3 x4 x6 x7 x8 x9 x10 x11 x12 x13 x14 x15 := by
  after_results
  rw [h_v78, h_v130]
  first | rfl | (simp only [TRef.ofBuf, TRef.toBuf, cast_eq]; rfl) | done

theorem s2f_v149 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v131 : W main_v131 = ReadP.val_main_v131 (F := Ideal) x0 x1 x2 x3 x4 x6 x7 x8 x9 x10 x11 x12 x13 x14 x15) (e12 : W main_arg12 = x12) (e13 : W main_arg13 = x13) (e14 : W main_arg14 = x14) (e15 : W main_arg15 = x15) :
    after (s2f (F := Ideal)) W main_v149 = ReadP.val_main_v149 (F := Ideal) x0 x1 x2 x3 x4 x6 x7 x8 x9 x10 x11 x12 x13 x14 x15 := by
  after_results
  rw [h_v131, e12, e13, e14, e15]
  first | rfl | (simp only [TRef.ofBuf, TRef.toBuf, cast_eq]; rfl) | done

end Cert.RefChunks

end
-- ==== Proof.RefL3.lean ====
/-
  Round 3 of the plain program, stretch by stretch.
-/
import proofs.«421803_j42709154791890_2_alg».proof.Proof.RefChunks

set_option maxRecDepth 8192
set_option maxHeartbeats 1000000

noncomputable section

namespace Cert.RefChunks

open Cert.ReferenceIdeal Cert.ReferenceIdeal.Gen Cert.ReferenceIdeal.ValueP Idealize.ShloMosaic Idealize.ShloMosaic.TcCoe Idealize.SL.Sem Idealize.ShloMosaic.StableHlo

theorem s3a_v156 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v149 : W main_v149 = ReadP.val_main_v149 (F := Ideal) x0 x1 x2 x3 x4 x6 x7 x8 x9 x10 x11 x12 x13 x14 x15) (h_v1 : W main_v1 = ReadP.val_main_v1 (F := Ideal) x4)  :
    after (s3a (F := Ideal)) W main_v156 = ReadP.val_main_v156 (F := Ideal) x0 x1 x2 x3 x4 x6 x7 x8 x9 x10 x11 x12 x13 x14 x15 := by
  after_results
  rw [h_v149, h_v1]
  first | rfl | (simp only [TRef.ofBuf, TRef.toBuf, cast_eq]; rfl) | done

theorem s3a_v163 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v149 : W main_v149 = ReadP.val_main_v149 (F := Ideal) x0 x1 x2 x3 x4 x6 x7 x8 x9 x10 x11 x12 x13 x14 x15) (h_v3 : W main_v3 = ReadP.val_main_v3 (F := Ideal) x4)  :
    after (s3a (F := Ideal)) W main_v163 = ReadP.val_main_v163 (F := Ideal) x0 x1 x2 x3 x4 x6 x7 x8 x9 x10 x11 x12 x13 x14 x15 := by
  after_results
  rw [h_v149, h_v3]
  first | rfl | (simp only [TRef.ofBuf, TRef.toBuf, cast_eq]; rfl) | done

theorem s3a_v170 (W : Valuation τ sig (Elt Ideal)) (x1 : (⟨S20000x1, .f32⟩ : BufTy).Contents (Elt Ideal)) (x4 : (⟨S160000x2, .i32⟩ : BufTy).Contents (Elt Ideal))
    (h_v1 : W main_v1 = ReadP.val_main_v1 (F := Ideal) x4) (e1 : W main_arg1 = x1) :
    after (s3a (F := Ideal)) W main_v170 = ReadP.val_main_v170 (F := Ideal) x1 x4 := by
  after_results
  rw [h_v1, e1]
  first | rfl | (simp only [TRef.ofBuf, TRef.toBuf, cast_eq]; rfl) | done

theorem s3a_v177 (W : Valuation τ sig (Elt Ideal)) (x1 : (⟨S20000x1, .f32⟩ : BufTy).Contents (Elt Ideal)) (x4 : (⟨S160000x2, .i32⟩ : BufTy).Contents (Elt Ideal))
    (h_v3 : W main_v3 = ReadP.val_main_v3 (F := Ideal) x4) (e1 : W main_arg1 = x1) :
    after (s3a (F := Ideal)) W main_v177 = ReadP.val_main_v177 (F := Ideal) x1 x4 := by
  after_results
  rw [h_v3, e1]
  first | rfl | (simp only [TRef.ofBuf, TRef.toBuf, cast_eq]; rfl) | done

theorem s3b_v178 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v156 : W main_v156 = ReadP.val_main_v156 (F := Ideal) x0 x1 x2 x3 x4 x6 x7 x8 x9 x10 x11 x12 x13 x14 x15) (h_v163 : W main_v163 = ReadP.val_main_v163 (F := Ideal) x0 x1 x2 x3 x4 x6 x7 x8 x9 x10 x11 x12 x13 x14 x15) (h_v170 : W main_v170 = ReadP.val_main_v170 (F := Ideal) x1 x4) (h_v177 : W main_v177 = ReadP.val_main_v177 (F := Ideal) x1 x4) (e2 : W main_arg2 = x2) :
    after (s3b (F := Ideal)) W main_v178 = ReadP.val_main_v178 (F := Ideal) x0 x1 x2 x3 x4 x6 x7 x8 x9 x10 x11 x12 x13 x14 x15 := by
  after_results
  show concatenate S160000x578 1 [⟨S160000x256, W main_v156⟩, ⟨S160000x256, W main_v163⟩, ⟨S160000x1, W main_v170⟩, ⟨S160000x1, W main_v177⟩, ⟨S160000x64, W main_arg2⟩] concatenates_S160000x256_S160000x256_S160000x1_S160000x1_S160000x64_S160000x578_d1 = _
  rw [h_v156, h_v163, h_v170, h_v177, e2]
  first | rfl | (simp only [TRef.ofBuf, TRef.toBuf, cast_eq]; rfl) | done

theorem s3c_v198 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v178 : W main_v178 = ReadP.val_main_v178 (F := Ideal) x0 x1 x2 x3 x4 x6 x7 x8 x9 x10 x11 x12 x13 x14 x15) (e3 : W main_arg3 = x3) (e8 : W main_arg8 = x8) (e9 : W main_arg9 = x9) (e10 : W main_arg10 = x10) (e11 : W main_arg11 = x11) :
    after (s3c (F := Ideal)) W main_v198 = ReadP.val_main_v198 (F := Ideal) x0 x1 x2 x3 x4 x6 x7 x8 x9 x10 x11 x12 x13 x14 x15 := by
  after_results
  rw [h_v178, e3, e8, e9, e10, e11]
  first | rfl | (simp only [TRef.ofBuf, TRef.toBuf, cast_eq]; rfl) | done

theorem s3d_v201 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v198 : W main_v198 = ReadP.val_main_v198 (F := Ideal) x0 x1 x2 x3 x4 x6 x7 x8 x9 x10 x11 x12 x13 x14 x15) (h_v3 : W main_v3 = ReadP.val_main_v3 (F := Ideal) x4)  :
    after (s3d (F := Ideal)) W main_v201 = ReadP.val_main_v201 (F := Ideal) x0 x1 x2 x3 x4 x6 x7 x8 x9 x10 x11 x12 x13 x14 x15 := by
  after_results
  rw [h_v198, h_v3]
  first | rfl | (simp only [TRef.ofBuf, TRef.toBuf, cast_eq]; rfl) | done

theorem s3e_v202 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v149 : W main_v149 = ReadP.val_main_v149 (F := Ideal) x0 x1 x2 x3 x4 x6 x7 x8 x9 x10 x11 x12 x13 x14 x15) (h_v201 : W main_v201 = ReadP.val_main_v201 (F := Ideal) x0 x1 x2 x3 x4 x6 x7 x8 x9 x10 x11 x12 x13 x14 x15)  :
    after (s3e (F := Ideal)) W main_v202 = ReadP.val_main_v202 (F := Ideal) x0 x1 x2 x3 x4 x6 x7 x8 x9 x10 x11 x12 x13 x14 x15 := by
  after_results
  rw [h_v149, h_v201]
  first | rfl | (simp only [TRef.ofBuf, TRef.toBuf, cast_eq]; rfl) | done

theorem s3f_v220 (W : Valuation τ sig (Elt Ideal)) (x0 : (⟨S20000x64, .f32⟩ : BufTy).Contents (Elt Ideal)) (x1 : (⟨S20000x1, .f32⟩ : BufTy).Contents (Elt Ideal)) (x2 : (⟨S160000x64, .f32⟩ : BufTy).Contents (Elt Ideal)) (x3 : (⟨S160000, .f32⟩ : BufTy).Contents (Elt Ideal)) (x4 : (⟨S160000x2, .i32⟩ : BufTy).Contents (Elt Ideal)) (x6 : (⟨S64x256, .f32⟩ : BufTy).Contents (Elt Ideal)) (x7 : (⟨S256, .f32⟩ : BufTy).Contents (Elt Ideal)) (x8 : (⟨S3x578x256, .f32⟩ : BufTy).Contents (Elt Ideal)) (x9 : (⟨S3x256, .f32⟩ : BufTy).Contents (Elt Ideal)) (x10 : (⟨S3x256x256, .f32⟩ : BufTy).Contents (Elt Ideal)) (x11 : (⟨S3x256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
    (h_v202 : W main_v202 = ReadP.val_main_v202 (F := Ideal) x0 x1 x2 x3 x4 x6 x7 x8 x9 x10 x11 x12 x13 x14 x15) (e12 : W main_arg12 = x12) (e13 : W main_arg13 = x13) (e14 : W main_arg14 = x14) (e15 : W main_arg15 = x15) :
    after (s3f (F := Ideal)) W main_v220 = ReadP.val_main_v220 (F := Ideal) x0 x1 x2 x3 x4 x6 x7 x8 x9 x10 x11 x12 x13 x14 x15 := by
  after_results
  rw [h_v202, e12, e13, e14, e15]
  first | rfl | (simp only [TRef.ofBuf, TRef.toBuf, cast_eq]; rfl) | done

end Cert.RefChunks

end
-- ==== Proof.RefRun.lean ====
/-
  The plain program's run read at its result: every weakly fair execution terminates with the result buffer at the last
  stage of the program's stage-by-stage reading of the arguments, and every argument unchanged. The twenty stretches are
  chained: each stage a later stretch reads is carried, untouched, from the stretch that wrote it; no stretch writes an
  argument.
-/
import proofs.«421803_j42709154791890_2_alg».proof.Proof.RefChunks
import proofs.«421803_j42709154791890_2_alg».proof.Proof.RefL0
import proofs.«421803_j42709154791890_2_alg».proof.Proof.RefL1
import proofs.«421803_j42709154791890_2_alg».proof.Proof.RefL2
import proofs.«421803_j42709154791890_2_alg».proof.Proof.RefL3

set_option maxRecDepth 8192

noncomputable section

namespace Cert.RefChunks

open Cert.ReferenceIdeal Cert.ReferenceIdeal.Gen Cert.ReferenceIdeal.ValueP Idealize.ShloMosaic Idealize.ShloMosaic.TcCoe Idealize.SL.Sem Idealize.ShloMosaic.StableHlo

/-! ## The buffers' contents after each stretch -/

abbrev T0 (W : Valuation τ sig (Elt Ideal)) : Valuation τ sig (Elt Ideal) := after (s0 (F := Ideal)) W
abbrev T1 (W : Valuation τ sig (Elt Ideal)) : Valuation τ sig (Elt Ideal) := after (s1a (F := Ideal)) (T0 W)
abbrev T2 (W : Valuation τ sig (Elt Ideal)) : Valuation τ sig (Elt Ideal) := after (s1b (F := Ideal)) (T1 W)
abbrev T3 (W : Valuation τ sig (Elt Ideal)) : Valuation τ sig (Elt Ideal) := after (s1c (F := Ideal)) (T2 W)
abbrev T4 (W : Valuation τ sig (Elt Ideal)) : Valuation τ sig (Elt Ideal) := after (s1d (F := Ideal)) (T3 W)
abbrev T5 (W : Valuation τ sig (Elt Ideal)) : Valuation τ sig (Elt Ideal) := after (s1e (F := Ideal)) (T4 W)
abbrev T6 (W : Valuation τ sig (Elt Ideal)) : Valuation τ sig (Elt Ideal) := after (s1f (F := Ideal)) (T5 W)
abbrev T7 (W : Valuation τ sig (Elt Ideal)) : Valuation τ sig (Elt Ideal) := after (s2a (F := Ideal)) (T6 W)
abbrev T8 (W : Valuation τ sig (Elt Ideal)) : Valuation τ sig (Elt Ideal) := after (s2b (F := Ideal)) (T7 W)
abbrev T9 (W : Valuation τ sig (Elt Ideal)) : Valuation τ sig (Elt Ideal) := after (s2c (F := Ideal)) (T8 W)
abbrev T10 (W : Valuation τ sig (Elt Ideal)) : Valuation τ sig (Elt Ideal) := after (s2d (F := Ideal)) (T9 W)
abbrev T11 (W : Valuation τ sig (Elt Ideal)) : Valuation τ sig (Elt Ideal) := after (s2e (F := Ideal)) (T10 W)
abbrev T12 (W : Valuation τ sig (Elt Ideal)) : Valuation τ sig (Elt Ideal) := after (s2f (F := Ideal)) (T11 W)
abbrev T13 (W : Valuation τ sig (Elt Ideal)) : Valuation τ sig (Elt Ideal) := after (s3a (F := Ideal)) (T12 W)
abbrev T14 (W : Valuation τ sig (Elt Ideal)) : Valuation τ sig (Elt Ideal) := after (s3b (F := Ideal)) (T13 W)
abbrev T15 (W : Valuation τ sig (Elt Ideal)) : Valuation τ sig (Elt Ideal) := after (s3c (F := Ideal)) (T14 W)
abbrev T16 (W : Valuation τ sig (Elt Ideal)) : Valuation τ sig (Elt Ideal) := after (s3d (F := Ideal)) (T15 W)
abbrev T17 (W : Valuation τ sig (Elt Ideal)) : Valuation τ sig (Elt Ideal) := after (s3e (F := Ideal)) (T16 W)
abbrev T18 (W : Valuation τ sig (Elt Ideal)) : Valuation τ sig (Elt Ideal) := after (s3f (F := Ideal)) (T17 W)
abbrev T19 (W : Valuation τ sig (Elt Ideal)) : Valuation τ sig (Elt Ideal) := after (s4 (F := Ideal)) (T18 W)

/-! ## No stretch writes an argument -/

theorem ta0_0 (W : Valuation τ sig (Elt Ideal)) : T0 W main_arg0 = W main_arg0 := (s0_keep W main_arg0 (by decide))
theorem ta0_1 (W : Valuation τ sig (Elt Ideal)) : T0 W main_arg1 = W main_arg1 := (s0_keep W main_arg1 (by decide))
theorem ta0_2 (W : Valuation τ sig (Elt Ideal)) : T0 W main_arg2 = W main_arg2 := (s0_keep W main_arg2 (by decide))
theorem ta0_3 (W : Valuation τ sig (Elt Ideal)) : T0 W main_arg3 = W main_arg3 := (s0_keep W main_arg3 (by decide))
theorem ta0_4 (W : Valuation τ sig (Elt Ideal)) : T0 W main_arg4 = W main_arg4 := (s0_keep W main_arg4 (by decide))
theorem ta0_5 (W : Valuation τ sig (Elt Ideal)) : T0 W main_arg5 = W main_arg5 := (s0_keep W main_arg5 (by decide))
theorem ta0_6 (W : Valuation τ sig (Elt Ideal)) : T0 W main_arg6 = W main_arg6 := (s0_keep W main_arg6 (by decide))
theorem ta0_7 (W : Valuation τ sig (Elt Ideal)) : T0 W main_arg7 = W main_arg7 := (s0_keep W main_arg7 (by decide))
theorem ta0_8 (W : Valuation τ sig (Elt Ideal)) : T0 W main_arg8 = W main_arg8 := (s0_keep W main_arg8 (by decide))
theorem ta0_9 (W : Valuation τ sig (Elt Ideal)) : T0 W main_arg9 = W main_arg9 := (s0_keep W main_arg9 (by decide))
theorem ta0_10 (W : Valuation τ sig (Elt Ideal)) : T0 W main_arg10 = W main_arg10 := (s0_keep W main_arg10 (by decide))
theorem ta0_11 (W : Valuation τ sig (Elt Ideal)) : T0 W main_arg11 = W main_arg11 := (s0_keep W main_arg11 (by decide))
theorem ta0_12 (W : Valuation τ sig (Elt Ideal)) : T0 W main_arg12 = W main_arg12 := (s0_keep W main_arg12 (by decide))
theorem ta0_13 (W : Valuation τ sig (Elt Ideal)) : T0 W main_arg13 = W main_arg13 := (s0_keep W main_arg13 (by decide))
theorem ta0_14 (W : Valuation τ sig (Elt Ideal)) : T0 W main_arg14 = W main_arg14 := (s0_keep W main_arg14 (by decide))
theorem ta0_15 (W : Valuation τ sig (Elt Ideal)) : T0 W main_arg15 = W main_arg15 := (s0_keep W main_arg15 (by decide))
theorem ta1_0 (W : Valuation τ sig (Elt Ideal)) : T1 W main_arg0 = W main_arg0 := (s1a_keep (T0 W) main_arg0 (by decide)).trans (ta0_0 W)
theorem ta1_1 (W : Valuation τ sig (Elt Ideal)) : T1 W main_arg1 = W main_arg1 := (s1a_keep (T0 W) main_arg1 (by decide)).trans (ta0_1 W)
theorem ta1_2 (W : Valuation τ sig (Elt Ideal)) : T1 W main_arg2 = W main_arg2 := (s1a_keep (T0 W) main_arg2 (by decide)).trans (ta0_2 W)
theorem ta1_3 (W : Valuation τ sig (Elt Ideal)) : T1 W main_arg3 = W main_arg3 := (s1a_keep (T0 W) main_arg3 (by decide)).trans (ta0_3 W)
theorem ta1_4 (W : Valuation τ sig (Elt Ideal)) : T1 W main_arg4 = W main_arg4 := (s1a_keep (T0 W) main_arg4 (by decide)).trans (ta0_4 W)
theorem ta1_5 (W : Valuation τ sig (Elt Ideal)) : T1 W main_arg5 = W main_arg5 := (s1a_keep (T0 W) main_arg5 (by decide)).trans (ta0_5 W)
theorem ta1_6 (W : Valuation τ sig (Elt Ideal)) : T1 W main_arg6 = W main_arg6 := (s1a_keep (T0 W) main_arg6 (by decide)).trans (ta0_6 W)
theorem ta1_7 (W : Valuation τ sig (Elt Ideal)) : T1 W main_arg7 = W main_arg7 := (s1a_keep (T0 W) main_arg7 (by decide)).trans (ta0_7 W)
theorem ta1_8 (W : Valuation τ sig (Elt Ideal)) : T1 W main_arg8 = W main_arg8 := (s1a_keep (T0 W) main_arg8 (by decide)).trans (ta0_8 W)
theorem ta1_9 (W : Valuation τ sig (Elt Ideal)) : T1 W main_arg9 = W main_arg9 := (s1a_keep (T0 W) main_arg9 (by decide)).trans (ta0_9 W)
theorem ta1_10 (W : Valuation τ sig (Elt Ideal)) : T1 W main_arg10 = W main_arg10 := (s1a_keep (T0 W) main_arg10 (by decide)).trans (ta0_10 W)
theorem ta1_11 (W : Valuation τ sig (Elt Ideal)) : T1 W main_arg11 = W main_arg11 := (s1a_keep (T0 W) main_arg11 (by decide)).trans (ta0_11 W)
theorem ta1_12 (W : Valuation τ sig (Elt Ideal)) : T1 W main_arg12 = W main_arg12 := (s1a_keep (T0 W) main_arg12 (by decide)).trans (ta0_12 W)
theorem ta1_13 (W : Valuation τ sig (Elt Ideal)) : T1 W main_arg13 = W main_arg13 := (s1a_keep (T0 W) main_arg13 (by decide)).trans (ta0_13 W)
theorem ta1_14 (W : Valuation τ sig (Elt Ideal)) : T1 W main_arg14 = W main_arg14 := (s1a_keep (T0 W) main_arg14 (by decide)).trans (ta0_14 W)
theorem ta1_15 (W : Valuation τ sig (Elt Ideal)) : T1 W main_arg15 = W main_arg15 := (s1a_keep (T0 W) main_arg15 (by decide)).trans (ta0_15 W)
theorem ta2_0 (W : Valuation τ sig (Elt Ideal)) : T2 W main_arg0 = W main_arg0 := (s1b_keep (T1 W) main_arg0 (by decide)).trans (ta1_0 W)
theorem ta2_1 (W : Valuation τ sig (Elt Ideal)) : T2 W main_arg1 = W main_arg1 := (s1b_keep (T1 W) main_arg1 (by decide)).trans (ta1_1 W)
theorem ta2_2 (W : Valuation τ sig (Elt Ideal)) : T2 W main_arg2 = W main_arg2 := (s1b_keep (T1 W) main_arg2 (by decide)).trans (ta1_2 W)
theorem ta2_3 (W : Valuation τ sig (Elt Ideal)) : T2 W main_arg3 = W main_arg3 := (s1b_keep (T1 W) main_arg3 (by decide)).trans (ta1_3 W)
theorem ta2_4 (W : Valuation τ sig (Elt Ideal)) : T2 W main_arg4 = W main_arg4 := (s1b_keep (T1 W) main_arg4 (by decide)).trans (ta1_4 W)
theorem ta2_5 (W : Valuation τ sig (Elt Ideal)) : T2 W main_arg5 = W main_arg5 := (s1b_keep (T1 W) main_arg5 (by decide)).trans (ta1_5 W)
theorem ta2_6 (W : Valuation τ sig (Elt Ideal)) : T2 W main_arg6 = W main_arg6 := (s1b_keep (T1 W) main_arg6 (by decide)).trans (ta1_6 W)
theorem ta2_7 (W : Valuation τ sig (Elt Ideal)) : T2 W main_arg7 = W main_arg7 := (s1b_keep (T1 W) main_arg7 (by decide)).trans (ta1_7 W)
theorem ta2_8 (W : Valuation τ sig (Elt Ideal)) : T2 W main_arg8 = W main_arg8 := (s1b_keep (T1 W) main_arg8 (by decide)).trans (ta1_8 W)
theorem ta2_9 (W : Valuation τ sig (Elt Ideal)) : T2 W main_arg9 = W main_arg9 := (s1b_keep (T1 W) main_arg9 (by decide)).trans (ta1_9 W)
theorem ta2_10 (W : Valuation τ sig (Elt Ideal)) : T2 W main_arg10 = W main_arg10 := (s1b_keep (T1 W) main_arg10 (by decide)).trans (ta1_10 W)
theorem ta2_11 (W : Valuation τ sig (Elt Ideal)) : T2 W main_arg11 = W main_arg11 := (s1b_keep (T1 W) main_arg11 (by decide)).trans (ta1_11 W)
theorem ta2_12 (W : Valuation τ sig (Elt Ideal)) : T2 W main_arg12 = W main_arg12 := (s1b_keep (T1 W) main_arg12 (by decide)).trans (ta1_12 W)
theorem ta2_13 (W : Valuation τ sig (Elt Ideal)) : T2 W main_arg13 = W main_arg13 := (s1b_keep (T1 W) main_arg13 (by decide)).trans (ta1_13 W)
theorem ta2_14 (W : Valuation τ sig (Elt Ideal)) : T2 W main_arg14 = W main_arg14 := (s1b_keep (T1 W) main_arg14 (by decide)).trans (ta1_14 W)
theorem ta2_15 (W : Valuation τ sig (Elt Ideal)) : T2 W main_arg15 = W main_arg15 := (s1b_keep (T1 W) main_arg15 (by decide)).trans (ta1_15 W)
theorem ta3_0 (W : Valuation τ sig (Elt Ideal)) : T3 W main_arg0 = W main_arg0 := (s1c_keep (T2 W) main_arg0 (by decide)).trans (ta2_0 W)
theorem ta3_1 (W : Valuation τ sig (Elt Ideal)) : T3 W main_arg1 = W main_arg1 := (s1c_keep (T2 W) main_arg1 (by decide)).trans (ta2_1 W)
theorem ta3_2 (W : Valuation τ sig (Elt Ideal)) : T3 W main_arg2 = W main_arg2 := (s1c_keep (T2 W) main_arg2 (by decide)).trans (ta2_2 W)
theorem ta3_3 (W : Valuation τ sig (Elt Ideal)) : T3 W main_arg3 = W main_arg3 := (s1c_keep (T2 W) main_arg3 (by decide)).trans (ta2_3 W)
theorem ta3_4 (W : Valuation τ sig (Elt Ideal)) : T3 W main_arg4 = W main_arg4 := (s1c_keep (T2 W) main_arg4 (by decide)).trans (ta2_4 W)
theorem ta3_5 (W : Valuation τ sig (Elt Ideal)) : T3 W main_arg5 = W main_arg5 := (s1c_keep (T2 W) main_arg5 (by decide)).trans (ta2_5 W)
theorem ta3_6 (W : Valuation τ sig (Elt Ideal)) : T3 W main_arg6 = W main_arg6 := (s1c_keep (T2 W) main_arg6 (by decide)).trans (ta2_6 W)
theorem ta3_7 (W : Valuation τ sig (Elt Ideal)) : T3 W main_arg7 = W main_arg7 := (s1c_keep (T2 W) main_arg7 (by decide)).trans (ta2_7 W)
theorem ta3_8 (W : Valuation τ sig (Elt Ideal)) : T3 W main_arg8 = W main_arg8 := (s1c_keep (T2 W) main_arg8 (by decide)).trans (ta2_8 W)
theorem ta3_9 (W : Valuation τ sig (Elt Ideal)) : T3 W main_arg9 = W main_arg9 := (s1c_keep (T2 W) main_arg9 (by decide)).trans (ta2_9 W)
theorem ta3_10 (W : Valuation τ sig (Elt Ideal)) : T3 W main_arg10 = W main_arg10 := (s1c_keep (T2 W) main_arg10 (by decide)).trans (ta2_10 W)
theorem ta3_11 (W : Valuation τ sig (Elt Ideal)) : T3 W main_arg11 = W main_arg11 := (s1c_keep (T2 W) main_arg11 (by decide)).trans (ta2_11 W)
theorem ta3_12 (W : Valuation τ sig (Elt Ideal)) : T3 W main_arg12 = W main_arg12 := (s1c_keep (T2 W) main_arg12 (by decide)).trans (ta2_12 W)
theorem ta3_13 (W : Valuation τ sig (Elt Ideal)) : T3 W main_arg13 = W main_arg13 := (s1c_keep (T2 W) main_arg13 (by decide)).trans (ta2_13 W)
theorem ta3_14 (W : Valuation τ sig (Elt Ideal)) : T3 W main_arg14 = W main_arg14 := (s1c_keep (T2 W) main_arg14 (by decide)).trans (ta2_14 W)
theorem ta3_15 (W : Valuation τ sig (Elt Ideal)) : T3 W main_arg15 = W main_arg15 := (s1c_keep (T2 W) main_arg15 (by decide)).trans (ta2_15 W)
theorem ta4_0 (W : Valuation τ sig (Elt Ideal)) : T4 W main_arg0 = W main_arg0 := (s1d_keep (T3 W) main_arg0 (by decide)).trans (ta3_0 W)
theorem ta4_1 (W : Valuation τ sig (Elt Ideal)) : T4 W main_arg1 = W main_arg1 := (s1d_keep (T3 W) main_arg1 (by decide)).trans (ta3_1 W)
theorem ta4_2 (W : Valuation τ sig (Elt Ideal)) : T4 W main_arg2 = W main_arg2 := (s1d_keep (T3 W) main_arg2 (by decide)).trans (ta3_2 W)
theorem ta4_3 (W : Valuation τ sig (Elt Ideal)) : T4 W main_arg3 = W main_arg3 := (s1d_keep (T3 W) main_arg3 (by decide)).trans (ta3_3 W)
theorem ta4_4 (W : Valuation τ sig (Elt Ideal)) : T4 W main_arg4 = W main_arg4 := (s1d_keep (T3 W) main_arg4 (by decide)).trans (ta3_4 W)
theorem ta4_5 (W : Valuation τ sig (Elt Ideal)) : T4 W main_arg5 = W main_arg5 := (s1d_keep (T3 W) main_arg5 (by decide)).trans (ta3_5 W)
theorem ta4_6 (W : Valuation τ sig (Elt Ideal)) : T4 W main_arg6 = W main_arg6 := (s1d_keep (T3 W) main_arg6 (by decide)).trans (ta3_6 W)
theorem ta4_7 (W : Valuation τ sig (Elt Ideal)) : T4 W main_arg7 = W main_arg7 := (s1d_keep (T3 W) main_arg7 (by decide)).trans (ta3_7 W)
theorem ta4_8 (W : Valuation τ sig (Elt Ideal)) : T4 W main_arg8 = W main_arg8 := (s1d_keep (T3 W) main_arg8 (by decide)).trans (ta3_8 W)
theorem ta4_9 (W : Valuation τ sig (Elt Ideal)) : T4 W main_arg9 = W main_arg9 := (s1d_keep (T3 W) main_arg9 (by decide)).trans (ta3_9 W)
theorem ta4_10 (W : Valuation τ sig (Elt Ideal)) : T4 W main_arg10 = W main_arg10 := (s1d_keep (T3 W) main_arg10 (by decide)).trans (ta3_10 W)
theorem ta4_11 (W : Valuation τ sig (Elt Ideal)) : T4 W main_arg11 = W main_arg11 := (s1d_keep (T3 W) main_arg11 (by decide)).trans (ta3_11 W)
theorem ta4_12 (W : Valuation τ sig (Elt Ideal)) : T4 W main_arg12 = W main_arg12 := (s1d_keep (T3 W) main_arg12 (by decide)).trans (ta3_12 W)
theorem ta4_13 (W : Valuation τ sig (Elt Ideal)) : T4 W main_arg13 = W main_arg13 := (s1d_keep (T3 W) main_arg13 (by decide)).trans (ta3_13 W)
theorem ta4_14 (W : Valuation τ sig (Elt Ideal)) : T4 W main_arg14 = W main_arg14 := (s1d_keep (T3 W) main_arg14 (by decide)).trans (ta3_14 W)
theorem ta4_15 (W : Valuation τ sig (Elt Ideal)) : T4 W main_arg15 = W main_arg15 := (s1d_keep (T3 W) main_arg15 (by decide)).trans (ta3_15 W)
theorem ta5_0 (W : Valuation τ sig (Elt Ideal)) : T5 W main_arg0 = W main_arg0 := (s1e_keep (T4 W) main_arg0 (by decide)).trans (ta4_0 W)
theorem ta5_1 (W : Valuation τ sig (Elt Ideal)) : T5 W main_arg1 = W main_arg1 := (s1e_keep (T4 W) main_arg1 (by decide)).trans (ta4_1 W)
theorem ta5_2 (W : Valuation τ sig (Elt Ideal)) : T5 W main_arg2 = W main_arg2 := (s1e_keep (T4 W) main_arg2 (by decide)).trans (ta4_2 W)
theorem ta5_3 (W : Valuation τ sig (Elt Ideal)) : T5 W main_arg3 = W main_arg3 := (s1e_keep (T4 W) main_arg3 (by decide)).trans (ta4_3 W)
theorem ta5_4 (W : Valuation τ sig (Elt Ideal)) : T5 W main_arg4 = W main_arg4 := (s1e_keep (T4 W) main_arg4 (by decide)).trans (ta4_4 W)
theorem ta5_5 (W : Valuation τ sig (Elt Ideal)) : T5 W main_arg5 = W main_arg5 := (s1e_keep (T4 W) main_arg5 (by decide)).trans (ta4_5 W)
theorem ta5_6 (W : Valuation τ sig (Elt Ideal)) : T5 W main_arg6 = W main_arg6 := (s1e_keep (T4 W) main_arg6 (by decide)).trans (ta4_6 W)
theorem ta5_7 (W : Valuation τ sig (Elt Ideal)) : T5 W main_arg7 = W main_arg7 := (s1e_keep (T4 W) main_arg7 (by decide)).trans (ta4_7 W)
theorem ta5_8 (W : Valuation τ sig (Elt Ideal)) : T5 W main_arg8 = W main_arg8 := (s1e_keep (T4 W) main_arg8 (by decide)).trans (ta4_8 W)
theorem ta5_9 (W : Valuation τ sig (Elt Ideal)) : T5 W main_arg9 = W main_arg9 := (s1e_keep (T4 W) main_arg9 (by decide)).trans (ta4_9 W)
theorem ta5_10 (W : Valuation τ sig (Elt Ideal)) : T5 W main_arg10 = W main_arg10 := (s1e_keep (T4 W) main_arg10 (by decide)).trans (ta4_10 W)
theorem ta5_11 (W : Valuation τ sig (Elt Ideal)) : T5 W main_arg11 = W main_arg11 := (s1e_keep (T4 W) main_arg11 (by decide)).trans (ta4_11 W)
theorem ta5_12 (W : Valuation τ sig (Elt Ideal)) : T5 W main_arg12 = W main_arg12 := (s1e_keep (T4 W) main_arg12 (by decide)).trans (ta4_12 W)
theorem ta5_13 (W : Valuation τ sig (Elt Ideal)) : T5 W main_arg13 = W main_arg13 := (s1e_keep (T4 W) main_arg13 (by decide)).trans (ta4_13 W)
theorem ta5_14 (W : Valuation τ sig (Elt Ideal)) : T5 W main_arg14 = W main_arg14 := (s1e_keep (T4 W) main_arg14 (by decide)).trans (ta4_14 W)
theorem ta5_15 (W : Valuation τ sig (Elt Ideal)) : T5 W main_arg15 = W main_arg15 := (s1e_keep (T4 W) main_arg15 (by decide)).trans (ta4_15 W)
theorem ta6_0 (W : Valuation τ sig (Elt Ideal)) : T6 W main_arg0 = W main_arg0 := (s1f_keep (T5 W) main_arg0 (by decide)).trans (ta5_0 W)
theorem ta6_1 (W : Valuation τ sig (Elt Ideal)) : T6 W main_arg1 = W main_arg1 := (s1f_keep (T5 W) main_arg1 (by decide)).trans (ta5_1 W)
theorem ta6_2 (W : Valuation τ sig (Elt Ideal)) : T6 W main_arg2 = W main_arg2 := (s1f_keep (T5 W) main_arg2 (by decide)).trans (ta5_2 W)
theorem ta6_3 (W : Valuation τ sig (Elt Ideal)) : T6 W main_arg3 = W main_arg3 := (s1f_keep (T5 W) main_arg3 (by decide)).trans (ta5_3 W)
theorem ta6_4 (W : Valuation τ sig (Elt Ideal)) : T6 W main_arg4 = W main_arg4 := (s1f_keep (T5 W) main_arg4 (by decide)).trans (ta5_4 W)
theorem ta6_5 (W : Valuation τ sig (Elt Ideal)) : T6 W main_arg5 = W main_arg5 := (s1f_keep (T5 W) main_arg5 (by decide)).trans (ta5_5 W)
theorem ta6_6 (W : Valuation τ sig (Elt Ideal)) : T6 W main_arg6 = W main_arg6 := (s1f_keep (T5 W) main_arg6 (by decide)).trans (ta5_6 W)
theorem ta6_7 (W : Valuation τ sig (Elt Ideal)) : T6 W main_arg7 = W main_arg7 := (s1f_keep (T5 W) main_arg7 (by decide)).trans (ta5_7 W)
theorem ta6_8 (W : Valuation τ sig (Elt Ideal)) : T6 W main_arg8 = W main_arg8 := (s1f_keep (T5 W) main_arg8 (by decide)).trans (ta5_8 W)
theorem ta6_9 (W : Valuation τ sig (Elt Ideal)) : T6 W main_arg9 = W main_arg9 := (s1f_keep (T5 W) main_arg9 (by decide)).trans (ta5_9 W)
theorem ta6_10 (W : Valuation τ sig (Elt Ideal)) : T6 W main_arg10 = W main_arg10 := (s1f_keep (T5 W) main_arg10 (by decide)).trans (ta5_10 W)
theorem ta6_11 (W : Valuation τ sig (Elt Ideal)) : T6 W main_arg11 = W main_arg11 := (s1f_keep (T5 W) main_arg11 (by decide)).trans (ta5_11 W)
theorem ta6_12 (W : Valuation τ sig (Elt Ideal)) : T6 W main_arg12 = W main_arg12 := (s1f_keep (T5 W) main_arg12 (by decide)).trans (ta5_12 W)
theorem ta6_13 (W : Valuation τ sig (Elt Ideal)) : T6 W main_arg13 = W main_arg13 := (s1f_keep (T5 W) main_arg13 (by decide)).trans (ta5_13 W)
theorem ta6_14 (W : Valuation τ sig (Elt Ideal)) : T6 W main_arg14 = W main_arg14 := (s1f_keep (T5 W) main_arg14 (by decide)).trans (ta5_14 W)
theorem ta6_15 (W : Valuation τ sig (Elt Ideal)) : T6 W main_arg15 = W main_arg15 := (s1f_keep (T5 W) main_arg15 (by decide)).trans (ta5_15 W)
theorem ta7_0 (W : Valuation τ sig (Elt Ideal)) : T7 W main_arg0 = W main_arg0 := (s2a_keep (T6 W) main_arg0 (by decide)).trans (ta6_0 W)
theorem ta7_1 (W : Valuation τ sig (Elt Ideal)) : T7 W main_arg1 = W main_arg1 := (s2a_keep (T6 W) main_arg1 (by decide)).trans (ta6_1 W)
theorem ta7_2 (W : Valuation τ sig (Elt Ideal)) : T7 W main_arg2 = W main_arg2 := (s2a_keep (T6 W) main_arg2 (by decide)).trans (ta6_2 W)
theorem ta7_3 (W : Valuation τ sig (Elt Ideal)) : T7 W main_arg3 = W main_arg3 := (s2a_keep (T6 W) main_arg3 (by decide)).trans (ta6_3 W)
theorem ta7_4 (W : Valuation τ sig (Elt Ideal)) : T7 W main_arg4 = W main_arg4 := (s2a_keep (T6 W) main_arg4 (by decide)).trans (ta6_4 W)
theorem ta7_5 (W : Valuation τ sig (Elt Ideal)) : T7 W main_arg5 = W main_arg5 := (s2a_keep (T6 W) main_arg5 (by decide)).trans (ta6_5 W)
theorem ta7_6 (W : Valuation τ sig (Elt Ideal)) : T7 W main_arg6 = W main_arg6 := (s2a_keep (T6 W) main_arg6 (by decide)).trans (ta6_6 W)
theorem ta7_7 (W : Valuation τ sig (Elt Ideal)) : T7 W main_arg7 = W main_arg7 := (s2a_keep (T6 W) main_arg7 (by decide)).trans (ta6_7 W)
theorem ta7_8 (W : Valuation τ sig (Elt Ideal)) : T7 W main_arg8 = W main_arg8 := (s2a_keep (T6 W) main_arg8 (by decide)).trans (ta6_8 W)
theorem ta7_9 (W : Valuation τ sig (Elt Ideal)) : T7 W main_arg9 = W main_arg9 := (s2a_keep (T6 W) main_arg9 (by decide)).trans (ta6_9 W)
theorem ta7_10 (W : Valuation τ sig (Elt Ideal)) : T7 W main_arg10 = W main_arg10 := (s2a_keep (T6 W) main_arg10 (by decide)).trans (ta6_10 W)
theorem ta7_11 (W : Valuation τ sig (Elt Ideal)) : T7 W main_arg11 = W main_arg11 := (s2a_keep (T6 W) main_arg11 (by decide)).trans (ta6_11 W)
theorem ta7_12 (W : Valuation τ sig (Elt Ideal)) : T7 W main_arg12 = W main_arg12 := (s2a_keep (T6 W) main_arg12 (by decide)).trans (ta6_12 W)
theorem ta7_13 (W : Valuation τ sig (Elt Ideal)) : T7 W main_arg13 = W main_arg13 := (s2a_keep (T6 W) main_arg13 (by decide)).trans (ta6_13 W)
theorem ta7_14 (W : Valuation τ sig (Elt Ideal)) : T7 W main_arg14 = W main_arg14 := (s2a_keep (T6 W) main_arg14 (by decide)).trans (ta6_14 W)
theorem ta7_15 (W : Valuation τ sig (Elt Ideal)) : T7 W main_arg15 = W main_arg15 := (s2a_keep (T6 W) main_arg15 (by decide)).trans (ta6_15 W)
theorem ta8_0 (W : Valuation τ sig (Elt Ideal)) : T8 W main_arg0 = W main_arg0 := (s2b_keep (T7 W) main_arg0 (by decide)).trans (ta7_0 W)
theorem ta8_1 (W : Valuation τ sig (Elt Ideal)) : T8 W main_arg1 = W main_arg1 := (s2b_keep (T7 W) main_arg1 (by decide)).trans (ta7_1 W)
theorem ta8_2 (W : Valuation τ sig (Elt Ideal)) : T8 W main_arg2 = W main_arg2 := (s2b_keep (T7 W) main_arg2 (by decide)).trans (ta7_2 W)
theorem ta8_3 (W : Valuation τ sig (Elt Ideal)) : T8 W main_arg3 = W main_arg3 := (s2b_keep (T7 W) main_arg3 (by decide)).trans (ta7_3 W)
theorem ta8_4 (W : Valuation τ sig (Elt Ideal)) : T8 W main_arg4 = W main_arg4 := (s2b_keep (T7 W) main_arg4 (by decide)).trans (ta7_4 W)
theorem ta8_5 (W : Valuation τ sig (Elt Ideal)) : T8 W main_arg5 = W main_arg5 := (s2b_keep (T7 W) main_arg5 (by decide)).trans (ta7_5 W)
theorem ta8_6 (W : Valuation τ sig (Elt Ideal)) : T8 W main_arg6 = W main_arg6 := (s2b_keep (T7 W) main_arg6 (by decide)).trans (ta7_6 W)
theorem ta8_7 (W : Valuation τ sig (Elt Ideal)) : T8 W main_arg7 = W main_arg7 := (s2b_keep (T7 W) main_arg7 (by decide)).trans (ta7_7 W)
theorem ta8_8 (W : Valuation τ sig (Elt Ideal)) : T8 W main_arg8 = W main_arg8 := (s2b_keep (T7 W) main_arg8 (by decide)).trans (ta7_8 W)
theorem ta8_9 (W : Valuation τ sig (Elt Ideal)) : T8 W main_arg9 = W main_arg9 := (s2b_keep (T7 W) main_arg9 (by decide)).trans (ta7_9 W)
theorem ta8_10 (W : Valuation τ sig (Elt Ideal)) : T8 W main_arg10 = W main_arg10 := (s2b_keep (T7 W) main_arg10 (by decide)).trans (ta7_10 W)
theorem ta8_11 (W : Valuation τ sig (Elt Ideal)) : T8 W main_arg11 = W main_arg11 := (s2b_keep (T7 W) main_arg11 (by decide)).trans (ta7_11 W)
theorem ta8_12 (W : Valuation τ sig (Elt Ideal)) : T8 W main_arg12 = W main_arg12 := (s2b_keep (T7 W) main_arg12 (by decide)).trans (ta7_12 W)
theorem ta8_13 (W : Valuation τ sig (Elt Ideal)) : T8 W main_arg13 = W main_arg13 := (s2b_keep (T7 W) main_arg13 (by decide)).trans (ta7_13 W)
theorem ta8_14 (W : Valuation τ sig (Elt Ideal)) : T8 W main_arg14 = W main_arg14 := (s2b_keep (T7 W) main_arg14 (by decide)).trans (ta7_14 W)
theorem ta8_15 (W : Valuation τ sig (Elt Ideal)) : T8 W main_arg15 = W main_arg15 := (s2b_keep (T7 W) main_arg15 (by decide)).trans (ta7_15 W)
theorem ta9_0 (W : Valuation τ sig (Elt Ideal)) : T9 W main_arg0 = W main_arg0 := (s2c_keep (T8 W) main_arg0 (by decide)).trans (ta8_0 W)
theorem ta9_1 (W : Valuation τ sig (Elt Ideal)) : T9 W main_arg1 = W main_arg1 := (s2c_keep (T8 W) main_arg1 (by decide)).trans (ta8_1 W)
theorem ta9_2 (W : Valuation τ sig (Elt Ideal)) : T9 W main_arg2 = W main_arg2 := (s2c_keep (T8 W) main_arg2 (by decide)).trans (ta8_2 W)
theorem ta9_3 (W : Valuation τ sig (Elt Ideal)) : T9 W main_arg3 = W main_arg3 := (s2c_keep (T8 W) main_arg3 (by decide)).trans (ta8_3 W)
theorem ta9_4 (W : Valuation τ sig (Elt Ideal)) : T9 W main_arg4 = W main_arg4 := (s2c_keep (T8 W) main_arg4 (by decide)).trans (ta8_4 W)
theorem ta9_5 (W : Valuation τ sig (Elt Ideal)) : T9 W main_arg5 = W main_arg5 := (s2c_keep (T8 W) main_arg5 (by decide)).trans (ta8_5 W)
theorem ta9_6 (W : Valuation τ sig (Elt Ideal)) : T9 W main_arg6 = W main_arg6 := (s2c_keep (T8 W) main_arg6 (by decide)).trans (ta8_6 W)
theorem ta9_7 (W : Valuation τ sig (Elt Ideal)) : T9 W main_arg7 = W main_arg7 := (s2c_keep (T8 W) main_arg7 (by decide)).trans (ta8_7 W)
theorem ta9_8 (W : Valuation τ sig (Elt Ideal)) : T9 W main_arg8 = W main_arg8 := (s2c_keep (T8 W) main_arg8 (by decide)).trans (ta8_8 W)
theorem ta9_9 (W : Valuation τ sig (Elt Ideal)) : T9 W main_arg9 = W main_arg9 := (s2c_keep (T8 W) main_arg9 (by decide)).trans (ta8_9 W)
theorem ta9_10 (W : Valuation τ sig (Elt Ideal)) : T9 W main_arg10 = W main_arg10 := (s2c_keep (T8 W) main_arg10 (by decide)).trans (ta8_10 W)
theorem ta9_11 (W : Valuation τ sig (Elt Ideal)) : T9 W main_arg11 = W main_arg11 := (s2c_keep (T8 W) main_arg11 (by decide)).trans (ta8_11 W)
theorem ta9_12 (W : Valuation τ sig (Elt Ideal)) : T9 W main_arg12 = W main_arg12 := (s2c_keep (T8 W) main_arg12 (by decide)).trans (ta8_12 W)
theorem ta9_13 (W : Valuation τ sig (Elt Ideal)) : T9 W main_arg13 = W main_arg13 := (s2c_keep (T8 W) main_arg13 (by decide)).trans (ta8_13 W)
theorem ta9_14 (W : Valuation τ sig (Elt Ideal)) : T9 W main_arg14 = W main_arg14 := (s2c_keep (T8 W) main_arg14 (by decide)).trans (ta8_14 W)
theorem ta9_15 (W : Valuation τ sig (Elt Ideal)) : T9 W main_arg15 = W main_arg15 := (s2c_keep (T8 W) main_arg15 (by decide)).trans (ta8_15 W)
theorem ta10_0 (W : Valuation τ sig (Elt Ideal)) : T10 W main_arg0 = W main_arg0 := (s2d_keep (T9 W) main_arg0 (by decide)).trans (ta9_0 W)
theorem ta10_1 (W : Valuation τ sig (Elt Ideal)) : T10 W main_arg1 = W main_arg1 := (s2d_keep (T9 W) main_arg1 (by decide)).trans (ta9_1 W)
theorem ta10_2 (W : Valuation τ sig (Elt Ideal)) : T10 W main_arg2 = W main_arg2 := (s2d_keep (T9 W) main_arg2 (by decide)).trans (ta9_2 W)
theorem ta10_3 (W : Valuation τ sig (Elt Ideal)) : T10 W main_arg3 = W main_arg3 := (s2d_keep (T9 W) main_arg3 (by decide)).trans (ta9_3 W)
theorem ta10_4 (W : Valuation τ sig (Elt Ideal)) : T10 W main_arg4 = W main_arg4 := (s2d_keep (T9 W) main_arg4 (by decide)).trans (ta9_4 W)
theorem ta10_5 (W : Valuation τ sig (Elt Ideal)) : T10 W main_arg5 = W main_arg5 := (s2d_keep (T9 W) main_arg5 (by decide)).trans (ta9_5 W)
theorem ta10_6 (W : Valuation τ sig (Elt Ideal)) : T10 W main_arg6 = W main_arg6 := (s2d_keep (T9 W) main_arg6 (by decide)).trans (ta9_6 W)
theorem ta10_7 (W : Valuation τ sig (Elt Ideal)) : T10 W main_arg7 = W main_arg7 := (s2d_keep (T9 W) main_arg7 (by decide)).trans (ta9_7 W)
theorem ta10_8 (W : Valuation τ sig (Elt Ideal)) : T10 W main_arg8 = W main_arg8 := (s2d_keep (T9 W) main_arg8 (by decide)).trans (ta9_8 W)
theorem ta10_9 (W : Valuation τ sig (Elt Ideal)) : T10 W main_arg9 = W main_arg9 := (s2d_keep (T9 W) main_arg9 (by decide)).trans (ta9_9 W)
theorem ta10_10 (W : Valuation τ sig (Elt Ideal)) : T10 W main_arg10 = W main_arg10 := (s2d_keep (T9 W) main_arg10 (by decide)).trans (ta9_10 W)
theorem ta10_11 (W : Valuation τ sig (Elt Ideal)) : T10 W main_arg11 = W main_arg11 := (s2d_keep (T9 W) main_arg11 (by decide)).trans (ta9_11 W)
theorem ta10_12 (W : Valuation τ sig (Elt Ideal)) : T10 W main_arg12 = W main_arg12 := (s2d_keep (T9 W) main_arg12 (by decide)).trans (ta9_12 W)
theorem ta10_13 (W : Valuation τ sig (Elt Ideal)) : T10 W main_arg13 = W main_arg13 := (s2d_keep (T9 W) main_arg13 (by decide)).trans (ta9_13 W)
theorem ta10_14 (W : Valuation τ sig (Elt Ideal)) : T10 W main_arg14 = W main_arg14 := (s2d_keep (T9 W) main_arg14 (by decide)).trans (ta9_14 W)
theorem ta10_15 (W : Valuation τ sig (Elt Ideal)) : T10 W main_arg15 = W main_arg15 := (s2d_keep (T9 W) main_arg15 (by decide)).trans (ta9_15 W)
theorem ta11_0 (W : Valuation τ sig (Elt Ideal)) : T11 W main_arg0 = W main_arg0 := (s2e_keep (T10 W) main_arg0 (by decide)).trans (ta10_0 W)
theorem ta11_1 (W : Valuation τ sig (Elt Ideal)) : T11 W main_arg1 = W main_arg1 := (s2e_keep (T10 W) main_arg1 (by decide)).trans (ta10_1 W)
theorem ta11_2 (W : Valuation τ sig (Elt Ideal)) : T11 W main_arg2 = W main_arg2 := (s2e_keep (T10 W) main_arg2 (by decide)).trans (ta10_2 W)
theorem ta11_3 (W : Valuation τ sig (Elt Ideal)) : T11 W main_arg3 = W main_arg3 := (s2e_keep (T10 W) main_arg3 (by decide)).trans (ta10_3 W)
theorem ta11_4 (W : Valuation τ sig (Elt Ideal)) : T11 W main_arg4 = W main_arg4 := (s2e_keep (T10 W) main_arg4 (by decide)).trans (ta10_4 W)
theorem ta11_5 (W : Valuation τ sig (Elt Ideal)) : T11 W main_arg5 = W main_arg5 := (s2e_keep (T10 W) main_arg5 (by decide)).trans (ta10_5 W)
theorem ta11_6 (W : Valuation τ sig (Elt Ideal)) : T11 W main_arg6 = W main_arg6 := (s2e_keep (T10 W) main_arg6 (by decide)).trans (ta10_6 W)
theorem ta11_7 (W : Valuation τ sig (Elt Ideal)) : T11 W main_arg7 = W main_arg7 := (s2e_keep (T10 W) main_arg7 (by decide)).trans (ta10_7 W)
theorem ta11_8 (W : Valuation τ sig (Elt Ideal)) : T11 W main_arg8 = W main_arg8 := (s2e_keep (T10 W) main_arg8 (by decide)).trans (ta10_8 W)
theorem ta11_9 (W : Valuation τ sig (Elt Ideal)) : T11 W main_arg9 = W main_arg9 := (s2e_keep (T10 W) main_arg9 (by decide)).trans (ta10_9 W)
theorem ta11_10 (W : Valuation τ sig (Elt Ideal)) : T11 W main_arg10 = W main_arg10 := (s2e_keep (T10 W) main_arg10 (by decide)).trans (ta10_10 W)
theorem ta11_11 (W : Valuation τ sig (Elt Ideal)) : T11 W main_arg11 = W main_arg11 := (s2e_keep (T10 W) main_arg11 (by decide)).trans (ta10_11 W)
theorem ta11_12 (W : Valuation τ sig (Elt Ideal)) : T11 W main_arg12 = W main_arg12 := (s2e_keep (T10 W) main_arg12 (by decide)).trans (ta10_12 W)
theorem ta11_13 (W : Valuation τ sig (Elt Ideal)) : T11 W main_arg13 = W main_arg13 := (s2e_keep (T10 W) main_arg13 (by decide)).trans (ta10_13 W)
theorem ta11_14 (W : Valuation τ sig (Elt Ideal)) : T11 W main_arg14 = W main_arg14 := (s2e_keep (T10 W) main_arg14 (by decide)).trans (ta10_14 W)
theorem ta11_15 (W : Valuation τ sig (Elt Ideal)) : T11 W main_arg15 = W main_arg15 := (s2e_keep (T10 W) main_arg15 (by decide)).trans (ta10_15 W)
theorem ta12_0 (W : Valuation τ sig (Elt Ideal)) : T12 W main_arg0 = W main_arg0 := (s2f_keep (T11 W) main_arg0 (by decide)).trans (ta11_0 W)
theorem ta12_1 (W : Valuation τ sig (Elt Ideal)) : T12 W main_arg1 = W main_arg1 := (s2f_keep (T11 W) main_arg1 (by decide)).trans (ta11_1 W)
theorem ta12_2 (W : Valuation τ sig (Elt Ideal)) : T12 W main_arg2 = W main_arg2 := (s2f_keep (T11 W) main_arg2 (by decide)).trans (ta11_2 W)
theorem ta12_3 (W : Valuation τ sig (Elt Ideal)) : T12 W main_arg3 = W main_arg3 := (s2f_keep (T11 W) main_arg3 (by decide)).trans (ta11_3 W)
theorem ta12_4 (W : Valuation τ sig (Elt Ideal)) : T12 W main_arg4 = W main_arg4 := (s2f_keep (T11 W) main_arg4 (by decide)).trans (ta11_4 W)
theorem ta12_5 (W : Valuation τ sig (Elt Ideal)) : T12 W main_arg5 = W main_arg5 := (s2f_keep (T11 W) main_arg5 (by decide)).trans (ta11_5 W)
theorem ta12_6 (W : Valuation τ sig (Elt Ideal)) : T12 W main_arg6 = W main_arg6 := (s2f_keep (T11 W) main_arg6 (by decide)).trans (ta11_6 W)
theorem ta12_7 (W : Valuation τ sig (Elt Ideal)) : T12 W main_arg7 = W main_arg7 := (s2f_keep (T11 W) main_arg7 (by decide)).trans (ta11_7 W)
theorem ta12_8 (W : Valuation τ sig (Elt Ideal)) : T12 W main_arg8 = W main_arg8 := (s2f_keep (T11 W) main_arg8 (by decide)).trans (ta11_8 W)
theorem ta12_9 (W : Valuation τ sig (Elt Ideal)) : T12 W main_arg9 = W main_arg9 := (s2f_keep (T11 W) main_arg9 (by decide)).trans (ta11_9 W)
theorem ta12_10 (W : Valuation τ sig (Elt Ideal)) : T12 W main_arg10 = W main_arg10 := (s2f_keep (T11 W) main_arg10 (by decide)).trans (ta11_10 W)
theorem ta12_11 (W : Valuation τ sig (Elt Ideal)) : T12 W main_arg11 = W main_arg11 := (s2f_keep (T11 W) main_arg11 (by decide)).trans (ta11_11 W)
theorem ta12_12 (W : Valuation τ sig (Elt Ideal)) : T12 W main_arg12 = W main_arg12 := (s2f_keep (T11 W) main_arg12 (by decide)).trans (ta11_12 W)
theorem ta12_13 (W : Valuation τ sig (Elt Ideal)) : T12 W main_arg13 = W main_arg13 := (s2f_keep (T11 W) main_arg13 (by decide)).trans (ta11_13 W)
theorem ta12_14 (W : Valuation τ sig (Elt Ideal)) : T12 W main_arg14 = W main_arg14 := (s2f_keep (T11 W) main_arg14 (by decide)).trans (ta11_14 W)
theorem ta12_15 (W : Valuation τ sig (Elt Ideal)) : T12 W main_arg15 = W main_arg15 := (s2f_keep (T11 W) main_arg15 (by decide)).trans (ta11_15 W)
theorem ta13_0 (W : Valuation τ sig (Elt Ideal)) : T13 W main_arg0 = W main_arg0 := (s3a_keep (T12 W) main_arg0 (by decide)).trans (ta12_0 W)
theorem ta13_1 (W : Valuation τ sig (Elt Ideal)) : T13 W main_arg1 = W main_arg1 := (s3a_keep (T12 W) main_arg1 (by decide)).trans (ta12_1 W)
theorem ta13_2 (W : Valuation τ sig (Elt Ideal)) : T13 W main_arg2 = W main_arg2 := (s3a_keep (T12 W) main_arg2 (by decide)).trans (ta12_2 W)
theorem ta13_3 (W : Valuation τ sig (Elt Ideal)) : T13 W main_arg3 = W main_arg3 := (s3a_keep (T12 W) main_arg3 (by decide)).trans (ta12_3 W)
theorem ta13_4 (W : Valuation τ sig (Elt Ideal)) : T13 W main_arg4 = W main_arg4 := (s3a_keep (T12 W) main_arg4 (by decide)).trans (ta12_4 W)
theorem ta13_5 (W : Valuation τ sig (Elt Ideal)) : T13 W main_arg5 = W main_arg5 := (s3a_keep (T12 W) main_arg5 (by decide)).trans (ta12_5 W)
theorem ta13_6 (W : Valuation τ sig (Elt Ideal)) : T13 W main_arg6 = W main_arg6 := (s3a_keep (T12 W) main_arg6 (by decide)).trans (ta12_6 W)
theorem ta13_7 (W : Valuation τ sig (Elt Ideal)) : T13 W main_arg7 = W main_arg7 := (s3a_keep (T12 W) main_arg7 (by decide)).trans (ta12_7 W)
theorem ta13_8 (W : Valuation τ sig (Elt Ideal)) : T13 W main_arg8 = W main_arg8 := (s3a_keep (T12 W) main_arg8 (by decide)).trans (ta12_8 W)
theorem ta13_9 (W : Valuation τ sig (Elt Ideal)) : T13 W main_arg9 = W main_arg9 := (s3a_keep (T12 W) main_arg9 (by decide)).trans (ta12_9 W)
theorem ta13_10 (W : Valuation τ sig (Elt Ideal)) : T13 W main_arg10 = W main_arg10 := (s3a_keep (T12 W) main_arg10 (by decide)).trans (ta12_10 W)
theorem ta13_11 (W : Valuation τ sig (Elt Ideal)) : T13 W main_arg11 = W main_arg11 := (s3a_keep (T12 W) main_arg11 (by decide)).trans (ta12_11 W)
theorem ta13_12 (W : Valuation τ sig (Elt Ideal)) : T13 W main_arg12 = W main_arg12 := (s3a_keep (T12 W) main_arg12 (by decide)).trans (ta12_12 W)
theorem ta13_13 (W : Valuation τ sig (Elt Ideal)) : T13 W main_arg13 = W main_arg13 := (s3a_keep (T12 W) main_arg13 (by decide)).trans (ta12_13 W)
theorem ta13_14 (W : Valuation τ sig (Elt Ideal)) : T13 W main_arg14 = W main_arg14 := (s3a_keep (T12 W) main_arg14 (by decide)).trans (ta12_14 W)
theorem ta13_15 (W : Valuation τ sig (Elt Ideal)) : T13 W main_arg15 = W main_arg15 := (s3a_keep (T12 W) main_arg15 (by decide)).trans (ta12_15 W)
theorem ta14_0 (W : Valuation τ sig (Elt Ideal)) : T14 W main_arg0 = W main_arg0 := (s3b_keep (T13 W) main_arg0 (by decide)).trans (ta13_0 W)
theorem ta14_1 (W : Valuation τ sig (Elt Ideal)) : T14 W main_arg1 = W main_arg1 := (s3b_keep (T13 W) main_arg1 (by decide)).trans (ta13_1 W)
theorem ta14_2 (W : Valuation τ sig (Elt Ideal)) : T14 W main_arg2 = W main_arg2 := (s3b_keep (T13 W) main_arg2 (by decide)).trans (ta13_2 W)
theorem ta14_3 (W : Valuation τ sig (Elt Ideal)) : T14 W main_arg3 = W main_arg3 := (s3b_keep (T13 W) main_arg3 (by decide)).trans (ta13_3 W)
theorem ta14_4 (W : Valuation τ sig (Elt Ideal)) : T14 W main_arg4 = W main_arg4 := (s3b_keep (T13 W) main_arg4 (by decide)).trans (ta13_4 W)
theorem ta14_5 (W : Valuation τ sig (Elt Ideal)) : T14 W main_arg5 = W main_arg5 := (s3b_keep (T13 W) main_arg5 (by decide)).trans (ta13_5 W)
theorem ta14_6 (W : Valuation τ sig (Elt Ideal)) : T14 W main_arg6 = W main_arg6 := (s3b_keep (T13 W) main_arg6 (by decide)).trans (ta13_6 W)
theorem ta14_7 (W : Valuation τ sig (Elt Ideal)) : T14 W main_arg7 = W main_arg7 := (s3b_keep (T13 W) main_arg7 (by decide)).trans (ta13_7 W)
theorem ta14_8 (W : Valuation τ sig (Elt Ideal)) : T14 W main_arg8 = W main_arg8 := (s3b_keep (T13 W) main_arg8 (by decide)).trans (ta13_8 W)
theorem ta14_9 (W : Valuation τ sig (Elt Ideal)) : T14 W main_arg9 = W main_arg9 := (s3b_keep (T13 W) main_arg9 (by decide)).trans (ta13_9 W)
theorem ta14_10 (W : Valuation τ sig (Elt Ideal)) : T14 W main_arg10 = W main_arg10 := (s3b_keep (T13 W) main_arg10 (by decide)).trans (ta13_10 W)
theorem ta14_11 (W : Valuation τ sig (Elt Ideal)) : T14 W main_arg11 = W main_arg11 := (s3b_keep (T13 W) main_arg11 (by decide)).trans (ta13_11 W)
theorem ta14_12 (W : Valuation τ sig (Elt Ideal)) : T14 W main_arg12 = W main_arg12 := (s3b_keep (T13 W) main_arg12 (by decide)).trans (ta13_12 W)
theorem ta14_13 (W : Valuation τ sig (Elt Ideal)) : T14 W main_arg13 = W main_arg13 := (s3b_keep (T13 W) main_arg13 (by decide)).trans (ta13_13 W)
theorem ta14_14 (W : Valuation τ sig (Elt Ideal)) : T14 W main_arg14 = W main_arg14 := (s3b_keep (T13 W) main_arg14 (by decide)).trans (ta13_14 W)
theorem ta14_15 (W : Valuation τ sig (Elt Ideal)) : T14 W main_arg15 = W main_arg15 := (s3b_keep (T13 W) main_arg15 (by decide)).trans (ta13_15 W)
theorem ta15_0 (W : Valuation τ sig (Elt Ideal)) : T15 W main_arg0 = W main_arg0 := (s3c_keep (T14 W) main_arg0 (by decide)).trans (ta14_0 W)
theorem ta15_1 (W : Valuation τ sig (Elt Ideal)) : T15 W main_arg1 = W main_arg1 := (s3c_keep (T14 W) main_arg1 (by decide)).trans (ta14_1 W)
theorem ta15_2 (W : Valuation τ sig (Elt Ideal)) : T15 W main_arg2 = W main_arg2 := (s3c_keep (T14 W) main_arg2 (by decide)).trans (ta14_2 W)
theorem ta15_3 (W : Valuation τ sig (Elt Ideal)) : T15 W main_arg3 = W main_arg3 := (s3c_keep (T14 W) main_arg3 (by decide)).trans (ta14_3 W)
theorem ta15_4 (W : Valuation τ sig (Elt Ideal)) : T15 W main_arg4 = W main_arg4 := (s3c_keep (T14 W) main_arg4 (by decide)).trans (ta14_4 W)
theorem ta15_5 (W : Valuation τ sig (Elt Ideal)) : T15 W main_arg5 = W main_arg5 := (s3c_keep (T14 W) main_arg5 (by decide)).trans (ta14_5 W)
theorem ta15_6 (W : Valuation τ sig (Elt Ideal)) : T15 W main_arg6 = W main_arg6 := (s3c_keep (T14 W) main_arg6 (by decide)).trans (ta14_6 W)
theorem ta15_7 (W : Valuation τ sig (Elt Ideal)) : T15 W main_arg7 = W main_arg7 := (s3c_keep (T14 W) main_arg7 (by decide)).trans (ta14_7 W)
theorem ta15_8 (W : Valuation τ sig (Elt Ideal)) : T15 W main_arg8 = W main_arg8 := (s3c_keep (T14 W) main_arg8 (by decide)).trans (ta14_8 W)
theorem ta15_9 (W : Valuation τ sig (Elt Ideal)) : T15 W main_arg9 = W main_arg9 := (s3c_keep (T14 W) main_arg9 (by decide)).trans (ta14_9 W)
theorem ta15_10 (W : Valuation τ sig (Elt Ideal)) : T15 W main_arg10 = W main_arg10 := (s3c_keep (T14 W) main_arg10 (by decide)).trans (ta14_10 W)
theorem ta15_11 (W : Valuation τ sig (Elt Ideal)) : T15 W main_arg11 = W main_arg11 := (s3c_keep (T14 W) main_arg11 (by decide)).trans (ta14_11 W)
theorem ta15_12 (W : Valuation τ sig (Elt Ideal)) : T15 W main_arg12 = W main_arg12 := (s3c_keep (T14 W) main_arg12 (by decide)).trans (ta14_12 W)
theorem ta15_13 (W : Valuation τ sig (Elt Ideal)) : T15 W main_arg13 = W main_arg13 := (s3c_keep (T14 W) main_arg13 (by decide)).trans (ta14_13 W)
theorem ta15_14 (W : Valuation τ sig (Elt Ideal)) : T15 W main_arg14 = W main_arg14 := (s3c_keep (T14 W) main_arg14 (by decide)).trans (ta14_14 W)
theorem ta15_15 (W : Valuation τ sig (Elt Ideal)) : T15 W main_arg15 = W main_arg15 := (s3c_keep (T14 W) main_arg15 (by decide)).trans (ta14_15 W)
theorem ta16_0 (W : Valuation τ sig (Elt Ideal)) : T16 W main_arg0 = W main_arg0 := (s3d_keep (T15 W) main_arg0 (by decide)).trans (ta15_0 W)
theorem ta16_1 (W : Valuation τ sig (Elt Ideal)) : T16 W main_arg1 = W main_arg1 := (s3d_keep (T15 W) main_arg1 (by decide)).trans (ta15_1 W)
theorem ta16_2 (W : Valuation τ sig (Elt Ideal)) : T16 W main_arg2 = W main_arg2 := (s3d_keep (T15 W) main_arg2 (by decide)).trans (ta15_2 W)
theorem ta16_3 (W : Valuation τ sig (Elt Ideal)) : T16 W main_arg3 = W main_arg3 := (s3d_keep (T15 W) main_arg3 (by decide)).trans (ta15_3 W)
theorem ta16_4 (W : Valuation τ sig (Elt Ideal)) : T16 W main_arg4 = W main_arg4 := (s3d_keep (T15 W) main_arg4 (by decide)).trans (ta15_4 W)
theorem ta16_5 (W : Valuation τ sig (Elt Ideal)) : T16 W main_arg5 = W main_arg5 := (s3d_keep (T15 W) main_arg5 (by decide)).trans (ta15_5 W)
theorem ta16_6 (W : Valuation τ sig (Elt Ideal)) : T16 W main_arg6 = W main_arg6 := (s3d_keep (T15 W) main_arg6 (by decide)).trans (ta15_6 W)
theorem ta16_7 (W : Valuation τ sig (Elt Ideal)) : T16 W main_arg7 = W main_arg7 := (s3d_keep (T15 W) main_arg7 (by decide)).trans (ta15_7 W)
theorem ta16_8 (W : Valuation τ sig (Elt Ideal)) : T16 W main_arg8 = W main_arg8 := (s3d_keep (T15 W) main_arg8 (by decide)).trans (ta15_8 W)
theorem ta16_9 (W : Valuation τ sig (Elt Ideal)) : T16 W main_arg9 = W main_arg9 := (s3d_keep (T15 W) main_arg9 (by decide)).trans (ta15_9 W)
theorem ta16_10 (W : Valuation τ sig (Elt Ideal)) : T16 W main_arg10 = W main_arg10 := (s3d_keep (T15 W) main_arg10 (by decide)).trans (ta15_10 W)
theorem ta16_11 (W : Valuation τ sig (Elt Ideal)) : T16 W main_arg11 = W main_arg11 := (s3d_keep (T15 W) main_arg11 (by decide)).trans (ta15_11 W)
theorem ta16_12 (W : Valuation τ sig (Elt Ideal)) : T16 W main_arg12 = W main_arg12 := (s3d_keep (T15 W) main_arg12 (by decide)).trans (ta15_12 W)
theorem ta16_13 (W : Valuation τ sig (Elt Ideal)) : T16 W main_arg13 = W main_arg13 := (s3d_keep (T15 W) main_arg13 (by decide)).trans (ta15_13 W)
theorem ta16_14 (W : Valuation τ sig (Elt Ideal)) : T16 W main_arg14 = W main_arg14 := (s3d_keep (T15 W) main_arg14 (by decide)).trans (ta15_14 W)
theorem ta16_15 (W : Valuation τ sig (Elt Ideal)) : T16 W main_arg15 = W main_arg15 := (s3d_keep (T15 W) main_arg15 (by decide)).trans (ta15_15 W)
theorem ta17_0 (W : Valuation τ sig (Elt Ideal)) : T17 W main_arg0 = W main_arg0 := (s3e_keep (T16 W) main_arg0 (by decide)).trans (ta16_0 W)
theorem ta17_1 (W : Valuation τ sig (Elt Ideal)) : T17 W main_arg1 = W main_arg1 := (s3e_keep (T16 W) main_arg1 (by decide)).trans (ta16_1 W)
theorem ta17_2 (W : Valuation τ sig (Elt Ideal)) : T17 W main_arg2 = W main_arg2 := (s3e_keep (T16 W) main_arg2 (by decide)).trans (ta16_2 W)
theorem ta17_3 (W : Valuation τ sig (Elt Ideal)) : T17 W main_arg3 = W main_arg3 := (s3e_keep (T16 W) main_arg3 (by decide)).trans (ta16_3 W)
theorem ta17_4 (W : Valuation τ sig (Elt Ideal)) : T17 W main_arg4 = W main_arg4 := (s3e_keep (T16 W) main_arg4 (by decide)).trans (ta16_4 W)
theorem ta17_5 (W : Valuation τ sig (Elt Ideal)) : T17 W main_arg5 = W main_arg5 := (s3e_keep (T16 W) main_arg5 (by decide)).trans (ta16_5 W)
theorem ta17_6 (W : Valuation τ sig (Elt Ideal)) : T17 W main_arg6 = W main_arg6 := (s3e_keep (T16 W) main_arg6 (by decide)).trans (ta16_6 W)
theorem ta17_7 (W : Valuation τ sig (Elt Ideal)) : T17 W main_arg7 = W main_arg7 := (s3e_keep (T16 W) main_arg7 (by decide)).trans (ta16_7 W)
theorem ta17_8 (W : Valuation τ sig (Elt Ideal)) : T17 W main_arg8 = W main_arg8 := (s3e_keep (T16 W) main_arg8 (by decide)).trans (ta16_8 W)
theorem ta17_9 (W : Valuation τ sig (Elt Ideal)) : T17 W main_arg9 = W main_arg9 := (s3e_keep (T16 W) main_arg9 (by decide)).trans (ta16_9 W)
theorem ta17_10 (W : Valuation τ sig (Elt Ideal)) : T17 W main_arg10 = W main_arg10 := (s3e_keep (T16 W) main_arg10 (by decide)).trans (ta16_10 W)
theorem ta17_11 (W : Valuation τ sig (Elt Ideal)) : T17 W main_arg11 = W main_arg11 := (s3e_keep (T16 W) main_arg11 (by decide)).trans (ta16_11 W)
theorem ta17_12 (W : Valuation τ sig (Elt Ideal)) : T17 W main_arg12 = W main_arg12 := (s3e_keep (T16 W) main_arg12 (by decide)).trans (ta16_12 W)
theorem ta17_13 (W : Valuation τ sig (Elt Ideal)) : T17 W main_arg13 = W main_arg13 := (s3e_keep (T16 W) main_arg13 (by decide)).trans (ta16_13 W)
theorem ta17_14 (W : Valuation τ sig (Elt Ideal)) : T17 W main_arg14 = W main_arg14 := (s3e_keep (T16 W) main_arg14 (by decide)).trans (ta16_14 W)
theorem ta17_15 (W : Valuation τ sig (Elt Ideal)) : T17 W main_arg15 = W main_arg15 := (s3e_keep (T16 W) main_arg15 (by decide)).trans (ta16_15 W)
theorem ta18_0 (W : Valuation τ sig (Elt Ideal)) : T18 W main_arg0 = W main_arg0 := (s3f_keep (T17 W) main_arg0 (by decide)).trans (ta17_0 W)
theorem ta18_1 (W : Valuation τ sig (Elt Ideal)) : T18 W main_arg1 = W main_arg1 := (s3f_keep (T17 W) main_arg1 (by decide)).trans (ta17_1 W)
theorem ta18_2 (W : Valuation τ sig (Elt Ideal)) : T18 W main_arg2 = W main_arg2 := (s3f_keep (T17 W) main_arg2 (by decide)).trans (ta17_2 W)
theorem ta18_3 (W : Valuation τ sig (Elt Ideal)) : T18 W main_arg3 = W main_arg3 := (s3f_keep (T17 W) main_arg3 (by decide)).trans (ta17_3 W)
theorem ta18_4 (W : Valuation τ sig (Elt Ideal)) : T18 W main_arg4 = W main_arg4 := (s3f_keep (T17 W) main_arg4 (by decide)).trans (ta17_4 W)
theorem ta18_5 (W : Valuation τ sig (Elt Ideal)) : T18 W main_arg5 = W main_arg5 := (s3f_keep (T17 W) main_arg5 (by decide)).trans (ta17_5 W)
theorem ta18_6 (W : Valuation τ sig (Elt Ideal)) : T18 W main_arg6 = W main_arg6 := (s3f_keep (T17 W) main_arg6 (by decide)).trans (ta17_6 W)
theorem ta18_7 (W : Valuation τ sig (Elt Ideal)) : T18 W main_arg7 = W main_arg7 := (s3f_keep (T17 W) main_arg7 (by decide)).trans (ta17_7 W)
theorem ta18_8 (W : Valuation τ sig (Elt Ideal)) : T18 W main_arg8 = W main_arg8 := (s3f_keep (T17 W) main_arg8 (by decide)).trans (ta17_8 W)
theorem ta18_9 (W : Valuation τ sig (Elt Ideal)) : T18 W main_arg9 = W main_arg9 := (s3f_keep (T17 W) main_arg9 (by decide)).trans (ta17_9 W)
theorem ta18_10 (W : Valuation τ sig (Elt Ideal)) : T18 W main_arg10 = W main_arg10 := (s3f_keep (T17 W) main_arg10 (by decide)).trans (ta17_10 W)
theorem ta18_11 (W : Valuation τ sig (Elt Ideal)) : T18 W main_arg11 = W main_arg11 := (s3f_keep (T17 W) main_arg11 (by decide)).trans (ta17_11 W)
theorem ta18_12 (W : Valuation τ sig (Elt Ideal)) : T18 W main_arg12 = W main_arg12 := (s3f_keep (T17 W) main_arg12 (by decide)).trans (ta17_12 W)
theorem ta18_13 (W : Valuation τ sig (Elt Ideal)) : T18 W main_arg13 = W main_arg13 := (s3f_keep (T17 W) main_arg13 (by decide)).trans (ta17_13 W)
theorem ta18_14 (W : Valuation τ sig (Elt Ideal)) : T18 W main_arg14 = W main_arg14 := (s3f_keep (T17 W) main_arg14 (by decide)).trans (ta17_14 W)
theorem ta18_15 (W : Valuation τ sig (Elt Ideal)) : T18 W main_arg15 = W main_arg15 := (s3f_keep (T17 W) main_arg15 (by decide)).trans (ta17_15 W)
theorem ta19_0 (W : Valuation τ sig (Elt Ideal)) : T19 W main_arg0 = W main_arg0 := (s4_keep (T18 W) main_arg0 (by decide)).trans (ta18_0 W)
theorem ta19_1 (W : Valuation τ sig (Elt Ideal)) : T19 W main_arg1 = W main_arg1 := (s4_keep (T18 W) main_arg1 (by decide)).trans (ta18_1 W)
theorem ta19_2 (W : Valuation τ sig (Elt Ideal)) : T19 W main_arg2 = W main_arg2 := (s4_keep (T18 W) main_arg2 (by decide)).trans (ta18_2 W)
theorem ta19_3 (W : Valuation τ sig (Elt Ideal)) : T19 W main_arg3 = W main_arg3 := (s4_keep (T18 W) main_arg3 (by decide)).trans (ta18_3 W)
theorem ta19_4 (W : Valuation τ sig (Elt Ideal)) : T19 W main_arg4 = W main_arg4 := (s4_keep (T18 W) main_arg4 (by decide)).trans (ta18_4 W)
theorem ta19_5 (W : Valuation τ sig (Elt Ideal)) : T19 W main_arg5 = W main_arg5 := (s4_keep (T18 W) main_arg5 (by decide)).trans (ta18_5 W)
theorem ta19_6 (W : Valuation τ sig (Elt Ideal)) : T19 W main_arg6 = W main_arg6 := (s4_keep (T18 W) main_arg6 (by decide)).trans (ta18_6 W)
theorem ta19_7 (W : Valuation τ sig (Elt Ideal)) : T19 W main_arg7 = W main_arg7 := (s4_keep (T18 W) main_arg7 (by decide)).trans (ta18_7 W)
theorem ta19_8 (W : Valuation τ sig (Elt Ideal)) : T19 W main_arg8 = W main_arg8 := (s4_keep (T18 W) main_arg8 (by decide)).trans (ta18_8 W)
theorem ta19_9 (W : Valuation τ sig (Elt Ideal)) : T19 W main_arg9 = W main_arg9 := (s4_keep (T18 W) main_arg9 (by decide)).trans (ta18_9 W)
theorem ta19_10 (W : Valuation τ sig (Elt Ideal)) : T19 W main_arg10 = W main_arg10 := (s4_keep (T18 W) main_arg10 (by decide)).trans (ta18_10 W)
theorem ta19_11 (W : Valuation τ sig (Elt Ideal)) : T19 W main_arg11 = W main_arg11 := (s4_keep (T18 W) main_arg11 (by decide)).trans (ta18_11 W)
theorem ta19_12 (W : Valuation τ sig (Elt Ideal)) : T19 W main_arg12 = W main_arg12 := (s4_keep (T18 W) main_arg12 (by decide)).trans (ta18_12 W)
theorem ta19_13 (W : Valuation τ sig (Elt Ideal)) : T19 W main_arg13 = W main_arg13 := (s4_keep (T18 W) main_arg13 (by decide)).trans (ta18_13 W)
theorem ta19_14 (W : Valuation τ sig (Elt Ideal)) : T19 W main_arg14 = W main_arg14 := (s4_keep (T18 W) main_arg14 (by decide)).trans (ta18_14 W)
theorem ta19_15 (W : Valuation τ sig (Elt Ideal)) : T19 W main_arg15 = W main_arg15 := (s4_keep (T18 W) main_arg15 (by decide)).trans (ta18_15 W)

/-! ## The stages, carried from the stretch that writes each to the stretches that read it -/

theorem tf0_v7 (W : Valuation τ sig (Elt Ideal)) : T0 W main_v7 = ReadP.val_main_v7 (F := Ideal) (W main_arg0) (W main_arg6) (W main_arg7) := s0_v7 W (W main_arg0) (W main_arg6) (W main_arg7)  rfl rfl rfl
theorem tf1_v7 (W : Valuation τ sig (Elt Ideal)) : T1 W main_v7 = ReadP.val_main_v7 (F := Ideal) (W main_arg0) (W main_arg6) (W main_arg7) := (s1a_keep (T0 W) main_v7 (by decide)).trans (tf0_v7 W)
theorem tf2_v7 (W : Valuation τ sig (Elt Ideal)) : T2 W main_v7 = ReadP.val_main_v7 (F := Ideal) (W main_arg0) (W main_arg6) (W main_arg7) := (s1b_keep (T1 W) main_v7 (by decide)).trans (tf1_v7 W)
theorem tf3_v7 (W : Valuation τ sig (Elt Ideal)) : T3 W main_v7 = ReadP.val_main_v7 (F := Ideal) (W main_arg0) (W main_arg6) (W main_arg7) := (s1c_keep (T2 W) main_v7 (by decide)).trans (tf2_v7 W)
theorem tf4_v7 (W : Valuation τ sig (Elt Ideal)) : T4 W main_v7 = ReadP.val_main_v7 (F := Ideal) (W main_arg0) (W main_arg6) (W main_arg7) := (s1d_keep (T3 W) main_v7 (by decide)).trans (tf3_v7 W)
theorem tf0_v1 (W : Valuation τ sig (Elt Ideal)) : T0 W main_v1 = ReadP.val_main_v1 (F := Ideal) (W main_arg4) := s0_v1 W (W main_arg4)  rfl
theorem tf1_v14 (W : Valuation τ sig (Elt Ideal)) : T1 W main_v14 = ReadP.val_main_v14 (F := Ideal) (W main_arg0) (W main_arg4) (W main_arg6) (W main_arg7) := s1a_v14 (T0 W) (W main_arg0) (W main_arg4) (W main_arg6) (W main_arg7) (tf0_v7 W) (tf0_v1 W)
theorem tf0_v3 (W : Valuation τ sig (Elt Ideal)) : T0 W main_v3 = ReadP.val_main_v3 (F := Ideal) (W main_arg4) := s0_v3 W (W main_arg4)  rfl
theorem tf1_v21 (W : Valuation τ sig (Elt Ideal)) : T1 W main_v21 = ReadP.val_main_v21 (F := Ideal) (W main_arg0) (W main_arg4) (W main_arg6) (W main_arg7) := s1a_v21 (T0 W) (W main_arg0) (W main_arg4) (W main_arg6) (W main_arg7) (tf0_v7 W) (tf0_v3 W)
theorem tf1_v28 (W : Valuation τ sig (Elt Ideal)) : T1 W main_v28 = ReadP.val_main_v28 (F := Ideal) (W main_arg1) (W main_arg4) := s1a_v28 (T0 W) (W main_arg1) (W main_arg4) (tf0_v1 W) (ta0_1 W)
theorem tf1_v35 (W : Valuation τ sig (Elt Ideal)) : T1 W main_v35 = ReadP.val_main_v35 (F := Ideal) (W main_arg1) (W main_arg4) := s1a_v35 (T0 W) (W main_arg1) (W main_arg4) (tf0_v3 W) (ta0_1 W)
theorem tf2_v36 (W : Valuation τ sig (Elt Ideal)) : T2 W main_v36 = ReadP.val_main_v36 (F := Ideal) (W main_arg0) (W main_arg1) (W main_arg2) (W main_arg4) (W main_arg6) (W main_arg7) := s1b_v36 (T1 W) (W main_arg0) (W main_arg1) (W main_arg2) (W main_arg4) (W main_arg6) (W main_arg7) (tf1_v14 W) (tf1_v21 W) (tf1_v28 W) (tf1_v35 W) (ta1_2 W)
theorem tf3_v56 (W : Valuation τ sig (Elt Ideal)) : T3 W main_v56 = ReadP.val_main_v56 (F := Ideal) (W main_arg0) (W main_arg1) (W main_arg2) (W main_arg3) (W main_arg4) (W main_arg6) (W main_arg7) (W main_arg8) (W main_arg9) (W main_arg10) (W main_arg11) := s1c_v56 (T2 W) (W main_arg0) (W main_arg1) (W main_arg2) (W main_arg3) (W main_arg4) (W main_arg6) (W main_arg7) (W main_arg8) (W main_arg9) (W main_arg10) (W main_arg11) (tf2_v36 W) (ta2_3 W) (ta2_8 W) (ta2_9 W) (ta2_10 W) (ta2_11 W)
theorem tf1_v3 (W : Valuation τ sig (Elt Ideal)) : T1 W main_v3 = ReadP.val_main_v3 (F := Ideal) (W main_arg4) := (s1a_keep (T0 W) main_v3 (by decide)).trans (tf0_v3 W)
theorem tf2_v3 (W : Valuation τ sig (Elt Ideal)) : T2 W main_v3 = ReadP.val_main_v3 (F := Ideal) (W main_arg4) := (s1b_keep (T1 W) main_v3 (by decide)).trans (tf1_v3 W)
theorem tf3_v3 (W : Valuation τ sig (Elt Ideal)) : T3 W main_v3 = ReadP.val_main_v3 (F := Ideal) (W main_arg4) := (s1c_keep (T2 W) main_v3 (by decide)).trans (tf2_v3 W)
theorem tf4_v59 (W : Valuation τ sig (Elt Ideal)) : T4 W main_v59 = ReadP.val_main_v59 (F := Ideal) (W main_arg0) (W main_arg1) (W main_arg2) (W main_arg3) (W main_arg4) (W main_arg6) (W main_arg7) (W main_arg8) (W main_arg9) (W main_arg10) (W main_arg11) := s1d_v59 (T3 W) (W main_arg0) (W main_arg1) (W main_arg2) (W main_arg3) (W main_arg4) (W main_arg6) (W main_arg7) (W main_arg8) (W main_arg9) (W main_arg10) (W main_arg11) (tf3_v56 W) (tf3_v3 W)
theorem tf5_v60 (W : Valuation τ sig (Elt Ideal)) : T5 W main_v60 = ReadP.val_main_v60 (F := Ideal) (W main_arg0) (W main_arg1) (W main_arg2) (W main_arg3) (W main_arg4) (W main_arg6) (W main_arg7) (W main_arg8) (W main_arg9) (W main_arg10) (W main_arg11) := s1e_v60 (T4 W) (W main_arg0) (W main_arg1) (W main_arg2) (W main_arg3) (W main_arg4) (W main_arg6) (W main_arg7) (W main_arg8) (W main_arg9) (W main_arg10) (W main_arg11) (tf4_v7 W) (tf4_v59 W)
theorem tf6_v78 (W : Valuation τ sig (Elt Ideal)) : T6 W main_v78 = ReadP.val_main_v78 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s1f_v78 (T5 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf5_v60 W) (ta5_12 W) (ta5_13 W) (ta5_14 W) (ta5_15 W)
theorem tf7_v78 (W : Valuation τ sig (Elt Ideal)) : T7 W main_v78 = ReadP.val_main_v78 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := (s2a_keep (T6 W) main_v78 (by decide)).trans (tf6_v78 W)
theorem tf8_v78 (W : Valuation τ sig (Elt Ideal)) : T8 W main_v78 = ReadP.val_main_v78 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := (s2b_keep (T7 W) main_v78 (by decide)).trans (tf7_v78 W)
theorem tf9_v78 (W : Valuation τ sig (Elt Ideal)) : T9 W main_v78 = ReadP.val_main_v78 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := (s2c_keep (T8 W) main_v78 (by decide)).trans (tf8_v78 W)
theorem tf10_v78 (W : Valuation τ sig (Elt Ideal)) : T10 W main_v78 = ReadP.val_main_v78 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := (s2d_keep (T9 W) main_v78 (by decide)).trans (tf9_v78 W)
theorem tf1_v1 (W : Valuation τ sig (Elt Ideal)) : T1 W main_v1 = ReadP.val_main_v1 (F := Ideal) (W main_arg4) := (s1a_keep (T0 W) main_v1 (by decide)).trans (tf0_v1 W)
theorem tf2_v1 (W : Valuation τ sig (Elt Ideal)) : T2 W main_v1 = ReadP.val_main_v1 (F := Ideal) (W main_arg4) := (s1b_keep (T1 W) main_v1 (by decide)).trans (tf1_v1 W)
theorem tf3_v1 (W : Valuation τ sig (Elt Ideal)) : T3 W main_v1 = ReadP.val_main_v1 (F := Ideal) (W main_arg4) := (s1c_keep (T2 W) main_v1 (by decide)).trans (tf2_v1 W)
theorem tf4_v1 (W : Valuation τ sig (Elt Ideal)) : T4 W main_v1 = ReadP.val_main_v1 (F := Ideal) (W main_arg4) := (s1d_keep (T3 W) main_v1 (by decide)).trans (tf3_v1 W)
theorem tf5_v1 (W : Valuation τ sig (Elt Ideal)) : T5 W main_v1 = ReadP.val_main_v1 (F := Ideal) (W main_arg4) := (s1e_keep (T4 W) main_v1 (by decide)).trans (tf4_v1 W)
theorem tf6_v1 (W : Valuation τ sig (Elt Ideal)) : T6 W main_v1 = ReadP.val_main_v1 (F := Ideal) (W main_arg4) := (s1f_keep (T5 W) main_v1 (by decide)).trans (tf5_v1 W)
theorem tf7_v85 (W : Valuation τ sig (Elt Ideal)) : T7 W main_v85 = ReadP.val_main_v85 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s2a_v85 (T6 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf6_v78 W) (tf6_v1 W)
theorem tf4_v3 (W : Valuation τ sig (Elt Ideal)) : T4 W main_v3 = ReadP.val_main_v3 (F := Ideal) (W main_arg4) := (s1d_keep (T3 W) main_v3 (by decide)).trans (tf3_v3 W)
theorem tf5_v3 (W : Valuation τ sig (Elt Ideal)) : T5 W main_v3 = ReadP.val_main_v3 (F := Ideal) (W main_arg4) := (s1e_keep (T4 W) main_v3 (by decide)).trans (tf4_v3 W)
theorem tf6_v3 (W : Valuation τ sig (Elt Ideal)) : T6 W main_v3 = ReadP.val_main_v3 (F := Ideal) (W main_arg4) := (s1f_keep (T5 W) main_v3 (by decide)).trans (tf5_v3 W)
theorem tf7_v92 (W : Valuation τ sig (Elt Ideal)) : T7 W main_v92 = ReadP.val_main_v92 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s2a_v92 (T6 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf6_v78 W) (tf6_v3 W)
theorem tf7_v99 (W : Valuation τ sig (Elt Ideal)) : T7 W main_v99 = ReadP.val_main_v99 (F := Ideal) (W main_arg1) (W main_arg4) := s2a_v99 (T6 W) (W main_arg1) (W main_arg4) (tf6_v1 W) (ta6_1 W)
theorem tf7_v106 (W : Valuation τ sig (Elt Ideal)) : T7 W main_v106 = ReadP.val_main_v106 (F := Ideal) (W main_arg1) (W main_arg4) := s2a_v106 (T6 W) (W main_arg1) (W main_arg4) (tf6_v3 W) (ta6_1 W)
theorem tf8_v107 (W : Valuation τ sig (Elt Ideal)) : T8 W main_v107 = ReadP.val_main_v107 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s2b_v107 (T7 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf7_v85 W) (tf7_v92 W) (tf7_v99 W) (tf7_v106 W) (ta7_2 W)
theorem tf9_v127 (W : Valuation τ sig (Elt Ideal)) : T9 W main_v127 = ReadP.val_main_v127 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s2c_v127 (T8 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf8_v107 W) (ta8_3 W) (ta8_8 W) (ta8_9 W) (ta8_10 W) (ta8_11 W)
theorem tf7_v3 (W : Valuation τ sig (Elt Ideal)) : T7 W main_v3 = ReadP.val_main_v3 (F := Ideal) (W main_arg4) := (s2a_keep (T6 W) main_v3 (by decide)).trans (tf6_v3 W)
theorem tf8_v3 (W : Valuation τ sig (Elt Ideal)) : T8 W main_v3 = ReadP.val_main_v3 (F := Ideal) (W main_arg4) := (s2b_keep (T7 W) main_v3 (by decide)).trans (tf7_v3 W)
theorem tf9_v3 (W : Valuation τ sig (Elt Ideal)) : T9 W main_v3 = ReadP.val_main_v3 (F := Ideal) (W main_arg4) := (s2c_keep (T8 W) main_v3 (by decide)).trans (tf8_v3 W)
theorem tf10_v130 (W : Valuation τ sig (Elt Ideal)) : T10 W main_v130 = ReadP.val_main_v130 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s2d_v130 (T9 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf9_v127 W) (tf9_v3 W)
theorem tf11_v131 (W : Valuation τ sig (Elt Ideal)) : T11 W main_v131 = ReadP.val_main_v131 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s2e_v131 (T10 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf10_v78 W) (tf10_v130 W)
theorem tf12_v149 (W : Valuation τ sig (Elt Ideal)) : T12 W main_v149 = ReadP.val_main_v149 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s2f_v149 (T11 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf11_v131 W) (ta11_12 W) (ta11_13 W) (ta11_14 W) (ta11_15 W)
theorem tf13_v149 (W : Valuation τ sig (Elt Ideal)) : T13 W main_v149 = ReadP.val_main_v149 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := (s3a_keep (T12 W) main_v149 (by decide)).trans (tf12_v149 W)
theorem tf14_v149 (W : Valuation τ sig (Elt Ideal)) : T14 W main_v149 = ReadP.val_main_v149 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := (s3b_keep (T13 W) main_v149 (by decide)).trans (tf13_v149 W)
theorem tf15_v149 (W : Valuation τ sig (Elt Ideal)) : T15 W main_v149 = ReadP.val_main_v149 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := (s3c_keep (T14 W) main_v149 (by decide)).trans (tf14_v149 W)
theorem tf16_v149 (W : Valuation τ sig (Elt Ideal)) : T16 W main_v149 = ReadP.val_main_v149 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := (s3d_keep (T15 W) main_v149 (by decide)).trans (tf15_v149 W)
theorem tf7_v1 (W : Valuation τ sig (Elt Ideal)) : T7 W main_v1 = ReadP.val_main_v1 (F := Ideal) (W main_arg4) := (s2a_keep (T6 W) main_v1 (by decide)).trans (tf6_v1 W)
theorem tf8_v1 (W : Valuation τ sig (Elt Ideal)) : T8 W main_v1 = ReadP.val_main_v1 (F := Ideal) (W main_arg4) := (s2b_keep (T7 W) main_v1 (by decide)).trans (tf7_v1 W)
theorem tf9_v1 (W : Valuation τ sig (Elt Ideal)) : T9 W main_v1 = ReadP.val_main_v1 (F := Ideal) (W main_arg4) := (s2c_keep (T8 W) main_v1 (by decide)).trans (tf8_v1 W)
theorem tf10_v1 (W : Valuation τ sig (Elt Ideal)) : T10 W main_v1 = ReadP.val_main_v1 (F := Ideal) (W main_arg4) := (s2d_keep (T9 W) main_v1 (by decide)).trans (tf9_v1 W)
theorem tf11_v1 (W : Valuation τ sig (Elt Ideal)) : T11 W main_v1 = ReadP.val_main_v1 (F := Ideal) (W main_arg4) := (s2e_keep (T10 W) main_v1 (by decide)).trans (tf10_v1 W)
theorem tf12_v1 (W : Valuation τ sig (Elt Ideal)) : T12 W main_v1 = ReadP.val_main_v1 (F := Ideal) (W main_arg4) := (s2f_keep (T11 W) main_v1 (by decide)).trans (tf11_v1 W)
theorem tf13_v156 (W : Valuation τ sig (Elt Ideal)) : T13 W main_v156 = ReadP.val_main_v156 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s3a_v156 (T12 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf12_v149 W) (tf12_v1 W)
theorem tf10_v3 (W : Valuation τ sig (Elt Ideal)) : T10 W main_v3 = ReadP.val_main_v3 (F := Ideal) (W main_arg4) := (s2d_keep (T9 W) main_v3 (by decide)).trans (tf9_v3 W)
theorem tf11_v3 (W : Valuation τ sig (Elt Ideal)) : T11 W main_v3 = ReadP.val_main_v3 (F := Ideal) (W main_arg4) := (s2e_keep (T10 W) main_v3 (by decide)).trans (tf10_v3 W)
theorem tf12_v3 (W : Valuation τ sig (Elt Ideal)) : T12 W main_v3 = ReadP.val_main_v3 (F := Ideal) (W main_arg4) := (s2f_keep (T11 W) main_v3 (by decide)).trans (tf11_v3 W)
theorem tf13_v163 (W : Valuation τ sig (Elt Ideal)) : T13 W main_v163 = ReadP.val_main_v163 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s3a_v163 (T12 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf12_v149 W) (tf12_v3 W)
theorem tf13_v170 (W : Valuation τ sig (Elt Ideal)) : T13 W main_v170 = ReadP.val_main_v170 (F := Ideal) (W main_arg1) (W main_arg4) := s3a_v170 (T12 W) (W main_arg1) (W main_arg4) (tf12_v1 W) (ta12_1 W)
theorem tf13_v177 (W : Valuation τ sig (Elt Ideal)) : T13 W main_v177 = ReadP.val_main_v177 (F := Ideal) (W main_arg1) (W main_arg4) := s3a_v177 (T12 W) (W main_arg1) (W main_arg4) (tf12_v3 W) (ta12_1 W)
theorem tf14_v178 (W : Valuation τ sig (Elt Ideal)) : T14 W main_v178 = ReadP.val_main_v178 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s3b_v178 (T13 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf13_v156 W) (tf13_v163 W) (tf13_v170 W) (tf13_v177 W) (ta13_2 W)
theorem tf15_v198 (W : Valuation τ sig (Elt Ideal)) : T15 W main_v198 = ReadP.val_main_v198 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s3c_v198 (T14 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf14_v178 W) (ta14_3 W) (ta14_8 W) (ta14_9 W) (ta14_10 W) (ta14_11 W)
theorem tf13_v3 (W : Valuation τ sig (Elt Ideal)) : T13 W main_v3 = ReadP.val_main_v3 (F := Ideal) (W main_arg4) := (s3a_keep (T12 W) main_v3 (by decide)).trans (tf12_v3 W)
theorem tf14_v3 (W : Valuation τ sig (Elt Ideal)) : T14 W main_v3 = ReadP.val_main_v3 (F := Ideal) (W main_arg4) := (s3b_keep (T13 W) main_v3 (by decide)).trans (tf13_v3 W)
theorem tf15_v3 (W : Valuation τ sig (Elt Ideal)) : T15 W main_v3 = ReadP.val_main_v3 (F := Ideal) (W main_arg4) := (s3c_keep (T14 W) main_v3 (by decide)).trans (tf14_v3 W)
theorem tf16_v201 (W : Valuation τ sig (Elt Ideal)) : T16 W main_v201 = ReadP.val_main_v201 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s3d_v201 (T15 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf15_v198 W) (tf15_v3 W)
theorem tf17_v202 (W : Valuation τ sig (Elt Ideal)) : T17 W main_v202 = ReadP.val_main_v202 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s3e_v202 (T16 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf16_v149 W) (tf16_v201 W)
theorem tf18_v220 (W : Valuation τ sig (Elt Ideal)) : T18 W main_v220 = ReadP.val_main_v220 (F := Ideal) (W main_arg0) (W main_arg1) (W main_arg2) (W main_arg3) (W main_arg4) (W main_arg6) (W main_arg7) (W main_arg8) (W main_arg9) (W main_arg10) (W main_arg11) (W main_arg12) (W main_arg13) (W main_arg14) (W main_arg15) := s3f_v220 (T17 W) (W main_arg0) (W main_arg1) (W main_arg2) (W main_arg3) (W main_arg4) (W main_arg6) (W main_arg7) (W main_arg8) (W main_arg9) (W main_arg10) (W main_arg11) (W main_arg12) (W main_arg13) (W main_arg14) (W main_arg15) (tf17_v202 W) (ta17_12 W) (ta17_13 W) (ta17_14 W) (ta17_15 W)
theorem tf19_v223 (W : Valuation τ sig (Elt Ideal)) : T19 W main_v223 = ReadP.val_main_v223 (F := Ideal) (W main_arg0) (W main_arg1) (W main_arg2) (W main_arg3) (W main_arg4) (W main_arg5) (W main_arg6) (W main_arg7) (W main_arg8) (W main_arg9) (W main_arg10) (W main_arg11) (W main_arg12) (W main_arg13) (W main_arg14) (W main_arg15) := s4_v223 (T18 W) (W main_arg0) (W main_arg1) (W main_arg2) (W main_arg3) (W main_arg4) (W main_arg5) (W main_arg6) (W main_arg7) (W main_arg8) (W main_arg9) (W main_arg10) (W main_arg11) (W main_arg12) (W main_arg13) (W main_arg14) (W main_arg15) (tf18_v220 W) (ta18_5 W)

/-- After all the operations the result buffer holds the last stage of the arguments' contents. -/
theorem after_v223 (W : Valuation τ sig (Elt Ideal)) :
    after (ops (F := Ideal)) W main_v223 = ReadP.val_main_v223 (F := Ideal) (W main_arg0) (W main_arg1) (W main_arg2) (W main_arg3) (W main_arg4) (W main_arg5) (W main_arg6) (W main_arg7) (W main_arg8) (W main_arg9) (W main_arg10) (W main_arg11) (W main_arg12) (W main_arg13) (W main_arg14) (W main_arg15) := by
  rw [after_ops]; exact tf19_v223 W

theorem after_arg0 (W : Valuation τ sig (Elt Ideal)) : after (ops (F := Ideal)) W main_arg0 = W main_arg0 := by
  rw [after_ops]; exact ta19_0 W
theorem after_arg1 (W : Valuation τ sig (Elt Ideal)) : after (ops (F := Ideal)) W main_arg1 = W main_arg1 := by
  rw [after_ops]; exact ta19_1 W
theorem after_arg2 (W : Valuation τ sig (Elt Ideal)) : after (ops (F := Ideal)) W main_arg2 = W main_arg2 := by
  rw [after_ops]; exact ta19_2 W
theorem after_arg3 (W : Valuation τ sig (Elt Ideal)) : after (ops (F := Ideal)) W main_arg3 = W main_arg3 := by
  rw [after_ops]; exact ta19_3 W
theorem after_arg4 (W : Valuation τ sig (Elt Ideal)) : after (ops (F := Ideal)) W main_arg4 = W main_arg4 := by
  rw [after_ops]; exact ta19_4 W
theorem after_arg5 (W : Valuation τ sig (Elt Ideal)) : after (ops (F := Ideal)) W main_arg5 = W main_arg5 := by
  rw [after_ops]; exact ta19_5 W
theorem after_arg6 (W : Valuation τ sig (Elt Ideal)) : after (ops (F := Ideal)) W main_arg6 = W main_arg6 := by
  rw [after_ops]; exact ta19_6 W
theorem after_arg7 (W : Valuation τ sig (Elt Ideal)) : after (ops (F := Ideal)) W main_arg7 = W main_arg7 := by
  rw [after_ops]; exact ta19_7 W
theorem after_arg8 (W : Valuation τ sig (Elt Ideal)) : after (ops (F := Ideal)) W main_arg8 = W main_arg8 := by
  rw [after_ops]; exact ta19_8 W
theorem after_arg9 (W : Valuation τ sig (Elt Ideal)) : after (ops (F := Ideal)) W main_arg9 = W main_arg9 := by
  rw [after_ops]; exact ta19_9 W
theorem after_arg10 (W : Valuation τ sig (Elt Ideal)) : after (ops (F := Ideal)) W main_arg10 = W main_arg10 := by
  rw [after_ops]; exact ta19_10 W
theorem after_arg11 (W : Valuation τ sig (Elt Ideal)) : after (ops (F := Ideal)) W main_arg11 = W main_arg11 := by
  rw [after_ops]; exact ta19_11 W
theorem after_arg12 (W : Valuation τ sig (Elt Ideal)) : after (ops (F := Ideal)) W main_arg12 = W main_arg12 := by
  rw [after_ops]; exact ta19_12 W
theorem after_arg13 (W : Valuation τ sig (Elt Ideal)) : after (ops (F := Ideal)) W main_arg13 = W main_arg13 := by
  rw [after_ops]; exact ta19_13 W
theorem after_arg14 (W : Valuation τ sig (Elt Ideal)) : after (ops (F := Ideal)) W main_arg14 = W main_arg14 := by
  rw [after_ops]; exact ta19_14 W
theorem after_arg15 (W : Valuation τ sig (Elt Ideal)) : after (ops (F := Ideal)) W main_arg15 = W main_arg15 := by
  rw [after_ops]; exact ta19_15 W

/-- THE PLAIN PROGRAM'S RUN: it terminates without a fault, the result buffer ends at the last stage of the launch
    contents of the arguments, and the arguments end as launched. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v223) = ReadP.val_main_v223 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v223).trans (after_v223 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c)),
      (h c main_arg8).trans (after_arg8 (launchContents m c)),
      (h c main_arg9).trans (after_arg9 (launchContents m c)),
      (h c main_arg10).trans (after_arg10 (launchContents m c)),
      (h c main_arg11).trans (after_arg11 (launchContents m c)),
      (h c main_arg12).trans (after_arg12 (launchContents m c)),
      (h c main_arg13).trans (after_arg13 (launchContents m c)),
      (h c main_arg14).trans (after_arg14 (launchContents m c)),
      (h c main_arg15).trans (after_arg15 (launchContents m c))⟩)
    (run_raw (F := Ideal) m ρ)

end Cert.RefChunks

end
-- ==== Proof.LibSegmentSum.lean ====
/-
  SEGMENT SUMS READ AT AN INDEX.

  A segment sum adds, into entry `g` of an accumulator, every update row whose segment id is `g`; a row whose id
  lies outside the accumulator's range is dropped. As a host program it is an accumulating float scatter whose scatter
  indices are the ids, one integer per update row. This file reads that scatter, at the ideal values and at any extents,
  as the accumulator's entry plus a masked sum over the update rows — for the two sets of dimension numbers such a
  sum is printed with: rows of width `C` scattered into a `[G, C]` accumulator, and scalars scattered into a `[G]` one.
  Nothing here depends on a program: the dimension numbers enter as four equations on an arbitrary record, which a
  program's record of literals satisfies by `rfl`.
-/
import Idealize.ShloMosaic.PureOps.Ideal
import Idealize.ShloMosaic.PureOps.Ideal.Laws
import Idealize.ShloMosaic.Lib.ValueIdx
import Mathlib.Algebra.BigOperators.Group.Finset.Piecewise

namespace Cert.SegmentSum

open Idealize.ShloMosaic Idealize.ShloMosaic.ValueIdx
open scoped BigOperators

/-! ## Rows of width `C` into a `[G, C]` accumulator -/

section Rows
variable {G C N w : Nat}

/-- On the accumulator's row axis the window starts at the update row's segment id, read signed. -/
private theorem start_rows_zero (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (j : (⟨2, ![N, C]⟩ : Shape).Idx) :
    d.start j idx 0 = (idx (ix2 (j 0) 0)).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- On the accumulator's column axis, which no scatter index names, the window starts at zero. -/
private theorem start_rows_one (d : ScatterDims ⟨2, ![G, C]⟩ ⟨2, ![N, 1]⟩ ⟨2, ![N, C]⟩)
    (hsd : d.scatterDimsToOperandDims = [0])
    (idx : IVec ⟨2, ![N, 1]⟩ w) (j : (⟨2, ![N, C]⟩ : Shape).Idx) :
    d.start j idx 1 = 0 := by
  unfold ScatterDims.start
  rw [dif_neg (by rw [hsd]; exact (by decide : (1 : Fin 2) ∉ [(0 : Fin 2)]))]

/-- The row axis is an inserted one: the window has no extent along it. -/
private theorem window_rows_zero (d : ScatterDims ⟨2, ![G, C]⟩ ⟨2, ![N, 1]⟩ ⟨2, ![N, C]⟩)
    (hiw : d.insertedWindowDims = [0]) (j : (⟨2, ![N, C]⟩ : Shape).Idx) :
    d.window j 0 = 0 := by
  have hk : d.sKept = [1] := by
    show Shape.kept _ d.insertedWindowDims = _
    rw [hiw]; rfl
  unfold ScatterDims.window
  rw [dif_neg (by rw [hk]; exact (by decide : (0 : Fin 2) ∉ [(1 : Fin 2)]))]

/-- Along the column axis the window coordinate is the update's column. -/
private theorem window_rows_one (d : ScatterDims ⟨2, ![G, C]⟩ ⟨2, ![N, 1]⟩ ⟨2, ![N, C]⟩)
    (huw : d.updateWindowDims = [1]) (hiw : d.insertedWindowDims = [0])
    (j : (⟨2, ![N, C]⟩ : Shape).Idx) :
    d.window j 1 = (j 1).val := by
  obtain ⟨uw, iw, sd, iv, wf⟩ := d
  simp only at huw hiw
  subst huw hiw
  unfold ScatterDims.window
  split
  · rfl
  · rename_i h
    exact absurd (List.mem_singleton.mpr rfl : (1 : Fin 2) ∈ [(1 : Fin 2)]) h

/-- WHERE AN UPDATE LANDS. Update `(n, q')` lands on accumulator entry `(g, q)` exactly when row `n`'s segment id,
    read signed, is `g` and the columns agree; an id outside `[0, G)` lands nowhere. -/
theorem resultIdx?_rows (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (n : Fin N) (q' : Fin C) (g : Fin G) (q : Fin C) :
    d.resultIdx? (ix2 n q') idx = some (ix2 g q) ↔ (idx (ix2 n 0)).toInt = (g.val : ℤ) ∧ q' = q := by
  have hs0 : d.start (ix2 n q') idx 0 = (idx (ix2 n 0)).toInt := start_rows_zero d huw hiw hsd hiv idx _
  have hs1 := start_rows_one d hsd idx (ix2 n q')
  have hw0 := window_rows_zero d hiw (ix2 n q')
  have hw1 : d.window (ix2 n q') 1 = q'.val := window_rows_one d huw hiw _
  have hg := g.isLt
  have hq := q.isLt
  have hq' := q'.isLt
  have hsz0 : (⟨2, ![G, C]⟩ : Shape).size 0 = G := rfl
  have hsz1 : (⟨2, ![G, C]⟩ : Shape).size 1 = C := rfl
  unfold ScatterDims.resultIdx?
  split
  · rename_i h
    rw [Option.some.injEq]
    constructor
    · intro he
      have e0 : (d.start (ix2 n q') idx 0 + d.window (ix2 n q') 0).toNat = g.val := congrArg Fin.val (congrFun he 0)
      have e1 : (d.start (ix2 n q') idx 1 + d.window (ix2 n q') 1).toNat = q.val := congrArg Fin.val (congrFun he 1)
      have h0 := (h 0).1
      rw [hs0, hw0] at e0 h0
      rw [hs1, hw1] at e1
      exact ⟨by omega, Fin.ext (by omega)⟩
    · rintro ⟨ht, rfl⟩
      funext a
      match a with
      | ⟨0, _⟩ =>
        refine Fin.ext ?_
        show (d.start (ix2 n q') idx 0 + d.window (ix2 n q') 0).toNat = g.val
        rw [hs0, hw0]; omega
      | ⟨1, _⟩ =>
        refine Fin.ext ?_
        show (d.start (ix2 n q') idx 1 + d.window (ix2 n q') 1).toNat = q'.val
        rw [hs1, hw1]; omega
  · rename_i h
    constructor
    · intro he; cases he
    · rintro ⟨ht, rfl⟩
      refine absurd (fun a => ?_) h
      match a with
      | ⟨0, _⟩ =>
        show 0 ≤ d.start (ix2 n q') idx 0 + d.window (ix2 n q') 0 ∧
          d.start (ix2 n q') idx 0 + d.window (ix2 n q') 0 < ((⟨2, ![G, C]⟩ : Shape).size 0 : ℕ)
        rw [hs0, hw0, hsz0]; omega
      | ⟨1, _⟩ =>
        show 0 ≤ d.start (ix2 n q') idx 1 + d.window (ix2 n q') 1 ∧
          d.start (ix2 n q') idx 1 + d.window (ix2 n q') 1 < ((⟨2, ![G, C]⟩ : Shape).size 1 : ℕ)
        rw [hs1, hw1, hsz1]; omega

/-- A SEGMENT SUM OF ROWS, AT AN ENTRY. Entry `(g, q)` of the accumulating scatter of the rows `upd` at the segment ids
    `idx` is the accumulator's entry plus column `q` of every row whose id is `g`; a row whose id is outside `[0, G)`
    matches no `g` and contributes nothing. -/
theorem scatterAdd_rows_apply {φ : FTy} (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (x : FVec Ideal ⟨2, ![G, C]⟩ φ) (idx : IVec ⟨2, ![N, 1]⟩ w) (upd : FVec Ideal ⟨2, ![N, C]⟩ φ)
    (g : Fin G) (q : Fin C) :
    Host.scatterAdd (F := Ideal) d x idx upd (ix2 g q) =
      x (ix2 g q) + ∑ n : Fin N, if (idx (ix2 n 0)).toInt = (g.val : ℤ) then upd (ix2 n q) else 0 := by
  show x (ix2 g q) + ∑ j ∈ Finset.univ.filter (fun j => d.resultIdx? j idx = some (ix2 g q)), upd j = _
  congr 1
  rw [Finset.sum_filter, sum_idx2]
  refine Finset.sum_congr rfl (fun n _ => ?_)
  simp only [resultIdx?_rows d huw hiw hsd hiv idx]
  by_cases ht : (idx (ix2 n 0)).toInt = (g.val : ℤ)
  · simp only [ht, true_and, if_true]
    rw [Finset.sum_ite_eq' Finset.univ q (fun b => upd (ix2 n b)), if_pos (Finset.mem_univ q)]
  · simp only [ht, false_and, if_false, Finset.sum_const_zero]

end Rows
/-! ## Scalars into a `[G]` accumulator -/

section Flat
variable {G N w : Nat}

/-- A sum over a rank-1 index set is the sum over its coordinate range. -/
private theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := ix1, invFun := fun i => i 0, left_inv := fun _ => rfl, right_inv := fun i => (eq_ix1 i).symm }
  exact (Equiv.sum_comp e f).symm

/-- On the accumulator's one axis the window starts at the update's segment id, read signed. -/
private theorem start_flat (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (j : (⟨1, ![N]⟩ : Shape).Idx) :
    d.start j idx 0 = (idx (ix2 (j 0) 0)).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- The accumulator's one axis is an inserted one: the window has no extent along it. -/
private theorem window_flat (d : ScatterDims ⟨1, ![G]⟩ ⟨2, ![N, 1]⟩ ⟨1, ![N]⟩)
    (hiw : d.insertedWindowDims = [0]) (j : (⟨1, ![N]⟩ : Shape).Idx) :
    d.window j 0 = 0 := by
  have hk : d.sKept = [] := by
    show Shape.kept _ d.insertedWindowDims = _
    rw [hiw]; rfl
  unfold ScatterDims.window
  rw [dif_neg (by rw [hk]; exact List.not_mem_nil)]

/-- WHERE AN UPDATE LANDS. Update `n` lands on accumulator entry `g` exactly when its segment id, read signed, is `g`;
    an id outside `[0, G)` lands nowhere. -/
theorem resultIdx?_flat (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (n : Fin N) (g : Fin G) :
    d.resultIdx? (ix1 n) idx = some (ix1 g) ↔ (idx (ix2 n 0)).toInt = (g.val : ℤ) := by
  have hs0 : d.start (ix1 n) idx 0 = (idx (ix2 n 0)).toInt := start_flat d huw hiw hsd hiv idx _
  have hw0 := window_flat d hiw (ix1 n)
  have hg := g.isLt
  have hsz0 : (⟨1, ![G]⟩ : Shape).size 0 = G := rfl
  unfold ScatterDims.resultIdx?
  split
  · rename_i h
    rw [Option.some.injEq]
    constructor
    · intro he
      have e0 : (d.start (ix1 n) idx 0 + d.window (ix1 n) 0).toNat = g.val := congrArg Fin.val (congrFun he 0)
      have h0 := (h 0).1
      rw [hs0, hw0] at e0 h0
      omega
    · intro ht
      funext a
      match a with
      | ⟨0, _⟩ =>
        refine Fin.ext ?_
        show (d.start (ix1 n) idx 0 + d.window (ix1 n) 0).toNat = g.val
        rw [hs0, hw0]; omega
  · rename_i h
    constructor
    · intro he; cases he
    · intro ht
      refine absurd (fun a => ?_) h
      match a with
      | ⟨0, _⟩ =>
        show 0 ≤ d.start (ix1 n) idx 0 + d.window (ix1 n) 0 ∧
          d.start (ix1 n) idx 0 + d.window (ix1 n) 0 < ((⟨1, ![G]⟩ : Shape).size 0 : ℕ)
        rw [hs0, hw0, hsz0]; omega

/-- A SEGMENT SUM OF SCALARS, AT AN ENTRY. Entry `g` of the accumulating scatter of the scalars `upd` at the segment ids
    `idx` is the accumulator's entry plus every update whose id is `g`; an update whose id is outside `[0, G)` matches
    no `g` and contributes nothing. -/
theorem scatterAdd_flat_apply {φ : FTy} (d : ScatterDims ⟨1, ![G]⟩ ⟨2, ![N, 1]⟩ ⟨1, ![N]⟩)
    (huw : d.updateWindowDims = []) (hiw : d.insertedWindowDims = [0])
    (hsd : d.scatterDimsToOperandDims = [0]) (hiv : d.indexVectorDim = 1)
    (x : FVec Ideal ⟨1, ![G]⟩ φ) (idx : IVec ⟨2, ![N, 1]⟩ w) (upd : FVec Ideal ⟨1, ![N]⟩ φ) (g : Fin G) :
    Host.scatterAdd (F := Ideal) d x idx upd (ix1 g) =
      x (ix1 g) + ∑ n : Fin N, if (idx (ix2 n 0)).toInt = (g.val : ℤ) then upd (ix1 n) else 0 := by
  show x (ix1 g) + ∑ j ∈ Finset.univ.filter (fun j => d.resultIdx? j idx = some (ix1 g)), upd j = _
  congr 1
  rw [Finset.sum_filter, sum_idx1]
  refine Finset.sum_congr rfl (fun n _ => ?_)
  simp only [resultIdx?_flat d huw hiw hsd hiv idx]

end Flat

end Cert.SegmentSum
-- ==== Proof.RefAlg.lean ====
/-
  The reference network's dense stages against the specification, entry by entry over the extended reals.

  The reference computes each stage as one array expression: a matrix product (for the two MLPs, of a row-wise
  concatenation of its inputs against one stacked weight matrix), a bias vector broadcast down the rows, the
  rectifier as a maximum with a zero splat, and for the messages a final product with the edge weight broadcast along
  the columns; the readout is an accumulating scatter of the node rows at their graph ids into zeros. Read at an entry
  (p, q), a product is the sum over the contraction coordinate; a concatenation along the columns splits that sum into one
  sum per piece, each against its own band of rows of the stacked weight matrix; a broadcast reads its operand at the
  coordinate it keeps. The four theorems say that these expressions are the specification's functions, given the bands
  of the stacked weights and the bias rows by their entries.
-/
import proofs.«421803_j42709154791890_2_alg».proof.ReferenceIdeal
import proofs.«421803_j42709154791890_2_alg».proof.Proof.Spec
import proofs.«421803_j42709154791890_2_alg».proof.Proof.LibPlainMatmul
import proofs.«421803_j42709154791890_2_alg».proof.Proof.LibSegmentSum
import Idealize.ShloMosaic.PureOps.Ideal.Laws
import Idealize.ShloMosaic.Lib.ValueIdx
import Idealize.ShloMosaic.Lib.IdealHost
import Idealize.ShloMosaic.Lib.Pipeline.Value
import Mathlib.Algebra.BigOperators.Fin

noncomputable section

namespace Cert.RefAlg

open Cert.ReferenceIdeal Idealize.ShloMosaic Idealize.ShloMosaic.ValueIdx
open scoped BigOperators

variable [Facts₀]
open Facts₀

/-! ## The reference's building blocks -/

/-- The rectifier as the reference spells it: the maximum with the zero scalar broadcast to the shape. -/
abbrev relu (s : Shape) (hb : S_.BroadcastsInDim s (![] : Fin 0 → Fin s.rank)) (z : FVec Ideal s .f32) : FVec Ideal s .f32 :=
  maximumf z (broadcastInDim s ![] hb (constant (F := Ideal) S_ .f32 0x00000000#32))

/-- A bias vector broadcast down the rows: first to one row, then to every row. -/
abbrev row2 (n : ℕ) (h2 : S1x256.BroadcastsInDim ⟨2, ![n, 256]⟩ (![0, 1] : Fin 2 → Fin 2)) (b : FVec Ideal S256 .f32) :
    FVec Ideal ⟨2, ![n, 256]⟩ .f32 :=
  broadcastInDim ⟨2, ![n, 256]⟩ ![0, 1] h2 (broadcastInDim S1x256 ![1] bcast_S256_S1x256_1 b)

/-- The rectifier at an entry is the maximum with zero. -/
theorem relu_apply (s : Shape) (hb : S_.BroadcastsInDim s (![] : Fin 0 → Fin s.rank)) (z : FVec Ideal s .f32) (j : s.Idx) :
    relu s hb z j = max (z j) 0 := by
  show max (z j) (broadcastInDim s ![] hb (constant (F := Ideal) S_ .f32 0x00000000#32) j) = _
  rw [broadcastInDim_scalar_apply, constant_apply, Ideal.ofBits_zero_f32]

/-- The broadcast bias at entry (p, q) is the vector's entry q. -/
theorem row2_apply {n : ℕ} (h2 : S1x256.BroadcastsInDim ⟨2, ![n, 256]⟩ (![0, 1] : Fin 2 → Fin 2)) (b : FVec Ideal S256 .f32)
    (p : Fin n) (q : Fin 256) : row2 n h2 b (ix2 p q) = b (ix1 q) := by
  show broadcastInDim _ ![0, 1] h2 (broadcastInDim S1x256 ![1] bcast_S256_S1x256_1 b) (ix2 p q) = _
  rw [broadcastInDim_apply _ h2 _ (ix2 p q) (ix2 0 q) (fun a => by match a with | ⟨0, _⟩ => rfl | ⟨1, _⟩ => rfl),
    broadcastInDim_apply _ bcast_S256_S1x256_1 b (ix2 0 q) (ix1 q) (fun a => by match a with | ⟨0, _⟩ => rfl)]

/-- A plain product of an [M, K] by a [K, N] array at entry (r, c): the sum over k of a (r, k) * b (k, c). -/
theorem dot_apply {M K N : ℕ} (d : DotDims ⟨2, ![M, K]⟩ ⟨2, ![K, N]⟩ ⟨2, ![M, N]⟩) (hd : d = DotDims.plain M K N)
    (a : FVec Ideal ⟨2, ![M, K]⟩ .f32) (b : FVec Ideal ⟨2, ![K, N]⟩ .f32) (r : Fin M) (c : Fin N) :
    Host.dotGeneral (F := Ideal) d none a b (ix2 r c) = ∑ k : Fin K, a (ix2 r k) * b (ix2 k c) := by
  subst hd
  have h := Cert.PlainMatmul.apply (M := M) (K := K) (N := N) none a b r c
  rw [Ideal.matmul_constant_zero_apply] at h
  exact (Ideal.dotGeneral_apply _ none HostSchedule.single a b (ix2 r c)).trans h

/-! ## The input projection -/

/-- The reference's projection — product plus broadcast bias — is the specification's. -/
theorem lin_eq (x : Spec.A2 20000 64) (W : Spec.A2 64 256) (b : (⟨1, ![256]⟩ : Shape).Idx → EReal) (b2 : Spec.A2 1 256)
    (hb : ∀ k : Fin 256, b2 (ix2 0 k) = b (ix1 k)) :
    addf (Host.dotGeneral (F := Ideal) (φ₁ := .f32) (φ₂ := .f32) dot_S20000x64_S64x256_S20000x256_1_0_0_1_n_n none x W)
        (row2 20000 bcast_S1x256_S20000x256_0_1 b)
      = Cert.Spec.linK x W b2 := by
  funext j
  obtain ⟨p, q, rfl⟩ : ∃ p q, j = ix2 p q := ⟨j 0, j 1, eq_ix2 j⟩
  rw [addf_apply, dot_apply dot_S20000x64_S64x256_S20000x256_1_0_0_1_n_n rfl, row2_apply]
  show _ = (∑ k : Fin 64, x (ix2 p k) * W (ix2 k q)) + b2 (ix2 0 q)
  rw [hb]

/-! ## The readout -/

/-- The reference's readout — the node rows scattered, accumulating, at their graph ids into zeros — is the
    specification's per-graph sum. -/
theorem pool_eq (h : Spec.A2 20000 256) (ng : IVec S20000 32) (ngc : IVec S20000x1 32)
    (hng : ∀ n : Fin 20000, ngc (ix2 n 0) = ng (ix1 n)) :
    Host.scatterAdd (F := Ideal) (φ := .f32) scatter_S128x256_S20000x1_S20000x256_1_0_0_1
        (broadcastInDim S128x256 ![] bcast_S_S128x256 (constant S_ .f32 0x00000000#32))
        (broadcastInDim S20000x1 ![0] bcast_S20000_S20000x1_0 ng) h
      = Cert.Spec.poolK h ngc := by
  funext j
  obtain ⟨g, q, rfl⟩ : ∃ g q, j = ix2 g q := ⟨j 0, j 1, eq_ix2 j⟩
  rw [Cert.SegmentSum.scatterAdd_rows_apply _ rfl rfl rfl rfl, broadcastInDim_scalar_apply, constant_apply,
    Ideal.ofBits_zero_f32, zero_add]
  show _ = ∑ n : Fin 20000, if (ngc (ix2 n 0)).toInt = (g.val : ℤ) then h (ix2 n q) else 0
  refine Finset.sum_congr rfl fun n _ => ?_
  rw [broadcastInDim_apply _ bcast_S20000_S20000x1_0 ng (ix2 n 0) (ix1 n) (fun a => by match a with | ⟨0, _⟩ => rfl), hng]

/-! ## Row-wise concatenations at an entry -/

/-- The two-piece concatenation of the combine MLP's input, at a column of the first piece. -/
theorem cat2_left (h upd : FVec Ideal S20000x256 .f32) (p : Fin 20000) (i : Fin 256) :
    concatenate S20000x512 1 [⟨S20000x256, h⟩, ⟨S20000x256, upd⟩] concatenates_S20000x256_S20000x256_S20000x512_d1
      (ix2 p (Fin.castAdd 256 i)) = h (ix2 p i) :=
  concatenate_apply_piece (t := S20000x512) 1 [⟨S20000x256, h⟩, ⟨S20000x256, upd⟩] concatenates_S20000x256_S20000x256_S20000x512_d1
    (ix2 p (Fin.castAdd 256 i)) 0 (by show (0 : ℕ) < 2; decide) S20000x256 h rfl rfl 0 rfl (ix2 p i)
    (fun b hb => by match b with | ⟨0, _⟩ => rfl | ⟨1, _⟩ => exact absurd rfl hb) (Nat.zero_add _)

/-- … and at a column of the second piece. -/
theorem cat2_right (h upd : FVec Ideal S20000x256 .f32) (p : Fin 20000) (i : Fin 256) :
    concatenate S20000x512 1 [⟨S20000x256, h⟩, ⟨S20000x256, upd⟩] concatenates_S20000x256_S20000x256_S20000x512_d1
      (ix2 p (Fin.natAdd 256 i)) = upd (ix2 p i) :=
  concatenate_apply_piece (t := S20000x512) 1 [⟨S20000x256, h⟩, ⟨S20000x256, upd⟩] concatenates_S20000x256_S20000x256_S20000x512_d1
    (ix2 p (Fin.natAdd 256 i)) 1 (by show (1 : ℕ) < 2; decide) S20000x256 upd rfl rfl 256 rfl (ix2 p i)
    (fun b hb => by match b with | ⟨0, _⟩ => rfl | ⟨1, _⟩ => exact absurd rfl hb) rfl

/-! ## The combine MLP -/

/-- The combine MLP's first layer before the rectifier: the 512-term product splits at the seam of the concatenation
    into the state's and the aggregate's partial products, against the two bands of the stacked weights. -/
theorem upd_pre_eq (h upd : Spec.A2 20000 256) (W1 : Spec.A2 512 256) (b1 : (⟨1, ![256]⟩ : Shape).Idx → EReal)
    (Wa Wb : Spec.A2 256 256) (c1 : Spec.A2 1 256)
    (hWa : ∀ (q k : Fin 256), Wa (ix2 q k) = W1 (ix2 ⟨q.val, by omega⟩ k))
    (hWb : ∀ (q k : Fin 256), Wb (ix2 q k) = W1 (ix2 ⟨256 + q.val, by omega⟩ k))
    (hc1 : ∀ k : Fin 256, c1 (ix2 0 k) = b1 (ix1 k)) (p : Fin 20000) (k : Fin 256) :
    addf (Host.dotGeneral (F := Ideal) (φ₁ := .f32) (φ₂ := .f32) dot_S20000x512_S512x256_S20000x256_1_0_0_1_n_n none
          (concatenate S20000x512 1 [⟨S20000x256, h⟩, ⟨S20000x256, upd⟩] concatenates_S20000x256_S20000x256_S20000x512_d1) W1)
        (row2 20000 bcast_S1x256_S20000x256_0_1 b1) (ix2 p k)
      = Cert.Spec.updPre h upd Wa Wb c1 p k := by
  rw [addf_apply, dot_apply dot_S20000x512_S512x256_S20000x256_1_0_0_1_n_n rfl, row2_apply]
  show _ = ((∑ q : Fin 256, h (ix2 p q) * Wa (ix2 q k)) + (∑ q : Fin 256, upd (ix2 p q) * Wb (ix2 q k))) + c1 (ix2 0 k)
  rw [hc1]
  refine congrArg (· + b1 (ix1 k)) ?_
  refine (Fin.sum_univ_add (a := 256) (b := 256) (fun t : Fin 512 =>
    concatenate S20000x512 1 [⟨S20000x256, h⟩, ⟨S20000x256, upd⟩] concatenates_S20000x256_S20000x256_S20000x512_d1 (ix2 p t)
      * W1 (ix2 t k))).trans ?_
  refine congrArg₂ (· + ·) (Finset.sum_congr rfl fun i _ => ?_) (Finset.sum_congr rfl fun i _ => ?_)
  · show concatenate S20000x512 1 [⟨S20000x256, h⟩, ⟨S20000x256, upd⟩] concatenates_S20000x256_S20000x256_S20000x512_d1
        (ix2 p (Fin.castAdd 256 i)) * W1 (ix2 (Fin.castAdd 256 i) k) = _
    rw [cat2_left, hWa]
    rfl
  · show concatenate S20000x512 1 [⟨S20000x256, h⟩, ⟨S20000x256, upd⟩] concatenates_S20000x256_S20000x256_S20000x512_d1
        (ix2 p (Fin.natAdd 256 i)) * W1 (ix2 (Fin.natAdd 256 i) k) = _
    rw [cat2_right, hWb]
    rfl

/-- The reference's combine MLP — two dense layers over the concatenated input, each rectified — is the specification's. -/
theorem upd_eq (h upd : Spec.A2 20000 256) (W1 : Spec.A2 512 256) (b1 : (⟨1, ![256]⟩ : Shape).Idx → EReal)
    (W2 : Spec.A2 256 256) (b2 : (⟨1, ![256]⟩ : Shape).Idx → EReal) (Wa Wb : Spec.A2 256 256) (c1 c2 : Spec.A2 1 256)
    (hWa : ∀ (q k : Fin 256), Wa (ix2 q k) = W1 (ix2 ⟨q.val, by omega⟩ k))
    (hWb : ∀ (q k : Fin 256), Wb (ix2 q k) = W1 (ix2 ⟨256 + q.val, by omega⟩ k))
    (hc1 : ∀ k : Fin 256, c1 (ix2 0 k) = b1 (ix1 k)) (hc2 : ∀ k : Fin 256, c2 (ix2 0 k) = b2 (ix1 k)) :
    relu S20000x256 bcast_S_S20000x256
        (addf (Host.dotGeneral (F := Ideal) (φ₁ := .f32) (φ₂ := .f32) dot_S20000x256_S256x256_S20000x256_1_0_0_1_n_n none
            (relu S20000x256 bcast_S_S20000x256
              (addf (Host.dotGeneral (F := Ideal) (φ₁ := .f32) (φ₂ := .f32) dot_S20000x512_S512x256_S20000x256_1_0_0_1_n_n none
                  (concatenate S20000x512 1 [⟨S20000x256, h⟩, ⟨S20000x256, upd⟩] concatenates_S20000x256_S20000x256_S20000x512_d1) W1)
                (row2 20000 bcast_S1x256_S20000x256_0_1 b1))) W2)
          (row2 20000 bcast_S1x256_S20000x256_0_1 b2))
      = Cert.Spec.updK h upd Wa Wb c1 W2 c2 := by
  funext j
  obtain ⟨p, q, rfl⟩ : ∃ p q, j = ix2 p q := ⟨j 0, j 1, eq_ix2 j⟩
  rw [relu_apply, addf_apply, dot_apply dot_S20000x256_S256x256_S20000x256_1_0_0_1_n_n rfl, row2_apply]
  show _ = max ((∑ k : Fin 256, max (Spec.updPre h upd Wa Wb c1 p k) 0 * W2 (ix2 k q)) + c2 (ix2 0 q)) 0
  rw [hc2]
  refine congrArg (fun z => max (z + b2 (ix1 q)) 0) (Finset.sum_congr rfl fun k _ => ?_)
  rw [relu_apply, upd_pre_eq h upd W1 b1 Wa Wb c1 hWa hWb hc1 p k]

end Cert.RefAlg

end
-- ==== Proof.RefAlgM.lean ====
/-
  The reference network's message MLP against the specification, entry by entry over the extended reals.

  The reference multiplies the row-wise concatenation of five pieces — the gathered source rows, the gathered
  destination rows, the two structural counts (one column each) and the edge features — by one stacked 578-row weight
  matrix, adds the bias broadcast down the rows, rectifies, applies the second dense layer and scales each row by its edge
  weight broadcast along the columns. At an entry the 578-term sum splits at the seams of the concatenation into
  256 + 256 + 1 + 1 + 64 terms, each piece against its own band of rows of the stacked matrix; the specification adds
  the edge-feature sum before the two count terms, a regrouping in the commutative monoid.
-/
import proofs.«421803_j42709154791890_2_alg».proof.Proof.RefAlg

noncomputable section

namespace Cert.RefAlg

open Cert.ReferenceIdeal Idealize.ShloMosaic Idealize.ShloMosaic.ValueIdx
open scoped BigOperators

variable [Facts₀]
open Facts₀

/-! ## The five-piece concatenation at an entry -/

/-- The five-piece concatenation of the message MLP's input — source rows, destination rows, the two structural
    counts, the edge features — at a column of the first piece … -/
theorem cat5_0 (hin hout : FVec Ideal S160000x256 .f32) (sin sout : FVec Ideal S160000x1 .f32) (ef : FVec Ideal S160000x64 .f32)
    (p : Fin 160000) (i : Fin 256) :
    concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1
      (ix2 p (Fin.castAdd 64 (Fin.castAdd 1 (Fin.castAdd 1 (Fin.castAdd 256 i))))) = hin (ix2 p i) :=
  concatenate_apply_piece (t := S160000x578) 1 [⟨S160000x256, hin⟩, ⟨S160000x256, hout⟩, ⟨S160000x1, sin⟩, ⟨S160000x1, sout⟩, ⟨S160000x64, ef⟩]
    concatenates_S160000x256_S160000x256_S160000x1_S160000x1_S160000x64_S160000x578_d1
    (ix2 p (Fin.castAdd 64 (Fin.castAdd 1 (Fin.castAdd 1 (Fin.castAdd 256 i))))) 0 (by show (0 : ℕ) < 5; decide) S160000x256 hin rfl rfl 0 rfl (ix2 p i) (fun b hb => by match b with | ⟨0, _⟩ => rfl | ⟨1, _⟩ => exact absurd rfl hb) (Nat.zero_add _)

/-- … of the second piece, 256 columns in … -/
theorem cat5_1 (hin hout : FVec Ideal S160000x256 .f32) (sin sout : FVec Ideal S160000x1 .f32) (ef : FVec Ideal S160000x64 .f32)
    (p : Fin 160000) (i : Fin 256) :
    concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1
      (ix2 p (Fin.castAdd 64 (Fin.castAdd 1 (Fin.castAdd 1 (Fin.natAdd 256 i))))) = hout (ix2 p i) :=
  concatenate_apply_piece (t := S160000x578) 1 [⟨S160000x256, hin⟩, ⟨S160000x256, hout⟩, ⟨S160000x1, sin⟩, ⟨S160000x1, sout⟩, ⟨S160000x64, ef⟩]
    concatenates_S160000x256_S160000x256_S160000x1_S160000x1_S160000x64_S160000x578_d1
    (ix2 p (Fin.castAdd 64 (Fin.castAdd 1 (Fin.castAdd 1 (Fin.natAdd 256 i))))) 1 (by show (1 : ℕ) < 5; decide) S160000x256 hout rfl rfl 256 rfl (ix2 p i) (fun b hb => by match b with | ⟨0, _⟩ => rfl | ⟨1, _⟩ => exact absurd rfl hb) rfl

/-- … at column 512, the source count … -/
theorem cat5_2 (hin hout : FVec Ideal S160000x256 .f32) (sin sout : FVec Ideal S160000x1 .f32) (ef : FVec Ideal S160000x64 .f32)
    (p : Fin 160000) (i : Fin 1) :
    concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1
      (ix2 p (Fin.castAdd 64 (Fin.castAdd 1 (Fin.natAdd 512 i)))) = sin (ix2 p i) :=
  concatenate_apply_piece (t := S160000x578) 1 [⟨S160000x256, hin⟩, ⟨S160000x256, hout⟩, ⟨S160000x1, sin⟩, ⟨S160000x1, sout⟩, ⟨S160000x64, ef⟩]
    concatenates_S160000x256_S160000x256_S160000x1_S160000x1_S160000x64_S160000x578_d1
    (ix2 p (Fin.castAdd 64 (Fin.castAdd 1 (Fin.natAdd 512 i)))) 2 (by show (2 : ℕ) < 5; decide) S160000x1 sin rfl rfl 512 rfl (ix2 p i) (fun b hb => by match b with | ⟨0, _⟩ => rfl | ⟨1, _⟩ => exact absurd rfl hb) rfl

/-- … at column 513, the destination count … -/
theorem cat5_3 (hin hout : FVec Ideal S160000x256 .f32) (sin sout : FVec Ideal S160000x1 .f32) (ef : FVec Ideal S160000x64 .f32)
    (p : Fin 160000) (i : Fin 1) :
    concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1
      (ix2 p (Fin.castAdd 64 (Fin.natAdd 513 i))) = sout (ix2 p i) :=
  concatenate_apply_piece (t := S160000x578) 1 [⟨S160000x256, hin⟩, ⟨S160000x256, hout⟩, ⟨S160000x1, sin⟩, ⟨S160000x1, sout⟩, ⟨S160000x64, ef⟩]
    concatenates_S160000x256_S160000x256_S160000x1_S160000x1_S160000x64_S160000x578_d1
    (ix2 p (Fin.castAdd 64 (Fin.natAdd 513 i))) 3 (by show (3 : ℕ) < 5; decide) S160000x1 sout rfl rfl 513 rfl (ix2 p i) (fun b hb => by match b with | ⟨0, _⟩ => rfl | ⟨1, _⟩ => exact absurd rfl hb) rfl

/-- … and of the last piece, 514 columns in. -/
theorem cat5_4 (hin hout : FVec Ideal S160000x256 .f32) (sin sout : FVec Ideal S160000x1 .f32) (ef : FVec Ideal S160000x64 .f32)
    (p : Fin 160000) (i : Fin 64) :
    concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1
      (ix2 p (Fin.natAdd 514 i)) = ef (ix2 p i) :=
  concatenate_apply_piece (t := S160000x578) 1 [⟨S160000x256, hin⟩, ⟨S160000x256, hout⟩, ⟨S160000x1, sin⟩, ⟨S160000x1, sout⟩, ⟨S160000x64, ef⟩]
    concatenates_S160000x256_S160000x256_S160000x1_S160000x1_S160000x64_S160000x578_d1
    (ix2 p (Fin.natAdd 514 i)) 4 (by show (4 : ℕ) < 5; decide) S160000x64 ef rfl rfl 514 rfl (ix2 p i) (fun b hb => by match b with | ⟨0, _⟩ => rfl | ⟨1, _⟩ => exact absurd rfl hb) rfl

/-! ## The message MLP -/

/-- Moving the edge-feature term in front of the two count terms. -/
theorem regroup (X S1 S2 E b : EReal) : X + S1 + S2 + E + b = X + E + S1 + S2 + b := by
  rw [add_right_comm (X + S1) S2 E, add_right_comm X S1 E]

/-- The message MLP's first layer before the rectifier: the 578-term product splits at the seams of the concatenation
    into 256 + 256 + 1 + 1 + 64 terms, each band of the stacked weights against its piece; the two one-term sums are the
    counts' scalar products, and the edge-feature sum moves in front of them. -/
theorem msg_pre_eq (hin hout : Spec.A2 160000 256) (sin sout : Spec.A2 160000 1) (ef : Spec.A2 160000 64)
    (W1 : Spec.A2 578 256) (b1 : (⟨1, ![256]⟩ : Shape).Idx → EReal)
    (Whin Whout : Spec.A2 256 256) (Wedge : Spec.A2 64 256) (wsin wsout c1 : Spec.A2 1 256)
    (hWhin : ∀ (q k : Fin 256), Whin (ix2 q k) = W1 (ix2 ⟨q.val, by omega⟩ k))
    (hWhout : ∀ (q k : Fin 256), Whout (ix2 q k) = W1 (ix2 ⟨256 + q.val, by omega⟩ k))
    (hwsin : ∀ k : Fin 256, wsin (ix2 0 k) = W1 (ix2 ⟨512, by omega⟩ k))
    (hwsout : ∀ k : Fin 256, wsout (ix2 0 k) = W1 (ix2 ⟨513, by omega⟩ k))
    (hWedge : ∀ (q : Fin 64) (k : Fin 256), Wedge (ix2 q k) = W1 (ix2 ⟨514 + q.val, by omega⟩ k))
    (hc1 : ∀ k : Fin 256, c1 (ix2 0 k) = b1 (ix1 k)) (p : Fin 160000) (k : Fin 256) :
    addf (Host.dotGeneral (F := Ideal) (φ₁ := .f32) (φ₂ := .f32) dot_S160000x578_S578x256_S160000x256_1_0_0_1_n_n none
          (concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1) W1)
        (row2 160000 bcast_S1x256_S160000x256_0_1 b1) (ix2 p k)
      = Cert.Spec.msgPre hin hout sin sout ef Whin Whout Wedge wsin wsout c1 p k := by
  rw [addf_apply, dot_apply dot_S160000x578_S578x256_S160000x256_1_0_0_1_n_n rfl, row2_apply]
  show _ = ((∑ q : Fin 256, hin (ix2 p q) * Whin (ix2 q k)) + (∑ q : Fin 256, hout (ix2 p q) * Whout (ix2 q k))
      + (∑ q : Fin 64, ef (ix2 p q) * Wedge (ix2 q k))
      + sin (ix2 p 0) * wsin (ix2 0 k) + sout (ix2 p 0) * wsout (ix2 0 k)) + c1 (ix2 0 k)
  rw [hc1, ← regroup]
  refine congrArg (· + b1 (ix1 k)) ?_
  -- the summand, and the four splits from the last seam to the first
  let f : Fin 578 → EReal := fun t =>
    concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1 (ix2 p t) * W1 (ix2 t k)
  have s1 := Fin.sum_univ_add (a := 514) (b := 64) f
  have s2 := Fin.sum_univ_add (a := 513) (b := 1) fun t => f (Fin.castAdd 64 t)
  have s3 := Fin.sum_univ_add (a := 512) (b := 1) fun t => f (Fin.castAdd 64 (Fin.castAdd 1 t))
  have s4 := Fin.sum_univ_add (a := 256) (b := 256) fun t => f (Fin.castAdd 64 (Fin.castAdd 1 (Fin.castAdd 1 t)))
  rw [Fin.sum_univ_one] at s2 s3
  refine s1.trans ?_
  rw [s2, s3, s4]
  refine congrArg₂ (· + ·) (congrArg₂ (· + ·) (congrArg₂ (· + ·) (congrArg₂ (· + ·)
    (Finset.sum_congr rfl fun i _ => ?_) (Finset.sum_congr rfl fun i _ => ?_)) ?_) ?_) (Finset.sum_congr rfl fun i _ => ?_)
  · show concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1 (ix2 p (Fin.castAdd 64 (Fin.castAdd 1 (Fin.castAdd 1 (Fin.castAdd 256 i)))))
        * W1 (ix2 (Fin.castAdd 64 (Fin.castAdd 1 (Fin.castAdd 1 (Fin.castAdd 256 i)))) k) = _
    rw [cat5_0, hWhin]
    rfl
  · show concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1 (ix2 p (Fin.castAdd 64 (Fin.castAdd 1 (Fin.castAdd 1 (Fin.natAdd 256 i)))))
        * W1 (ix2 (Fin.castAdd 64 (Fin.castAdd 1 (Fin.castAdd 1 (Fin.natAdd 256 i)))) k) = _
    rw [cat5_1, hWhout]
    rfl
  · show concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1 (ix2 p (Fin.castAdd 64 (Fin.castAdd 1 (Fin.natAdd 512 (0 : Fin 1)))))
        * W1 (ix2 (Fin.castAdd 64 (Fin.castAdd 1 (Fin.natAdd 512 (0 : Fin 1)))) k) = _
    rw [cat5_2, hwsin]
    rfl
  · show concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1 (ix2 p (Fin.castAdd 64 (Fin.natAdd 513 (0 : Fin 1))))
        * W1 (ix2 (Fin.castAdd 64 (Fin.natAdd 513 (0 : Fin 1))) k) = _
    rw [cat5_3, hwsout]
    rfl
  · show concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1 (ix2 p (Fin.natAdd 514 i))
        * W1 (ix2 (Fin.natAdd 514 i) k) = _
    rw [cat5_4, hWedge]
    rfl

/-- The reference's message MLP — two dense layers over the concatenated input, the first rectified, the result scaled
    by the edge weight broadcast along the columns — is the specification's. -/
theorem msg_eq (hin hout : Spec.A2 160000 256) (sin sout : Spec.A2 160000 1) (ef : Spec.A2 160000 64)
    (ew : (⟨1, ![160000]⟩ : Shape).Idx → EReal) (ewc : Spec.A2 160000 1) (hew : ∀ e : Fin 160000, ewc (ix2 e 0) = ew (ix1 e))
    (W1 : Spec.A2 578 256) (b1 b2 : (⟨1, ![256]⟩ : Shape).Idx → EReal) (W2 : Spec.A2 256 256)
    (Whin Whout : Spec.A2 256 256) (Wedge : Spec.A2 64 256) (wsin wsout c1 c2 : Spec.A2 1 256)
    (hWhin : ∀ (q k : Fin 256), Whin (ix2 q k) = W1 (ix2 ⟨q.val, by omega⟩ k))
    (hWhout : ∀ (q k : Fin 256), Whout (ix2 q k) = W1 (ix2 ⟨256 + q.val, by omega⟩ k))
    (hwsin : ∀ k : Fin 256, wsin (ix2 0 k) = W1 (ix2 ⟨512, by omega⟩ k))
    (hwsout : ∀ k : Fin 256, wsout (ix2 0 k) = W1 (ix2 ⟨513, by omega⟩ k))
    (hWedge : ∀ (q : Fin 64) (k : Fin 256), Wedge (ix2 q k) = W1 (ix2 ⟨514 + q.val, by omega⟩ k))
    (hc1 : ∀ k : Fin 256, c1 (ix2 0 k) = b1 (ix1 k)) (hc2 : ∀ k : Fin 256, c2 (ix2 0 k) = b2 (ix1 k)) :
    mulf (addf (Host.dotGeneral (F := Ideal) (φ₁ := .f32) (φ₂ := .f32) dot_S160000x256_S256x256_S160000x256_1_0_0_1_n_n none
            (relu S160000x256 bcast_S_S160000x256
              (addf (Host.dotGeneral (F := Ideal) (φ₁ := .f32) (φ₂ := .f32) dot_S160000x578_S578x256_S160000x256_1_0_0_1_n_n none
                  (concatenate S160000x578 1 [⟨S160000x256, hin⟩, ⟨S160000x256, hout⟩, ⟨S160000x1, sin⟩, ⟨S160000x1, sout⟩, ⟨S160000x64, ef⟩]
      concatenates_S160000x256_S160000x256_S160000x1_S160000x1_S160000x64_S160000x578_d1) W1)
                (row2 160000 bcast_S1x256_S160000x256_0_1 b1))) W2)
          (row2 160000 bcast_S1x256_S160000x256_0_1 b2))
        (broadcastInDim S160000x256 ![0, 1] bcast_S160000x1_S160000x256_0_1 (broadcastInDim S160000x1 ![0] bcast_S160000_S160000x1_0 ew))
      = Cert.Spec.msgK hin hout sin sout ef ewc Whin Whout Wedge wsin wsout c1 W2 c2 := by
  funext j
  obtain ⟨p, q, rfl⟩ : ∃ p q, j = ix2 p q := ⟨j 0, j 1, eq_ix2 j⟩
  rw [mulf_apply, addf_apply, dot_apply dot_S160000x256_S256x256_S160000x256_1_0_0_1_n_n rfl, row2_apply,
    broadcastInDim_apply _ bcast_S160000x1_S160000x256_0_1 _ (ix2 p q) (ix2 p 0)
      (fun a => by match a with | ⟨0, _⟩ => rfl | ⟨1, _⟩ => rfl),
    broadcastInDim_apply _ bcast_S160000_S160000x1_0 ew (ix2 p 0) (ix1 p) (fun a => by match a with | ⟨0, _⟩ => rfl)]
  show _ = ((∑ k : Fin 256, max (Spec.msgPre hin hout sin sout ef Whin Whout Wedge wsin wsout c1 p k) 0 * W2 (ix2 k q))
      + c2 (ix2 0 q)) * ewc (ix2 p 0)
  rw [hc2, hew]
  refine congrArg (fun z => (z + b2 (ix1 q)) * ew (ix1 p)) (Finset.sum_congr rfl fun k _ => ?_)
  rw [relu_apply, msg_pre_eq hin hout sin sout ef W1 b1 Whin Whout Wedge wsin wsout c1 hWhin hWhout hwsin hwsout hWedge hc1 p k]

end Cert.RefAlg

end
-- ==== Proof.Slices.lean ====
/-
  How the weight blocks cut out of the stacked argument arrays read at an index. A layer's matrix is a band of rows of
  one layer of a rank-3 stack with its leading unit axis dropped; a layer's bias row is one row of a rank-2 stack, kept
  as a row; a vector becomes a column or a row by a change of shape. Each lemma names the one entry of the operand that
  an entry of the result is. Pure index algebra: the element type is arbitrary and every side condition is taken as
  given, whoever proved it. The last section reads the thirteen fields of each of the network's three layer records
  this way.
-/
import Idealize.ShloMosaic.Lib.ValueIdx
import Idealize.ShloMosaic.Lib.ValueLayout
import Idealize.ShloMosaic.Lib.Pipeline.Value
import proofs.«421803_j42709154791890_2_alg».proof.Proof.Net

namespace Cert.Slices

open Idealize.ShloMosaic Idealize.ShloMosaic.ValueIdx

variable {α : Type}

/-! ## Blocks of a rank-3 stack -/

/-- Rows `off … off + b - 1` of layer `l` of a stack of `A` matrices, as a `b × C` matrix: entry `(q, k)` is the
    stack's entry `(l, off + q, k)`. -/
theorem slice3_mat {A B C b : ℕ} (W : (⟨3, ![A, B, C]⟩ : Shape).Idx → α) (l : Fin A) (off : ℕ) (hoff : off + b ≤ B)
    (h1 : (⟨3, ![A, B, C]⟩ : Shape).Slices ![l.val, off, 0] ⟨3, ![1, b, C]⟩)
    (h2 : (⟨3, ![1, b, C]⟩ : Shape).ShapeCasts ⟨2, ![b, C]⟩) (q : Fin b) (k : Fin C) :
    shapeCast ⟨2, ![b, C]⟩ (extractStridedSlice ⟨3, ![1, b, C]⟩ ![l.val, off, 0] W h1) h2 (ix2 q k)
      = W (ix3 l ⟨off + q.val, by omega⟩ k) :=
  (shapeCast_1ab_ab_apply _ h2 q k).trans
    (extractStridedSlice_apply _ W h1 _ _ (fun ax => by
      match ax with
      | ⟨0, _⟩ => exact (Nat.add_zero _).symm
      | ⟨1, _⟩ => rfl
      | ⟨2, _⟩ => exact (Nat.zero_add _).symm))

/-- The first `b` rows of layer `l`: entry `(q, k)` is the stack's entry `(l, q, k)`. -/
theorem slice3_mat0 {A B C b : ℕ} (W : (⟨3, ![A, B, C]⟩ : Shape).Idx → α) (l : Fin A) (hb : b ≤ B)
    (h1 : (⟨3, ![A, B, C]⟩ : Shape).Slices ![l.val, 0, 0] ⟨3, ![1, b, C]⟩)
    (h2 : (⟨3, ![1, b, C]⟩ : Shape).ShapeCasts ⟨2, ![b, C]⟩) (q : Fin b) (k : Fin C) :
    shapeCast ⟨2, ![b, C]⟩ (extractStridedSlice ⟨3, ![1, b, C]⟩ ![l.val, 0, 0] W h1) h2 (ix2 q k)
      = W (ix3 l ⟨q.val, by omega⟩ k) :=
  (shapeCast_1ab_ab_apply _ h2 q k).trans
    (extractStridedSlice_apply _ W h1 _ _ (fun ax => by
      match ax with
      | ⟨0, _⟩ => exact (Nat.add_zero _).symm
      | ⟨1, _⟩ => exact (Nat.zero_add _).symm
      | ⟨2, _⟩ => exact (Nat.zero_add _).symm))

/-- The whole of layer `l`: entry `(q, k)` is the stack's entry `(l, q, k)`. -/
theorem slice3_full {A B C : ℕ} (W : (⟨3, ![A, B, C]⟩ : Shape).Idx → α) (l : Fin A)
    (h1 : (⟨3, ![A, B, C]⟩ : Shape).Slices ![l.val, 0, 0] ⟨3, ![1, B, C]⟩)
    (h2 : (⟨3, ![1, B, C]⟩ : Shape).ShapeCasts ⟨2, ![B, C]⟩) (q : Fin B) (k : Fin C) :
    shapeCast ⟨2, ![B, C]⟩ (extractStridedSlice ⟨3, ![1, B, C]⟩ ![l.val, 0, 0] W h1) h2 (ix2 q k) = W (ix3 l q k) :=
  slice3_mat0 W l (Nat.le_refl B) h1 h2 q k

/-- The single row `off` of layer `l` of the stack, as a `1 × C` row: entry `(0, k)` is the stack's entry `(l, off, k)`. -/
theorem slice3_row {A B C : ℕ} (W : (⟨3, ![A, B, C]⟩ : Shape).Idx → α) (l : Fin A) (off : ℕ) (hoff : off < B)
    (h1 : (⟨3, ![A, B, C]⟩ : Shape).Slices ![l.val, off, 0] ⟨3, ![1, 1, C]⟩)
    (h2 : (⟨3, ![1, 1, C]⟩ : Shape).ShapeCasts ⟨2, ![1, C]⟩) (k : Fin C) :
    shapeCast ⟨2, ![1, C]⟩ (extractStridedSlice ⟨3, ![1, 1, C]⟩ ![l.val, off, 0] W h1) h2 (ix2 0 k)
      = W (ix3 l ⟨off, hoff⟩ k) :=
  (shapeCast_1ab_ab_apply _ h2 0 k).trans
    (extractStridedSlice_apply _ W h1 _ _ (fun ax => by
      match ax with
      | ⟨0, _⟩ => exact (Nat.add_zero _).symm
      | ⟨1, _⟩ => exact (Nat.add_zero _).symm
      | ⟨2, _⟩ => exact (Nat.zero_add _).symm))

/-! ## Rows of a rank-2 stack -/

/-- Row `l` of a stack of `A` rows, as a vector: entry `k` is the stack's entry `(l, k)`. -/
theorem slice2_vec {A C : ℕ} (b : (⟨2, ![A, C]⟩ : Shape).Idx → α) (l : Fin A)
    (h1 : (⟨2, ![A, C]⟩ : Shape).Slices ![l.val, 0] ⟨2, ![1, C]⟩)
    (h2 : (⟨2, ![1, C]⟩ : Shape).ShapeCasts ⟨1, ![C]⟩) (k : Fin C) :
    shapeCast ⟨1, ![C]⟩ (extractStridedSlice ⟨2, ![1, C]⟩ ![l.val, 0] b h1) h2 (ix1 k) = b (ix2 l k) :=
  (shapeCast_1a_a_apply _ h2 k).trans
    (extractStridedSlice_apply _ b h1 _ _ (fun ax => by
      match ax with
      | ⟨0, _⟩ => exact (Nat.add_zero _).symm
      | ⟨1, _⟩ => exact (Nat.zero_add _).symm))

/-- The same row taken as a vector and set up again as a `1 × C` row: entry `(0, k)` is the stack's entry `(l, k)`. -/
theorem slice2_row {A C : ℕ} (b : (⟨2, ![A, C]⟩ : Shape).Idx → α) (l : Fin A)
    (h1 : (⟨2, ![A, C]⟩ : Shape).Slices ![l.val, 0] ⟨2, ![1, C]⟩)
    (h2 : (⟨2, ![1, C]⟩ : Shape).ShapeCasts ⟨1, ![C]⟩) (h3 : (⟨1, ![C]⟩ : Shape).ShapeCasts ⟨2, ![1, C]⟩) (k : Fin C) :
    shapeCast ⟨2, ![1, C]⟩ (shapeCast ⟨1, ![C]⟩ (extractStridedSlice ⟨2, ![1, C]⟩ ![l.val, 0] b h1) h2) h3 (ix2 0 k)
      = b (ix2 l k) :=
  (shapeCast_a_1a_apply _ h3 0 k).trans (slice2_vec b l h1 h2 k)

/-! ## Vectors as columns and rows -/

/-- A vector of length `n` as an `n × 1` column: entry `(p, 0)` is the vector's entry `p`. -/
theorem col_of_vec {n : ℕ} (v : (⟨1, ![n]⟩ : Shape).Idx → α) (h : (⟨1, ![n]⟩ : Shape).ShapeCasts ⟨2, ![n, 1]⟩) (p : Fin n) :
    shapeCast ⟨2, ![n, 1]⟩ v h (ix2 p 0) = v (ix1 p) :=
  shapeCast_apply v h _ _ (by
    rw [Shape.rowMajor_val_one, Shape.rowMajor_val_two]
    show p.val = p.val * 1 + 0
    rw [Nat.mul_one, Nat.add_zero])

/-- A vector of length `C` as a `1 × C` row: entry `(0, k)` is the vector's entry `k`. -/
theorem row_of_vec {C : ℕ} (v : (⟨1, ![C]⟩ : Shape).Idx → α) (h : (⟨1, ![C]⟩ : Shape).ShapeCasts ⟨2, ![1, C]⟩) (k : Fin C) :
    shapeCast ⟨2, ![1, C]⟩ v h (ix2 0 k) = v (ix1 k) :=
  shapeCast_a_1a_apply v h 0 k

/-- A vector of length `n` broadcast along its own axis into an `n × 1` column: entry `(p, 0)` is the vector's entry `p`. -/
theorem bcast_col_of_vec {n : ℕ} (v : (⟨1, ![n]⟩ : Shape).Idx → α)
    (h : (⟨1, ![n]⟩ : Shape).BroadcastsInDim ⟨2, ![n, 1]⟩ ![0]) (p : Fin n) :
    broadcastInDim ⟨2, ![n, 1]⟩ ![0] h v (ix2 p 0) = v (ix1 p) :=
  broadcastInDim_apply ![0] h v (ix2 p 0) (ix1 p) (fun ax => by
    match ax with
    | ⟨0, _⟩ =>
      show p.val = if n = 1 then 0 else p.val
      split
      · have := p.isLt; omega
      · rfl)

/-! ## The three layers' weights at an index

Every field of a layer's record is one of the blocks above, cut out of the stacked arrays at that layer's number: the
message stage's first matrix in five bands of rows (256 source rows, 256 destination rows, the two count rows, 64
edge-feature rows), the combine stage's first matrix in two halves, the second matrices whole, the biases as rows. -/

section Layers

variable (mW1 : Net.A3 3 578 256) (mb1 : Spec.A2 3 256) (mW2 : Net.A3 3 256 256) (mb2 : Spec.A2 3 256)
  (uW1 : Net.A3 3 512 256) (ub1 : Spec.A2 3 256) (uW2 : Net.A3 3 256 256) (ub2 : Spec.A2 3 256)

/-! ### Layer 0 -/

theorem layerW0_Whin (q : Fin 256) (k : Fin 256) :
    (Net.layerW0 mW1 mb1 mW2 mb2 uW1 ub1 uW2 ub2).Whin (ix2 q k) = mW1 (ix3 0 ⟨q.val, by omega⟩ k) :=
  slice3_mat0 mW1 0 (by omega) (by decide) (by decide) q k
theorem layerW0_Whout (q : Fin 256) (k : Fin 256) :
    (Net.layerW0 mW1 mb1 mW2 mb2 uW1 ub1 uW2 ub2).Whout (ix2 q k) = mW1 (ix3 0 ⟨256 + q.val, by omega⟩ k) :=
  slice3_mat mW1 0 256 (by omega) (by decide) (by decide) q k
theorem layerW0_Wedge (q : Fin 64) (k : Fin 256) :
    (Net.layerW0 mW1 mb1 mW2 mb2 uW1 ub1 uW2 ub2).Wedge (ix2 q k) = mW1 (ix3 0 ⟨514 + q.val, by omega⟩ k) :=
  slice3_mat mW1 0 514 (by omega) (by decide) (by decide) q k
theorem layerW0_wsin (k : Fin 256) :
    (Net.layerW0 mW1 mb1 mW2 mb2 uW1 ub1 uW2 ub2).wsin (ix2 0 k) = mW1 (ix3 0 ⟨512, by omega⟩ k) :=
  slice3_row mW1 0 512 (by omega) (by decide) (by decide) k
theorem layerW0_wsout (k : Fin 256) :
    (Net.layerW0 mW1 mb1 mW2 mb2 uW1 ub1 uW2 ub2).wsout (ix2 0 k) = mW1 (ix3 0 ⟨513, by omega⟩ k) :=
  slice3_row mW1 0 513 (by omega) (by decide) (by decide) k
theorem layerW0_b1 (k : Fin 256) :
    (Net.layerW0 mW1 mb1 mW2 mb2 uW1 ub1 uW2 ub2).b1 (ix2 0 k) = mb1 (ix2 0 k) :=
  slice2_row mb1 0 (by decide) (by decide) (by decide) k
theorem layerW0_W2 (q : Fin 256) (k : Fin 256) :
    (Net.layerW0 mW1 mb1 mW2 mb2 uW1 ub1 uW2 ub2).W2 (ix2 q k) = mW2 (ix3 0 q k) :=
  slice3_full mW2 0 (by decide) (by decide) q k
theorem layerW0_b2 (k : Fin 256) :
    (Net.layerW0 mW1 mb1 mW2 mb2 uW1 ub1 uW2 ub2).b2 (ix2 0 k) = mb2 (ix2 0 k) :=
  slice2_row mb2 0 (by decide) (by decide) (by decide) k
theorem layerW0_Wa (q : Fin 256) (k : Fin 256) :
    (Net.layerW0 mW1 mb1 mW2 mb2 uW1 ub1 uW2 ub2).Wa (ix2 q k) = uW1 (ix3 0 ⟨q.val, by omega⟩ k) :=
  slice3_mat0 uW1 0 (by omega) (by decide) (by decide) q k
theorem layerW0_Wb (q : Fin 256) (k : Fin 256) :
    (Net.layerW0 mW1 mb1 mW2 mb2 uW1 ub1 uW2 ub2).Wb (ix2 q k) = uW1 (ix3 0 ⟨256 + q.val, by omega⟩ k) :=
  slice3_mat uW1 0 256 (by omega) (by decide) (by decide) q k
theorem layerW0_c1 (k : Fin 256) :
    (Net.layerW0 mW1 mb1 mW2 mb2 uW1 ub1 uW2 ub2).c1 (ix2 0 k) = ub1 (ix2 0 k) :=
  slice2_row ub1 0 (by decide) (by decide) (by decide) k
theorem layerW0_U2 (q : Fin 256) (k : Fin 256) :
    (Net.layerW0 mW1 mb1 mW2 mb2 uW1 ub1 uW2 ub2).U2 (ix2 q k) = uW2 (ix3 0 q k) :=
  slice3_full uW2 0 (by decide) (by decide) q k
theorem layerW0_c2 (k : Fin 256) :
    (Net.layerW0 mW1 mb1 mW2 mb2 uW1 ub1 uW2 ub2).c2 (ix2 0 k) = ub2 (ix2 0 k) :=
  slice2_row ub2 0 (by decide) (by decide) (by decide) k

/-! ### Layer 1 -/

theorem layerW1_Whin (q : Fin 256) (k : Fin 256) :
    (Net.layerW1 mW1 mb1 mW2 mb2 uW1 ub1 uW2 ub2).Whin (ix2 q k) = mW1 (ix3 1 ⟨q.val, by omega⟩ k) :=
  slice3_mat0 mW1 1 (by omega) (by decide) (by decide) q k
theorem layerW1_Whout (q : Fin 256) (k : Fin 256) :
    (Net.layerW1 mW1 mb1 mW2 mb2 uW1 ub1 uW2 ub2).Whout (ix2 q k) = mW1 (ix3 1 ⟨256 + q.val, by omega⟩ k) :=
  slice3_mat mW1 1 256 (by omega) (by decide) (by decide) q k
theorem layerW1_Wedge (q : Fin 64) (k : Fin 256) :
    (Net.layerW1 mW1 mb1 mW2 mb2 uW1 ub1 uW2 ub2).Wedge (ix2 q k) = mW1 (ix3 1 ⟨514 + q.val, by omega⟩ k) :=
  slice3_mat mW1 1 514 (by omega) (by decide) (by decide) q k
theorem layerW1_wsin (k : Fin 256) :
    (Net.layerW1 mW1 mb1 mW2 mb2 uW1 ub1 uW2 ub2).wsin (ix2 0 k) = mW1 (ix3 1 ⟨512, by omega⟩ k) :=
  slice3_row mW1 1 512 (by omega) (by decide) (by decide) k
theorem layerW1_wsout (k : Fin 256) :
    (Net.layerW1 mW1 mb1 mW2 mb2 uW1 ub1 uW2 ub2).wsout (ix2 0 k) = mW1 (ix3 1 ⟨513, by omega⟩ k) :=
  slice3_row mW1 1 513 (by omega) (by decide) (by decide) k
theorem layerW1_b1 (k : Fin 256) :
    (Net.layerW1 mW1 mb1 mW2 mb2 uW1 ub1 uW2 ub2).b1 (ix2 0 k) = mb1 (ix2 1 k) :=
  slice2_row mb1 1 (by decide) (by decide) (by decide) k
theorem layerW1_W2 (q : Fin 256) (k : Fin 256) :
    (Net.layerW1 mW1 mb1 mW2 mb2 uW1 ub1 uW2 ub2).W2 (ix2 q k) = mW2 (ix3 1 q k) :=
  slice3_full mW2 1 (by decide) (by decide) q k
theorem layerW1_b2 (k : Fin 256) :
    (Net.layerW1 mW1 mb1 mW2 mb2 uW1 ub1 uW2 ub2).b2 (ix2 0 k) = mb2 (ix2 1 k) :=
  slice2_row mb2 1 (by decide) (by decide) (by decide) k
theorem layerW1_Wa (q : Fin 256) (k : Fin 256) :
    (Net.layerW1 mW1 mb1 mW2 mb2 uW1 ub1 uW2 ub2).Wa (ix2 q k) = uW1 (ix3 1 ⟨q.val, by omega⟩ k) :=
  slice3_mat0 uW1 1 (by omega) (by decide) (by decide) q k
theorem layerW1_Wb (q : Fin 256) (k : Fin 256) :
    (Net.layerW1 mW1 mb1 mW2 mb2 uW1 ub1 uW2 ub2).Wb (ix2 q k) = uW1 (ix3 1 ⟨256 + q.val, by omega⟩ k) :=
  slice3_mat uW1 1 256 (by omega) (by decide) (by decide) q k
theorem layerW1_c1 (k : Fin 256) :
    (Net.layerW1 mW1 mb1 mW2 mb2 uW1 ub1 uW2 ub2).c1 (ix2 0 k) = ub1 (ix2 1 k) :=
  slice2_row ub1 1 (by decide) (by decide) (by decide) k
theorem layerW1_U2 (q : Fin 256) (k : Fin 256) :
    (Net.layerW1 mW1 mb1 mW2 mb2 uW1 ub1 uW2 ub2).U2 (ix2 q k) = uW2 (ix3 1 q k) :=
  slice3_full uW2 1 (by decide) (by decide) q k
theorem layerW1_c2 (k : Fin 256) :
    (Net.layerW1 mW1 mb1 mW2 mb2 uW1 ub1 uW2 ub2).c2 (ix2 0 k) = ub2 (ix2 1 k) :=
  slice2_row ub2 1 (by decide) (by decide) (by decide) k

/-! ### Layer 2 -/

theorem layerW2_Whin (q : Fin 256) (k : Fin 256) :
    (Net.layerW2 mW1 mb1 mW2 mb2 uW1 ub1 uW2 ub2).Whin (ix2 q k) = mW1 (ix3 2 ⟨q.val, by omega⟩ k) :=
  slice3_mat0 mW1 2 (by omega) (by decide) (by decide) q k
theorem layerW2_Whout (q : Fin 256) (k : Fin 256) :
    (Net.layerW2 mW1 mb1 mW2 mb2 uW1 ub1 uW2 ub2).Whout (ix2 q k) = mW1 (ix3 2 ⟨256 + q.val, by omega⟩ k) :=
  slice3_mat mW1 2 256 (by omega) (by decide) (by decide) q k
theorem layerW2_Wedge (q : Fin 64) (k : Fin 256) :
    (Net.layerW2 mW1 mb1 mW2 mb2 uW1 ub1 uW2 ub2).Wedge (ix2 q k) = mW1 (ix3 2 ⟨514 + q.val, by omega⟩ k) :=
  slice3_mat mW1 2 514 (by omega) (by decide) (by decide) q k
theorem layerW2_wsin (k : Fin 256) :
    (Net.layerW2 mW1 mb1 mW2 mb2 uW1 ub1 uW2 ub2).wsin (ix2 0 k) = mW1 (ix3 2 ⟨512, by omega⟩ k) :=
  slice3_row mW1 2 512 (by omega) (by decide) (by decide) k
theorem layerW2_wsout (k : Fin 256) :
    (Net.layerW2 mW1 mb1 mW2 mb2 uW1 ub1 uW2 ub2).wsout (ix2 0 k) = mW1 (ix3 2 ⟨513, by omega⟩ k) :=
  slice3_row mW1 2 513 (by omega) (by decide) (by decide) k
theorem layerW2_b1 (k : Fin 256) :
    (Net.layerW2 mW1 mb1 mW2 mb2 uW1 ub1 uW2 ub2).b1 (ix2 0 k) = mb1 (ix2 2 k) :=
  slice2_row mb1 2 (by decide) (by decide) (by decide) k
theorem layerW2_W2 (q : Fin 256) (k : Fin 256) :
    (Net.layerW2 mW1 mb1 mW2 mb2 uW1 ub1 uW2 ub2).W2 (ix2 q k) = mW2 (ix3 2 q k) :=
  slice3_full mW2 2 (by decide) (by decide) q k
theorem layerW2_b2 (k : Fin 256) :
    (Net.layerW2 mW1 mb1 mW2 mb2 uW1 ub1 uW2 ub2).b2 (ix2 0 k) = mb2 (ix2 2 k) :=
  slice2_row mb2 2 (by decide) (by decide) (by decide) k
theorem layerW2_Wa (q : Fin 256) (k : Fin 256) :
    (Net.layerW2 mW1 mb1 mW2 mb2 uW1 ub1 uW2 ub2).Wa (ix2 q k) = uW1 (ix3 2 ⟨q.val, by omega⟩ k) :=
  slice3_mat0 uW1 2 (by omega) (by decide) (by decide) q k
theorem layerW2_Wb (q : Fin 256) (k : Fin 256) :
    (Net.layerW2 mW1 mb1 mW2 mb2 uW1 ub1 uW2 ub2).Wb (ix2 q k) = uW1 (ix3 2 ⟨256 + q.val, by omega⟩ k) :=
  slice3_mat uW1 2 256 (by omega) (by decide) (by decide) q k
theorem layerW2_c1 (k : Fin 256) :
    (Net.layerW2 mW1 mb1 mW2 mb2 uW1 ub1 uW2 ub2).c1 (ix2 0 k) = ub1 (ix2 2 k) :=
  slice2_row ub1 2 (by decide) (by decide) (by decide) k
theorem layerW2_U2 (q : Fin 256) (k : Fin 256) :
    (Net.layerW2 mW1 mb1 mW2 mb2 uW1 ub1 uW2 ub2).U2 (ix2 q k) = uW2 (ix3 2 q k) :=
  slice3_full uW2 2 (by decide) (by decide) q k
theorem layerW2_c2 (k : Fin 256) :
    (Net.layerW2 mW1 mb1 mW2 mb2 uW1 ub1 uW2 ub2).c2 (ix2 0 k) = ub2 (ix2 2 k) :=
  slice2_row ub2 2 (by decide) (by decide) (by decide) k

end Layers

end Cert.Slices
-- ==== Proof.RefVal.lean ====
/-
  The plain program's result is the network.

  The value the plain program's run leaves is one array expression of the sixteen arguments. Read stage by stage it is
  the network's function of the same arguments: the projection; three rounds, each the gather columns made from the
  edge list, the gathered endpoint rows and counts, the message MLP, the sum into the destination nodes and the combine
  MLP; and the per-graph sum. One round is stated once, from any node states and with any cut of the weights: its
  gathers and its sum into nodes are the operations the network is written with, and its two dense stages are the
  specification's entry-by-entry functions by the theorems on the plain program's dense stages. What those ask is that
  every weight block the network cuts out of a stacked argument array is the matching band of rows of the matrix the
  plain program cuts out of the same array, and that a bias row is the bias vector: both sides are read at an index
  down to one entry of the argument array. Each of the three rounds' closing stages is that round at its layer.
-/
import proofs.«421803_j42709154791890_2_alg».proof.Proof.RefGen
import proofs.«421803_j42709154791890_2_alg».proof.Proof.Net
import proofs.«421803_j42709154791890_2_alg».proof.Proof.RefAlg
import proofs.«421803_j42709154791890_2_alg».proof.Proof.RefAlgM
import proofs.«421803_j42709154791890_2_alg».proof.Proof.Slices

noncomputable section

namespace Cert.RefVal

open Cert.ReferenceIdeal Cert.ReferenceIdeal.Gen Cert.ReferenceIdeal.ReadP
open Idealize.ShloMosaic Idealize.ShloMosaic.TcCoe Idealize.SL.Sem Idealize.ShloMosaic.ValueIdx
open Cert.Spec (A2)
open Cert.Net (A1 A3)

/-! ## One round, from any node states and with any cut of the weights -/

/-- The edge weights as a column, the shape the network hands them to the message stage in. -/
abbrev ewCol (ew : A1 160000) : A2 160000 1 :=
  shapeCast Cert.KernelIdeal.S160000x1 ew Cert.KernelIdeal.Facts₀.shapeCasts_S160000_S160000x1

/-- Entry (e, 0) of the column is the weight of edge e. -/
theorem ewCol_apply (ew : A1 160000) (e : Fin 160000) : ewCol ew (ix2 e 0) = ew (ix1 e) := Slices.col_of_vec ew _ e

/-- The weighted messages of one round, as the plain program computes them from the node states `h`: the rows of `h` and the
    structural counts at the two endpoint columns, and the edge features, side by side, against the stacked matrix `W1`;
    the bias `b1`; the rectifier; the second layer `W2` and its bias `b2`; times the edge weight broadcast along the row. -/
def refMsg (h : A2 20000 256) (sf : A2 20000 1) (ef : A2 160000 64) (ew : A1 160000) (el : IVec S160000x2 32)
    (W1 : A2 578 256) (b1 : A1 256) (W2 : A2 256 256) (b2 : A1 256) : A2 160000 256 :=
  mulf (addf (Host.dotGeneral (F := Ideal) (φ₁ := .f32) (φ₂ := .f32) dot_S160000x256_S256x256_S160000x256_1_0_0_1_n_n none
          (RefAlg.relu S160000x256 bcast_S_S160000x256
            (addf (Host.dotGeneral (F := Ideal) (φ₁ := .f32) (φ₂ := .f32) dot_S160000x578_S578x256_S160000x256_1_0_0_1_n_n none
                (concatenate S160000x578 1
                  [⟨S160000x256, Net.rowsOf h (Net.wrapCol (Net.nodeIn el))⟩, ⟨S160000x256, Net.rowsOf h (Net.wrapCol (Net.nodeOut el))⟩,
                   ⟨S160000x1, Net.countsOf sf (Net.wrapCol (Net.nodeIn el))⟩, ⟨S160000x1, Net.countsOf sf (Net.wrapCol (Net.nodeOut el))⟩,
                   ⟨S160000x64, ef⟩]
                  concatenates_S160000x256_S160000x256_S160000x1_S160000x1_S160000x64_S160000x578_d1) W1)
              (RefAlg.row2 160000 bcast_S1x256_S160000x256_0_1 b1))) W2)
        (RefAlg.row2 160000 bcast_S1x256_S160000x256_0_1 b2))
    (broadcastInDim S160000x256 ![0, 1] bcast_S160000x1_S160000x256_0_1 (broadcastInDim S160000x1 ![0] bcast_S160000_S160000x1_0 ew))

/-- One round as the plain program computes it from `h`: the states and the messages summed into their destination nodes, side
    by side, against the stacked matrix `V1`; the bias `d1`; the rectifier; the second layer `V2` and its bias `d2`; the
    rectifier. -/
def refRound (h : A2 20000 256) (sf : A2 20000 1) (ef : A2 160000 64) (ew : A1 160000) (el : IVec S160000x2 32)
    (W1 : A2 578 256) (b1 : A1 256) (W2 : A2 256 256) (b2 : A1 256)
    (V1 : A2 512 256) (d1 : A1 256) (V2 : A2 256 256) (d2 : A1 256) : A2 20000 256 :=
  RefAlg.relu S20000x256 bcast_S_S20000x256
    (addf (Host.dotGeneral (F := Ideal) (φ₁ := .f32) (φ₂ := .f32) dot_S20000x256_S256x256_S20000x256_1_0_0_1_n_n none
        (RefAlg.relu S20000x256 bcast_S_S20000x256
          (addf (Host.dotGeneral (F := Ideal) (φ₁ := .f32) (φ₂ := .f32) dot_S20000x512_S512x256_S20000x256_1_0_0_1_n_n none
              (concatenate S20000x512 1
                [⟨S20000x256, h⟩, ⟨S20000x256, Net.aggregate (Net.plainCol (Net.nodeOut el)) (refMsg h sf ef ew el W1 b1 W2 b2)⟩]
                concatenates_S20000x256_S20000x256_S20000x512_d1) V1)
            (RefAlg.row2 20000 bcast_S1x256_S20000x256_0_1 d1))) V2)
      (RefAlg.row2 20000 bcast_S1x256_S20000x256_0_1 d2))

/-- Such a round is the network's round with weight blocks `w`, as soon as each block of `w` is its band of rows of the
    stacked matrix it belongs to, each bias row of `w` is the bias vector, and the two second-layer matrices are `w`'s own:
    the message stage and the combine stage are then the specification's, and the gathers and the sum into nodes between
    them are the network's operations as they stand. -/
theorem refRound_eq (h : A2 20000 256) (sf : A2 20000 1) (ef : A2 160000 64) (ew : A1 160000) (el : IVec S160000x2 32)
    (W1 : A2 578 256) (b1 b2 : A1 256) (V1 : A2 512 256) (d1 d2 : A1 256) (w : Net.LayerW)
    (hWhin : ∀ (q k : Fin 256), w.Whin (ix2 q k) = W1 (ix2 ⟨q.val, by omega⟩ k))
    (hWhout : ∀ (q k : Fin 256), w.Whout (ix2 q k) = W1 (ix2 ⟨256 + q.val, by omega⟩ k))
    (hwsin : ∀ k : Fin 256, w.wsin (ix2 0 k) = W1 (ix2 ⟨512, by omega⟩ k))
    (hwsout : ∀ k : Fin 256, w.wsout (ix2 0 k) = W1 (ix2 ⟨513, by omega⟩ k))
    (hWedge : ∀ (q : Fin 64) (k : Fin 256), w.Wedge (ix2 q k) = W1 (ix2 ⟨514 + q.val, by omega⟩ k))
    (hb1 : ∀ k : Fin 256, w.b1 (ix2 0 k) = b1 (ix1 k)) (hb2 : ∀ k : Fin 256, w.b2 (ix2 0 k) = b2 (ix1 k))
    (hWa : ∀ (q k : Fin 256), w.Wa (ix2 q k) = V1 (ix2 ⟨q.val, by omega⟩ k))
    (hWb : ∀ (q k : Fin 256), w.Wb (ix2 q k) = V1 (ix2 ⟨256 + q.val, by omega⟩ k))
    (hc1 : ∀ k : Fin 256, w.c1 (ix2 0 k) = d1 (ix1 k)) (hc2 : ∀ k : Fin 256, w.c2 (ix2 0 k) = d2 (ix1 k)) :
    refRound h sf ef ew el W1 b1 w.W2 b2 V1 d1 w.U2 d2
      = Net.layerStep (Net.wrapCol (Net.nodeIn el)) (Net.wrapCol (Net.nodeOut el)) (Net.plainCol (Net.nodeOut el)) sf ef (ewCol ew) w h := by
  unfold refRound refMsg Net.layerStep
  rw [RefAlg.msg_eq _ _ _ _ ef ew (ewCol ew) (ewCol_apply ew) W1 b1 b2 w.W2 w.Whin w.Whout w.Wedge w.wsin w.wsout w.b1 w.b2
    hWhin hWhout hwsin hwsout hWedge hb1 hb2]
  exact RefAlg.upd_eq _ _ V1 d1 w.U2 d2 w.Wa w.Wb w.c1 w.c2 hWa hWb hc1 hc2

/-! ## The stages of the plain program

    The sixteen argument arrays: node features, structural counts, edge features, edge weights, edge list, graph ids, the
    projection's matrix and bias, and the stacked weights and biases of the two MLPs of the three rounds. -/
variable (x0 : A2 20000 64) (x1 : A2 20000 1) (x2 : A2 160000 64) (x3 : A1 160000) (x4 : IVec S160000x2 32) (x5 : IVec S20000 32)
  (x6 : A2 64 256) (x7 : A1 256) (x8 : A3 3 578 256) (x9 : A2 3 256) (x10 : A3 3 256 256) (x11 : A2 3 256)
  (x12 : A3 3 512 256) (x13 : A2 3 256) (x14 : A3 3 256 256) (x15 : A2 3 256)

/-- The projection: the product plus the bias broadcast down the rows is the specification's, with the bias as a row. -/
theorem proj : val_main_v7 (F := Ideal) x0 x6 x7 = Net.h0 x0 x6 x7 := by
  unfold val_main_v7 val_main_v4 val_main_v6 val_main_v5 Net.h0
  exact RefAlg.lin_eq x0 x6 x7 _ (fun k => Slices.row_of_vec x7 _ k)

/-- The first round. Its closing stage is one round of the plain program from the projected features, with layer 0 of every
    stack cut out whole: the same operations in the same order, the gather and scatter columns included. The network's
    blocks of layer 0 are bands of those cuts: both are read at an index down to one entry of the stacked argument array. -/
theorem layer0 : val_main_v78 (F := Ideal) x0 x1 x2 x3 x4 x6 x7 x8 x9 x10 x11 x12 x13 x14 x15
    = Net.layerStep (Net.wrapCol (Net.nodeIn x4)) (Net.wrapCol (Net.nodeOut x4)) (Net.plainCol (Net.nodeOut x4)) x1 x2 (ewCol x3)
        (Net.layerW0 x8 x9 x10 x11 x12 x13 x14 x15) (val_main_v7 (F := Ideal) x0 x6 x7) := by
  show refRound (val_main_v7 (F := Ideal) x0 x6 x7) x1 x2 x3 x4
      (val_main_v38 (F := Ideal) x8) (val_main_v41 (F := Ideal) x9) (Net.layerW0 x8 x9 x10 x11 x12 x13 x14 x15).W2 (val_main_v50 (F := Ideal) x11)
      (val_main_v62 (F := Ideal) x12) (val_main_v65 (F := Ideal) x13) (Net.layerW0 x8 x9 x10 x11 x12 x13 x14 x15).U2 (val_main_v74 (F := Ideal) x15) = _
  exact refRound_eq _ x1 x2 x3 x4 (val_main_v38 (F := Ideal) x8) (val_main_v41 (F := Ideal) x9) (val_main_v50 (F := Ideal) x11)
    (val_main_v62 (F := Ideal) x12) (val_main_v65 (F := Ideal) x13) (val_main_v74 (F := Ideal) x15) (Net.layerW0 x8 x9 x10 x11 x12 x13 x14 x15)
    (fun q k => (Slices.slice3_mat0 x8 0 (by decide) (by decide) (by decide) q k).trans
      (Slices.slice3_full x8 0 (by decide) (by decide) ⟨q.val, by omega⟩ k).symm)
    (fun q k => (Slices.slice3_mat x8 0 256 (by decide) (by decide) (by decide) q k).trans
      (Slices.slice3_full x8 0 (by decide) (by decide) ⟨256 + q.val, by omega⟩ k).symm)
    (fun k => (Slices.slice3_row x8 0 512 (by decide) (by decide) (by decide) k).trans
      (Slices.slice3_full x8 0 (by decide) (by decide) ⟨512, by decide⟩ k).symm)
    (fun k => (Slices.slice3_row x8 0 513 (by decide) (by decide) (by decide) k).trans
      (Slices.slice3_full x8 0 (by decide) (by decide) ⟨513, by decide⟩ k).symm)
    (fun q k => (Slices.slice3_mat x8 0 514 (by decide) (by decide) (by decide) q k).trans
      (Slices.slice3_full x8 0 (by decide) (by decide) ⟨514 + q.val, by omega⟩ k).symm)
    (fun k => Slices.row_of_vec (val_main_v41 (F := Ideal) x9) (by decide) k)
    (fun k => Slices.row_of_vec (val_main_v50 (F := Ideal) x11) (by decide) k)
    (fun q k => (Slices.slice3_mat0 x12 0 (by decide) (by decide) (by decide) q k).trans
      (Slices.slice3_full x12 0 (by decide) (by decide) ⟨q.val, by omega⟩ k).symm)
    (fun q k => (Slices.slice3_mat x12 0 256 (by decide) (by decide) (by decide) q k).trans
      (Slices.slice3_full x12 0 (by decide) (by decide) ⟨256 + q.val, by omega⟩ k).symm)
    (fun k => Slices.row_of_vec (val_main_v65 (F := Ideal) x13) (by decide) k)
    (fun k => Slices.row_of_vec (val_main_v74 (F := Ideal) x15) (by decide) k)

/-- The second round. Its closing stage is one round of the plain program from the first round's states, with layer 1 of every
    stack cut out whole: the same operations in the same order, the gather and scatter columns included. The network's
    blocks of layer 1 are bands of those cuts: both are read at an index down to one entry of the stacked argument array. -/
theorem layer1 : val_main_v149 (F := Ideal) x0 x1 x2 x3 x4 x6 x7 x8 x9 x10 x11 x12 x13 x14 x15
    = Net.layerStep (Net.wrapCol (Net.nodeIn x4)) (Net.wrapCol (Net.nodeOut x4)) (Net.plainCol (Net.nodeOut x4)) x1 x2 (ewCol x3)
        (Net.layerW1 x8 x9 x10 x11 x12 x13 x14 x15) (val_main_v78 (F := Ideal) x0 x1 x2 x3 x4 x6 x7 x8 x9 x10 x11 x12 x13 x14 x15) := by
  show refRound (val_main_v78 (F := Ideal) x0 x1 x2 x3 x4 x6 x7 x8 x9 x10 x11 x12 x13 x14 x15) x1 x2 x3 x4
      (val_main_v109 (F := Ideal) x8) (val_main_v112 (F := Ideal) x9) (Net.layerW1 x8 x9 x10 x11 x12 x13 x14 x15).W2 (val_main_v121 (F := Ideal) x11)
      (val_main_v133 (F := Ideal) x12) (val_main_v136 (F := Ideal) x13) (Net.layerW1 x8 x9 x10 x11 x12 x13 x14 x15).U2 (val_main_v145 (F := Ideal) x15) = _
  exact refRound_eq _ x1 x2 x3 x4 (val_main_v109 (F := Ideal) x8) (val_main_v112 (F := Ideal) x9) (val_main_v121 (F := Ideal) x11)
    (val_main_v133 (F := Ideal) x12) (val_main_v136 (F := Ideal) x13) (val_main_v145 (F := Ideal) x15) (Net.layerW1 x8 x9 x10 x11 x12 x13 x14 x15)
    (fun q k => (Slices.slice3_mat0 x8 1 (by decide) (by decide) (by decide) q k).trans
      (Slices.slice3_full x8 1 (by decide) (by decide) ⟨q.val, by omega⟩ k).symm)
    (fun q k => (Slices.slice3_mat x8 1 256 (by decide) (by decide) (by decide) q k).trans
      (Slices.slice3_full x8 1 (by decide) (by decide) ⟨256 + q.val, by omega⟩ k).symm)
    (fun k => (Slices.slice3_row x8 1 512 (by decide) (by decide) (by decide) k).trans
      (Slices.slice3_full x8 1 (by decide) (by decide) ⟨512, by decide⟩ k).symm)
    (fun k => (Slices.slice3_row x8 1 513 (by decide) (by decide) (by decide) k).trans
      (Slices.slice3_full x8 1 (by decide) (by decide) ⟨513, by decide⟩ k).symm)
    (fun q k => (Slices.slice3_mat x8 1 514 (by decide) (by decide) (by decide) q k).trans
      (Slices.slice3_full x8 1 (by decide) (by decide) ⟨514 + q.val, by omega⟩ k).symm)
    (fun k => Slices.row_of_vec (val_main_v112 (F := Ideal) x9) (by decide) k)
    (fun k => Slices.row_of_vec (val_main_v121 (F := Ideal) x11) (by decide) k)
    (fun q k => (Slices.slice3_mat0 x12 1 (by decide) (by decide) (by decide) q k).trans
      (Slices.slice3_full x12 1 (by decide) (by decide) ⟨q.val, by omega⟩ k).symm)
    (fun q k => (Slices.slice3_mat x12 1 256 (by decide) (by decide) (by decide) q k).trans
      (Slices.slice3_full x12 1 (by decide) (by decide) ⟨256 + q.val, by omega⟩ k).symm)
    (fun k => Slices.row_of_vec (val_main_v136 (F := Ideal) x13) (by decide) k)
    (fun k => Slices.row_of_vec (val_main_v145 (F := Ideal) x15) (by decide) k)

/-- The third round. Its closing stage is one round of the plain program from the second round's states, with layer 2 of every
    stack cut out whole: the same operations in the same order, the gather and scatter columns included. The network's
    blocks of layer 2 are bands of those cuts: both are read at an index down to one entry of the stacked argument array. -/
theorem layer2 : val_main_v220 (F := Ideal) x0 x1 x2 x3 x4 x6 x7 x8 x9 x10 x11 x12 x13 x14 x15
    = Net.layerStep (Net.wrapCol (Net.nodeIn x4)) (Net.wrapCol (Net.nodeOut x4)) (Net.plainCol (Net.nodeOut x4)) x1 x2 (ewCol x3)
        (Net.layerW2 x8 x9 x10 x11 x12 x13 x14 x15) (val_main_v149 (F := Ideal) x0 x1 x2 x3 x4 x6 x7 x8 x9 x10 x11 x12 x13 x14 x15) := by
  show refRound (val_main_v149 (F := Ideal) x0 x1 x2 x3 x4 x6 x7 x8 x9 x10 x11 x12 x13 x14 x15) x1 x2 x3 x4
      (val_main_v180 (F := Ideal) x8) (val_main_v183 (F := Ideal) x9) (Net.layerW2 x8 x9 x10 x11 x12 x13 x14 x15).W2 (val_main_v192 (F := Ideal) x11)
      (val_main_v204 (F := Ideal) x12) (val_main_v207 (F := Ideal) x13) (Net.layerW2 x8 x9 x10 x11 x12 x13 x14 x15).U2 (val_main_v216 (F := Ideal) x15) = _
  exact refRound_eq _ x1 x2 x3 x4 (val_main_v180 (F := Ideal) x8) (val_main_v183 (F := Ideal) x9) (val_main_v192 (F := Ideal) x11)
    (val_main_v204 (F := Ideal) x12) (val_main_v207 (F := Ideal) x13) (val_main_v216 (F := Ideal) x15) (Net.layerW2 x8 x9 x10 x11 x12 x13 x14 x15)
    (fun q k => (Slices.slice3_mat0 x8 2 (by decide) (by decide) (by decide) q k).trans
      (Slices.slice3_full x8 2 (by decide) (by decide) ⟨q.val, by omega⟩ k).symm)
    (fun q k => (Slices.slice3_mat x8 2 256 (by decide) (by decide) (by decide) q k).trans
      (Slices.slice3_full x8 2 (by decide) (by decide) ⟨256 + q.val, by omega⟩ k).symm)
    (fun k => (Slices.slice3_row x8 2 512 (by decide) (by decide) (by decide) k).trans
      (Slices.slice3_full x8 2 (by decide) (by decide) ⟨512, by decide⟩ k).symm)
    (fun k => (Slices.slice3_row x8 2 513 (by decide) (by decide) (by decide) k).trans
      (Slices.slice3_full x8 2 (by decide) (by decide) ⟨513, by decide⟩ k).symm)
    (fun q k => (Slices.slice3_mat x8 2 514 (by decide) (by decide) (by decide) q k).trans
      (Slices.slice3_full x8 2 (by decide) (by decide) ⟨514 + q.val, by omega⟩ k).symm)
    (fun k => Slices.row_of_vec (val_main_v183 (F := Ideal) x9) (by decide) k)
    (fun k => Slices.row_of_vec (val_main_v192 (F := Ideal) x11) (by decide) k)
    (fun q k => (Slices.slice3_mat0 x12 2 (by decide) (by decide) (by decide) q k).trans
      (Slices.slice3_full x12 2 (by decide) (by decide) ⟨q.val, by omega⟩ k).symm)
    (fun q k => (Slices.slice3_mat x12 2 256 (by decide) (by decide) (by decide) q k).trans
      (Slices.slice3_full x12 2 (by decide) (by decide) ⟨256 + q.val, by omega⟩ k).symm)
    (fun k => Slices.row_of_vec (val_main_v207 (F := Ideal) x13) (by decide) k)
    (fun k => Slices.row_of_vec (val_main_v216 (F := Ideal) x15) (by decide) k)

/-! ## The readout and the whole -/

/-- The last stage, the node states of round 2 summed per graph, is the network. -/
theorem net_eq : val_main_v223 (F := Ideal) x0 x1 x2 x3 x4 x5 x6 x7 x8 x9 x10 x11 x12 x13 x14 x15
    = Net.KT x0 x1 x2 x3 x4 x5 x6 x7 x8 x9 x10 x11 x12 x13 x14 x15 := by
  unfold val_main_v223 val_main_v222 val_main_v221 val_main_cst_25 Net.KT
  rw [layer2, layer1, layer0, proj]
  exact RefAlg.pool_eq _ x5 _ (fun n => Slices.col_of_vec x5 _ n)

/-- On every device and from any memory, the plain program's last stage at the sixteen argument buffers is the network of them. -/
theorem ref_value (m : (ℓ : Loc nD τ sig) → Buf (Elt Ideal) ℓ) (c : Dev nD) :
    val_main_v223 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11))
        (m ((c.tc : Thread nD τ).loc main_arg12)) (m ((c.tc : Thread nD τ).loc main_arg13))
        (m ((c.tc : Thread nD τ).loc main_arg14)) (m ((c.tc : Thread nD τ).loc main_arg15))
      = Cert.Net.KT (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15)) :=
  net_eq _ _ _ _ _ _ _ _ _ _ _ _ _ _ _ _

end Cert.RefVal

end
-- ==== Proof.lean ====
/-
  The certificate of the graph network: a tiled program of eight launches — an input projection, three rounds of a
  per-edge message MLP and a per-node combine MLP around gathers and segment sums done between launches, and a per-graph
  readout accumulated over node blocks — against the plain program that computes the same layers with whole-array
  products.

  Frames. The word-level program and its idealization run to the end, fault nowhere and leave their sixteen arguments
  unchanged: each launch is a pipeline whose body loads whole blocks and stores one (the readout carries its
  accumulator in a scratch buffer from block to block and writes the result after the last one); between launches
  only freshly named buffers are written. The plain program is a straight line of host operations.

  Idealization. The ideal pass rewrote nothing: the idealized program is the printed text read over the extended reals.

  Equality over the extended reals. Both programs end with the network term `Net.KT` of the arguments: on the tiled
  side each launch's output array is its layer's function of the arrays it is handed (a row block of the output
  depends on the same row block of the inputs, so the blocks tile the whole-array function; the readout's block sums
  add up to the sum over all nodes, a one-hot factor being 0 or 1); on the plain side a product with a concatenated
  operand splits into the sum of the products with its parts, a finite sum regrouped in a commutative monoid. The
  gathers and the sums into nodes are the same host operations on both sides, applied to equal arrays. No step needs
  the inputs to be finite.
-/
import proofs.«421803_j42709154791890_2_alg».proof.Defs
import proofs.«421803_j42709154791890_2_alg».proof.Proof.Gen.Kernel
import proofs.«421803_j42709154791890_2_alg».proof.Proof.Gen.KernelIdeal
import proofs.«421803_j42709154791890_2_alg».proof.Proof.Gen.ReferenceIdeal
import proofs.«421803_j42709154791890_2_alg».proof.Proof.Gen.Pre_finite_inputs
import proofs.«421803_j42709154791890_2_alg».proof.Proof.K.Run
import proofs.«421803_j42709154791890_2_alg».proof.Proof.KI.Run
import proofs.«421803_j42709154791890_2_alg».proof.Proof.KI.KVal
import proofs.«421803_j42709154791890_2_alg».proof.Proof.RefRun
import proofs.«421803_j42709154791890_2_alg».proof.Proof.RefVal
import Idealize.ShloMosaic.Adequacy
import Idealize.ShloMosaic.Init

noncomputable section

namespace Cert.Proof

open Idealize.ShloMosaic Idealize.SL.Sem

/-- The word-level program runs and keeps its arguments: its whole run, the result's equation dropped. -/
theorem frame_k : Cert.frame_Kernel := fun m ρ _ =>
  (θ_run Cert.Kernel.defs _ _).mono (fun _ h c => (h c).2) (Cert.Proof.K.run_main (F := Bits) m ρ)

/-- The idealized program runs and keeps its arguments. -/
theorem frame_ki : Cert.frame_KernelIdeal := fun m ρ _ =>
  (θ_run Cert.KernelIdeal.defs _ _).mono (fun _ h c => (h c).2) (Cert.Proof.KI.run_main (F := Ideal) m ρ)

/-- The plain program runs and keeps its arguments: its run with the result dropped. -/
theorem frame_ri : Cert.frame_ReferenceIdeal := fun m ρ _ =>
  (θ_run Cert.ReferenceIdeal.defs _ _).mono (fun _ h c => (h c).2) (Cert.RefChunks.ref_run m ρ)

/-- The ideal pass rewrote nothing. -/
theorem preserves : Cert.preserves_Kernel_KernelIdeal := trivial

/-- From memories agreeing on the arguments both idealized programs end with the network term of those arguments. -/
theorem algebraic : Cert.algebraic_KernelIdeal_ReferenceIdeal := by
  intro m ρ m' ρ' _ hagree
  refine ⟨fun c => Cert.Proof.KI.o7 (F := Ideal) m c, Cert.Proof.KI.run_main (F := Ideal) m ρ, ?_⟩
  refine (θ_run Cert.ReferenceIdeal.defs _ _).mono (fun _ h c => ⟨(h c).1.trans ?_, (h c).2⟩)
    (Cert.RefChunks.ref_run m' ρ')
  obtain ⟨h0, h1, h2, h3, h4, h5, h6, h7, h8, h9, h10, h11, h12, h13, h14, h15⟩ := hagree c
  show Cert.ReferenceIdeal.ReadP.val_main_v223 (F := Ideal) _ _ _ _ _ _ _ _ _ _ _ _ _ _ _ _ = Cert.Proof.KI.o7 (F := Ideal) m c
  rw [Cert.RefVal.ref_value m' c, Cert.Proof.KI.kernel_value m c, h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
